-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S3x128x128 : Shape := ⟨3, ![3, 128, 128]⟩
abbrev S128x257 : Shape := ⟨2, ![128, 257]⟩
abbrev S128x128 : Shape := ⟨2, ![128, 128]⟩
abbrev S128x256 : Shape := ⟨2, ![128, 256]⟩
abbrev S128 : Shape := ⟨1, ![128]⟩
abbrev S10x128 : Shape := ⟨2, ![10, 128]⟩
abbrev S10 : Shape := ⟨1, ![10]⟩
abbrev S258048x1 : Shape := ⟨2, ![258048, 1]⟩
abbrev S2x61594 : Shape := ⟨2, ![2, 61594]⟩
abbrev S8192 : Shape := ⟨1, ![8192]⟩
abbrev S258048 : Shape := ⟨1, ![258048]⟩
abbrev S2x454772 : Shape := ⟨2, ![2, 454772]⟩
abbrev S_ : Shape := ⟨0, ![]⟩
abbrev S1x61594 : Shape := ⟨2, ![1, 61594]⟩
abbrev S61594 : Shape := ⟨1, ![61594]⟩
abbrev S1x454772 : Shape := ⟨2, ![1, 454772]⟩
abbrev S454772 : Shape := ⟨1, ![454772]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128x257 : S_.BroadcastsInDim S128x257 (![] : Fin 0 → Fin S128x257.rank)
  reducesTo_S128x257_S_d0_1 : S128x257.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S258048x1 : S_.BroadcastsInDim S258048x1 (![] : Fin 0 → Fin S258048x1.rank)
  reducesTo_S258048x1_S_d0_1 : S258048x1.ReducesTo [0, 1] S_
  slices_S2x61594_S1x61594_0_0 : S2x61594.Slices ![0, 0] S1x61594
  shapeCasts_S1x61594_S61594 : S1x61594.ShapeCasts S61594
  bcast_S_S61594 : S_.BroadcastsInDim S61594 (![] : Fin 0 → Fin S61594.rank)
  reducesTo_S61594_S_d0 : S61594.ReducesTo [0] S_
  bcast_S_S258048 : S_.BroadcastsInDim S258048 (![] : Fin 0 → Fin S258048.rank)
  reducesTo_S258048_S_d0 : S258048.ReducesTo [0] S_
  slices_S2x454772_S1x454772_0_0 : S2x454772.Slices ![0, 0] S1x454772
  shapeCasts_S1x454772_S454772 : S1x454772.ShapeCasts S454772
  bcast_S_S454772 : S_.BroadcastsInDim S454772 (![] : Fin 0 → Fin S454772.rank)
  reducesTo_S454772_S_d0 : S454772.ReducesTo [0] S_

variable [Facts]

def fn_part5 {F : FTy → Type} [FloatOps F] (main_v81 : IVec S_ 1) (main_v83 : IVec S454772 32) (main_v85 : IVec S454772 1) : IVec S_ 1 :=
  let main_c_32 : IVec S_ 32 := constantI S_ 32 258048#32
  let main_v86 : IVec S454772 32 := broadcastInDim S454772 ![] bcast_S_S454772 main_c_32
  let main_v87 : IVec S454772 1 := cmpi .slt main_v83 main_v86
  let main_v88 : IVec S454772 1 := andi main_v85 main_v87
  let main_c_33 : IVec S_ 1 := constantI S_ 1 1#1
  let main_v89 : IVec S_ 1 := (fun x v => Host.reduce IntOp.andi x v reducesTo_S454772_S_d0 h_S_) main_v88 main_c_33
  let main_v90 : IVec S_ 1 := andi main_v81 main_v89
  main_v90

def fn_part4 {F : FTy → Type} [FloatOps F] (main_arg14 : IVec S258048 32) (main_arg15 : IVec S258048 32) (main_arg17 : IVec S2x454772 32) (main_v67 : IVec S_ 1) (main_c_25 : IVec S_ 32) : IVec S_ 1 :=
  let main_v68 : IVec S258048 32 := broadcastInDim S258048 ![] bcast_S_S258048 main_c_25
  let main_v69 : IVec S258048 1 := cmpi .sge main_arg14 main_v68
  let main_c_26 : IVec S_ 32 := constantI S_ 32 8192#32
  let main_v70 : IVec S258048 32 := broadcastInDim S258048 ![] bcast_S_S258048 main_c_26
  let main_v71 : IVec S258048 1 := cmpi .slt main_arg14 main_v70
  let main_v72 : IVec S258048 1 := andi main_v69 main_v71
  let main_c_27 : IVec S_ 1 := constantI S_ 1 1#1
  let main_v73 : IVec S_ 1 := (fun x v => Host.reduce IntOp.andi x v reducesTo_S258048_S_d0 h_S_) main_v72 main_c_27
  let main_v74 : IVec S_ 1 := andi main_v67 main_v73
  let main_c_28 : IVec S_ 32 := constantI S_ 32 4294959104#32
  let main_v75 : IVec S258048 32 := broadcastInDim S258048 ![] bcast_S_S258048 main_c_28
  let main_v76 : IVec S258048 1 := cmpi .sge main_arg15 main_v75
  let main_c_29 : IVec S_ 32 := constantI S_ 32 8192#32
  let main_v77 : IVec S258048 32 := broadcastInDim S258048 ![] bcast_S_S258048 main_c_29
  let main_v78 : IVec S258048 1 := cmpi .slt main_arg15 main_v77
  let main_v79 : IVec S258048 1 := andi main_v76 main_v78
  let main_c_30 : IVec S_ 1 := constantI S_ 1 1#1
  let main_v80 : IVec S_ 1 := (fun x v => Host.reduce IntOp.andi x v reducesTo_S258048_S_d0 h_S_) main_v79 main_c_30
  let main_v81 : IVec S_ 1 := andi main_v74 main_v80
  let main_v82 : IVec S1x454772 32 := (extractStridedSlice S1x454772 ![0, 0] · slices_S2x454772_S1x454772_0_0) main_arg17
  let main_v83 : IVec S454772 32 := shapeCast S454772 main_v82 shapeCasts_S1x454772_S454772
  let main_c_31 : IVec S_ 32 := constantI S_ 32 4294709248#32
  let main_v84 : IVec S454772 32 := broadcastInDim S454772 ![] bcast_S_S454772 main_c_31
  let main_v85 : IVec S454772 1 := cmpi .sge main_v83 main_v84
  fn_part5 (F := F) main_v81 main_v83 main_v85

def fn_part3 {F : FTy → Type} [FloatOps F] (main_arg11 : FVec F S258048x1 .f32) (main_arg12 : IVec S2x61594 32) (main_arg14 : IVec S258048 32) (main_arg15 : IVec S258048 32) (main_arg17 : IVec S2x454772 32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S258048x1 .f32 := Host.absf main_arg11
  let main_cst_20 : FVec F S_ .f32 := constant S_ .f32 0x7F800000#32
  let main_v55 : FVec F S258048x1 .f32 := broadcastInDim S258048x1 ![] bcast_S_S258048x1 main_cst_20
  let main_v56 : IVec S258048x1 1 := cmpf .olt main_v54 main_v55
  let main_c_21 : IVec S_ 1 := constantI S_ 1 1#1
  let main_v57 : IVec S_ 1 := (fun x v => Host.reduce IntOp.andi x v reducesTo_S258048x1_S_d0_1 h_S_) main_v56 main_c_21
  let main_v58 : IVec S_ 1 := andi main_v53 main_v57
  let main_v59 : IVec S1x61594 32 := (extractStridedSlice S1x61594 ![0, 0] · slices_S2x61594_S1x61594_0_0) main_arg12
  let main_v60 : IVec S61594 32 := shapeCast S61594 main_v59 shapeCasts_S1x61594_S61594
  let main_c_22 : IVec S_ 32 := constantI S_ 32 4294959104#32
  let main_v61 : IVec S61594 32 := broadcastInDim S61594 ![] bcast_S_S61594 main_c_22
  let main_v62 : IVec S61594 1 := cmpi .sge main_v60 main_v61
  let main_c_23 : IVec S_ 32 := constantI S_ 32 8192#32
  let main_v63 : IVec S61594 32 := broadcastInDim S61594 ![] bcast_S_S61594 main_c_23
  let main_v64 : IVec S61594 1 := cmpi .slt main_v60 main_v63
  let main_v65 : IVec S61594 1 := andi main_v62 main_v64
  let main_c_24 : IVec S_ 1 := constantI S_ 1 1#1
  let main_v66 : IVec S_ 1 := (fun x v => Host.reduce IntOp.andi x v reducesTo_S61594_S_d0 h_S_) main_v65 main_c_24
  let main_v67 : IVec S_ 1 := andi main_v58 main_v66
  let main_c_25 : IVec S_ 32 := constantI S_ 32 4294959104#32
  fn_part4 (F := F) main_arg14 main_arg15 main_arg17 main_v67 main_c_25

def fn_part2 {F : FTy → Type} [FloatOps F] (main_arg7 : FVec F S128x256 .f32) (main_arg8 : FVec F S128 .f32) (main_arg9 : FVec F S10x128 .f32) (main_arg10 : FVec F S10 .f32) (main_arg11 : FVec F S258048x1 .f32) (main_arg12 : IVec S2x61594 32) (main_arg14 : IVec S258048 32) (main_arg15 : IVec S258048 32) (main_arg17 : IVec S2x454772 32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg9
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg14 main_arg15 main_arg17 main_v48 main_v49 main_v50

def fn_part1 {F : FTy → Type} [FloatOps F] (main_arg4 : FVec F S128x257 .f32) (main_arg5 : FVec F S128x128 .f32) (main_arg6 : FVec F S128x128 .f32) (main_arg7 : FVec F S128x256 .f32) (main_arg8 : FVec F S128 .f32) (main_arg9 : FVec F S10x128 .f32) (main_arg10 : FVec F S10 .f32) (main_arg11 : FVec F S258048x1 .f32) (main_arg12 : IVec S2x61594 32) (main_arg14 : IVec S258048 32) (main_arg15 : IVec S258048 32) (main_arg17 : IVec S2x454772 32) (main_v13 : IVec S_ 1) (main_v16 : IVec S128x257 1) : IVec S_ 1 :=
  let main_c_5 : IVec S_ 1 := constantI S_ 1 1#1
  let main_v17 : IVec S_ 1 := (fun x v => Host.reduce IntOp.andi x v reducesTo_S128x257_S_d0_1 h_S_) main_v16 main_c_5
  let main_v18 : IVec S_ 1 := andi main_v13 main_v17
  let main_v19 : FVec F S128x257 .f32 := Host.absf main_arg4
  let main_cst_6 : FVec F S_ .f32 := constant S_ .f32 0x7F800000#32
  let main_v20 : FVec F S128x257 .f32 := broadcastInDim S128x257 ![] bcast_S_S128x257 main_cst_6
  let main_v21 : IVec S128x257 1 := cmpf .olt main_v19 main_v20
  let main_c_7 : IVec S_ 1 := constantI S_ 1 1#1
  let main_v22 : IVec S_ 1 := (fun x v => Host.reduce IntOp.andi x v reducesTo_S128x257_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg14 main_arg15 main_arg17 main_v33

def fn {F : FTy → Type} [FloatOps F] (main_arg0 : FVec F S8192x128 .f32) (main_arg1 : FVec F S3x128x128 .f32) (main_arg2 : FVec F S3x128x128 .f32) (main_arg3 : FVec F S128x257 .f32) (main_arg4 : FVec F S128x257 .f32) (main_arg5 : FVec F S128x128 .f32) (main_arg6 : FVec F S128x128 .f32) (main_arg7 : FVec F S128x256 .f32) (main_arg8 : FVec F S128 .f32) (main_arg9 : FVec F S10x128 .f32) (main_arg10 : FVec F S10 .f32) (main_arg11 : FVec F S258048x1 .f32) (main_arg12 : IVec S2x61594 32) (main_arg13 : IVec S8192 32) (main_arg14 : IVec S258048 32) (main_arg15 : IVec S258048 32) (main_arg16 : IVec S258048 32) (main_arg17 : IVec S2x454772 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128x257 .f32 := Host.absf main_arg3
  let main_cst_4 : FVec F S_ .f32 := constant S_ .f32 0x7F800000#32
  let main_v15 : FVec F S128x257 .f32 := broadcastInDim S128x257 ![] bcast_S_S128x257 main_cst_4
  let main_v16 : IVec S128x257 1 := cmpf .olt main_v14 main_v15
  fn_part1 (F := F) main_arg4 main_arg5 main_arg6 main_arg7 main_arg8 main_arg9 main_arg10 main_arg11 main_arg12 main_arg14 main_arg15 main_arg17 main_v13 main_v16
-- ==== Kernel.lean ====
abbrev S8192x128 : Shape := ⟨2, ![8192, 128]⟩
abbrev S3x128x128 : Shape := ⟨3, ![3, 128, 128]⟩
abbrev S128x257 : Shape := ⟨2, ![128, 257]⟩
abbrev S128x128 : Shape := ⟨2, ![128, 128]⟩
abbrev S128x256 : Shape := ⟨2, ![128, 256]⟩
abbrev S128 : Shape := ⟨1, ![128]⟩
abbrev S10x128 : Shape := ⟨2, ![10, 128]⟩
abbrev S10 : Shape := ⟨1, ![10]⟩
abbrev S258048x1 : Shape := ⟨2, ![258048, 1]⟩
abbrev S2x61594 : Shape := ⟨2, ![2, 61594]⟩
abbrev S8192 : Shape := ⟨1, ![8192]⟩
abbrev S258048 : Shape := ⟨1, ![258048]⟩
abbrev S2x454772 : Shape := ⟨2, ![2, 454772]⟩
abbrev S1x61594 : Shape := ⟨2, ![1, 61594]⟩
abbrev S61594 : Shape := ⟨1, ![61594]⟩
abbrev S1x128x128 : Shape := ⟨3, ![1, 128, 128]⟩
abbrev S256x128 : Shape := ⟨2, ![256, 128]⟩
abbrev S8192x256 : Shape := ⟨2, ![8192, 256]⟩
abbrev S2048x128 : Shape := ⟨2, ![2048, 128]⟩
abbrev S2048x256 : Shape := ⟨2, ![2048, 256]⟩
abbrev S_ : Shape := ⟨0, ![]⟩
abbrev S61594x1 : Shape := ⟨2, ![61594, 1]⟩
abbrev S1 : Shape := ⟨1, ![1]⟩
abbrev S1x1 : Shape := ⟨2, ![1, 1]⟩
abbrev S61594x128 : Shape := ⟨2, ![61594, 128]⟩
abbrev S8192x1 : Shape := ⟨2, ![8192, 1]⟩
abbrev S2048x1 : Shape := ⟨2, ![2048, 1]⟩
abbrev S258048x128 : Shape := ⟨2, ![258048, 128]⟩
abbrev S258048x257 : Shape := ⟨2, ![258048, 257]⟩
abbrev S1x454772 : Shape := ⟨2, ![1, 454772]⟩
abbrev S454772 : Shape := ⟨1, ![454772]⟩
abbrev S256x257 : Shape := ⟨2, ![256, 257]⟩
abbrev S257x256 : Shape := ⟨2, ![257, 256]⟩
abbrev S258048x256 : Shape := ⟨2, ![258048, 256]⟩
abbrev S2048x257 : Shape := ⟨2, ![2048, 257]⟩
abbrev S454772x1 : Shape := ⟨2, ![454772, 1]⟩
abbrev S454772x128 : Shape := ⟨2, ![454772, 128]⟩
abbrev S1x128 : Shape := ⟨2, ![1, 128]⟩
abbrev S128x10 : Shape := ⟨2, ![128, 10]⟩
abbrev S1x10 : Shape := ⟨2, ![1, 10]⟩

abbrev nBuf : Space → Nat
  | .hbm => 303
  | .vmem => 67
  | .smem => 0
  | _ => 0

abbrev hbmTy0_0 (i : Nat) : BufTy := match i % 128 with
  | 0 => ⟨S8192x128, .f32⟩
  | 1 => ⟨S3x128x128, .f32⟩
  | 2 => ⟨S3x128x128, .f32⟩
  | 3 => ⟨S128x257, .f32⟩
  | 4 => ⟨S128x257, .f32⟩
  | 5 => ⟨S128x128, .f32⟩
  | 6 => ⟨S128x128, .f32⟩
  | 7 => ⟨S128x256, .f32⟩
  | 8 => ⟨S128, .f32⟩
  | 9 => ⟨S10x128, .f32⟩
  | 10 => ⟨S10, .f32⟩
  | 11 => ⟨S258048x1, .f32⟩
  | 12 => ⟨S2x61594, .i32⟩
  | 13 => ⟨S8192, .i32⟩
  | 14 => ⟨S258048, .i32⟩
  | 15 => ⟨S258048, .i32⟩
  | 16 => ⟨S258048, .i32⟩
  | 17 => ⟨S2x454772, .i32⟩
  | 18 => ⟨S1x61594, .i32⟩
  | 19 => ⟨S61594, .i32⟩
  | 20 => ⟨S1x61594, .i32⟩
  | 21 => ⟨S61594, .i32⟩
  | 22 => ⟨S1x128x128, .f32⟩
  | 23 => ⟨S128x128, .f32⟩
  | 24 => ⟨S1x128x128, .f32⟩
  | 25 => ⟨S128x128, .f32⟩
  | 26 => ⟨S256x128, .f32⟩
  | 27 => ⟨S128x256, .f32⟩
  | 28 => ⟨S8192x256, .f32⟩
  | 29 => ⟨S8192x128, .f32⟩
  | 30 => ⟨S8192x128, .f32⟩
  | 31 => ⟨S_, .i32⟩
  | 32 => ⟨S61594, .i32⟩
  | 33 => ⟨S61594, .i1⟩
  | 34 => ⟨S_, .i32⟩
  | 35 => ⟨S61594, .i32⟩
  | 36 => ⟨S61594, .i32⟩
  | 37 => ⟨S61594, .i32⟩
  | 38 => ⟨S61594x1, .i32⟩
  | 39 => ⟨S1, .i32⟩
  | 40 => ⟨S_, .i32⟩
  | 41 => ⟨S61594x1, .i32⟩
  | 42 => ⟨S61594x1, .i1⟩
  | 43 => ⟨S1x1, .i32⟩
  | 44 => ⟨S61594x1, .i32⟩
  | 45 => ⟨S61594x1, .i1⟩
  | 46 => ⟨S61594x1, .i1⟩
  | 47 => ⟨S_, .i1⟩
  | 48 => ⟨S61594, .i1⟩
  | 49 => ⟨S61594x128, .f32⟩
  | 50 => ⟨S61594x128, .i1⟩
  | 51 => ⟨S_, .f32⟩
  | 52 => ⟨S61594x128, .f32⟩
  | 53 => ⟨S61594x128, .f32⟩
  | 54 => ⟨S_, .f32⟩
  | 55 => ⟨S8192x128, .f32⟩
  | 56 => ⟨S_, .i32⟩
  | 57 => ⟨S61594, .i32⟩
  | 58 => ⟨S61594, .i1⟩
  | 59 => ⟨S_, .i32⟩
  | 60 => ⟨S61594, .i32⟩
  | 61 => ⟨S61594, .i32⟩
  | 62 => ⟨S61594, .i32⟩
  | 63 => ⟨S61594x1, .i32⟩
  | 64 => ⟨S8192x128, .f32⟩
  | 65 => ⟨S8192x128, .f32⟩
  | 66 => ⟨S1x128x128, .f32⟩
  | 67 => ⟨S128x128, .f32⟩
  | 68 => ⟨S1x128x128, .f32⟩
  | 69 => ⟨S128x128, .f32⟩
  | 70 => ⟨S256x128, .f32⟩
  | 71 => ⟨S128x256, .f32⟩
  | 72 => ⟨S8192x256, .f32⟩
  | 73 => ⟨S8192x128, .f32⟩
  | 74 => ⟨S8192x128, .f32⟩
  | 75 => ⟨S_, .i32⟩
  | 76 => ⟨S61594, .i32⟩
  | 77 => ⟨S61594, .i1⟩
  | 78 => ⟨S_, .i32⟩
  | 79 => ⟨S61594, .i32⟩
  | 80 => ⟨S61594, .i32⟩
  | 81 => ⟨S61594, .i32⟩
  | 82 => ⟨S61594x1, .i32⟩
  | 83 => ⟨S1, .i32⟩
  | 84 => ⟨S_, .i32⟩
  | 85 => ⟨S61594x1, .i32⟩
  | 86 => ⟨S61594x1, .i1⟩
  | 87 => ⟨S1x1, .i32⟩
  | 88 => ⟨S61594x1, .i32⟩
  | 89 => ⟨S61594x1, .i1⟩
  | 90 => ⟨S61594x1, .i1⟩
  | 91 => ⟨S_, .i1⟩
  | 92 => ⟨S61594, .i1⟩
  | 93 => ⟨S61594x128, .f32⟩
  | 94 => ⟨S61594x128, .i1⟩
  | 95 => ⟨S_, .f32⟩
  | 96 => ⟨S61594x128, .f32⟩
  | 97 => ⟨S61594x128, .f32⟩
  | 98 => ⟨S_, .f32⟩
  | 99 => ⟨S8192x128, .f32⟩
  | 100 => ⟨S_, .i32⟩
  | 101 => ⟨S61594, .i32⟩
  | 102 => ⟨S61594, .i1⟩
  | 103 => ⟨S_, .i32⟩
  | 104 => ⟨S61594, .i32⟩
  | 105 => ⟨S61594, .i32⟩
  | 106 => ⟨S61594, .i32⟩
  | 107 => ⟨S61594x1, .i32⟩
  | 108 => ⟨S8192x128, .f32⟩
  | 109 => ⟨S8192x128, .f32⟩
  | 110 => ⟨S1x128x128, .f32⟩
  | 111 => ⟨S128x128, .f32⟩
  | 112 => ⟨S1x128x128, .f32⟩
  | 113 => ⟨S128x128, .f32⟩
  | 114 => ⟨S256x128, .f32⟩
  | 115 => ⟨S128x256, .f32⟩
  | 116 => ⟨S8192x256, .f32⟩
  | 117 => ⟨S8192x128, .f32⟩
  | 118 => ⟨S8192x128, .f32⟩
  | 119 => ⟨S_, .i32⟩
  | 120 => ⟨S61594, .i32⟩
  | 121 => ⟨S61594, .i1⟩
  | 122 => ⟨S_, .i32⟩
  | 123 => ⟨S61594, .i32⟩
  | 124 => ⟨S61594, .i32⟩
  | 125 => ⟨S61594, .i32⟩
  | 126 => ⟨S61594x1, .i32⟩
  | 127 => ⟨S1, .i32⟩
  | _ => ⟨S8192x128, .f32⟩

abbrev hbmTy0_1 (i : Nat) : BufTy := match i % 128 with
  | 0 => ⟨S_, .i32⟩
  | 1 => ⟨S61594x1, .i32⟩
  | 2 => ⟨S61594x1, .i1⟩
  | 3 => ⟨S1x1, .i32⟩
  | 4 => ⟨S61594x1, .i32⟩
  | 5 => ⟨S61594x1, .i1⟩
  | 6 => ⟨S61594x1, .i1⟩
  | 7 => ⟨S_, .i1⟩
  | 8 => ⟨S61594, .i1⟩
  | 9 => ⟨S61594x128, .f32⟩
  | 10 => ⟨S61594x128, .i1⟩
  | 11 => ⟨S_, .f32⟩
  | 12 => ⟨S61594x128, .f32⟩
  | 13 => ⟨S61594x128, .f32⟩
  | 14 => ⟨S_, .f32⟩
  | 15 => ⟨S8192x128, .f32⟩
  | 16 => ⟨S_, .i32⟩
  | 17 => ⟨S61594, .i32⟩
  | 18 => ⟨S61594, .i1⟩
  | 19 => ⟨S_, .i32⟩
  | 20 => ⟨S61594, .i32⟩
  | 21 => ⟨S61594, .i32⟩
  | 22 => ⟨S61594, .i32⟩
  | 23 => ⟨S61594x1, .i32⟩
  | 24 => ⟨S8192x128, .f32⟩
  | 25 => ⟨S8192x128, .f32⟩
  | 26 => ⟨S8192x1, .i32⟩
  | 27 => ⟨S128x128, .f32⟩
  | 28 => ⟨S_, .i32⟩
  | 29 => ⟨S258048, .i32⟩
  | 30 => ⟨S258048, .i1⟩
  | 31 => ⟨S_, .i32⟩
  | 32 => ⟨S258048, .i32⟩
  | 33 => ⟨S258048, .i32⟩
  | 34 => ⟨S258048, .i32⟩
  | 35 => ⟨S258048x1, .i32⟩
  | 36 => ⟨S1, .i32⟩
  | 37 => ⟨S_, .i32⟩
  | 38 => ⟨S258048x1, .i32⟩
  | 39 => ⟨S258048x1, .i1⟩
  | 40 => ⟨S1x1, .i32⟩
  | 41 => ⟨S258048x1, .i32⟩
  | 42 => ⟨S258048x1, .i1⟩
  | 43 => ⟨S258048x1, .i1⟩
  | 44 => ⟨S_, .i1⟩
  | 45 => ⟨S258048, .i1⟩
  | 46 => ⟨S258048x128, .f32⟩
  | 47 => ⟨S258048x128, .i1⟩
  | 48 => ⟨S_, .f32⟩
  | 49 => ⟨S258048x128, .f32⟩
  | 50 => ⟨S258048x128, .f32⟩
  | 51 => ⟨S_, .i32⟩
  | 52 => ⟨S258048, .i32⟩
  | 53 => ⟨S258048, .i1⟩
  | 54 => ⟨S_, .i32⟩
  | 55 => ⟨S258048, .i32⟩
  | 56 => ⟨S258048, .i32⟩
  | 57 => ⟨S258048, .i32⟩
  | 58 => ⟨S258048x1, .i32⟩
  | 59 => ⟨S1, .i32⟩
  | 60 => ⟨S_, .i32⟩
  | 61 => ⟨S258048x1, .i32⟩
  | 62 => ⟨S258048x1, .i1⟩
  | 63 => ⟨S1x1, .i32⟩
  | 64 => ⟨S258048x1, .i32⟩
  | 65 => ⟨S258048x1, .i1⟩
  | 66 => ⟨S258048x1, .i1⟩
  | 67 => ⟨S_, .i1⟩
  | 68 => ⟨S258048, .i1⟩
  | 69 => ⟨S258048x128, .f32⟩
  | 70 => ⟨S258048x128, .i1⟩
  | 71 => ⟨S_, .f32⟩
  | 72 => ⟨S258048x128, .f32⟩
  | 73 => ⟨S258048x128, .f32⟩
  | 74 => ⟨S258048x257, .f32⟩
  | 75 => ⟨S1x454772, .i32⟩
  | 76 => ⟨S454772, .i32⟩
  | 77 => ⟨S1x454772, .i32⟩
  | 78 => ⟨S454772, .i32⟩
  | 79 => ⟨S256x257, .f32⟩
  | 80 => ⟨S257x256, .f32⟩
  | 81 => ⟨S258048x256, .f32⟩
  | 82 => ⟨S258048x128, .f32⟩
  | 83 => ⟨S258048x128, .f32⟩
  | 84 => ⟨S_, .i32⟩
  | 85 => ⟨S454772, .i32⟩
  | 86 => ⟨S454772, .i1⟩
  | 87 => ⟨S_, .i32⟩
  | 88 => ⟨S454772, .i32⟩
  | 89 => ⟨S454772, .i32⟩
  | 90 => ⟨S454772, .i32⟩
  | 91 => ⟨S454772x1, .i32⟩
  | 92 => ⟨S1, .i32⟩
  | 93 => ⟨S_, .i32⟩
  | 94 => ⟨S454772x1, .i32⟩
  | 95 => ⟨S454772x1, .i1⟩
  | 96 => ⟨S1x1, .i32⟩
  | 97 => ⟨S454772x1, .i32⟩
  | 98 => ⟨S454772x1, .i1⟩
  | 99 => ⟨S454772x1, .i1⟩
  | 100 => ⟨S_, .i1⟩
  | 101 => ⟨S454772, .i1⟩
  | 102 => ⟨S454772x128, .f32⟩
  | 103 => ⟨S454772x128, .i1⟩
  | 104 => ⟨S_, .f32⟩
  | 105 => ⟨S454772x128, .f32⟩
  | 106 => ⟨S454772x128, .f32⟩
  | 107 => ⟨S_, .f32⟩
  | 108 => ⟨S258048x128, .f32⟩
  | 109 => ⟨S_, .i32⟩
  | 110 => ⟨S454772, .i32⟩
  | 111 => ⟨S454772, .i1⟩
  | 112 => ⟨S_, .i32⟩
  | 113 => ⟨S454772, .i32⟩
  | 114 => ⟨S454772, .i32⟩
  | 115 => ⟨S454772, .i32⟩
  | 116 => ⟨S454772x1, .i32⟩
  | 117 => ⟨S258048x128, .f32⟩
  | 118 => ⟨S258048x128, .f32⟩
  | 119 => ⟨S256x128, .f32⟩
  | 120 => ⟨S128x256, .f32⟩
  | 121 => ⟨S258048x256, .f32⟩
  | 122 => ⟨S258048x128, .f32⟩
  | 123 => ⟨S258048x128, .f32⟩
  | 124 => ⟨S_, .i32⟩
  | 125 => ⟨S454772, .i32⟩
  | 126 => ⟨S454772, .i1⟩
  | 127 => ⟨S_, .i32⟩
  | _ => ⟨S8192x128, .f32⟩

abbrev hbmTy0_2 (i : Nat) : BufTy := match i % 128 with
  | 0 => ⟨S454772, .i32⟩
  | 1 => ⟨S454772, .i32⟩
  | 2 => ⟨S454772, .i32⟩
  | 3 => ⟨S454772x1, .i32⟩
  | 4 => ⟨S1, .i32⟩
  | 5 => ⟨S_, .i32⟩
  | 6 => ⟨S454772x1, .i32⟩
  | 7 => ⟨S454772x1, .i1⟩
  | 8 => ⟨S1x1, .i32⟩
  | 9 => ⟨S454772x1, .i32⟩
  | 10 => ⟨S454772x1, .i1⟩
  | 11 => ⟨S454772x1, .i1⟩
  | 12 => ⟨S_, .i1⟩
  | 13 => ⟨S454772, .i1⟩
  | 14 => ⟨S454772x128, .f32⟩
  | 15 => ⟨S454772x128, .i1⟩
  | 16 => ⟨S_, .f32⟩
  | 17 => ⟨S454772x128, .f32⟩
  | 18 => ⟨S454772x128, .f32⟩
  | 19 => ⟨S_, .f32⟩
  | 20 => ⟨S258048x128, .f32⟩
  | 21 => ⟨S_, .i32⟩
  | 22 => ⟨S454772, .i32⟩
  | 23 => ⟨S454772, .i1⟩
  | 24 => ⟨S_, .i32⟩
  | 25 => ⟨S454772, .i32⟩
  | 26 => ⟨S454772, .i32⟩
  | 27 => ⟨S454772, .i32⟩
  | 28 => ⟨S454772x1, .i32⟩
  | 29 => ⟨S258048x128, .f32⟩
  | 30 => ⟨S258048x128, .f32⟩
  | 31 => ⟨S258048x1, .i32⟩
  | 32 => ⟨S128x128, .f32⟩
  | 33 => ⟨S128x256, .f32⟩
  | 34 => ⟨S256x128, .f32⟩
  | 35 => ⟨S128x128, .f32⟩
  | 36 => ⟨S1x128, .f32⟩
  | 37 => ⟨S128x128, .f32⟩
  | 38 => ⟨S128x128, .f32⟩
  | 39 => ⟨S_, .f32⟩
  | 40 => ⟨S128x128, .f32⟩
  | 41 => ⟨S128x128, .f32⟩
  | 42 => ⟨S128x10, .f32⟩
  | 43 => ⟨S128x10, .f32⟩
  | 44 => ⟨S1x10, .f32⟩
  | 45 => ⟨S128x10, .f32⟩
  | 46 => ⟨S128x10, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S2048x256, .f32⟩
  | .local _ .vmem, ⟨4, _⟩ => ⟨S2048x256, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x256, .f32⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S128x256, .f32⟩
  | .local _ .vmem, ⟨25, _⟩ => ⟨S2048x256, .f32⟩
  | .local _ .vmem, ⟨26, _⟩ => ⟨S2048x256, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x1, .i32⟩
  | .local _ .vmem, ⟨36, _⟩ => ⟨S2048x1, .i32⟩
  | .local _ .vmem, ⟨37, _⟩ => ⟨S128x128, .f32⟩
  | .local _ .vmem, ⟨38, _⟩ => ⟨S128x128, .f32⟩
  | .local _ .vmem, ⟨39, _⟩ => ⟨S2048x257, .f32⟩
  | .local _ .vmem, ⟨40, _⟩ => ⟨S2048x257, .f32⟩
  | .local _ .vmem, ⟨41, _⟩ => ⟨S257x256, .f32⟩
  | .local _ .vmem, ⟨42, _⟩ => ⟨S2048x256, .f32⟩
  | .local _ .vmem, ⟨43, _⟩ => ⟨S2048x256, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048x128, .f32⟩
  | .local _ .vmem, ⟨52, _⟩ => ⟨S128x256, .f32⟩
  | .local _ .vmem, ⟨53, _⟩ => ⟨S2048x256, .f32⟩
  | .local _ .vmem, ⟨54, _⟩ => ⟨S2048x256, .f32⟩
  | .local _ .vmem, ⟨55, _⟩ => ⟨S2048x128, .f32⟩
  | .local _ .vmem, ⟨56, _⟩ => ⟨S2048x128, .f32⟩
  | .local _ .vmem, ⟨57, _⟩ => ⟨S2048x128, .f32⟩
  | .local _ .vmem, ⟨58, _⟩ => ⟨S2048x128, .f32⟩
  | .local _ .vmem, ⟨59, _⟩ => ⟨S2048x128, .f32⟩
  | .local _ .vmem, ⟨60, _⟩ => ⟨S2048x128, .f32⟩
  | .local _ .vmem, ⟨61, _⟩ => ⟨S2048x128, .f32⟩
  | .local _ .vmem, ⟨62, _⟩ => ⟨S2048x128, .f32⟩
  | .local _ .vmem, ⟨63, _⟩ => ⟨S2048x1, .i32⟩
  | .local _ .vmem, ⟨64, _⟩ => ⟨S2048x1, .i32⟩
  | .local _ .vmem, ⟨65, _⟩ => ⟨S128x128, .f32⟩
  | .local _ .vmem, ⟨66, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_c : Ref sig .tc := ⟨.hbm, 56, rfl⟩
abbrev main_v15 : Ref sig .tc := ⟨.hbm, 57, rfl⟩
abbrev main_v16 : Ref sig .tc := ⟨.hbm, 58, rfl⟩
abbrev main_c_0 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v32 : Ref sig .tc := ⟨.hbm, 97, rfl⟩
abbrev main_cst_1 : Ref sig .tc := ⟨.hbm, 98, rfl⟩
abbrev main_v33 : Ref sig .tc := ⟨.hbm, 99, rfl⟩
abbrev main_c_2 : Ref sig .tc := ⟨.hbm, 100, rfl⟩
abbrev main_v34 : Ref sig .tc := ⟨.hbm, 101, rfl⟩
abbrev main_v35 : Ref sig .tc := ⟨.hbm, 102, rfl⟩
abbrev main_c_3 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_call2_c : Ref sig .tc := ⟨.hbm, 119, rfl⟩
abbrev main_call2_v0 : Ref sig .tc := ⟨.hbm, 120, rfl⟩
abbrev main_call2_v1 : Ref sig .tc := ⟨.hbm, 121, rfl⟩
abbrev main_call2_c_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_c_1 : Ref sig .tc := ⟨.hbm, 127, rfl⟩
abbrev main_call2_c_2 : Ref sig .tc := ⟨.hbm, 128, rfl⟩
abbrev main_call2_v6 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_3 : Ref sig .tc := ⟨.hbm, 135, rfl⟩
abbrev main_call2_v12 : Ref sig .tc := ⟨.hbm, 136, rfl⟩
abbrev main_call2_v13 : Ref sig .tc := ⟨.hbm, 137, rfl⟩
abbrev main_call2_v14 : Ref sig .tc := ⟨.hbm, 138, rfl⟩
abbrev main_call2_cst : Ref sig .tc := ⟨.hbm, 139, rfl⟩
abbrev main_call2_v15 : Ref sig .tc := ⟨.hbm, 140, rfl⟩
abbrev main_v51 : Ref sig .tc := ⟨.hbm, 141, rfl⟩
abbrev main_cst_4 : Ref sig .tc := ⟨.hbm, 142, rfl⟩
abbrev main_v52 : Ref sig .tc := ⟨.hbm, 143, rfl⟩
abbrev main_c_5 : Ref sig .tc := ⟨.hbm, 144, rfl⟩
abbrev main_v53 : Ref sig .tc := ⟨.hbm, 145, rfl⟩
abbrev main_v54 : Ref sig .tc := ⟨.hbm, 146, rfl⟩
abbrev main_c_6 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_call3_c : Ref sig .tc := ⟨.hbm, 156, rfl⟩
abbrev main_call3_v0 : Ref sig .tc := ⟨.hbm, 157, rfl⟩
abbrev main_call3_v1 : Ref sig .tc := ⟨.hbm, 158, rfl⟩
abbrev main_call3_c_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_c_1 : Ref sig .tc := ⟨.hbm, 164, rfl⟩
abbrev main_call3_c_2 : Ref sig .tc := ⟨.hbm, 165, rfl⟩
abbrev main_call3_v6 : Ref sig .tc := ⟨.hbm, 166, rfl⟩
abbrev main_call3_v7 : Ref sig .tc := ⟨.hbm, 167, rfl⟩
abbrev main_call3_v8 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_c_3 : Ref sig .tc := ⟨.hbm, 172, rfl⟩
abbrev main_call3_v12 : Ref sig .tc := ⟨.hbm, 173, rfl⟩
abbrev main_call3_v13 : Ref sig .tc := ⟨.hbm, 174, rfl⟩
abbrev main_call3_v14 : Ref sig .tc := ⟨.hbm, 175, rfl⟩
abbrev main_call3_cst : Ref sig .tc := ⟨.hbm, 176, rfl⟩
abbrev main_call3_v15 : Ref sig .tc := ⟨.hbm, 177, rfl⟩
abbrev main_v63 : Ref sig .tc := ⟨.hbm, 178, rfl⟩
abbrev main_call4_c : Ref sig .tc := ⟨.hbm, 179, rfl⟩
abbrev main_call4_v0 : Ref sig .tc := ⟨.hbm, 180, rfl⟩
abbrev main_call4_v1 : Ref sig .tc := ⟨.hbm, 181, rfl⟩
abbrev main_call4_c_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_c_1 : Ref sig .tc := ⟨.hbm, 187, rfl⟩
abbrev main_call4_c_2 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_c_3 : Ref sig .tc := ⟨.hbm, 195, rfl⟩
abbrev main_call4_v12 : Ref sig .tc := ⟨.hbm, 196, rfl⟩
abbrev main_call4_v13 : Ref sig .tc := ⟨.hbm, 197, rfl⟩
abbrev main_call4_v14 : Ref sig .tc := ⟨.hbm, 198, rfl⟩
abbrev main_call4_cst : Ref sig .tc := ⟨.hbm, 199, rfl⟩
abbrev main_call4_v15 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_v67 : Ref sig .tc := ⟨.hbm, 204, rfl⟩
abbrev main_v68 : Ref sig .tc := ⟨.hbm, 205, rfl⟩
abbrev main_v69 : Ref sig .tc := ⟨.hbm, 206, rfl⟩
abbrev main_v70 : Ref sig .tc := ⟨.hbm, 207, rfl⟩
abbrev main_v71 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_call5_c : Ref sig .tc := ⟨.hbm, 212, rfl⟩
abbrev main_call5_v0 : Ref sig .tc := ⟨.hbm, 213, rfl⟩
abbrev main_call5_v1 : Ref sig .tc := ⟨.hbm, 214, rfl⟩
abbrev main_call5_c_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_c_1 : Ref sig .tc := ⟨.hbm, 220, rfl⟩
abbrev main_call5_c_2 : Ref sig .tc := ⟨.hbm, 221, rfl⟩
abbrev main_call5_v6 : Ref sig .tc := ⟨.hbm, 222, rfl⟩
abbrev main_call5_v7 : Ref sig .tc := ⟨.hbm, 223, rfl⟩
abbrev main_call5_v8 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_c_3 : Ref sig .tc := ⟨.hbm, 228, rfl⟩
abbrev main_call5_v12 : Ref sig .tc := ⟨.hbm, 229, rfl⟩
abbrev main_call5_v13 : Ref sig .tc := ⟨.hbm, 230, rfl⟩
abbrev main_call5_v14 : Ref sig .tc := ⟨.hbm, 231, rfl⟩
abbrev main_call5_cst : Ref sig .tc := ⟨.hbm, 232, rfl⟩
abbrev main_call5_v15 : Ref sig .tc := ⟨.hbm, 233, rfl⟩
abbrev main_v75 : Ref sig .tc := ⟨.hbm, 234, rfl⟩
abbrev main_cst_7 : Ref sig .tc := ⟨.hbm, 235, rfl⟩
abbrev main_v76 : Ref sig .tc := ⟨.hbm, 236, rfl⟩
abbrev main_c_8 : Ref sig .tc := ⟨.hbm, 237, rfl⟩
abbrev main_v77 : Ref sig .tc := ⟨.hbm, 238, rfl⟩
abbrev main_v78 : Ref sig .tc := ⟨.hbm, 239, rfl⟩
abbrev main_c_9 : Ref sig .tc := ⟨.hbm, 240, rfl⟩
abbrev main_v79 : Ref sig .tc := ⟨.hbm, 241, rfl⟩
abbrev main_v80 : Ref sig .tc := ⟨.hbm, 242, rfl⟩
abbrev main_v81 : Ref sig .tc := ⟨.hbm, 243, rfl⟩
abbrev main_v82 : Ref sig .tc := ⟨.hbm, 244, rfl⟩
abbrev main_v83 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_v87 : Ref sig .tc := ⟨.hbm, 249, rfl⟩
abbrev main_v88 : Ref sig .tc := ⟨.hbm, 250, rfl⟩
abbrev main_v89 : Ref sig .tc := ⟨.hbm, 251, rfl⟩
abbrev main_call6_c : Ref sig .tc := ⟨.hbm, 252, rfl⟩
abbrev main_call6_v0 : Ref sig .tc := ⟨.hbm, 253, rfl⟩
abbrev main_call6_v1 : Ref sig .tc := ⟨.hbm, 254, rfl⟩
abbrev main_call6_c_0 : Ref sig .tc := ⟨.hbm, 255, rfl⟩
abbrev main_call6_v2 : Ref sig .tc := ⟨.hbm, 256, rfl⟩
abbrev main_call6_v3 : Ref sig .tc := ⟨.hbm, 257, rfl⟩
abbrev main_call6_v4 : Ref sig .tc := ⟨.hbm, 258, rfl⟩
abbrev main_call6_v5 : Ref sig .tc := ⟨.hbm, 259, rfl⟩
abbrev main_call6_c_1 : Ref sig .tc := ⟨.hbm, 260, rfl⟩
abbrev main_call6_c_2 : Ref sig .tc := ⟨.hbm, 261, rfl⟩
abbrev main_call6_v6 : Ref sig .tc := ⟨.hbm, 262, rfl⟩
abbrev main_call6_v7 : Ref sig .tc := ⟨.hbm, 263, rfl⟩
abbrev main_call6_v8 : Ref sig .tc := ⟨.hbm, 264, rfl⟩
abbrev main_call6_v9 : Ref sig .tc := ⟨.hbm, 265, rfl⟩
abbrev main_call6_v10 : Ref sig .tc := ⟨.hbm, 266, rfl⟩
abbrev main_call6_v11 : Ref sig .tc := ⟨.hbm, 267, rfl⟩
abbrev main_call6_c_3 : Ref sig .tc := ⟨.hbm, 268, rfl⟩
abbrev main_call6_v12 : Ref sig .tc := ⟨.hbm, 269, rfl⟩
abbrev main_call6_v13 : Ref sig .tc := ⟨.hbm, 270, rfl⟩
abbrev main_call6_v14 : Ref sig .tc := ⟨.hbm, 271, rfl⟩
abbrev main_call6_cst : Ref sig .tc := ⟨.hbm, 272, rfl⟩
abbrev main_call6_v15 : Ref sig .tc := ⟨.hbm, 273, rfl⟩
abbrev main_v90 : Ref sig .tc := ⟨.hbm, 274, rfl⟩
abbrev main_cst_10 : Ref sig .tc := ⟨.hbm, 275, rfl⟩
abbrev main_v91 : Ref sig .tc := ⟨.hbm, 276, rfl⟩
abbrev main_c_11 : Ref sig .tc := ⟨.hbm, 277, rfl⟩
abbrev main_v92 : Ref sig .tc := ⟨.hbm, 278, rfl⟩
abbrev main_v93 : Ref sig .tc := ⟨.hbm, 279, rfl⟩
abbrev main_c_12 : Ref sig .tc := ⟨.hbm, 280, rfl⟩
abbrev main_v94 : Ref sig .tc := ⟨.hbm, 281, rfl⟩
abbrev main_v95 : Ref sig .tc := ⟨.hbm, 282, rfl⟩
abbrev main_v96 : Ref sig .tc := ⟨.hbm, 283, rfl⟩
abbrev main_v97 : Ref sig .tc := ⟨.hbm, 284, rfl⟩
abbrev main_v98 : Ref sig .tc := ⟨.hbm, 285, rfl⟩
abbrev main_v99 : Ref sig .tc := ⟨.hbm, 286, rfl⟩
abbrev main_v100 : Ref sig .tc := ⟨.hbm, 287, rfl⟩
abbrev main_v101 : Ref sig .tc := ⟨.hbm, 288, rfl⟩
abbrev main_v102 : Ref sig .tc := ⟨.hbm, 289, rfl⟩
abbrev main_v103 : Ref sig .tc := ⟨.hbm, 290, rfl⟩
abbrev main_v104 : Ref sig .tc := ⟨.hbm, 291, rfl⟩
abbrev main_v105 : Ref sig .tc := ⟨.hbm, 292, rfl⟩
abbrev main_v106 : Ref sig .tc := ⟨.hbm, 293, rfl⟩
abbrev main_v107 : Ref sig .tc := ⟨.hbm, 294, rfl⟩
abbrev main_call7_cst : Ref sig .tc := ⟨.hbm, 295, rfl⟩
abbrev main_call7_v0 : Ref sig .tc := ⟨.hbm, 296, rfl⟩
abbrev main_v108 : Ref sig .tc := ⟨.hbm, 297, rfl⟩
abbrev main_v109 : Ref sig .tc := ⟨.hbm, 298, rfl⟩
abbrev main_v110 : Ref sig .tc := ⟨.hbm, 299, rfl⟩
abbrev main_v111 : Ref sig .tc := ⟨.hbm, 300, rfl⟩
abbrev main_v112 : Ref sig .tc := ⟨.hbm, 301, rfl⟩
abbrev main_v113 : Ref sig .tc := ⟨.hbm, 302, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_scratch0 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg2_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg1_1 : Ref sig .tc := ⟨.vmem, 58, rfl⟩
abbrev cc10_stg2_0 : Ref sig .tc := ⟨.vmem, 59, rfl⟩
abbrev cc10_stg2_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg1_1 : Ref sig .tc := ⟨.vmem, 64, rfl⟩
abbrev cc11_stg2_0 : Ref sig .tc := ⟨.vmem, 65, rfl⟩
abbrev cc11_scratch0 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem1_1 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem1_1 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem1_1 : DmaSem sig := 63
abbrev cc11_sem2_0 : DmaSem sig := 64

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def k6_cond2 (i : grid6.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![126], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x257 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S257x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2048x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![126], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2048x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![126], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2048x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![126], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2048x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2048x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2048x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![126], ![false]⟩

def k11_cond2 (i : grid11.Coords) : BitVec 1 :=
  let arg0 : BitVec 32 := BitVec.ofNat 32 (i 0).val
  let c125_i32 : BitVec 32 := 125#32
  let v20 : BitVec 1 := Scalar.cmpi .eq arg0 c125_i32
  let v21 : BitVec 32 := Scalar.extui v20
  let c0_i32_8 : BitVec 32 := 0#32
  let v22 : BitVec 1 := Scalar.cmpi .ne v21 c0_i32_8
  v22

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2048x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2048x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

class Facts₀ : Prop where
  slices_S2x61594_S1x61594_0_0 : S2x61594.Slices ![0, 0] S1x61594
  shapeCasts_S1x61594_S61594 : S1x61594.ShapeCasts S61594
  slices_S2x61594_S1x61594_1_0 : S2x61594.Slices ![1, 0] S1x61594
  slices_S3x128x128_S1x128x128_0_0_0 : S3x128x128.Slices ![0, 0, 0] S1x128x128
  shapeCasts_S1x128x128_S128x128 : S1x128x128.ShapeCasts S128x128
  concatenates_S128x128_S128x128_S256x128_d0 : Shape.Concatenates [S128x128, S128x128] S256x128 0
  transposes_S256x128_S128x256_1_0 : S256x128.Transposes [1, 0] S128x256
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  slices_S8192x256_S8192x128_0_0 : S8192x256.Slices ![0, 0] S8192x128
  slices_S8192x256_S8192x128_0_128 : S8192x256.Slices ![0, 128] S8192x128
  bcast_S_S61594 : S_.BroadcastsInDim S61594 (![] : Fin 0 → Fin S61594.rank)
  bcast_S61594_S61594x1_0 : S61594.BroadcastsInDim S61594x1 (![0] : Fin 1 → Fin S61594x1.rank)
  bcast_S_S61594x1 : S_.BroadcastsInDim S61594x1 (![] : Fin 0 → Fin S61594x1.rank)
  bcast_S1_S1x1_1 : S1.BroadcastsInDim S1x1 (![1] : Fin 1 → Fin S1x1.rank)
  bcast_S1x1_S61594x1_0_1 : S1x1.BroadcastsInDim S61594x1 (![0, 1] : Fin 2 → Fin S61594x1.rank)
  reducesTo_S61594x1_S61594_d1 : S61594x1.ReducesTo [1] S61594
  h_S_ : 0 < S_.numel
  bcast_S61594_S61594x128_0 : S61594.BroadcastsInDim S61594x128 (![0] : Fin 1 → Fin S61594x128.rank)
  bcast_S_S61594x128 : S_.BroadcastsInDim S61594x128 (![] : Fin 0 → Fin S61594x128.rank)
  bcast_S_S8192x128 : S_.BroadcastsInDim S8192x128 (![] : Fin 0 → Fin S8192x128.rank)
  shapeCasts_S2048x128_S2048x128 : S2048x128.ShapeCasts S2048x128
  slices_S3x128x128_S1x128x128_1_0_0 : S3x128x128.Slices ![1, 0, 0] S1x128x128
  slices_S3x128x128_S1x128x128_2_0_0 : S3x128x128.Slices ![2, 0, 0] S1x128x128
  shapeCasts_S8192_S8192x1 : S8192.ShapeCasts S8192x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x128_d1_w32 : S2048x128.Iotas .tc 32 [1]
  broadcasts_S2048x1_S2048x128 : S2048x1.Broadcasts S2048x128
  natLt_1_32 : 1 < 32
  bcast_S_S258048 : S_.BroadcastsInDim S258048 (![] : Fin 0 → Fin S258048.rank)
  bcast_S258048_S258048x1_0 : S258048.BroadcastsInDim S258048x1 (![0] : Fin 1 → Fin S258048x1.rank)
  bcast_S_S258048x1 : S_.BroadcastsInDim S258048x1 (![] : Fin 0 → Fin S258048x1.rank)
  bcast_S1x1_S258048x1_0_1 : S1x1.BroadcastsInDim S258048x1 (![0, 1] : Fin 2 → Fin S258048x1.rank)
  reducesTo_S258048x1_S258048_d1 : S258048x1.ReducesTo [1] S258048
  bcast_S258048_S258048x128_0 : S258048.BroadcastsInDim S258048x128 (![0] : Fin 1 → Fin S258048x128.rank)
  bcast_S_S258048x128 : S_.BroadcastsInDim S258048x128 (![] : Fin 0 → Fin S258048x128.rank)
  concatenates_S258048x128_S258048x128_S258048x1_S258048x257_d1 : Shape.Concatenates [S258048x128, S258048x128, S258048x1] S258048x257 1
  slices_S2x454772_S1x454772_0_0 : S2x454772.Slices ![0, 0] S1x454772
  shapeCasts_S1x454772_S454772 : S1x454772.ShapeCasts S454772
  slices_S2x454772_S1x454772_1_0 : S2x454772.Slices ![1, 0] S1x454772
  concatenates_S128x257_S128x257_S256x257_d0 : Shape.Concatenates [S128x257, S128x257] S256x257 0
  transposes_S256x257_S257x256_1_0 : S256x257.Transposes [1, 0] S257x256
  inb_S2048x257_S2048x257_0_0 : ∀ a, (![0, 0] : Fin 2 → Nat) a + S2048x257.size a ≤ S2048x257.size a
  h_S2048x257 : 0 < S2048x257.numel
  shapeCasts_S2048x257_S2048x257 : S2048x257.ShapeCasts S2048x257
  inb_S257x256_S257x256_0_0 : ∀ a, (![0, 0] : Fin 2 → Nat) a + S257x256.size a ≤ S257x256.size a
  h_S257x256 : 0 < S257x256.numel
  shapeCasts_S257x256_S257x256 : S257x256.ShapeCasts S257x256
  slices_S258048x256_S258048x128_0_0 : S258048x256.Slices ![0, 0] S258048x128
  slices_S258048x256_S258048x128_0_128 : S258048x256.Slices ![0, 128] S258048x128
  bcast_S_S454772 : S_.BroadcastsInDim S454772 (![] : Fin 0 → Fin S454772.rank)
  bcast_S454772_S454772x1_0 : S454772.BroadcastsInDim S454772x1 (![0] : Fin 1 → Fin S454772x1.rank)
  bcast_S_S454772x1 : S_.BroadcastsInDim S454772x1 (![] : Fin 0 → Fin S454772x1.rank)
  bcast_S1x1_S454772x1_0_1 : S1x1.BroadcastsInDim S454772x1 (![0, 1] : Fin 2 → Fin S454772x1.rank)
  reducesTo_S454772x1_S454772_d1 : S454772x1.ReducesTo [1] S454772
  bcast_S454772_S454772x128_0 : S454772.BroadcastsInDim S454772x128 (![0] : Fin 1 → Fin S454772x128.rank)
  bcast_S_S454772x128 : S_.BroadcastsInDim S454772x128 (![] : Fin 0 → Fin S454772x128.rank)
  shapeCasts_S258048_S258048x1 : S258048.ShapeCasts S258048x1
  concatenates_S128x128_S128x128_S128x256_d1 : Shape.Concatenates [S128x128, S128x128] S128x256 1
  transposes_S128x256_S256x128_1_0 : S128x256.Transposes [1, 0] S256x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S2048x128_S128x256_S2048x256_1_0_0_1_n_n_wf : DotDims.WF S2048x128 S128x256 S2048x256 [1] [0] [0] [1] [] []
  gather_S8192x128_S61594x1_S61594x128_1_0_n_n_0_1_1128_wf : GatherDims.WF S8192x128 S61594x1 S61594x128 [1] [0] [] [0] [] 1 ![1, 128]
  scatter_S8192x128_S61594x1_S61594x128_1_0_0_1_wf : ScatterDims.WF S8192x128 S61594x1 S61594x128 [1] [0] [0] 1
  dot_S2048x128_S2048x128_S128x128_0_0_1_1_n_n_wf : DotDims.WF S2048x128 S2048x128 S128x128 [0] [0] [1] [1] [] []
  gather_S8192x128_S258048x1_S258048x128_1_0_n_n_0_1_1128_wf : GatherDims.WF S8192x128 S258048x1 S258048x128 [1] [0] [] [0] [] 1 ![1, 128]
  dot_S2048x257_S257x256_S2048x256_1_0_0_1_n_n_wf : DotDims.WF S2048x257 S257x256 S2048x256 [1] [0] [0] [1] [] []
  gather_S258048x128_S454772x1_S454772x128_1_0_n_n_0_1_1128_wf : GatherDims.WF S258048x128 S454772x1 S454772x128 [1] [0] [] [0] [] 1 ![1, 128]
  scatter_S258048x128_S454772x1_S454772x128_1_0_0_1_wf : ScatterDims.WF S258048x128 S454772x1 S454772x128 [1] [0] [0] 1
  dot_S128x256_S256x128_S128x128_1_0_0_1_n_n_wf : DotDims.WF S128x256 S256x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .f32 = 32 ∨ (Rect.block (s := S8192x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x128.size a
  hwx3_2 : ∀ i : grid3.Coords, EltTy.bits .f32 = 32 ∨ (Rect.block (s := S8192x128) S2048x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S8192x256.size a
  hwx4_2 : ∀ i : grid4.Coords, EltTy.bits .f32 = 32 ∨ (Rect.block (s := S8192x256) S2048x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S8192x128.size a
  hwx5_0 : ∀ i : grid5.Coords, EltTy.bits .f32 = 32 ∨ (Rect.block (s := S8192x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .f32 = 32 ∨ (Rect.block (s := S8192x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S8192x128.size a
  hwx5_2 : ∀ i : grid5.Coords, EltTy.bits .f32 = 32 ∨ (Rect.block (s := S8192x128) S2048x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S8192x128.size a
  hwx6_0 : ∀ i : grid6.Coords, EltTy.bits .f32 = 32 ∨ (Rect.block (s := S8192x128) S2048x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x1.size a ≤ S8192x1.size a
  hwx6_1 : ∀ i : grid6.Coords, EltTy.bits .i32 = 32 ∨ (Rect.block (s := S8192x1) S2048x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x257.size a ≤ S258048x257.size a
  hwx7_0 : ∀ i : grid7.Coords, EltTy.bits .f32 = 32 ∨ (Rect.block (s := S258048x257) S2048x257.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S257x256.size a ≤ S257x256.size a
  hwx7_1 : ∀ i : grid7.Coords, EltTy.bits .f32 = 32 ∨ (Rect.block (s := S257x256) S257x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x256.size a ≤ S258048x256.size a
  hwx7_2 : ∀ i : grid7.Coords, EltTy.bits .f32 = 32 ∨ (Rect.block (s := S258048x256) S2048x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S258048x128.size a
  hwx8_0 : ∀ i : grid8.Coords, EltTy.bits .f32 = 32 ∨ (Rect.block (s := S258048x128) S2048x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x128.size a ≤ S258048x128.size a
  hwx8_1 : ∀ i : grid8.Coords, EltTy.bits .f32 = 32 ∨ (Rect.block (s := S258048x128) S2048x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x128.size a ≤ S258048x128.size a
  hwx8_2 : ∀ i : grid8.Coords, EltTy.bits .f32 = 32 ∨ (Rect.block (s := S258048x128) S2048x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x128.size a ≤ S258048x128.size a
  hwx9_0 : ∀ i : grid9.Coords, EltTy.bits .f32 = 32 ∨ (Rect.block (s := S258048x128) S2048x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .f32 = 32 ∨ (Rect.block (s := S128x256) S128x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x256.size a ≤ S258048x256.size a
  hwx9_2 : ∀ i : grid9.Coords, EltTy.bits .f32 = 32 ∨ (Rect.block (s := S258048x256) S2048x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S258048x128.size a
  hwx10_0 : ∀ i : grid10.Coords, EltTy.bits .f32 = 32 ∨ (Rect.block (s := S258048x128) S2048x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048x128.size a ≤ S258048x128.size a
  hwx10_1 : ∀ i : grid10.Coords, EltTy.bits .f32 = 32 ∨ (Rect.block (s := S258048x128) S2048x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x128.size a ≤ S258048x128.size a
  hwx10_2 : ∀ i : grid10.Coords, EltTy.bits .f32 = 32 ∨ (Rect.block (s := S258048x128) S2048x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x128.size a ≤ S258048x128.size a
  hwx11_0 : ∀ i : grid11.Coords, EltTy.bits .f32 = 32 ∨ (Rect.block (s := S258048x128) S2048x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x1.size a ≤ S258048x1.size a
  hwx11_1 : ∀ i : grid11.Coords, EltTy.bits .i32 = 32 ∨ (Rect.block (s := S258048x1) S2048x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S8192x128_S61594x1_S61594x128_1_0_n_n_0_1_1128 : GatherDims S8192x128 S61594x1 S61594x128 where
  offsetDims := [1]
  collapsedSliceDims := [0]
  operandBatchingDims := []
  startIndicesBatchingDims := []
  startIndexMap := [0]
  indexVectorDim := 1
  sliceSizes := ![1, 128]
  wf := gather_S8192x128_S61594x1_S61594x128_1_0_n_n_0_1_1128_wf
def scatter_S8192x128_S61594x1_S61594x128_1_0_0_1 : ScatterDims S8192x128 S61594x1 S61594x128 where
  updateWindowDims := [1]
  insertedWindowDims := [0]
  scatterDimsToOperandDims := [0]
  indexVectorDim := 1
  wf := scatter_S8192x128_S61594x1_S61594x128_1_0_0_1_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def gather_S8192x128_S258048x1_S258048x128_1_0_n_n_0_1_1128 : GatherDims S8192x128 S258048x1 S258048x128 where
  offsetDims := [1]
  collapsedSliceDims := [0]
  operandBatchingDims := []
  startIndicesBatchingDims := []
  startIndexMap := [0]
  indexVectorDim := 1
  sliceSizes := ![1, 128]
  wf := gather_S8192x128_S258048x1_S258048x128_1_0_n_n_0_1_1128_wf
def dot_S2048x257_S257x256_S2048x256_1_0_0_1_n_n : DotDims S2048x257 S257x256 S2048x256 where
  lhsContracting := [1]
  rhsContracting := [0]
  lhsNonContracting := [0]
  rhsNonContracting := [1]
  lhsBatch := []
  rhsBatch := []
  wf := dot_S2048x257_S257x256_S2048x256_1_0_0_1_n_n_wf
def gather_S258048x128_S454772x1_S454772x128_1_0_n_n_0_1_1128 : GatherDims S258048x128 S454772x1 S454772x128 where
  offsetDims := [1]
  collapsedSliceDims := [0]
  operandBatchingDims := []
  startIndicesBatchingDims := []
  startIndexMap := [0]
  indexVectorDim := 1
  sliceSizes := ![1, 128]
  wf := gather_S258048x128_S454772x1_S454772x128_1_0_n_n_0_1_1128_wf
def scatter_S258048x128_S454772x1_S454772x128_1_0_0_1 : ScatterDims S258048x128 S454772x1 S454772x128 where
  updateWindowDims := [1]
  insertedWindowDims := [0]
  scatterDimsToOperandDims := [0]
  indexVectorDim := 1
  wf := scatter_S258048x128_S454772x1_S454772x128_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S2048x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v60) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S2048x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v62) S128x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v65) S2048x257.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S257x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v72) S2048x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v73) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S2048x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v84) S2048x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v84) S2048x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v87) S2048x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v88) S2048x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v98) S2048x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v99) S2048x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v99) S2048x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v100) S2048x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v101) S128x128.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S3x128x128 : Shape := ⟨3, ![3, 128, 128]⟩
abbrev S128x257 : Shape := ⟨2, ![128, 257]⟩
abbrev S128x128 : Shape := ⟨2, ![128, 128]⟩
abbrev S128x256 : Shape := ⟨2, ![128, 256]⟩
abbrev S128 : Shape := ⟨1, ![128]⟩
abbrev S10x128 : Shape := ⟨2, ![10, 128]⟩
abbrev S10 : Shape := ⟨1, ![10]⟩
abbrev S258048x1 : Shape := ⟨2, ![258048, 1]⟩
abbrev S2x61594 : Shape := ⟨2, ![2, 61594]⟩
abbrev S8192 : Shape := ⟨1, ![8192]⟩
abbrev S258048 : Shape := ⟨1, ![258048]⟩
abbrev S2x454772 : Shape := ⟨2, ![2, 454772]⟩
abbrev S1x61594 : Shape := ⟨2, ![1, 61594]⟩
abbrev S61594 : Shape := ⟨1, ![61594]⟩
abbrev S1x128x128 : Shape := ⟨3, ![1, 128, 128]⟩
abbrev S_ : Shape := ⟨0, ![]⟩
abbrev S61594x1 : Shape := ⟨2, ![61594, 1]⟩
abbrev S61594x128 : Shape := ⟨2, ![61594, 128]⟩
abbrev S8192x1 : Shape := ⟨2, ![8192, 1]⟩
abbrev S258048x128 : Shape := ⟨2, ![258048, 128]⟩
abbrev S258048x257 : Shape := ⟨2, ![258048, 257]⟩
abbrev S1x454772 : Shape := ⟨2, ![1, 454772]⟩
abbrev S454772 : Shape := ⟨1, ![454772]⟩
abbrev S257x128 : Shape := ⟨2, ![257, 128]⟩
abbrev S454772x1 : Shape := ⟨2, ![454772, 1]⟩
abbrev S454772x128 : Shape := ⟨2, ![454772, 128]⟩
abbrev S256x128 : Shape := ⟨2, ![256, 128]⟩
abbrev S1x128 : Shape := ⟨2, ![1, 128]⟩
abbrev S128x10 : Shape := ⟨2, ![128, 10]⟩
abbrev S1x10 : Shape := ⟨2, ![1, 10]⟩

abbrev nBuf : Space → Nat
  | .hbm => 219
  | .vmem => 0
  | .smem => 0
  | _ => 0

abbrev hbmTy0_0 (i : Nat) : BufTy := match i % 128 with
  | 0 => ⟨S8192x128, .f32⟩
  | 1 => ⟨S3x128x128, .f32⟩
  | 2 => ⟨S3x128x128, .f32⟩
  | 3 => ⟨S128x257, .f32⟩
  | 4 => ⟨S128x257, .f32⟩
  | 5 => ⟨S128x128, .f32⟩
  | 6 => ⟨S128x128, .f32⟩
  | 7 => ⟨S128x256, .f32⟩
  | 8 => ⟨S128, .f32⟩
  | 9 => ⟨S10x128, .f32⟩
  | 10 => ⟨S10, .f32⟩
  | 11 => ⟨S258048x1, .f32⟩
  | 12 => ⟨S2x61594, .i32⟩
  | 13 => ⟨S8192, .i32⟩
  | 14 => ⟨S258048, .i32⟩
  | 15 => ⟨S258048, .i32⟩
  | 16 => ⟨S258048, .i32⟩
  | 17 => ⟨S2x454772, .i32⟩
  | 18 => ⟨S1x61594, .i32⟩
  | 19 => ⟨S61594, .i32⟩
  | 20 => ⟨S1x61594, .i32⟩
  | 21 => ⟨S61594, .i32⟩
  | 22 => ⟨S1x128x128, .f32⟩
  | 23 => ⟨S128x128, .f32⟩
  | 24 => ⟨S1x128x128, .f32⟩
  | 25 => ⟨S128x128, .f32⟩
  | 26 => ⟨S128x128, .f32⟩
  | 27 => ⟨S8192x128, .f32⟩
  | 28 => ⟨S_, .f32⟩
  | 29 => ⟨S8192x128, .f32⟩
  | 30 => ⟨S128x128, .f32⟩
  | 31 => ⟨S8192x128, .f32⟩
  | 32 => ⟨S_, .i32⟩
  | 33 => ⟨S61594, .i32⟩
  | 34 => ⟨S61594, .i1⟩
  | 35 => ⟨S_, .i32⟩
  | 36 => ⟨S61594, .i32⟩
  | 37 => ⟨S61594, .i32⟩
  | 38 => ⟨S61594, .i32⟩
  | 39 => ⟨S61594x1, .i32⟩
  | 40 => ⟨S61594x128, .f32⟩
  | 41 => ⟨S_, .i32⟩
  | 42 => ⟨S61594, .i32⟩
  | 43 => ⟨S61594, .i1⟩
  | 44 => ⟨S_, .i32⟩
  | 45 => ⟨S61594, .i32⟩
  | 46 => ⟨S61594, .i32⟩
  | 47 => ⟨S61594, .i32⟩
  | 48 => ⟨S61594x1, .i32⟩
  | 49 => ⟨S8192x128, .f32⟩
  | 50 => ⟨S8192x128, .f32⟩
  | 51 => ⟨S_, .f32⟩
  | 52 => ⟨S8192x128, .f32⟩
  | 53 => ⟨S8192x128, .f32⟩
  | 54 => ⟨S1x128x128, .f32⟩
  | 55 => ⟨S128x128, .f32⟩
  | 56 => ⟨S1x128x128, .f32⟩
  | 57 => ⟨S128x128, .f32⟩
  | 58 => ⟨S128x128, .f32⟩
  | 59 => ⟨S8192x128, .f32⟩
  | 60 => ⟨S_, .f32⟩
  | 61 => ⟨S8192x128, .f32⟩
  | 62 => ⟨S128x128, .f32⟩
  | 63 => ⟨S8192x128, .f32⟩
  | 64 => ⟨S_, .i32⟩
  | 65 => ⟨S61594, .i32⟩
  | 66 => ⟨S61594, .i1⟩
  | 67 => ⟨S_, .i32⟩
  | 68 => ⟨S61594, .i32⟩
  | 69 => ⟨S61594, .i32⟩
  | 70 => ⟨S61594, .i32⟩
  | 71 => ⟨S61594x1, .i32⟩
  | 72 => ⟨S61594x128, .f32⟩
  | 73 => ⟨S_, .i32⟩
  | 74 => ⟨S61594, .i32⟩
  | 75 => ⟨S61594, .i1⟩
  | 76 => ⟨S_, .i32⟩
  | 77 => ⟨S61594, .i32⟩
  | 78 => ⟨S61594, .i32⟩
  | 79 => ⟨S61594, .i32⟩
  | 80 => ⟨S61594x1, .i32⟩
  | 81 => ⟨S8192x128, .f32⟩
  | 82 => ⟨S8192x128, .f32⟩
  | 83 => ⟨S_, .f32⟩
  | 84 => ⟨S8192x128, .f32⟩
  | 85 => ⟨S8192x128, .f32⟩
  | 86 => ⟨S1x128x128, .f32⟩
  | 87 => ⟨S128x128, .f32⟩
  | 88 => ⟨S1x128x128, .f32⟩
  | 89 => ⟨S128x128, .f32⟩
  | 90 => ⟨S128x128, .f32⟩
  | 91 => ⟨S8192x128, .f32⟩
  | 92 => ⟨S_, .f32⟩
  | 93 => ⟨S8192x128, .f32⟩
  | 94 => ⟨S128x128, .f32⟩
  | 95 => ⟨S8192x128, .f32⟩
  | 96 => ⟨S_, .i32⟩
  | 97 => ⟨S61594, .i32⟩
  | 98 => ⟨S61594, .i1⟩
  | 99 => ⟨S_, .i32⟩
  | 100 => ⟨S61594, .i32⟩
  | 101 => ⟨S61594, .i32⟩
  | 102 => ⟨S61594, .i32⟩
  | 103 => ⟨S61594x1, .i32⟩
  | 104 => ⟨S61594x128, .f32⟩
  | 105 => ⟨S_, .i32⟩
  | 106 => ⟨S61594, .i32⟩
  | 107 => ⟨S61594, .i1⟩
  | 108 => ⟨S_, .i32⟩
  | 109 => ⟨S61594, .i32⟩
  | 110 => ⟨S61594, .i32⟩
  | 111 => ⟨S61594, .i32⟩
  | 112 => ⟨S61594x1, .i32⟩
  | 113 => ⟨S8192x128, .f32⟩
  | 114 => ⟨S8192x128, .f32⟩
  | 115 => ⟨S_, .f32⟩
  | 116 => ⟨S8192x128, .f32⟩
  | 117 => ⟨S8192x128, .f32⟩
  | 118 => ⟨S_, .f32⟩
  | 119 => ⟨S128x128, .f32⟩
  | 120 => ⟨S8192x1, .i32⟩
  | 121 => ⟨S128x128, .f32⟩
  | 122 => ⟨S_, .i32⟩
  | 123 => ⟨S258048, .i32⟩
  | 124 => ⟨S258048, .i1⟩
  | 125 => ⟨S_, .i32⟩
  | 126 => ⟨S258048, .i32⟩
  | 127 => ⟨S258048, .i32⟩
  | _ => ⟨S8192x128, .f32⟩

abbrev hbmTy0_1 (i : Nat) : BufTy := match i % 128 with
  | 0 => ⟨S258048, .i32⟩
  | 1 => ⟨S258048x1, .i32⟩
  | 2 => ⟨S258048x128, .f32⟩
  | 3 => ⟨S_, .i32⟩
  | 4 => ⟨S258048, .i32⟩
  | 5 => ⟨S258048, .i1⟩
  | 6 => ⟨S_, .i32⟩
  | 7 => ⟨S258048, .i32⟩
  | 8 => ⟨S258048, .i32⟩
  | 9 => ⟨S258048, .i32⟩
  | 10 => ⟨S258048x1, .i32⟩
  | 11 => ⟨S258048x128, .f32⟩
  | 12 => ⟨S258048x257, .f32⟩
  | 13 => ⟨S1x454772, .i32⟩
  | 14 => ⟨S454772, .i32⟩
  | 15 => ⟨S1x454772, .i32⟩
  | 16 => ⟨S454772, .i32⟩
  | 17 => ⟨S257x128, .f32⟩
  | 18 => ⟨S258048x128, .f32⟩
  | 19 => ⟨S_, .f32⟩
  | 20 => ⟨S258048x128, .f32⟩
  | 21 => ⟨S257x128, .f32⟩
  | 22 => ⟨S258048x128, .f32⟩
  | 23 => ⟨S_, .i32⟩
  | 24 => ⟨S454772, .i32⟩
  | 25 => ⟨S454772, .i1⟩
  | 26 => ⟨S_, .i32⟩
  | 27 => ⟨S454772, .i32⟩
  | 28 => ⟨S454772, .i32⟩
  | 29 => ⟨S454772, .i32⟩
  | 30 => ⟨S454772x1, .i32⟩
  | 31 => ⟨S454772x128, .f32⟩
  | 32 => ⟨S_, .i32⟩
  | 33 => ⟨S454772, .i32⟩
  | 34 => ⟨S454772, .i1⟩
  | 35 => ⟨S_, .i32⟩
  | 36 => ⟨S454772, .i32⟩
  | 37 => ⟨S454772, .i32⟩
  | 38 => ⟨S454772, .i32⟩
  | 39 => ⟨S454772x1, .i32⟩
  | 40 => ⟨S258048x128, .f32⟩
  | 41 => ⟨S258048x128, .f32⟩
  | 42 => ⟨S_, .f32⟩
  | 43 => ⟨S258048x128, .f32⟩
  | 44 => ⟨S258048x128, .f32⟩
  | 45 => ⟨S128x128, .f32⟩
  | 46 => ⟨S258048x128, .f32⟩
  | 47 => ⟨S_, .f32⟩
  | 48 => ⟨S258048x128, .f32⟩
  | 49 => ⟨S128x128, .f32⟩
  | 50 => ⟨S258048x128, .f32⟩
  | 51 => ⟨S_, .i32⟩
  | 52 => ⟨S454772, .i32⟩
  | 53 => ⟨S454772, .i1⟩
  | 54 => ⟨S_, .i32⟩
  | 55 => ⟨S454772, .i32⟩
  | 56 => ⟨S454772, .i32⟩
  | 57 => ⟨S454772, .i32⟩
  | 58 => ⟨S454772x1, .i32⟩
  | 59 => ⟨S454772x128, .f32⟩
  | 60 => ⟨S_, .i32⟩
  | 61 => ⟨S454772, .i32⟩
  | 62 => ⟨S454772, .i1⟩
  | 63 => ⟨S_, .i32⟩
  | 64 => ⟨S454772, .i32⟩
  | 65 => ⟨S454772, .i32⟩
  | 66 => ⟨S454772, .i32⟩
  | 67 => ⟨S454772x1, .i32⟩
  | 68 => ⟨S258048x128, .f32⟩
  | 69 => ⟨S258048x128, .f32⟩
  | 70 => ⟨S_, .f32⟩
  | 71 => ⟨S258048x128, .f32⟩
  | 72 => ⟨S258048x128, .f32⟩
  | 73 => ⟨S_, .f32⟩
  | 74 => ⟨S128x128, .f32⟩
  | 75 => ⟨S258048x1, .i32⟩
  | 76 => ⟨S128x128, .f32⟩
  | 77 => ⟨S128x256, .f32⟩
  | 78 => ⟨S256x128, .f32⟩
  | 79 => ⟨S128x128, .f32⟩
  | 80 => ⟨S1x128, .f32⟩
  | 81 => ⟨S128x128, .f32⟩
  | 82 => ⟨S128x128, .f32⟩
  | 83 => ⟨S_, .f32⟩
  | 84 => ⟨S128x128, .f32⟩
  | 85 => ⟨S128x128, .f32⟩
  | 86 => ⟨S128x10, .f32⟩
  | 87 => ⟨S128x10, .f32⟩
  | 88 => ⟨S1x10, .f32⟩
  | 89 => ⟨S128x10, .f32⟩
  | 90 => ⟨S128x10, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call0_cst : Ref sig .tc := ⟨.hbm, 51, rfl⟩
abbrev main_call0_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_9 : Ref sig .tc := ⟨.hbm, 96, rfl⟩
abbrev main_v63 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_11 : Ref sig .tc := ⟨.hbm, 105, rfl⟩
abbrev main_v70 : Ref sig .tc := ⟨.hbm, 106, rfl⟩
abbrev main_v71 : Ref sig .tc := ⟨.hbm, 107, rfl⟩
abbrev main_c_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_cst : Ref sig .tc := ⟨.hbm, 115, rfl⟩
abbrev main_call2_v0 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_14 : Ref sig .tc := ⟨.hbm, 122, rfl⟩
abbrev main_v82 : Ref sig .tc := ⟨.hbm, 123, rfl⟩
abbrev main_v83 : Ref sig .tc := ⟨.hbm, 124, rfl⟩
abbrev main_c_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_16 : Ref sig .tc := ⟨.hbm, 131, rfl⟩
abbrev main_v89 : Ref sig .tc := ⟨.hbm, 132, rfl⟩
abbrev main_v90 : Ref sig .tc := ⟨.hbm, 133, rfl⟩
abbrev main_c_17 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_18 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_19 : Ref sig .tc := ⟨.hbm, 151, rfl⟩
abbrev main_v106 : Ref sig .tc := ⟨.hbm, 152, rfl⟩
abbrev main_v107 : Ref sig .tc := ⟨.hbm, 153, rfl⟩
abbrev main_c_20 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_21 : Ref sig .tc := ⟨.hbm, 160, rfl⟩
abbrev main_v113 : Ref sig .tc := ⟨.hbm, 161, rfl⟩
abbrev main_v114 : Ref sig .tc := ⟨.hbm, 162, rfl⟩
abbrev main_c_22 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call3_cst : Ref sig .tc := ⟨.hbm, 170, rfl⟩
abbrev main_call3_v0 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_23 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_24 : Ref sig .tc := ⟨.hbm, 179, rfl⟩
abbrev main_v127 : Ref sig .tc := ⟨.hbm, 180, rfl⟩
abbrev main_v128 : Ref sig .tc := ⟨.hbm, 181, rfl⟩
abbrev main_c_25 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_c_26 : Ref sig .tc := ⟨.hbm, 188, rfl⟩
abbrev main_v134 : Ref sig .tc := ⟨.hbm, 189, rfl⟩
abbrev main_v135 : Ref sig .tc := ⟨.hbm, 190, rfl⟩
abbrev main_c_27 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_call4_cst : Ref sig .tc := ⟨.hbm, 198, rfl⟩
abbrev main_call4_v0 : Ref sig .tc := ⟨.hbm, 199, rfl⟩
abbrev main_v142 : Ref sig .tc := ⟨.hbm, 200, rfl⟩
abbrev main_cst_28 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_call5_cst : Ref sig .tc := ⟨.hbm, 211, rfl⟩
abbrev main_call5_v0 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩

abbrev nD : Nat := 1
abbrev τ : Topo := Topo.v7x

variable {F : FTy → Type} [FloatOps F]

class Facts₀ : Prop where
  slices_S2x61594_S1x61594_0_0 : S2x61594.Slices ![0, 0] S1x61594
  shapeCasts_S1x61594_S61594 : S1x61594.ShapeCasts S61594
  slices_S2x61594_S1x61594_1_0 : S2x61594.Slices ![1, 0] S1x61594
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S_S8192x128 : S_.BroadcastsInDim S8192x128 (![] : Fin 0 → Fin S8192x128.rank)
  bcast_S_S61594 : S_.BroadcastsInDim S61594 (![] : Fin 0 → Fin S61594.rank)
  bcast_S61594_S61594x1_0 : S61594.BroadcastsInDim S61594x1 (![0] : Fin 1 → Fin S61594x1.rank)
  slices_S3x128x128_S1x128x128_1_0_0 : S3x128x128.Slices ![1, 0, 0] S1x128x128
  slices_S3x128x128_S1x128x128_2_0_0 : S3x128x128.Slices ![2, 0, 0] S1x128x128
  bcast_S_S128x128 : S_.BroadcastsInDim S128x128 (![] : Fin 0 → Fin S128x128.rank)
  bcast_S8192_S8192x1_0 : S8192.BroadcastsInDim S8192x1 (![0] : Fin 1 → Fin S8192x1.rank)
  bcast_S_S258048 : S_.BroadcastsInDim S258048 (![] : Fin 0 → Fin S258048.rank)
  bcast_S258048_S258048x1_0 : S258048.BroadcastsInDim S258048x1 (![0] : Fin 1 → Fin S258048x1.rank)
  concatenates_S258048x128_S258048x128_S258048x1_S258048x257_d1 : Shape.Concatenates [S258048x128, S258048x128, S258048x1] S258048x257 1
  slices_S2x454772_S1x454772_0_0 : S2x454772.Slices ![0, 0] S1x454772
  shapeCasts_S1x454772_S454772 : S1x454772.ShapeCasts S454772
  slices_S2x454772_S1x454772_1_0 : S2x454772.Slices ![1, 0] S1x454772
  transposes_S128x257_S257x128_1_0 : S128x257.Transposes [1, 0] S257x128
  bcast_S_S258048x128 : S_.BroadcastsInDim S258048x128 (![] : Fin 0 → Fin S258048x128.rank)
  bcast_S_S454772 : S_.BroadcastsInDim S454772 (![] : Fin 0 → Fin S454772.rank)
  bcast_S454772_S454772x1_0 : S454772.BroadcastsInDim S454772x1 (![0] : Fin 1 → Fin S454772x1.rank)
  concatenates_S128x128_S128x128_S128x256_d1 : Shape.Concatenates [S128x128, S128x128] S128x256 1
  transposes_S128x256_S256x128_1_0 : S128x256.Transposes [1, 0] S256x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S8192x128_S128x128_S8192x128_1_0_0_1_n_n_wf : DotDims.WF S8192x128 S128x128 S8192x128 [1] [0] [0] [1] [] []
  gather_S8192x128_S61594x1_S61594x128_1_0_n_n_0_1_1128_wf : GatherDims.WF S8192x128 S61594x1 S61594x128 [1] [0] [] [0] [] 1 ![1, 128]
  scatter_S8192x128_S61594x1_S61594x128_1_0_0_1_wf : ScatterDims.WF S8192x128 S61594x1 S61594x128 [1] [0] [0] 1
  scatter_S128x128_S8192x1_S8192x128_1_0_0_1_wf : ScatterDims.WF S128x128 S8192x1 S8192x128 [1] [0] [0] 1
  gather_S8192x128_S258048x1_S258048x128_1_0_n_n_0_1_1128_wf : GatherDims.WF S8192x128 S258048x1 S258048x128 [1] [0] [] [0] [] 1 ![1, 128]
  dot_S258048x257_S257x128_S258048x128_1_0_0_1_n_n_wf : DotDims.WF S258048x257 S257x128 S258048x128 [1] [0] [0] [1] [] []
  gather_S258048x128_S454772x1_S454772x128_1_0_n_n_0_1_1128_wf : GatherDims.WF S258048x128 S454772x1 S454772x128 [1] [0] [] [0] [] 1 ![1, 128]
  scatter_S258048x128_S454772x1_S454772x128_1_0_0_1_wf : ScatterDims.WF S258048x128 S454772x1 S454772x128 [1] [0] [0] 1
  dot_S258048x128_S128x128_S258048x128_1_0_0_1_n_n_wf : DotDims.WF S258048x128 S128x128 S258048x128 [1] [0] [0] [1] [] []
  scatter_S128x128_S258048x1_S258048x128_1_0_0_1_wf : ScatterDims.WF S128x128 S258048x1 S258048x128 [1] [0] [0] 1
  dot_S128x256_S256x128_S128x128_1_0_0_1_n_n_wf : DotDims.WF S128x256 S256x128 S128x128 [1] [0] [0] [1] [] []
  dot_S128x128_S128x10_S128x10_1_0_0_1_n_n_wf : DotDims.WF S128x128 S128x10 S128x10 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S61594x1_S61594x128_1_0_n_n_0_1_1128 : GatherDims S8192x128 S61594x1 S61594x128 where
  offsetDims := [1]
  collapsedSliceDims := [0]
  operandBatchingDims := []
  startIndicesBatchingDims := []
  startIndexMap := [0]
  indexVectorDim := 1
  sliceSizes := ![1, 128]
  wf := gather_S8192x128_S61594x1_S61594x128_1_0_n_n_0_1_1128_wf
def scatter_S8192x128_S61594x1_S61594x128_1_0_0_1 : ScatterDims S8192x128 S61594x1 S61594x128 where
  updateWindowDims := [1]
  insertedWindowDims := [0]
  scatterDimsToOperandDims := [0]
  indexVectorDim := 1
  wf := scatter_S8192x128_S61594x1_S61594x128_1_0_0_1_wf
def scatter_S128x128_S8192x1_S8192x128_1_0_0_1 : ScatterDims S128x128 S8192x1 S8192x128 where
  updateWindowDims := [1]
  insertedWindowDims := [0]
  scatterDimsToOperandDims := [0]
  indexVectorDim := 1
  wf := scatter_S128x128_S8192x1_S8192x128_1_0_0_1_wf
def gather_S8192x128_S258048x1_S258048x128_1_0_n_n_0_1_1128 : GatherDims S8192x128 S258048x1 S258048x128 where
  offsetDims := [1]
  collapsedSliceDims := [0]
  operandBatchingDims := []
  startIndicesBatchingDims := []
  startIndexMap := [0]
  indexVectorDim := 1
  sliceSizes := ![1, 128]
  wf := gather_S8192x128_S258048x1_S258048x128_1_0_n_n_0_1_1128_wf
def dot_S258048x257_S257x128_S258048x128_1_0_0_1_n_n : DotDims S258048x257 S257x128 S258048x128 where
  lhsContracting := [1]
  rhsContracting := [0]
  lhsNonContracting := [0]
  rhsNonContracting := [1]
  lhsBatch := []
  rhsBatch := []
  wf := dot_S258048x257_S257x128_S258048x128_1_0_0_1_n_n_wf
def gather_S258048x128_S454772x1_S454772x128_1_0_n_n_0_1_1128 : GatherDims S258048x128 S454772x1 S454772x128 where
  offsetDims := [1]
  collapsedSliceDims := [0]
  operandBatchingDims := []
  startIndicesBatchingDims := []
  startIndexMap := [0]
  indexVectorDim := 1
  sliceSizes := ![1, 128]
  wf := gather_S258048x128_S454772x1_S454772x128_1_0_n_n_0_1_1128_wf
def scatter_S258048x128_S454772x1_S454772x128_1_0_0_1 : ScatterDims S258048x128 S454772x1 S454772x128 where
  updateWindowDims := [1]
  insertedWindowDims := [0]
  scatterDimsToOperandDims := [0]
  indexVectorDim := 1
  wf := scatter_S258048x128_S454772x1_S454772x128_1_0_0_1_wf
def dot_S258048x128_S128x128_S258048x128_1_0_0_1_n_n : DotDims S258048x128 S128x128 S258048x128 where
  lhsContracting := [1]
  rhsContracting := [0]
  lhsNonContracting := [0]
  rhsNonContracting := [1]
  lhsBatch := []
  rhsBatch := []
  wf := dot_S258048x128_S128x128_S258048x128_1_0_0_1_n_n_wf
def scatter_S128x128_S258048x1_S258048x128_1_0_0_1 : ScatterDims S128x128 S258048x1 S258048x128 where
  updateWindowDims := [1]
  insertedWindowDims := [0]
  scatterDimsToOperandDims := [0]
  indexVectorDim := 1
  wf := scatter_S128x128_S258048x1_S258048x128_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.LibWithArrays.lean ====
/-
  A general fact about the buffer contents a kernel region leaves behind.
  A region changes only the arrays of its pipeline's windows; `Pipeline.withArrays win c V A` is the valuation that holds
  `A w` at window `w`'s array and `V` everywhere else. When `A` differs from `V` at ONE window's array only (a region
  with one result array), that valuation is `V` overwritten at that one reference.
-/
import Idealize.ShloMosaic.Lib.Pipeline.FrameSuffix

noncomputable section

namespace Idealize.ShloMosaic.Pipeline

open Idealize.ShloMosaic Idealize.ShloMosaic.TcCoe

variable {nD : Nat} {τ : Topo} {sig : RefSig} {Val : EltTy → Type}

/-- Overwriting, in a valuation `V`, the array of the one window `wo` by what `withArrays win c V A` holds there gives
    `withArrays win c V A` itself, provided `A` leaves every other window's array at `V`'s contents: at the overwritten
    reference both sides are that value; at another window's array `A` agrees with `V`; anywhere else `withArrays`
    reads `V`. -/
theorem update_eq_withArrays {gr : Nat} {W : Nat} (win : Fin W → WinSpec sig gr) (hinj : Function.Injective (arrRef win))
    (c : Dev nD) (V : Valuation τ sig Val) (A : (w : Fin W) → Buf Val ((win w).arr.view.loc (c.tc : Thread nD τ)))
    (wo : Fin W) (hA : ∀ w, w ≠ wo → A w = V (Proc.devRef .tc (arrRef win w))) :
    Function.update V (Proc.devRef .tc (arrRef win wo)) (withArrays win c V A (Proc.devRef .tc (arrRef win wo)))
      = withArrays win c V A := by
  funext b
  by_cases hb : b = Proc.devRef .tc (arrRef win wo)
  · subst hb; rw [Function.update_self]
  · rw [Function.update_of_ne hb]
    by_cases h : ∃ w, Proc.devRef (τ := τ) .tc (arrRef win w) = b
    · obtain ⟨w, rfl⟩ := h
      have hw : w ≠ wo := fun e => hb (by rw [e])
      rw [withArrays_arr win hinj c V A w, hA w hw]
    · unfold withArrays; rw [dif_neg h]

end Idealize.ShloMosaic.Pipeline

end
-- ==== Proof.KI.Reg0.lean ====
/-
  Region 0 of the idealized kernel's @main: a fused projection, the row-tiled matrix product x @ w.
  Grid point t stages a block of 2048 rows of x (window 0), the whole of w (window 1, fetched once: its block index
  never moves) and writes back the same 2048 rows of the result (window 2). The body reads the two input blocks whole
  and stores one value, their product, over the whole output block; nothing is kept between points.
  Everything here is stated at a PARAMETER V, the contents of the core's buffers when the region is entered, and at
  any float instance F: the blocks the pipeline stages, what the body leaves in the output block as a function of
  them, the body's triple, the region's proof data and its obligation at every point.
-/
import proofs.«408611_j10797547782338_1_alg».proof.Proof.Gen.KernelIdeal.Launch
import proofs.«408611_j10797547782338_1_alg».proof.Proof.Gen.KernelIdeal.Skeleton
import proofs.«408611_j10797547782338_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w the pipeline stages at point t: the window's array, as the region finds it, read through
    the block's rectangle. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of x, the whole of w and the whole result block, as the rectangles the body's one load of each
    and its one store address. -/
abbrev rX : Rect S2048x128 := Rect.unit (s := S2048x128) ![0, 0] S2048x128.size inb_S2048x128_S2048x128_0_0
abbrev rW : Rect S128x256 := Rect.unit (s := S128x256) ![0, 0] S128x256.size inb_S128x256_S128x256_0_0
abbrev rO : Rect S2048x256 := Rect.unit (s := S2048x256) ![0, 0] S2048x256.size inb_S2048x256_S2048x256_0_0

/-- What the body leaves in the result block, from the two input blocks: one piece, the product, over the whole block. -/
def outBlk (x : Vec F S2048x128 .f32) (w : Vec F S128x256 .f32) : Vec F S2048x256 .f32 :=
  View.canon [⟨rO, k0_pay1 (View.ld x rX) (View.ld w rW)⟩]

/-- The one store covers the result block. -/
theorem outCover (p : Vec F S2048x256 .f32) (y : S2048x256.Idx) :
    ∃ pc ∈ ([⟨rO, p⟩] : List (View.Piece (Elt F) S2048x256 .f32)), y ∈ pc.1.set :=
  View.cover_of_tiled [⟨rO, p⟩] S2048x256.size (by rfl) y

set_option maxHeartbeats 1000000 in
/-- The body on whole staging buffers: the inputs at x and w, the result buffer at anything. It ends with the inputs
    unchanged and the result buffer at the product of the two blocks. -/
theorem sound_kernel (c : Dev nD) (E : Set ℕ) (i : grid0.Coords)
    (arg1 : Memref sig .tc .vmem S2048x128 .f32) (harg1 : arg1.IsWhole)
    (arg2 : Memref sig .tc .vmem S128x256 .f32) (harg2 : arg2.IsWhole)
    (arg3 : Memref sig .tc .vmem S2048x256 .f32) (harg3 : arg3.IsWhole)
    (x : Vec F S2048x128 .f32) (w : Vec F S128x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (outBlk x w)) -∗ K ⟨⟩))
      ⊢ wp frame (wpE (defs₀ (F := F)) Variants.none c none) E (cc0__dense_proj_kernel i arg1 harg1 arg2 harg2 arg3 harg3) K := by
  simp only [cc0__dense_proj_kernel_eq_skeleton]; unfold cc0__dense_proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The region's proof data on core c: the arrays as the region finds them; after the body at point t the inputs'
    buffers hold their blocks and the result buffer the product of the two; the invariant is the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlk (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outBlk (blk V c 0 t) (blk V c 1 t) := by dsimp only [dat]

/-- An input's current staging buffer holds its block at every point, fetched there or not: where it is not fetched
    the block index has not moved since the fetch. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KI.Reg1.lean ====
/-
  Region 1 of the idealized kernel's @main: the pointwise max(a + b, 0) of two arrays of one shape, row-tiled.
  Grid point t stages the same block of 2048 rows of a (window 0) and of b (window 1) and writes back those rows of
  the result (window 2). The body reads the two blocks whole and stores one value over the whole output block;
  nothing is kept between points.
  Stated at a PARAMETER V, the contents of the core's buffers when the region is entered, and at any float instance F.
-/
import proofs.«408611_j10797547782338_1_alg».proof.Proof.Gen.KernelIdeal.Launch
import proofs.«408611_j10797547782338_1_alg».proof.Proof.Gen.KernelIdeal.Skeleton
import proofs.«408611_j10797547782338_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w the pipeline stages at point t: the window's array, as the region finds it, read through
    the block's rectangle. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole block of 2048 rows: the rectangle of each of the body's two loads and of its store. -/
abbrev rB : Rect S2048x128 := Rect.unit (s := S2048x128) ![0, 0] S2048x128.size inb_S2048x128_S2048x128_0_0

/-- What the body leaves in the result block, from the two input blocks: one piece, max(a + b, 0), over the whole block. -/
def outBlk (a b : Vec F S2048x128 .f32) : Vec F S2048x128 .f32 :=
  View.canon [⟨rB, k1_pay1 (View.ld a rB) (View.ld b rB)⟩]

/-- The one store covers the result block. -/
theorem outCover (p : Vec F S2048x128 .f32) (y : S2048x128.Idx) :
    ∃ pc ∈ ([⟨rB, p⟩] : List (View.Piece (Elt F) S2048x128 .f32)), y ∈ pc.1.set :=
  View.cover_of_tiled [⟨rB, p⟩] S2048x128.size (by rfl) y

set_option maxHeartbeats 1000000 in
/-- The body on whole staging buffers: the inputs at a and b, the result buffer at anything. It ends with the inputs
    unchanged and the result buffer at max(a + b, 0). -/
theorem sound_kernel (c : Dev nD) (E : Set ℕ) (i : grid1.Coords)
    (arg1 : Memref sig .tc .vmem S2048x128 .f32) (harg1 : arg1.IsWhole)
    (arg2 : Memref sig .tc .vmem S2048x128 .f32) (harg2 : arg2.IsWhole)
    (arg3 : Memref sig .tc .vmem S2048x128 .f32) (harg3 : arg3.IsWhole)
    (a b : Vec F S2048x128 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (outBlk a b)) -∗ K ⟨⟩))
      ⊢ wp frame (wpE (defs₀ (F := F)) Variants.none c none) E (cc1__add_relu_kernel i arg1 harg1 arg2 harg2 arg3 harg3) K := by
  simp only [cc1__add_relu_kernel_eq_skeleton]; unfold cc1__add_relu_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The region's proof data on core c: the arrays as the region finds them; after the body at point t the inputs'
    buffers hold their blocks and the result buffer max(a + b, 0) of the two; the invariant is the scoped rest and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = outBlk (blk V c 0 t) (blk V c 1 t) := by dsimp only [dat]

/-- An input's current staging buffer holds its block at every point. -/
theorem before_0 (c : Dev nD) (t : Fin cfg1.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Acc6.lean ====
/-
  Region 6 of the idealized kernel's @main, the segment sum: the values its proof data are written over.
  The grid's point t stages rows [2048 t, 2048 (t+1)) of the 8192 x 128 features (window 0) and of the 8192 x 1
  segment ids (window 1); a 128 x 128 accumulator kept between points starts from the zero block at the first point
  and takes at every point the one-hot product of that point's rows; after the last point it is the output array
  (window 2, whose one block is the whole 128 x 128 array).
  Everything is stated at a PARAMETER V, the contents of the core's buffers when the region is entered, and at any
  float instance F.
-/
import proofs.«408611_j10797547782338_1_alg».proof.Proof.Gen.KernelIdeal.Launch
import proofs.«408611_j10797547782338_1_alg».proof.Proof.Gen.KernelIdeal.Skeleton
import proofs.«408611_j10797547782338_1_alg».proof.Proof.Gen.KernelIdeal.Points

set_option maxRecDepth 16384

noncomputable section

namespace Cert.KernelIdeal.Reg6

open Cert.KernelIdeal Cert.KernelIdeal.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-- The block of window w the pipeline stages at point t: the window's array, as the region finds it, read through
    the block's rectangle. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The grid has a point. -/
theorem N_pos : 0 < cfg6.N := by rw [show cfg6.N = grid6.N from rfl, N_6]; decide

/-- The grid's point n, and past the grid its last point. -/
def pt (n : ℕ) : Fin cfg6.N := ⟨min n (cfg6.N - 1), by have := N_pos; omega⟩

theorem pt_val (t : Fin cfg6.N) : pt t.val = t := by
  apply Fin.ext; show min t.val (cfg6.N - 1) = t.val; have := t.isLt; omega

/-- The accumulator after point n: at the first point the zero block plus the one-hot product of that point's rows,
    at a later point what the point before left plus the product of its own rows. -/
def acc (c : Dev nD) : ℕ → Vec F S128x128 .f32
  | 0 => k6_pay2 (blk V c 0 (pt 0)) (blk V c 1 (pt 0)) k6_pay1
  | n + 1 => k6_pay2 (blk V c 0 (pt (n + 1))) (blk V c 1 (pt (n + 1))) (acc c n)

/-- What the region leaves in each window's array: an input's as the region found it; the output's the accumulator
    after the last point, over the whole array. -/
def fin (c : Dev nD) (w : Fin cfg6.W) : Buf (Elt F) ((cfg6.win w).arr.view.loc (c.tc : Thread nD τ)) :=
  match w with
  | ⟨0, _⟩ => V c (Pipeline.arrRef spec6 0)
  | ⟨1, _⟩ => V c (Pipeline.arrRef spec6 1)
  | ⟨2, _⟩ => acc V c (cfg6.N - 1)

end Cert.KernelIdeal.Reg6

end
-- ==== Proof.KI.Reg6.lean ====
/-
  Region 6 of the idealized kernel's @main: the segment sum, a one-hot matrix product accumulated over the grid.
  Its grid is one axis of points; point t stages rows [2048 t, 2048 (t+1)) of the 8192 x 128 features (window 0) and of
  the 8192 x 1 segment ids (window 1). The body keeps a 128 x 128 accumulator in a scratch buffer of its own between
  points: at the first point it stores the zero block there; at every point it adds the one-hot product of the point's
  rows to it; at the last point it copies it to the output block (window 2, whose one block is the whole 128 x 128
  array and is written back after that point only). At the other points the output's buffer is left as found.
  Everything here is stated at a PARAMETER V, the contents of the core's buffers when the region is entered, and at
  any float instance F: the body's triple in each of its three cases, the region's proof data, whose invariant carries
  the accumulator at its value after each point, the obligation at every point, how the invariant is entered and left,
  and what the windows' arrays hold after the region.
-/
import proofs.«408611_j10797547782338_1_alg».proof.Proof.KI.Acc6
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Reg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every whole-block access of the body are zero. -/
theorem hz : (![0, 0] : Fin 2 → Nat) = fun _ => 0 := funext fun a => by fin_cases a <;> rfl

/-- The body's first conditional, as the kernel computes it from the grid coordinate: the accumulator is reset where
    the coordinate is zero. -/
abbrev cond1 (i : grid6.Coords) : Prop :=
  (Scalar.cmpi .ne (Scalar.extui (Scalar.cmpi .eq (BitVec.ofNat 32 (i 0).val) 0#32)) 0#32) = 1#1

/-- One step of the accumulation: the accumulator a, the point's rows x and segment ids s. -/
abbrev step (x : Vec F S2048x128 .f32) (s : Vec F S2048x1 .i32) (a : Vec F S128x128 .f32) : Vec F S128x128 .f32 :=
  k6_pay2 x s a

set_option maxHeartbeats 1000000 in
/-- The body at a point that resets the accumulator and does not copy it out, on whole memrefs: the rows at x, the
    ids at s, the output buffer at o, the accumulator at anything. It ends with the inputs and the output buffer
    unchanged and the accumulator at one step from the zero block. -/
theorem sound_first (c : Dev nD) (E : Set ℕ) (i : grid6.Coords) (hc1 : cond1 i) (hc2 : ¬ k6_cond2 i = 1#1)
    (arg1 : Memref sig .tc .vmem S2048x128 .f32) (harg1 : arg1.IsWhole)
    (arg2 : Memref sig .tc .vmem S2048x1 .i32) (harg2 : arg2.IsWhole)
    (arg3 : Memref sig .tc .vmem S128x128 .f32) (harg3 : arg3.IsWhole)
    (arg4 : Memref sig .tc .vmem S128x128 .f32) (harg4 : arg4.IsWhole)
    (x : Vec F S2048x128 .f32) (s : Vec F S2048x1 .i32) (o : Vec F S128x128 .f32) (K : PUnit → sProp 𝕄) :
    iprop(owns (c : Thread nD τ) arg1 fullShare x ∗ owns (c : Thread nD τ) arg2 fullShare s
        ∗ owns (c : Thread nD τ) arg3 fullShare o
        ∗ (∃ d, owns (c : Thread nD τ) arg4 fullShare d)
        ∗ (iprop(owns (c : Thread nD τ) arg1 fullShare x ∗ owns (c : Thread nD τ) arg2 fullShare s
            ∗ owns (c : Thread nD τ) arg3 fullShare o
            ∗ owns (c : Thread nD τ) arg4 fullShare (step x s k6_pay1)) -∗ K ⟨⟩))
      ⊢ wp frame (wpE (defs₀ (F := F)) Variants.none c none) E (cc6__segsum_kernel i arg1 harg1 arg2 harg2 arg3 harg3 arg4 harg4) K := by
  simp only [cc6__segsum_kernel_eq_skeleton]; unfold cc6__segsum_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz inb_S128x128_S128x128_0_0 y⟩)]
  rw [View.canon_cons_unit_zero hz, View.readCov_cons_toLoadRect, View.readAt_eq_ld, View.readAt_eq_ld,
    View.ld_unit_zero (S := S2048x128) hz, View.ld_unit_zero (S := S2048x1) hz]

set_option maxHeartbeats 1000000 in
/-- The body at a point that neither resets the accumulator nor copies it out: the accumulator at a. It ends with
    the inputs and the output buffer unchanged and the accumulator one step on. -/
theorem sound_mid (c : Dev nD) (E : Set ℕ) (i : grid6.Coords) (hc1 : ¬ cond1 i) (hc2 : ¬ k6_cond2 i = 1#1)
    (arg1 : Memref sig .tc .vmem S2048x128 .f32) (harg1 : arg1.IsWhole)
    (arg2 : Memref sig .tc .vmem S2048x1 .i32) (harg2 : arg2.IsWhole)
    (arg3 : Memref sig .tc .vmem S128x128 .f32) (harg3 : arg3.IsWhole)
    (arg4 : Memref sig .tc .vmem S128x128 .f32) (harg4 : arg4.IsWhole)
    (x : Vec F S2048x128 .f32) (s : Vec F S2048x1 .i32) (o : Vec F S128x128 .f32) (a : Vec F S128x128 .f32) (K : PUnit → sProp 𝕄) :
    iprop(owns (c : Thread nD τ) arg1 fullShare x ∗ owns (c : Thread nD τ) arg2 fullShare s
        ∗ owns (c : Thread nD τ) arg3 fullShare o
        ∗ owns (c : Thread nD τ) arg4 fullShare a
        ∗ (iprop(owns (c : Thread nD τ) arg1 fullShare x ∗ owns (c : Thread nD τ) arg2 fullShare s
            ∗ owns (c : Thread nD τ) arg3 fullShare o
            ∗ owns (c : Thread nD τ) arg4 fullShare (step x s a)) -∗ K ⟨⟩))
      ⊢ wp frame (wpE (defs₀ (F := F)) Variants.none c none) E (cc6__segsum_kernel i arg1 harg1 arg2 harg2 arg3 harg3 arg4 harg4) K := by
  simp only [cc6__segsum_kernel_eq_skeleton]; unfold cc6__segsum_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_cons_self .., View.mem_set_unit_zero hz inb_S128x128_S128x128_0_0 y⟩)]
  rw [View.canon_unit_zero hz, View.readAt_eq_ld, View.readAt_eq_ld, View.readAt_eq_ld,
    View.ld_unit_zero (S := S2048x128) hz, View.ld_unit_zero (S := S2048x1) hz, View.ld_unit_zero (S := S128x128) hz]

set_option maxHeartbeats 1000000 in
/-- The body at a point that does not reset the accumulator and copies it out: the accumulator at a, the output
    buffer at anything. It ends with the inputs unchanged, and the accumulator and the output buffer both one step on. -/
theorem sound_last (c : Dev nD) (E : Set ℕ) (i : grid6.Coords) (hc1 : ¬ cond1 i) (hc2 : k6_cond2 i = 1#1)
    (arg1 : Memref sig .tc .vmem S2048x128 .f32) (harg1 : arg1.IsWhole)
    (arg2 : Memref sig .tc .vmem S2048x1 .i32) (harg2 : arg2.IsWhole)
    (arg3 : Memref sig .tc .vmem S128x128 .f32) (harg3 : arg3.IsWhole)
    (arg4 : Memref sig .tc .vmem S128x128 .f32) (harg4 : arg4.IsWhole)
    (x : Vec F S2048x128 .f32) (s : Vec F S2048x1 .i32) (a : Vec F S128x128 .f32) (K : PUnit → sProp 𝕄) :
    iprop(owns (c : Thread nD τ) arg1 fullShare x ∗ owns (c : Thread nD τ) arg2 fullShare s
        ∗ (∃ d, owns (c : Thread nD τ) arg3 fullShare d)
        ∗ owns (c : Thread nD τ) arg4 fullShare a
        ∗ (iprop(owns (c : Thread nD τ) arg1 fullShare x ∗ owns (c : Thread nD τ) arg2 fullShare s
            ∗ owns (c : Thread nD τ) arg3 fullShare (step x s a)
            ∗ owns (c : Thread nD τ) arg4 fullShare (step x s a)) -∗ K ⟨⟩))
      ⊢ wp frame (wpE (defs₀ (F := F)) Variants.none c none) E (cc6__segsum_kernel i arg1 harg1 arg2 harg2 arg3 harg3 arg4 harg4) K := by
  simp only [cc6__segsum_kernel_eq_skeleton]; unfold cc6__segsum_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons_self .., View.mem_set_unit_zero hz inb_S128x128_S128x128_0_0 y⟩)]
    rw [View.canon_unit_zero hz, View.readCov_cons_toLoadRect, View.readAt_eq_ld, View.readAt_eq_ld, View.readAt_eq_ld,
      View.ld_unit_zero (S := S2048x128) hz, View.ld_unit_zero (S := S2048x1) hz, View.ld_unit_zero (S := S128x128) hz]
  iexists _; isplitr
  swap; · iexact H4
  ipureintro
  sl_unfold_run_names
  rw [View.read_writes_eq_canon _ _ _ (fun y => ⟨_, List.mem_cons_self .., View.mem_set_unit_zero hz inb_S128x128_S128x128_0_0 y⟩)]
  rw [View.canon_unit_zero hz, View.readAt_eq_ld, View.readAt_eq_ld, View.readAt_eq_ld,
    View.ld_unit_zero (S := S2048x128) hz, View.ld_unit_zero (S := S2048x1) hz, View.ld_unit_zero (S := S128x128) hz]

variable (V : (c : Dev nD) → (b : Ref sig .tc) → Buf (Elt F) ((c : Thread nD τ).loc b))

/-! ## The accumulator, point by point -/

theorem pt_mk (n : ℕ) (hn : n < cfg6.N) : pt n = ⟨n, hn⟩ := pt_val ⟨n, hn⟩

/-- At the first point the accumulator is one step from the zero block, -/
theorem acc_first (c : Dev nD) (t : Fin cfg6.N) (h : t.val = 0) :
    acc V c t.val = step (blk V c 0 t) (blk V c 1 t) k6_pay1 := by
  obtain ⟨n, hn⟩ := t
  obtain rfl : n = 0 := h
  show step (blk V c 0 (pt 0)) (blk V c 1 (pt 0)) k6_pay1 = _
  rw [pt_mk 0 hn]

/-- at a later point one step from what the point before left. -/
theorem acc_later (c : Dev nD) (t : Fin cfg6.N) (h : t.val ≠ 0) :
    acc V c t.val = step (blk V c 0 t) (blk V c 1 t) (acc V c (t.val - 1)) := by
  obtain ⟨n, hn⟩ := t
  cases n with
  | zero => exact absurd rfl h
  | succ n =>
    show step (blk V c 0 (pt (n + 1))) (blk V c 1 (pt (n + 1))) (acc V c n) = _
    rw [pt_mk (n + 1) hn]; rfl

/-! ## The body's conditions and the output window's schedule, over the grid -/

/-- The grid has more than one point. -/
theorem N_gt_one : 1 < cfg6.N := by rw [show cfg6.N = grid6.N from rfl, N_6]; decide

/-- The accumulator is reset at the first point only. -/
theorem hcond1 : ∀ t : Fin cfg6.N, cond1 (grid6.coords t) ↔ t.val = 0 :=
  (by decide +kernel : ∀ t : Fin grid6.N, cond1 (grid6.coords t) ↔ t.val = 0)

/-- It is copied to the output block at the last point only, -/
theorem hcond2 : ∀ t : Fin cfg6.N, k6_cond2 (grid6.coords t) = 1#1 ↔ t.val + 1 = cfg6.N :=
  (by decide +kernel : ∀ t : Fin grid6.N, k6_cond2 (grid6.coords t) = 1#1 ↔ t.val + 1 = grid6.N)

/-- which is the one point that writes the output block back. -/
theorem flush_last : ∀ t : Fin cfg6.N, (cfg6.win 2).flush t = true ↔ t.val + 1 = cfg6.N :=
  (by decide +kernel : ∀ t : Fin grid6.N, win6_2.flush t = true ↔ t.val + 1 = grid6.N)

/-- Where the accumulator is not copied out the output window is idle and is not written back; -/
theorem idle_out (t : Fin cfg6.N) (h : ¬ k6_cond2 (grid6.coords t) = 1#1) : cfg6.idle 2 (cfg6.grid.coords t) = true := by
  have hb : (k6_cond2 (grid6.coords t) == 1#1) = false := beq_eq_false_iff_ne.mpr h
  show (!(k6_cond2 (grid6.coords t) == 1#1)) = true
  rw [hb]; rfl

theorem noflush_out (t : Fin cfg6.N) (h : ¬ k6_cond2 (grid6.coords t) = 1#1) : (cfg6.win 2).flush t = false :=
  Bool.eq_false_iff.mpr fun hf => h ((hcond2 t).mpr ((flush_last t).mp hf))

/-- where it is, the window is live. -/
theorem live_out (t : Fin cfg6.N) (h : k6_cond2 (grid6.coords t) = 1#1) : cfg6.idle 2 (cfg6.grid.coords t) = false := by
  show (!(k6_cond2 (grid6.coords t) == 1#1)) = false
  rw [h]; rfl

/-! ## The region's proof data -/

/-- The accumulator: the kernel's scratch operand, a whole scoped buffer of its own. -/
abbrev scr : Memref sig .tc .vmem S128x128 .f32 := Memref.whole cc6_scratch0

/-- The invariant before point n (and after point n - 1): the accumulator at what the point before left (at anything
    before the first point), the other scoped buffers no window stages at some contents each, and the generator
    register at some state. -/
def Phi (c : Dev nD) (n : ℕ) : sProp 𝕄 :=
  iprop((∃ a, ⌜n ≠ 0 → a = acc V c (n - 1)⌝ ∗ owns (c : Thread nD τ) scr fullShare a)
    ∗ Pipeline.scopedRestBut spec6 c [cc6_scratch0] ∗ (∃ r, prngReg c r))

/-- The region's proof data on core c: the arrays as the region finds them; after the body at point t the inputs'
    buffers hold their blocks and (at the last point, where it is stored) the output's buffer the accumulator; the
    invariant carries the accumulator; nothing owed; full shares. -/
def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => acc V c t.val
  Φ t := Phi V c t.val
  q _ := fullShare
  owed _ := 0

theorem A_eq (c : Dev nD) (w : Fin cfg6.W) : (dat V c).A w = V c (Pipeline.arrRef spec6 w) := by
  dsimp only [dat]
theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = acc V c t.val := by dsimp only [dat]

/-- An input's current staging buffer holds its block at every point. -/
theorem before_0 (c : Dev nD) (t : Fin cfg6.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg6.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- What the body is called with at point t, the windows one by one, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))

/-- and what it returns: the output's buffer as it found it where the window is idle. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ (dat V c).leavesExact 2 t)

set_option maxHeartbeats 1000000 in
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1]
  rw [show (dat V c).Φ t.castSucc = Phi V c t.val from rfl,
    show (dat V c).Φ t.succ = Phi V c (t.val + 1) from rfl,
    show (dat V c).owesAt () t.succ = (dat V c).owesAt () t.castSucc from rfl, after_0, after_1]
  unfold Phi
  by_cases h2 : k6_cond2 (grid6.coords t) = 1#1
  · -- the last point
    have hl : t.val + 1 = cfg6.N := (hcond2 t).mp h2
    have h0 : t.val ≠ 0 := by have := N_gt_one; omega
    have h1 : ¬ cond1 (grid6.coords t) := fun h => h0 ((hcond1 t).mp h)
    rw [show (dat V c).leavesExact 2 t = owns (c : Thread nD τ) (st6_2 t) fullShare ((dat V c).after 2 t) from by
      unfold Dat.leavesExact; rw [live_out t h2], after_2, acc_later V c t h0]
    iintro ⟨⟨⟨%a, %ha, HS⟩, HR, Hg⟩, Ho, ⟨%d0, H0⟩, ⟨%d1, H1⟩, ⟨%d2, H2⟩⟩
    obtain rfl := ha h0
    iapply (sound_last c Set.univ _ h1 h2 _ _ _ _ _ _ _ _ (blk V c 0 t) (blk V c 1 t) (acc V c (t.val - 1)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]
      · iexists _; isplitr
        swap; · iexact HS
        ipureintro; intro _; exact (acc_later V c t h0).symm
      isplitl [HR]; · iexact HR
      iexact Hg
    isplitl [Ho]; · iexact Ho
    isplitl [H0]; · iexact H0
    isplitl [H1]; · iexact H1
    iexact H2
  · -- a point that leaves the output window idle
    rw [(dat V c).leavesExact_idle 2 t (idle_out t h2) (noflush_out t h2)]
    by_cases h0 : t.val = 0
    · -- the first point
      have h1 : cond1 (grid6.coords t) := (hcond1 t).mpr h0
      iintro ⟨⟨⟨%a, -, HS⟩, HR, Hg⟩, Ho, ⟨%d0, H0⟩, ⟨%d1, H1⟩, ⟨%d2, H2⟩⟩
      iapply (sound_first c Set.univ _ h1 h2 _ _ _ _ _ _ _ _ (blk V c 0 t) (blk V c 1 t) ((dat V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]
        · iexists _; isplitr
          swap; · iexact HS
          ipureintro; intro _; exact (acc_first V c t h0).symm
        isplitl [HR]; · iexact HR
        iexact Hg
      isplitl [Ho]; · iexact Ho
      isplitl [H0]; · iexact H0
      isplitl [H1]; · iexact H1
      iexists _; iexact H2
    · -- a middle point
      have h1 : ¬ cond1 (grid6.coords t) := fun h => h0 ((hcond1 t).mp h)
      iintro ⟨⟨⟨%a, %ha, HS⟩, HR, Hg⟩, Ho, ⟨%d0, H0⟩, ⟨%d1, H1⟩, ⟨%d2, H2⟩⟩
      obtain rfl := ha h0
      iapply (sound_mid c Set.univ _ h1 h2 _ _ _ _ _ _ _ _ (blk V c 0 t) (blk V c 1 t) ((dat V c).before 2 t d2) (acc V c (t.val - 1)) _)
      isplitl [H0]; · iexact H0
      isplitl [H1]; · iexact H1
      isplitl [H2]; · iexact H2
      isplitl [HS]; · iexact HS
      iintro ⟨H0, H1, H2, HS⟩
      isplitl [HS HR Hg]
      · isplitl [HS]
        · iexists _; isplitr
          swap; · iexact HS
          ipureintro; intro _; exact (acc_later V c t h0).symm
        isplitl [HR]; · iexact HR
        iexact Hg
      isplitl [Ho]; · iexact Ho
      isplitl [H0]; · iexact H0
      isplitl [H1]; · iexact H1
      iexists _; iexact H2

/-- The library's body obligation for this region, at every point. -/
theorem body_obligation (c : Dev nD) : BodyObligation (dat (F := F) V c) (defs₀ (F := F)) Variants.none () Set.univ := fun t => by
  rw [bigSep_W6, bigSep_W6]
  exact sound_body V c t

/-- The generator register, the tables (there are none) and the scoped buffers no window stages make the invariant
    before the first point: the accumulator is among those buffers, at some contents. -/
theorem hin (c : Dev nD) : iprop((∃ r, prngReg c r) ∗ Pipeline.prefHeld (pcfgs (F := F) 6).pre c (fun _ => fullShare) ((cfgs 6).toPCfg_adm).1 ∗ Pipeline.scopedRest spec6 c) ⊢ ((dat V c).Φ 0 : sProp 𝕄) := by
  rw [show (dat V c).Φ 0 = Phi V c 0 from rfl, scopedRest6_split]
  unfold Phi
  simp only [owns_whole]
  iintro ⟨Hg, -, ⟨%f, HS⟩, HR⟩
  isplitl [HS]
  · iexists f; isplitr
    · ipureintro; exact fun h => absurd rfl h
    iexact HS
  isplitl [HR]; · iexact HR
  iexact Hg

/-- The invariant after the last point gives the generator register and those scoped buffers back: what the
    accumulator holds is forgotten. -/
theorem hout (c : Dev nD) : (dat V c).Φ (Fin.last cfg6.N) ⊢ (iprop((∃ r, prngReg c r) ∗ Pipeline.scopedRest spec6 c) : sProp 𝕄) := by
  rw [show (dat V c).Φ (Fin.last cfg6.N) = Phi V c cfg6.N from rfl, scopedRest6_split]
  unfold Phi
  simp only [owns_whole]
  iintro ⟨⟨%a, -, HS⟩, HR, Hg⟩
  isplitl [Hg]; · iexact Hg
  isplitl [HS]; · iexists a; iexact HS
  iexact HR

/-! ## What the region leaves in the windows' arrays -/

/-- The output window's block lies at the array's origin, at every point: its index map is constant zero. -/
theorem hz_out (t : Fin cfg6.N) : (fun a => win6_2.index t a * (Pipeline.arrRef spec6 2).ty.shape.size a) = fun _ => 0 :=
  funext fun a => by fin_cases a <;> rfl

/-- The one write-back, at the last point, writes the accumulator as that point leaves it over the whole array: the
    window's block read through zero offsets is the array. -/
theorem flushed_eq (c : Dev nD) (t : Fin cfg6.N) (hf : (cfg6.win 2).flush t = true) :
    (dat V c).flushed 2 t = ((cfg6.win 2).blk t).view.read (Elt F) (fin V c 2) := by
  have hl : t.val = cfg6.N - 1 := by have := (flush_last t).mp hf; omega
  show (cfg6.win 2).cut (grid6.coords t) ((dat V c).after 2 t) = _
  rw [after_2, hl]
  exact (Memref.read_access_unit_zero (Elt F) (Pipeline.arrRef spec6 2) (hz_out t)
    (fun a => by rw [congrFun (hz_out t) a]; simp) (fin V c 2)).symm

/-- The last point. -/
def tl : Fin cfg6.N := ⟨cfg6.N - 1, by have := N_pos; omega⟩

theorem tl_val : tl.val + 1 = cfg6.N := by have := N_pos; show cfg6.N - 1 + 1 = cfg6.N; omega

/-- The last point's block covers the array. -/
theorem cover_out (c : Dev nD) (i : ((cfg6.win 2).arr.view.loc (c.tc : Thread nD τ)).2.ty.Idx) :
    ∃ t : Fin cfg6.N, (cfg6.win 2).flush t = true ∧ i ∈ ((cfg6.win 2).blk t).view.set := by
  refine ⟨tl, (flush_last tl).mpr tl_val, ?_⟩
  show i ∈ ((View.whole (Pipeline.arrRef spec6 2)).slice (win6_2.rect tl)).set
  rw [View.set_slice_whole]
  exact View.mem_set_unit_zero (hz_out tl) _ i

/-- After the region every window's array holds fin: an input's is never written; the output's is written once, whole,
    with the accumulator after the last point. -/
theorem arrAt_fin (c : Dev nD) (w : Fin cfg6.W) : (dat V c).arrAt w cfg6.N = fin V c w := by
  match w with
  | ⟨0, _⟩ => exact ((dat V c).arrAt_in 0 rfl _).trans (A_eq V c 0)
  | ⟨1, _⟩ => exact ((dat V c).arrAt_in 1 rfl _).trans (A_eq V c 1)
  | ⟨2, _⟩ => exact (dat V c).arrAt_eq_of_cover 2 (fin V c 2) (flushed_eq V c) (cover_out c)

end Cert.KernelIdeal.Reg6

end
-- ==== Proof.PreFacts.lean ====
/-
  THE INDEX RANGES THE PRECONDITION STATES, READ OUT OF ITS PRINTED FORM.

  The precondition is a conjunction of one-bit facts, each the "and" over a whole array of an elementwise test. Its
  last four conjuncts test index arrays: each entry w, read as a signed 32-bit integer, satisfies -n ≤ w < n, for
  n = 8192 (row 0 of the first edge list, and the two pair lists) and n = 258048 (row 0 of the second edge list).
  A conjunction of bits is 1 exactly when every bit is; an "and" over an array is 1 only if every entry is; and a
  signed comparison of words is the comparison of their signed values. So from "the precondition is all ones" follow
  the four ranges, entry by entry.  Nothing here depends on how floats are modelled.
-/
import proofs.«408611_j10797547782338_1_alg».proof.Pre_finite_inputs
import proofs.«408611_j10797547782338_1_alg».proof.Proof.Gen.Pre_finite_inputs
import Idealize.ShloMosaic.Lib.ReduceAll
import Idealize.ShloMosaic.Lib.ValueLayout
import Idealize.ShloMosaic.Lib.StableHlo.Predicate

noncomputable section

namespace Cert.PreFacts

open Idealize.ShloMosaic Idealize.ShloMosaic.ValueIdx
open Cert.Pre_finite_inputs

/-- A 32-bit word whose signed value lies in [-n, n): a position counted from the front (0 ≤ w < n) or from the
    back (-n ≤ w < 0) of an axis of n entries. -/
def InRange (n : ℤ) (w : BitVec 32) : Prop := -n ≤ w.toInt ∧ w.toInt < n

/-! ## Words: a signed comparison of words compares their signed values -/

theorem cmpi_sge_iff (w c : BitVec 32) : IntOp.cmpi .sge w c = 1#1 ↔ c.toInt ≤ w.toInt := by
  show BitVec.ofBool (c.sle w) = 1#1 ↔ _
  rw [StableHlo.Predicate.ofBool_eq_one_iff]
  simp only [BitVec.sle, decide_eq_true_eq]

theorem cmpi_slt_iff (w c : BitVec 32) : IntOp.cmpi .slt w c = 1#1 ↔ w.toInt < c.toInt := by
  show BitVec.ofBool (w.slt c) = 1#1 ↔ _
  rw [StableHlo.Predicate.ofBool_eq_one_iff]
  simp only [BitVec.slt, decide_eq_true_eq]

/-- The four constants the tests compare with, as signed values: 2³² - 8192 is -8192, 2³² - 258048 is -258048. -/
theorem toInt_neg8192 : (4294959104#32 : BitVec 32).toInt = -8192 := by decide
theorem toInt_8192 : (8192#32 : BitVec 32).toInt = 8192 := by decide
theorem toInt_neg258048 : (4294709248#32 : BitVec 32).toInt = -258048 := by decide
theorem toInt_258048 : (258048#32 : BitVec 32).toInt = 258048 := by decide

/-- The two tests on a word, both 1, say it is in [-8192, 8192). -/
theorem inRange_8192 {w : BitVec 32}
    (h : IntOp.cmpi .sge w 4294959104#32 = 1#1 ∧ IntOp.cmpi .slt w 8192#32 = 1#1) : InRange 8192 w := by
  obtain ⟨h1, h2⟩ := h
  rw [cmpi_sge_iff, toInt_neg8192] at h1
  rw [cmpi_slt_iff, toInt_8192] at h2
  exact ⟨h1, h2⟩

/-- The two tests on a word, both 1, say it is in [-258048, 258048). -/
theorem inRange_258048 {w : BitVec 32}
    (h : IntOp.cmpi .sge w 4294709248#32 = 1#1 ∧ IntOp.cmpi .slt w 258048#32 = 1#1) : InRange 258048 w := by
  obtain ⟨h1, h2⟩ := h
  rw [cmpi_sge_iff, toInt_neg258048] at h1
  rw [cmpi_slt_iff, toInt_258048] at h2
  exact ⟨h1, h2⟩

/-! ## Arrays: row 0 of a two-row array, taken as a slice and flattened -/

/-- The scalar shape has one index. -/
instance : Subsingleton S_.Idx := ⟨fun a b => funext fun d => d.elim0⟩

/-- Row 0 of a [2 × n] array, cut out as a [1 × n] slice and flattened to [n], reads at e the array at (0, e). -/
theorem row0_read {α : Type} {n : Nat} (X : (⟨2, ![2, n]⟩ : Shape).Idx → α)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] X hs) hc (ix1 e) = X (ix2 (0 : Fin 2) e) :=
  (shapeCast_1a_a_apply _ hc e).trans (slice2_axis0_apply 0 X hs 0 e 0 rfl)

/-! ## The printed conjunction, opened from its last part backwards -/

section Parts
variable {F : FTy → Type} [FloatOps F] [Facts]

/-- The last part: the bit carried in is 1, and every entry of the two test arrays carried in passes. -/
theorem of_part5 (v81 : IVec S_ 1) (v83 : IVec S454772 32) (v85 : IVec S454772 1)
    (h : fn_part5 (F := F) v81 v83 v85 = fun _ => 1#1) :
    v81 ix0 = 1#1 ∧ ∀ i : S454772.Idx, v85 i = 1#1 ∧ IntOp.cmpi .slt (v83 i) 258048#32 = 1#1 := by
  obtain ⟨h1, h2⟩ := IntOp.andi_eq_one.1 (congrFun h ix0)
  refine ⟨h1, fun i => ?_⟩
  exact IntOp.andi_eq_one.1 (Host.reduce_andi_all _ _ _ _ _ h2 i)

/-- The part before it: the bit carried in is 1; the two pair lists pass both tests at every entry; and so does
    row 0 of the second edge list. -/
theorem of_part4 (a14 a15 : IVec S258048 32) (a17 : IVec S2x454772 32) (v67 : IVec S_ 1)
    (h : fn_part4 (F := F) a14 a15 a17 v67 (constantI S_ 32 4294959104#32) = fun _ => 1#1) :
    v67 ix0 = 1#1
    ∧ (∀ p : S258048.Idx, IntOp.cmpi .sge (a14 p) 4294959104#32 = 1#1 ∧ IntOp.cmpi .slt (a14 p) 8192#32 = 1#1)
    ∧ (∀ p : S258048.Idx, IntOp.cmpi .sge (a15 p) 4294959104#32 = 1#1 ∧ IntOp.cmpi .slt (a15 p) 8192#32 = 1#1)
    ∧ (∀ e : Fin 454772, IntOp.cmpi .sge (a17 (ix2 (0 : Fin 2) e)) 4294709248#32 = 1#1
        ∧ IntOp.cmpi .slt (a17 (ix2 (0 : Fin 2) e)) 258048#32 = 1#1) := by
  obtain ⟨h81, h17⟩ := of_part5 (F := F) _ _ _ h
  obtain ⟨h74, h80⟩ := IntOp.andi_eq_one.1 h81
  obtain ⟨h67, h73⟩ := IntOp.andi_eq_one.1 h74
  refine ⟨h67, fun p => ?_, fun p => ?_, fun e => ?_⟩
  · exact IntOp.andi_eq_one.1 (Host.reduce_andi_all _ _ _ _ _ h73 p)
  · exact IntOp.andi_eq_one.1 (Host.reduce_andi_all _ _ _ _ _ h80 p)
  · have e83 := row0_read a17 Facts.slices_S2x454772_S1x454772_0_0 Facts.shapeCasts_S1x454772_S454772 e
    have t : IntOp.cmpi .sge (shapeCast S454772 (extractStridedSlice S1x454772 ![0, 0] a17
          Facts.slices_S2x454772_S1x454772_0_0) Facts.shapeCasts_S1x454772_S454772 (ix1 e)) 4294709248#32 = 1#1
        ∧ IntOp.cmpi .slt (shapeCast S454772 (extractStridedSlice S1x454772 ![0, 0] a17
          Facts.slices_S2x454772_S1x454772_0_0) Facts.shapeCasts_S1x454772_S454772 (ix1 e)) 258048#32 = 1#1 :=
      h17 (ix1 e)
    rw [e83] at t
    exact t

/-- The part before that: row 0 of the first edge list passes both tests at every entry, and the three facts above. -/
theorem of_part3 (a11 : FVec F S258048x1 .f32) (a12 : IVec S2x61594 32) (a14 a15 : IVec S258048 32)
    (a17 : IVec S2x454772 32) (v48 : IVec S_ 1) (v49 v50 : FVec F S10 .f32)
    (h : fn_part3 (F := F) a11 a12 a14 a15 a17 v48 v49 v50 = fun _ => 1#1) :
    (∀ e : Fin 61594, IntOp.cmpi .sge (a12 (ix2 (0 : Fin 2) e)) 4294959104#32 = 1#1
        ∧ IntOp.cmpi .slt (a12 (ix2 (0 : Fin 2) e)) 8192#32 = 1#1)
    ∧ (∀ p : S258048.Idx, IntOp.cmpi .sge (a14 p) 4294959104#32 = 1#1 ∧ IntOp.cmpi .slt (a14 p) 8192#32 = 1#1)
    ∧ (∀ p : S258048.Idx, IntOp.cmpi .sge (a15 p) 4294959104#32 = 1#1 ∧ IntOp.cmpi .slt (a15 p) 8192#32 = 1#1)
    ∧ (∀ e : Fin 454772, IntOp.cmpi .sge (a17 (ix2 (0 : Fin 2) e)) 4294709248#32 = 1#1
        ∧ IntOp.cmpi .slt (a17 (ix2 (0 : Fin 2) e)) 258048#32 = 1#1) := by
  obtain ⟨h67, h14, h15, h17⟩ := of_part4 (F := F) _ _ _ _ h
  obtain ⟨-, h66⟩ := IntOp.andi_eq_one.1 h67
  refine ⟨fun e => ?_, h14, h15, h17⟩
  have e60 := row0_read a12 Facts.slices_S2x61594_S1x61594_0_0 Facts.shapeCasts_S1x61594_S61594 e
  have t : IntOp.cmpi .sge (shapeCast S61594 (extractStridedSlice S1x61594 ![0, 0] a12
        Facts.slices_S2x61594_S1x61594_0_0) Facts.shapeCasts_S1x61594_S61594 (ix1 e)) 4294959104#32 = 1#1
      ∧ IntOp.cmpi .slt (shapeCast S61594 (extractStridedSlice S1x61594 ![0, 0] a12
        Facts.slices_S2x61594_S1x61594_0_0) Facts.shapeCasts_S1x61594_S61594 (ix1 e)) 8192#32 = 1#1 :=
    IntOp.andi_eq_one.1 (Host.reduce_andi_all _ _ _ _ _ h66 (ix1 e))
  rw [e60] at t
  exact t

end Parts

/-! ## The ranges -/

/-- THE RANGES. If the printed precondition of the eighteen arguments is all ones, then every entry of row 0 of the
    first edge list, of the first pair list and of the second pair list is in [-8192, 8192), and every entry of row 0
    of the second edge list is in [-258048, 258048).  (The parts of the conjunction before these four, which speak of
    the float arguments, are passed through unread.) -/
theorem ranges {F : FTy → Type} [FloatOps F] [Facts]
    (a0 : FVec F S8192x128 .f32) (a1 a2 : FVec F S3x128x128 .f32) (a3 a4 : FVec F S128x257 .f32)
    (a5 a6 : FVec F S128x128 .f32) (a7 : FVec F S128x256 .f32) (a8 : FVec F S128 .f32) (a9 : FVec F S10x128 .f32)
    (a10 : FVec F S10 .f32) (a11 : FVec F S258048x1 .f32) (a12 : IVec S2x61594 32) (a13 : IVec S8192 32)
    (a14 a15 a16 : IVec S258048 32) (a17 : IVec S2x454772 32)
    (h : fn (F := F) a0 a1 a2 a3 a4 a5 a6 a7 a8 a9 a10 a11 a12 a13 a14 a15 a16 a17 = fun _ => 1#1) :
    (∀ e : Fin 61594, InRange 8192 (a12 (ix2 (0 : Fin 2) e)))
    ∧ (∀ p : Fin 258048, InRange 8192 (a14 (ix1 p)))
    ∧ (∀ p : Fin 258048, InRange 8192 (a15 (ix1 p)))
    ∧ (∀ e : Fin 454772, InRange 258048 (a17 (ix2 (0 : Fin 2) e))) := by
  obtain ⟨h12, h14, h15, h17⟩ := of_part3 (F := F) _ _ _ _ _ _ _ _ h
  exact ⟨fun e => inRange_8192 (h12 e), fun p => inRange_8192 (h14 (ix1 p)), fun p => inRange_8192 (h15 (ix1 p)),
    fun e => inRange_258048 (h17 e)⟩

end Cert.PreFacts

end
-- ==== Proof.Spec.lean ====
/-
  The reference as a function of its eighteen argument arrays, read at the ideal instance (a float is an
  extended real, every operation its textbook one).

  Three message-passing layers over the node features h : 8192 x 128, each
      h  ↦  max (h · W1ᵀ + Σ_{e : dst e = v} (h · W2ᵀ)[src e], 0),
  the sum over the edges that end in row v; the per-graph sums of the rows of the last layer; the pair features
  [h[u], h[v], iso] : 258048 x 257; two more layers of the same shape over the 258048 pair rows; the per-graph
  sums of their rows; and on the two sums side by side one hidden layer max (· cw1ᵀ + cb1, 0) followed by
  · cw2ᵀ + cb2.

  An index array is read the way `x[idx]` reads it: a negative entry has the length of the indexed axis added
  to it first. A gather then clamps what is still out of range, a scatter-add drops it.

  Every definition below is the reference's own composition of operations on the named operands, so that the
  reference's run ends at `whole` of its arguments by unfolding, and the kernel's side is compared with these
  functions one layer at a time.
-/
import proofs.«408611_j10797547782338_1_alg».proof.ReferenceIdeal
import Idealize.ShloMosaic.PureOps.Ideal

noncomputable section

namespace Cert.Spec

open Idealize.ShloMosaic Idealize.SL.Sem
open Cert.ReferenceIdeal Cert.ReferenceIdeal.Facts₀

variable [Cert.ReferenceIdeal.Facts]

/-! ## Index arrays -/

/-- The 61594 edge ends as start indices into 8192 rows: a negative entry has 8192 added, and the result is
    the one-column array a gather or scatter takes. -/
def wrapIdx_61594_8192 (idx : IVec S61594 32) : IVec S61594x1 32 :=
  broadcastInDim S61594x1 ![0] bcast_S61594_S61594x1_0
    (select (cmpi .slt idx (broadcastInDim S61594 ![] bcast_S_S61594 (constantI S_ 32 0#32)))
      (addi idx (broadcastInDim S61594 ![] bcast_S_S61594 (constantI S_ 32 8192#32))) idx)

/-- The 258048 pair ends as start indices into 8192 rows. -/
def wrapIdx_258048_8192 (idx : IVec S258048 32) : IVec S258048x1 32 :=
  broadcastInDim S258048x1 ![0] bcast_S258048_S258048x1_0
    (select (cmpi .slt idx (broadcastInDim S258048 ![] bcast_S_S258048 (constantI S_ 32 0#32)))
      (addi idx (broadcastInDim S258048 ![] bcast_S_S258048 (constantI S_ 32 8192#32))) idx)

/-- The 454772 pair-graph edge ends as start indices into 258048 rows. -/
def wrapIdx_454772_258048 (idx : IVec S454772 32) : IVec S454772x1 32 :=
  broadcastInDim S454772x1 ![0] bcast_S454772_S454772x1_0
    (select (cmpi .slt idx (broadcastInDim S454772 ![] bcast_S_S454772 (constantI S_ 32 0#32)))
      (addi idx (broadcastInDim S454772 ![] bcast_S_S454772 (constantI S_ 32 258048#32))) idx)

/-- Row 0 of the 2 x 61594 edge array: the sources. -/
def row0 (e : IVec S2x61594 32) : IVec S61594 32 :=
  shapeCast S61594 (extractStridedSlice S1x61594 ![0, 0] e slices_S2x61594_S1x61594_0_0) shapeCasts_S1x61594_S61594

/-- Row 1 of the 2 x 61594 edge array: the destinations. -/
def row1 (e : IVec S2x61594 32) : IVec S61594 32 :=
  shapeCast S61594 (extractStridedSlice S1x61594 ![1, 0] e slices_S2x61594_S1x61594_1_0) shapeCasts_S1x61594_S61594

/-- Row 0 of the 2 x 454772 pair-graph edge array: the sources. -/
def row0' (e : IVec S2x454772 32) : IVec S454772 32 :=
  shapeCast S454772 (extractStridedSlice S1x454772 ![0, 0] e slices_S2x454772_S1x454772_0_0) shapeCasts_S1x454772_S454772

/-- Row 1 of the 2 x 454772 pair-graph edge array: the destinations. -/
def row1' (e : IVec S2x454772 32) : IVec S454772 32 :=
  shapeCast S454772 (extractStridedSlice S1x454772 ![1, 0] e slices_S2x454772_S1x454772_1_0) shapeCasts_S1x454772_S454772

/-! ## Weights -/

/-- Layer `l`'s 128 x 128 weight matrix out of the stack of three. -/
def layerW (w : FVec Ideal S3x128x128 .f32) (l : Fin 3) : FVec Ideal S128x128 .f32 :=
  match l with
  | 0 => shapeCast S128x128 (extractStridedSlice S1x128x128 ![0, 0, 0] w slices_S3x128x128_S1x128x128_0_0_0) shapeCasts_S1x128x128_S128x128
  | 1 => shapeCast S128x128 (extractStridedSlice S1x128x128 ![1, 0, 0] w slices_S3x128x128_S1x128x128_1_0_0) shapeCasts_S1x128x128_S128x128
  | 2 => shapeCast S128x128 (extractStridedSlice S1x128x128 ![2, 0, 0] w slices_S3x128x128_S1x128x128_2_0_0) shapeCasts_S1x128x128_S128x128

theorem layerW_zero (w : FVec Ideal S3x128x128 .f32) : layerW w 0 = shapeCast S128x128 (extractStridedSlice S1x128x128 ![0, 0, 0] w slices_S3x128x128_S1x128x128_0_0_0) shapeCasts_S1x128x128_S128x128 := rfl
theorem layerW_one (w : FVec Ideal S3x128x128 .f32) : layerW w 1 = shapeCast S128x128 (extractStridedSlice S1x128x128 ![1, 0, 0] w slices_S3x128x128_S1x128x128_1_0_0) shapeCasts_S1x128x128_S128x128 := rfl
theorem layerW_two (w : FVec Ideal S3x128x128 .f32) : layerW w 2 = shapeCast S128x128 (extractStridedSlice S1x128x128 ![2, 0, 0] w slices_S3x128x128_S1x128x128_2_0_0) shapeCasts_S1x128x128_S128x128 := rfl

/-! ## One message-passing layer: max (h · W1ᵀ + Σ over the edges into a row of (h · W2ᵀ) at the edge's source, 0) -/

/-- Over the 8192 node rows and the 61594 edges. -/
def mp8192 (h : FVec Ideal S8192x128 .f32) (W1 W2 : FVec Ideal S128x128 .f32) (src dst : IVec S61594 32) :
    FVec Ideal S8192x128 .f32 :=
  maximumf
    (addf
      (Host.dotGeneral (F := Ideal) dot_S8192x128_S128x128_S8192x128_1_0_0_1_n_n none h
        (transpose S128x128 [1, 0] W1 transposes_S128x128_S128x128_1_0))
      (Host.scatterAdd (F := Ideal) scatter_S8192x128_S61594x1_S61594x128_1_0_0_1
        (broadcastInDim S8192x128 ![] bcast_S_S8192x128 (constant (F := Ideal) S_ .f32 0x00000000#32))
        (wrapIdx_61594_8192 dst)
        (Host.gather gather_S8192x128_S61594x1_S61594x128_1_0_n_n_0_1_1128
          (Host.dotGeneral (F := Ideal) dot_S8192x128_S128x128_S8192x128_1_0_0_1_n_n none h
            (transpose S128x128 [1, 0] W2 transposes_S128x128_S128x128_1_0))
          (wrapIdx_61594_8192 src))))
    (broadcastInDim S8192x128 ![] bcast_S_S8192x128 (constant (F := Ideal) S_ .f32 0x00000000#32))

/-- Over the 258048 pair rows and the 454772 pair-graph edges, from 257 features to 128. -/
def mp258048a (h : FVec Ideal S258048x257 .f32) (W1 W2 : FVec Ideal S128x257 .f32) (src dst : IVec S454772 32) :
    FVec Ideal S258048x128 .f32 :=
  maximumf
    (addf
      (Host.dotGeneral (F := Ideal) dot_S258048x257_S257x128_S258048x128_1_0_0_1_n_n none h
        (transpose S257x128 [1, 0] W1 transposes_S128x257_S257x128_1_0))
      (Host.scatterAdd (F := Ideal) scatter_S258048x128_S454772x1_S454772x128_1_0_0_1
        (broadcastInDim S258048x128 ![] bcast_S_S258048x128 (constant (F := Ideal) S_ .f32 0x00000000#32))
        (wrapIdx_454772_258048 dst)
        (Host.gather gather_S258048x128_S454772x1_S454772x128_1_0_n_n_0_1_1128
          (Host.dotGeneral (F := Ideal) dot_S258048x257_S257x128_S258048x128_1_0_0_1_n_n none h
            (transpose S257x128 [1, 0] W2 transposes_S128x257_S257x128_1_0))
          (wrapIdx_454772_258048 src))))
    (broadcastInDim S258048x128 ![] bcast_S_S258048x128 (constant (F := Ideal) S_ .f32 0x00000000#32))

/-- Over the 258048 pair rows and the 454772 pair-graph edges, from 128 features to 128. -/
def mp258048b (h : FVec Ideal S258048x128 .f32) (W1 W2 : FVec Ideal S128x128 .f32) (src dst : IVec S454772 32) :
    FVec Ideal S258048x128 .f32 :=
  maximumf
    (addf
      (Host.dotGeneral (F := Ideal) dot_S258048x128_S128x128_S258048x128_1_0_0_1_n_n none h
        (transpose S128x128 [1, 0] W1 transposes_S128x128_S128x128_1_0))
      (Host.scatterAdd (F := Ideal) scatter_S258048x128_S454772x1_S454772x128_1_0_0_1
        (broadcastInDim S258048x128 ![] bcast_S_S258048x128 (constant (F := Ideal) S_ .f32 0x00000000#32))
        (wrapIdx_454772_258048 dst)
        (Host.gather gather_S258048x128_S454772x1_S454772x128_1_0_n_n_0_1_1128
          (Host.dotGeneral (F := Ideal) dot_S258048x128_S128x128_S258048x128_1_0_0_1_n_n none h
            (transpose S128x128 [1, 0] W2 transposes_S128x128_S128x128_1_0))
          (wrapIdx_454772_258048 src))))
    (broadcastInDim S258048x128 ![] bcast_S_S258048x128 (constant (F := Ideal) S_ .f32 0x00000000#32))

/-! ## Segment sums: row g of the result is the sum of the rows whose segment id is g -/

/-- The 8192 node rows into the 128 graphs. -/
def seg8192 (h : FVec Ideal S8192x128 .f32) (batch : IVec S8192 32) : FVec Ideal S128x128 .f32 :=
  Host.scatterAdd (F := Ideal) scatter_S128x128_S8192x1_S8192x128_1_0_0_1
    (broadcastInDim S128x128 ![] bcast_S_S128x128 (constant (F := Ideal) S_ .f32 0x00000000#32))
    (broadcastInDim S8192x1 ![0] bcast_S8192_S8192x1_0 batch) h

/-- The 258048 pair rows into the 128 graphs. -/
def seg258048 (h : FVec Ideal S258048x128 .f32) (pb : IVec S258048 32) : FVec Ideal S128x128 .f32 :=
  Host.scatterAdd (F := Ideal) scatter_S128x128_S258048x1_S258048x128_1_0_0_1
    (broadcastInDim S128x128 ![] bcast_S_S128x128 (constant (F := Ideal) S_ .f32 0x00000000#32))
    (broadcastInDim S258048x1 ![0] bcast_S258048_S258048x1_0 pb) h

/-! ## Pair features -/

/-- Row p is the node row of the pair's first end, then the node row of its second end, then the pair's one
    extra feature: 128 + 128 + 1 columns. -/
def pairFeat (h : FVec Ideal S8192x128 .f32) (pu pv : IVec S258048 32) (iso : FVec Ideal S258048x1 .f32) :
    FVec Ideal S258048x257 .f32 :=
  concatenate S258048x257 1
    [⟨S258048x128, Host.gather gather_S8192x128_S258048x1_S258048x128_1_0_n_n_0_1_1128 h (wrapIdx_258048_8192 pu)⟩,
     ⟨S258048x128, Host.gather gather_S8192x128_S258048x1_S258048x128_1_0_n_n_0_1_1128 h (wrapIdx_258048_8192 pv)⟩,
     ⟨S258048x1, iso⟩]
    concatenates_S258048x128_S258048x128_S258048x1_S258048x257_d1

/-! ## The classifier -/

/-- On the two 128 x 128 sums side by side: max ([e1, e2] · cw1ᵀ + cb1, 0) · cw2ᵀ + cb2, each bias added to every row. -/
def head (e1 e2 : FVec Ideal S128x128 .f32) (cw1 : FVec Ideal S128x256 .f32) (cb1 : FVec Ideal S128 .f32)
    (cw2 : FVec Ideal S10x128 .f32) (cb2 : FVec Ideal S10 .f32) : FVec Ideal S128x10 .f32 :=
  addf
    (Host.dotGeneral (F := Ideal) dot_S128x128_S128x10_S128x10_1_0_0_1_n_n none
      (maximumf
        (addf
          (Host.dotGeneral (F := Ideal) dot_S128x256_S256x128_S128x128_1_0_0_1_n_n none
            (concatenate S128x256 1 [⟨S128x128, e1⟩, ⟨S128x128, e2⟩] concatenates_S128x128_S128x128_S128x256_d1)
            (transpose S256x128 [1, 0] cw1 transposes_S128x256_S256x128_1_0))
          (broadcastInDim S128x128 ![0, 1] bcast_S1x128_S128x128_0_1 (broadcastInDim S1x128 ![1] bcast_S128_S1x128_1 cb1)))
        (broadcastInDim S128x128 ![] bcast_S_S128x128 (constant (F := Ideal) S_ .f32 0x00000000#32)))
      (transpose S128x10 [1, 0] cw2 transposes_S10x128_S128x10_1_0))
    (broadcastInDim S128x10 ![0, 1] bcast_S1x10_S128x10_0_1 (broadcastInDim S1x10 ![1] bcast_S10_S1x10_1 cb2))

/-! ## The whole reference -/

/-- The reference's result as a function of its arguments, in their order: node features, the two stacks of
    node-layer weights, the four pair-layer weights, the classifier's two weights and two biases, the pairs'
    extra feature, the edges, the nodes' graph ids, the pairs' two ends, the pairs' graph ids, the pair-graph
    edges. -/
def whole (a0 : FVec Ideal S8192x128 .f32) (a1 a2 : FVec Ideal S3x128x128 .f32) (a3 a4 : FVec Ideal S128x257 .f32)
    (a5 a6 : FVec Ideal S128x128 .f32) (a7 : FVec Ideal S128x256 .f32) (a8 : FVec Ideal S128 .f32)
    (a9 : FVec Ideal S10x128 .f32) (a10 : FVec Ideal S10 .f32) (a11 : FVec Ideal S258048x1 .f32)
    (a12 : IVec S2x61594 32) (a13 : IVec S8192 32) (a14 a15 a16 : IVec S258048 32) (a17 : IVec S2x454772 32) :
    FVec Ideal S128x10 .f32 :=
  let h1 := mp8192 a0 (layerW a1 0) (layerW a2 0) (row0 a12) (row1 a12)
  let h2 := mp8192 h1 (layerW a1 1) (layerW a2 1) (row0 a12) (row1 a12)
  let h3 := mp8192 h2 (layerW a1 2) (layerW a2 2) (row0 a12) (row1 a12)
  let x2 := pairFeat h3 a14 a15 a11
  let h4 := mp258048a x2 a3 a4 (row0' a17) (row1' a17)
  let h5 := mp258048b h4 a5 a6 (row0' a17) (row1' a17)
  head (seg8192 h3 a13) (seg258048 h5 a16) a7 a8 a9 a10

end Cert.Spec

end
-- ==== Proof.TakeGather.lean ====
/-
  A TAKE WHOSE INDICES ARE IN RANGE IS A GATHER.

  The kernel reads rows of a table by position with a take in fill mode. Printed, a take is: wrap the index vector
  (a negative position has the axis length n added); lay the wrapped positions out as a column; test every entry
  of the column, 0 ≤ w and w ≤ n - 1, and "and" the two tests over the column's unit axis, which gives one mask bit
  per row; gather the table's rows at the column; and select, row by row, the gathered row where the mask bit is 1
  and a fill constant where it is 0.

  If every position lies in [-n, n), the wrapped position lies in [0, n): a negative one is at least -n, so adding
  n lands in [0, n) and the 32-bit sum does not wrap around; any other is there already. Then both tests pass at
  every entry, the mask is 1 at every row, and the select returns the gathered rows: the take IS the gather at the
  wrapped column. This is proved once for any extents and any element type, then stated for the kernel's three
  takes with the shape facts and gather records its text cites.
-/
import proofs.«408611_j10797547782338_1_alg».proof.KernelIdeal
import proofs.«408611_j10797547782338_1_alg».proof.Proof.Gen.KernelIdeal
import proofs.«408611_j10797547782338_1_alg».proof.Proof.PreFacts
import Idealize.ShloMosaic.Lib.ReduceAll
import Idealize.ShloMosaic.Lib.ValueLayout
import Idealize.ShloMosaic.Lib.StableHlo.Predicate

noncomputable section

namespace Cert.TakeGather

open Idealize.ShloMosaic Idealize.ShloMosaic.ValueIdx
open Cert.PreFacts (InRange cmpi_sge_iff cmpi_slt_iff)

/-! ## Words: the wrap of one index word -/

theorem cmpi_sle_iff (a b : BitVec 32) : IntOp.cmpi .sle a b = 1#1 ↔ a.toInt ≤ b.toInt := by
  show BitVec.ofBool (a.sle b) = 1#1 ↔ _
  rw [StableHlo.Predicate.ofBool_eq_one_iff]
  simp only [BitVec.sle, decide_eq_true_eq]

/-- The wrap of one index word against an axis of length n (as a word): a negative word has n added, any other
    is kept. -/
def wrapWord (n w : BitVec 32) : BitVec 32 := Scalar.select (IntOp.cmpi .slt w 0#32) (IntOp.addi w n) w

/-- A word in [-N, N) wraps into [0, N): a negative one, at least -N, lands in [0, N) when N is added (the sum is
    small, so the 32-bit addition does not wrap around); any other is already there. -/
theorem wrapWord_bounds {N : ℤ} {n w : BitVec 32} (hn : n.toInt = N) (h : InRange N w) :
    0 ≤ (wrapWord n w).toInt ∧ (wrapWord n w).toInt < N := by
  obtain ⟨h1, h2⟩ := h
  unfold wrapWord
  by_cases hneg : w.toInt < 0
  · have hc : IntOp.cmpi .slt w 0#32 = 1#1 := (cmpi_slt_iff w 0#32).2 (by rw [BitVec.toInt_zero]; exact hneg)
    rw [hc, select_one]
    have hlt := BitVec.two_mul_toInt_lt (x := n)
    have hadd : (IntOp.addi w n).toInt = w.toInt + n.toInt := by
      show (w + n).toInt = _
      rw [BitVec.toInt_add]
      exact Int.bmod_eq_of_le_mul_two (by omega) (by omega)
    rw [hadd]
    omega
  · have hc : IntOp.cmpi .slt w 0#32 = 0#1 :=
      eq_zero_of_ne_one fun hc => hneg (by have := (cmpi_slt_iff w 0#32).1 hc; rwa [BitVec.toInt_zero] at this)
    rw [hc, select_zero]
    omega

/-- So both of the take's tests on the wrapped word pass: it is at least 0 and at most N - 1 (m is N - 1 as a word). -/
theorem wrapWord_tests {N : ℤ} {n m w : BitVec 32} (hn : n.toInt = N) (hm : m.toInt = N - 1) (h : InRange N w) :
    IntOp.cmpi .sge (wrapWord n w) 0#32 = 1#1 ∧ IntOp.cmpi .sle (wrapWord n w) m = 1#1 := by
  obtain ⟨h0, h1⟩ := wrapWord_bounds hn h
  exact ⟨(cmpi_sge_iff _ _).2 (by rw [BitVec.toInt_zero]; exact h0), (cmpi_sle_iff _ _).2 (by rw [hm]; omega)⟩

/-! ## Arrays: an "and" over an array of ones is one -/

/-- A left fold by "and" from 1 over bits that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_ones f hf l _ (IntOp.andi_eq_one.2 ⟨h, hf a⟩)

/-- A reduction by "and", from an initial bit 1, of an array whose every entry is 1 is 1 at every result index,
    whatever axes it reduces over. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_ones x hx _ _ (hinit _)

/-- Whatever holds of every entry of an array holds of every entry of a broadcast of it: each entry of the
    broadcast is some entry of the array. -/
theorem broadcastInDim_forall {β : Type} {s t : Shape} {dims : Fin s.rank → Fin t.rank} (h : s.BroadcastsInDim t dims)
    (x : s.Idx → β) (P : β → Prop) (hP : ∀ k, P (x k)) (j : t.Idx) : P (broadcastInDim t dims h x j) := by
  unfold broadcastInDim
  exact hP _

/-! ## The take's mask, at any extents -/

section Generic
variable {α : Type} {M C : Nat}

/-- The wrapped indices, as the [M × 1] column the gather reads: the take's operations up to the column broadcast,
    as a function of the index vector (n: the axis length as a word). -/
def wrapCol (n : BitVec 32) (b0 : (⟨0, ![]⟩ : Shape).BroadcastsInDim ⟨1, ![M]⟩ ![])
    (bcol : (⟨1, ![M]⟩ : Shape).BroadcastsInDim ⟨2, ![M, 1]⟩ ![0]) (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI ⟨0, ![]⟩ 32 0#32)))
      (addi idx (broadcastInDim ⟨1, ![M]⟩ ![] b0 (constantI ⟨0, ![]⟩ 32 n))) idx)

/-- The take's mask, one bit per row: the "and" over the unit axis of the two tests on the wrapped column
    (m: the last position of the axis as a word). -/
def takeMask (n m : BitVec 32) (b0 : (⟨0, ![]⟩ : Shape).BroadcastsInDim ⟨1, ![M]⟩ ![])
    (bcol : (⟨1, ![M]⟩ : Shape).BroadcastsInDim ⟨2, ![M, 1]⟩ ![0])
    (b0c : (⟨0, ![]⟩ : Shape).BroadcastsInDim ⟨2, ![M, 1]⟩ ![])
    (b1 : (⟨1, ![1]⟩ : Shape).BroadcastsInDim ⟨2, ![1, 1]⟩ ![1])
    (b11 : (⟨2, ![1, 1]⟩ : Shape).BroadcastsInDim ⟨2, ![M, 1]⟩ ![0, 1])
    (hred : (⟨2, ![M, 1]⟩ : Shape).ReducesTo [1] ⟨1, ![M]⟩) (hS : 0 < (⟨0, ![]⟩ : Shape).numel)
    (idx : IVec ⟨1, ![M]⟩ 32) : IVec ⟨1, ![M]⟩ 1 :=
  Host.reduce IntOp.andi
    (andi (cmpi .sge (wrapCol n b0 bcol idx) (broadcastInDim ⟨2, ![M, 1]⟩ ![] b0c (constantI ⟨0, ![]⟩ 32 0#32)))
      (cmpi .sle (wrapCol n b0 bcol idx)
        (broadcastInDim ⟨2, ![M, 1]⟩ ![0, 1] b11 (broadcastInDim ⟨2, ![1, 1]⟩ ![1] b1 (constantI ⟨1, ![1]⟩ 32 m)))))
    (constantI ⟨0, ![]⟩ 1 1#1) hred hS

/-- Every entry of the index vector is in range, written over all indices of the vector's shape. -/
theorem inRange_all {N : ℤ} (idx : IVec ⟨1, ![M]⟩ 32) (h : ∀ e : Fin M, InRange N (idx (ix1 e))) (k : (⟨1, ![M]⟩ : Shape).Idx) :
    InRange N (idx k) := by
  rw [eq_ix1 k]; exact h (k 0)

/-- THE MASK IS ALL ONES when every index is in [-N, N): every entry of the wrapped column passes both tests, so
    the "and" of the tests is 1 everywhere, and so is its reduction. -/
theorem takeMask_eq_one {N : ℤ} {n m : BitVec 32} (hn : n.toInt = N) (hm : m.toInt = N - 1)
    (b0 : (⟨0, ![]⟩ : Shape).BroadcastsInDim ⟨1, ![M]⟩ ![])
    (bcol : (⟨1, ![M]⟩ : Shape).BroadcastsInDim ⟨2, ![M, 1]⟩ ![0])
    (b0c : (⟨0, ![]⟩ : Shape).BroadcastsInDim ⟨2, ![M, 1]⟩ ![])
    (b1 : (⟨1, ![1]⟩ : Shape).BroadcastsInDim ⟨2, ![1, 1]⟩ ![1])
    (b11 : (⟨2, ![1, 1]⟩ : Shape).BroadcastsInDim ⟨2, ![M, 1]⟩ ![0, 1])
    (hred : (⟨2, ![M, 1]⟩ : Shape).ReducesTo [1] ⟨1, ![M]⟩) (hS : 0 < (⟨0, ![]⟩ : Shape).numel)
    (idx : IVec ⟨1, ![M]⟩ 32) (h : ∀ e : Fin M, InRange N (idx (ix1 e))) (k : (⟨1, ![M]⟩ : Shape).Idx) :
    takeMask n m b0 bcol b0c b1 b11 hred hS idx k = 1#1 := by
  unfold takeMask
  refine reduce_andi_ones _ _ hred hS (fun i => ?_) (fun _ => rfl) k
  -- at entry i of the column: the column's word there is the wrap of some entry of the index vector
  have hw : IntOp.cmpi .sge (wrapCol n b0 bcol idx i) 0#32 = 1#1 ∧ IntOp.cmpi .sle (wrapCol n b0 bcol idx i) m = 1#1 :=
    broadcastInDim_forall bcol _ (fun w => IntOp.cmpi .sge w 0#32 = 1#1 ∧ IntOp.cmpi .sle w m = 1#1)
      (fun k' => wrapWord_tests hn hm (inRange_all idx h k')) i
  exact IntOp.andi_eq_one.2 hw

/-- So a select on the mask, laid along the rows of an [M × C] array, returns its first operand. -/
theorem select_takeMask {N : ℤ} {n m : BitVec 32} (hn : n.toInt = N) (hm : m.toInt = N - 1)
    (b0 : (⟨0, ![]⟩ : Shape).BroadcastsInDim ⟨1, ![M]⟩ ![])
    (bcol : (⟨1, ![M]⟩ : Shape).BroadcastsInDim ⟨2, ![M, 1]⟩ ![0])
    (b0c : (⟨0, ![]⟩ : Shape).BroadcastsInDim ⟨2, ![M, 1]⟩ ![])
    (b1 : (⟨1, ![1]⟩ : Shape).BroadcastsInDim ⟨2, ![1, 1]⟩ ![1])
    (b11 : (⟨2, ![1, 1]⟩ : Shape).BroadcastsInDim ⟨2, ![M, 1]⟩ ![0, 1])
    (hred : (⟨2, ![M, 1]⟩ : Shape).ReducesTo [1] ⟨1, ![M]⟩) (hS : 0 < (⟨0, ![]⟩ : Shape).numel)
    (bm : (⟨1, ![M]⟩ : Shape).BroadcastsInDim ⟨2, ![M, C]⟩ ![0])
    (idx : IVec ⟨1, ![M]⟩ 32) (h : ∀ e : Fin M, InRange N (idx (ix1 e)))
    (g b : (⟨2, ![M, C]⟩ : Shape).Idx → α) :
    select (broadcastInDim ⟨2, ![M, C]⟩ ![0] bm (takeMask n m b0 bcol b0c b1 b11 hred hS idx)) g b = g := by
  funext j
  rw [select_apply,
    broadcastInDim_forall bm _ (fun c => c = 1#1) (takeMask_eq_one hn hm b0 bcol b0c b1 b11 hred hS idx h) j, select_one]

end Generic

/-- An entry of the wrapped column is the wrap of the index vector's entry in that row. -/
theorem wrapCol_apply {M : Nat} (n : BitVec 32) (b0 : (⟨0, ![]⟩ : Shape).BroadcastsInDim ⟨1, ![M]⟩ ![])
    (bcol : (⟨1, ![M]⟩ : Shape).BroadcastsInDim ⟨2, ![M, 1]⟩ ![0]) (idx : IVec ⟨1, ![M]⟩ 32) (p : Fin M) :
    wrapCol n b0 bcol idx (ix2 p (0 : Fin 1)) = wrapWord n (idx (ix1 p)) := by
  have e1 : (ix2 p (0 : Fin 1) : (⟨2, ![M, 1]⟩ : Shape).Idx) = StableHlo.Predicate.ixP p := by
    funext a; match a with | ⟨0, _⟩ => rfl | ⟨1, _⟩ => rfl
  have e2 : (ix1 p : (⟨1, ![M]⟩ : Shape).Idx) = Shape.Idx.ofFin p := by
    funext a; match a with | ⟨0, _⟩ => rfl
  rw [e1, e2]
  unfold wrapCol
  exact StableHlo.Predicate.bcast_col1 bcol _ p

section GenericVal
variable {F : FTy → Type} [FloatOps F] {X M C : Nat}

/-- A TAKE, as its printed operations compose: the rows of a table gathered at the wrapped index column, kept where
    the row mask is 1 and replaced by the fill constant (the word 0x7FC00000 read as a float) where it is not.
    d: the gather's dimension numbers; the remaining facts are the shape relations the operations cite. -/
def takeVal (d : GatherDims ⟨2, ![X, C]⟩ ⟨2, ![M, 1]⟩ ⟨2, ![M, C]⟩) (n m : BitVec 32)
    (b0 : (⟨0, ![]⟩ : Shape).BroadcastsInDim ⟨1, ![M]⟩ ![])
    (bcol : (⟨1, ![M]⟩ : Shape).BroadcastsInDim ⟨2, ![M, 1]⟩ ![0])
    (b0c : (⟨0, ![]⟩ : Shape).BroadcastsInDim ⟨2, ![M, 1]⟩ ![])
    (b1 : (⟨1, ![1]⟩ : Shape).BroadcastsInDim ⟨2, ![1, 1]⟩ ![1])
    (b11 : (⟨2, ![1, 1]⟩ : Shape).BroadcastsInDim ⟨2, ![M, 1]⟩ ![0, 1])
    (hred : (⟨2, ![M, 1]⟩ : Shape).ReducesTo [1] ⟨1, ![M]⟩) (hS : 0 < (⟨0, ![]⟩ : Shape).numel)
    (bm : (⟨1, ![M]⟩ : Shape).BroadcastsInDim ⟨2, ![M, C]⟩ ![0])
    (bfill : (⟨0, ![]⟩ : Shape).BroadcastsInDim ⟨2, ![M, C]⟩ ![])
    (x : FVec F ⟨2, ![X, C]⟩ .f32) (idx : IVec ⟨1, ![M]⟩ 32) : FVec F ⟨2, ![M, C]⟩ .f32 :=
  let v5 : IVec ⟨2, ![M, 1]⟩ 32 := wrapCol n b0 bcol idx
  let v12 : IVec ⟨1, ![M]⟩ 1 := takeMask n m b0 bcol b0c b1 b11 hred hS idx
  let v13 : FVec F ⟨2, ![M, C]⟩ .f32 := Host.gather d x v5
  let v14 : IVec ⟨2, ![M, C]⟩ 1 := broadcastInDim ⟨2, ![M, C]⟩ ![0] bm v12
  let cst : FVec F ⟨0, ![]⟩ .f32 := constant ⟨0, ![]⟩ .f32 0x7FC00000#32
  let v15 : FVec F ⟨2, ![M, C]⟩ .f32 := broadcastInDim ⟨2, ![M, C]⟩ ![] bfill cst
  select v14 v13 v15

/-- THE TAKE IS THE GATHER when every index is in [-N, N): the mask is all ones, so the fill is never selected. -/
theorem takeVal_eq_gather {N : ℤ} {n m : BitVec 32} (hn : n.toInt = N) (hm : m.toInt = N - 1)
    (d : GatherDims ⟨2, ![X, C]⟩ ⟨2, ![M, 1]⟩ ⟨2, ![M, C]⟩)
    (b0 : (⟨0, ![]⟩ : Shape).BroadcastsInDim ⟨1, ![M]⟩ ![])
    (bcol : (⟨1, ![M]⟩ : Shape).BroadcastsInDim ⟨2, ![M, 1]⟩ ![0])
    (b0c : (⟨0, ![]⟩ : Shape).BroadcastsInDim ⟨2, ![M, 1]⟩ ![])
    (b1 : (⟨1, ![1]⟩ : Shape).BroadcastsInDim ⟨2, ![1, 1]⟩ ![1])
    (b11 : (⟨2, ![1, 1]⟩ : Shape).BroadcastsInDim ⟨2, ![M, 1]⟩ ![0, 1])
    (hred : (⟨2, ![M, 1]⟩ : Shape).ReducesTo [1] ⟨1, ![M]⟩) (hS : 0 < (⟨0, ![]⟩ : Shape).numel)
    (bm : (⟨1, ![M]⟩ : Shape).BroadcastsInDim ⟨2, ![M, C]⟩ ![0])
    (bfill : (⟨0, ![]⟩ : Shape).BroadcastsInDim ⟨2, ![M, C]⟩ ![])
    (x : FVec F ⟨2, ![X, C]⟩ .f32) (idx : IVec ⟨1, ![M]⟩ 32) (h : ∀ e : Fin M, InRange N (idx (ix1 e))) :
    takeVal d n m b0 bcol b0c b1 b11 hred hS bm bfill x idx = Host.gather d x (wrapCol n b0 bcol idx) :=
  select_takeMask hn hm b0 bcol b0c b1 b11 hred hS bm idx h _ _

end GenericVal

/-! ## The kernel's three takes

Each is the composition above at the shape facts and the gather record the kernel's text cites for it: unfolded, it
is that function's printed operations, one after another, as a function of its two arguments. -/

section Kernel
open Cert.KernelIdeal Cert.KernelIdeal.Facts₀
variable {F : FTy → Type} [FloatOps F] [Cert.KernelIdeal.Facts]

/-! ### @_take: rows of the [8192 × 128] table at 61594 indices -/

/-- The wrapped index column of @_take (its value %5) as a function of its index argument. -/
abbrev take.col (idx : IVec S61594 32) : IVec S61594x1 32 :=
  wrapCol 8192#32 bcast_S_S61594 bcast_S61594_S61594x1_0 idx

/-- The row mask of @_take (its value %12) as a function of its index argument. -/
abbrev take.mask (idx : IVec S61594 32) : IVec S61594 1 :=
  takeMask 8192#32 8191#32 bcast_S_S61594 bcast_S61594_S61594x1_0 bcast_S_S61594x1 bcast_S1_S1x1_1
    bcast_S1x1_S61594x1_0_1 reducesTo_S61594x1_S61594_d1 h_S_ idx

/-- What @_take returns (its value %16) as a function of its two arguments. -/
abbrev take.val (x : FVec F S8192x128 .f32) (idx : IVec S61594 32) : FVec F S61594x128 .f32 :=
  takeVal gather_S8192x128_S61594x1_S61594x128_1_0_n_n_0_1_1128 8192#32 8191#32 bcast_S_S61594
    bcast_S61594_S61594x1_0 bcast_S_S61594x1 bcast_S1_S1x1_1 bcast_S1x1_S61594x1_0_1 reducesTo_S61594x1_S61594_d1 h_S_
    bcast_S61594_S61594x128_0 bcast_S_S61594x128 x idx

/-- With every index in [-8192, 8192), a select on @_take's mask laid along the rows returns its first operand. -/
theorem take.select_mask {α : Type} (idx : IVec S61594 32) (h : ∀ e : Fin 61594, InRange 8192 (idx (ix1 e)))
    (g b : S61594x128.Idx → α) :
    select (broadcastInDim S61594x128 ![0] bcast_S61594_S61594x128_0 (take.mask idx)) g b = g :=
  select_takeMask (N := 8192) (by decide) (by decide) _ _ _ _ _ _ _ _ idx h g b

/-- With every index in [-8192, 8192), @_take returns the gather of the table's rows at the wrapped column. -/
theorem take.val_eq_gather (x : FVec F S8192x128 .f32) (idx : IVec S61594 32)
    (h : ∀ e : Fin 61594, InRange 8192 (idx (ix1 e))) :
    take.val x idx = Host.gather gather_S8192x128_S61594x1_S61594x128_1_0_n_n_0_1_1128 x (take.col idx) :=
  takeVal_eq_gather (N := 8192) (by decide) (by decide) _ _ _ _ _ _ _ _ _ _ x idx h

/-! ### @_take_0: rows of the [8192 × 128] table at 258048 indices -/

/-- The wrapped index column of @_take_0 (its value %5) as a function of its index argument. -/
abbrev take_0.col (idx : IVec S258048 32) : IVec S258048x1 32 :=
  wrapCol 8192#32 bcast_S_S258048 bcast_S258048_S258048x1_0 idx

/-- The row mask of @_take_0 (its value %12) as a function of its index argument. -/
abbrev take_0.mask (idx : IVec S258048 32) : IVec S258048 1 :=
  takeMask 8192#32 8191#32 bcast_S_S258048 bcast_S258048_S258048x1_0 bcast_S_S258048x1 bcast_S1_S1x1_1
    bcast_S1x1_S258048x1_0_1 reducesTo_S258048x1_S258048_d1 h_S_ idx

/-- What @_take_0 returns (its value %16) as a function of its two arguments. -/
abbrev take_0.val (x : FVec F S8192x128 .f32) (idx : IVec S258048 32) : FVec F S258048x128 .f32 :=
  takeVal gather_S8192x128_S258048x1_S258048x128_1_0_n_n_0_1_1128 8192#32 8191#32 bcast_S_S258048
    bcast_S258048_S258048x1_0 bcast_S_S258048x1 bcast_S1_S1x1_1 bcast_S1x1_S258048x1_0_1
    reducesTo_S258048x1_S258048_d1 h_S_ bcast_S258048_S258048x128_0 bcast_S_S258048x128 x idx

/-- With every index in [-8192, 8192), a select on @_take_0's mask laid along the rows returns its first operand. -/
theorem take_0.select_mask {α : Type} (idx : IVec S258048 32) (h : ∀ e : Fin 258048, InRange 8192 (idx (ix1 e)))
    (g b : S258048x128.Idx → α) :
    select (broadcastInDim S258048x128 ![0] bcast_S258048_S258048x128_0 (take_0.mask idx)) g b = g :=
  select_takeMask (N := 8192) (by decide) (by decide) _ _ _ _ _ _ _ _ idx h g b

/-- With every index in [-8192, 8192), @_take_0 returns the gather of the table's rows at the wrapped column. -/
theorem take_0.val_eq_gather (x : FVec F S8192x128 .f32) (idx : IVec S258048 32)
    (h : ∀ e : Fin 258048, InRange 8192 (idx (ix1 e))) :
    take_0.val x idx = Host.gather gather_S8192x128_S258048x1_S258048x128_1_0_n_n_0_1_1128 x (take_0.col idx) :=
  takeVal_eq_gather (N := 8192) (by decide) (by decide) _ _ _ _ _ _ _ _ _ _ x idx h

/-! ### @_take_2: rows of the [258048 × 128] table at 454772 indices -/

/-- The wrapped index column of @_take_2 (its value %5) as a function of its index argument. -/
abbrev take_2.col (idx : IVec S454772 32) : IVec S454772x1 32 :=
  wrapCol 258048#32 bcast_S_S454772 bcast_S454772_S454772x1_0 idx

/-- The row mask of @_take_2 (its value %12) as a function of its index argument. -/
abbrev take_2.mask (idx : IVec S454772 32) : IVec S454772 1 :=
  takeMask 258048#32 258047#32 bcast_S_S454772 bcast_S454772_S454772x1_0 bcast_S_S454772x1 bcast_S1_S1x1_1
    bcast_S1x1_S454772x1_0_1 reducesTo_S454772x1_S454772_d1 h_S_ idx

/-- What @_take_2 returns (its value %16) as a function of its two arguments. -/
abbrev take_2.val (x : FVec F S258048x128 .f32) (idx : IVec S454772 32) : FVec F S454772x128 .f32 :=
  takeVal gather_S258048x128_S454772x1_S454772x128_1_0_n_n_0_1_1128 258048#32 258047#32 bcast_S_S454772
    bcast_S454772_S454772x1_0 bcast_S_S454772x1 bcast_S1_S1x1_1 bcast_S1x1_S454772x1_0_1
    reducesTo_S454772x1_S454772_d1 h_S_ bcast_S454772_S454772x128_0 bcast_S_S454772x128 x idx

/-- With every index in [-258048, 258048), a select on @_take_2's mask laid along the rows returns its first operand. -/
theorem take_2.select_mask {α : Type} (idx : IVec S454772 32) (h : ∀ e : Fin 454772, InRange 258048 (idx (ix1 e)))
    (g b : S454772x128.Idx → α) :
    select (broadcastInDim S454772x128 ![0] bcast_S454772_S454772x128_0 (take_2.mask idx)) g b = g :=
  select_takeMask (N := 258048) (by decide) (by decide) _ _ _ _ _ _ _ _ idx h g b

/-- With every index in [-258048, 258048), @_take_2 returns the gather of the table's rows at the wrapped column. -/
theorem take_2.val_eq_gather (x : FVec F S258048x128 .f32) (idx : IVec S454772 32)
    (h : ∀ e : Fin 454772, InRange 258048 (idx (ix1 e))) :
    take_2.val x idx = Host.gather gather_S258048x128_S454772x1_S454772x128_1_0_n_n_0_1_1128 x (take_2.col idx) :=
  takeVal_eq_gather (N := 258048) (by decide) (by decide) _ _ _ _ _ _ _ _ _ _ x idx h

end Kernel

end Cert.TakeGather

end
-- ==== Proof.KI.Val0.lean ====
/-
  The value of region 0 at the ideal instance, where floats are extended reals: the array the region writes ends
  holding the matrix product of the two arrays it reads, result[r, s] = ∑ k < 128, x[r, k] · w[k, s].
  First the body at an index of its block: the two format changes are the identity, a cast is between equal shapes, and
  the product into the zero accumulator is the exact sum over the contracted axis, re-indexed by its one coordinate.
  Then from blocks to the array: grid point t stages rows 2048 t … 2048 t + 2047 of x and the whole of w and writes back
  the same rows of the result, so what it writes back is those rows of the product; row r lies in the block of point
  r / 2048, so the blocks cover the result. The three windows' block indices are decided once over the grid; everything
  else is arithmetic in t.
-/
import proofs.«408611_j10797547782338_1_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open scoped BigOperators

/-! ## The body's value at an index: a row of the staged block of x against a column of w -/

/-- The operand indices of the product at output index j and contraction position q, axis by axis: the left
    operand's row is j's row, -/
theorem lhs_pay_0 (j : S2048x256.Idx) (q : dot_S2048x128_S128x256_S2048x256_1_0_0_1_n_n.contr.Idx) :
    (dot_S2048x128_S128x256_S2048x256_1_0_0_1_n_n.lhsIdx j q 0).val = (j 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- its column the contraction position; -/
theorem lhs_pay_1 (j : S2048x256.Idx) (q : dot_S2048x128_S128x256_S2048x256_1_0_0_1_n_n.contr.Idx) :
    (dot_S2048x128_S128x256_S2048x256_1_0_0_1_n_n.lhsIdx j q 1).val = (q ⟨0, by decide⟩).val :=
  dot_S2048x128_S128x256_S2048x256_1_0_0_1_n_n.lhsIdx_val_of_single rfl j q
/-- the right operand's row is the contraction position, -/
theorem rhs_pay_0 (j : S2048x256.Idx) (q : dot_S2048x128_S128x256_S2048x256_1_0_0_1_n_n.contr.Idx) :
    (dot_S2048x128_S128x256_S2048x256_1_0_0_1_n_n.rhsIdx j q 0).val = (q ⟨0, by decide⟩).val :=
  dot_S2048x128_S128x256_S2048x256_1_0_0_1_n_n.rhsIdx_val_of_single rfl j q
/-- its column j's column. -/
theorem rhs_pay_1 (j : S2048x256.Idx) (q : dot_S2048x128_S128x256_S2048x256_1_0_0_1_n_n.contr.Idx) :
    (dot_S2048x128_S128x256_S2048x256_1_0_0_1_n_n.rhsIdx j q 1).val = (j 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The body's value at row p, column q of the block: the sum over the 128 contracted positions of x's row p times
    w's column q. The two format changes are the identity on extended reals, a cast is between equal shapes, and
    the accumulator is the zero constant. -/
theorem pay_apply (x : Vec Ideal S2048x128 .f32) (w : Vec Ideal S128x256 .f32) (p : Fin 2048) (q : Fin 256) :
    (k0_pay1 x w : S2048x256.Idx → EReal) (ix2 p q) = ∑ k : Fin 128, x (ix2 p k) * w (ix2 k q) := by
  unfold k0_pay1
  simp only [shapeCast_self]
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhs_pay_0 _ _
    | ⟨1, _⟩ => exact (lhs_pay_1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhs_pay_0 _ _).trans hk
    | ⟨1, _⟩ => exact rhs_pay_1 _ _)
  rw [truncf_apply, truncf_apply, el, er]

variable (V : (c : Dev nD) → (b : Ref sig .tc) → Buf (Elt Ideal) ((c : Thread nD τ).loc b))

/-! ## From the blocks to the array

Point t stages rows 2048 t … 2048 t + 2047 of x and all of w, and writes back the same rows of the result. What it
writes back is therefore those rows of the product of the two arrays; the row blocks tile the result. -/

theorem hz : (![0, 0] : Fin 2 → Nat) = fun _ => 0 := funext fun a => by
  match a with
  | ⟨0, _⟩ => rfl
  | ⟨1, _⟩ => rfl

/-- The two arrays the region reads, as the region finds them, as functions of an index. -/
abbrev xArr (c : Dev nD) : S8192x128.Idx → EReal := V c (Pipeline.arrRef spec0 0)
abbrev wArr (c : Dev nD) : S128x256.Idx → EReal := V c (Pipeline.arrRef spec0 1)

/-- The product of the two arrays, index by index. -/
def matProd (X : S8192x128.Idx → EReal) (W : S128x256.Idx → EReal) : S8192x256.Idx → EReal :=
  fun i => ∑ k : Fin 128, X (ix2 (i 0) k) * W (ix2 k (i 1))

/-- The block indices of the three windows at point t, decided once over the grid: x's and the result's row block is t,
    w's block does not move, and no window moves along the columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t, at row r and column s, is x at row 2048 t + r and column s. -/
theorem blk0_apply (c : Dev nD) (t : Fin cfg0.N) (y : S2048x128.Idx) (i : S8192x128.Idx)
    (h0 : (i 0).val = 2048 * t.val + (y 0).val) (h1 : (i 1).val = (y 1).val) :
    (blk V c 0 t : S2048x128.Idx → EReal) y = (V c (Pipeline.arrRef spec0 0) : S8192x128.Idx → EReal) i := by
  obtain ⟨e0, e1, -⟩ := idx_facts t
  unfold blk
  rw [View.read_apply]
  show (V c (Pipeline.arrRef spec0 0) : S8192x128.Idx → EReal) (((cfg0.win 0).blk t).view.emb y) = _
  congr 1
  funext a
  apply Fin.ext
  match a with
  | ⟨0, _⟩ => show win0_0.index t (0 : Fin 2) * 2048 + 1 * (y 0).val = (i 0).val; omega
  | ⟨1, _⟩ => show win0_0.index t (1 : Fin 2) * 128 + 1 * (y 1).val = (i 1).val; omega

/-- Window 1's block at every point is the whole of w. -/
theorem blk1_apply (c : Dev nD) (t : Fin cfg0.N) (y : S128x256.Idx) :
    (blk V c 1 t : S128x256.Idx → EReal) y = (V c (Pipeline.arrRef spec0 1) : S128x256.Idx → EReal) y := by
  obtain ⟨-, -, e0, e1, -⟩ := idx_facts t
  unfold blk
  rw [View.read_apply]
  show (V c (Pipeline.arrRef spec0 1) : S128x256.Idx → EReal) (((cfg0.win 1).blk t).view.emb y) = _
  congr 1
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The body's value on a block of rows of X and the whole of W, at an index of the block, is the product of the arrays
    at the index of the result it is written back to: r is the first row's block number. -/
theorem pay_rows (xb : Vec Ideal S2048x128 .f32) (wb : Vec Ideal S128x256 .f32)
    (X : S8192x128.Idx → EReal) (W : S128x256.Idx → EReal) (r : Nat)
    (hx : ∀ (y : S2048x128.Idx) (i : S8192x128.Idx), (i 0).val = 2048 * r + (y 0).val → (i 1).val = (y 1).val → xb y = X i)
    (hw : ∀ y : S128x256.Idx, wb y = W y)
    (j : S2048x256.Idx) (i : S8192x256.Idx) (h0 : (i 0).val = 2048 * r + (j 0).val) (h1 : (i 1).val = (j 1).val) :
    (k0_pay1 xb wb : S2048x256.Idx → EReal) j = matProd X W i := by
  obtain ⟨p, q, rfl⟩ : ∃ (p : Fin 2048) (q : Fin 256), j = ix2 p q := ⟨j 0, j 1, eq_ix2 j⟩
  obtain ⟨p', q', rfl⟩ : ∃ (p' : Fin 8192) (q' : Fin 256), i = ix2 p' q' := ⟨i 0, i 1, eq_ix2 i⟩
  rw [pay_apply]
  unfold matProd
  refine Finset.sum_congr rfl fun k _ => ?_
  have hq : q' = q := Fin.ext h1
  subst hq
  rw [hx (ix2 p k) (ix2 p' k) h0 rfl, hw]

/-- What point t writes back is its block of the product of the two arrays as the region finds them. -/
theorem flushed_eq (c : Dev nD) (t : Fin cfg0.N) :
    (dat (F := Ideal) V c).flushed 2 t
      = ((cfg0.win 2).blk t).view.read (Elt Ideal) (matProd (V c (Pipeline.arrRef spec0 0)) (V c (Pipeline.arrRef spec0 1))) := by
  show (cfg0.win 2).cut (grid0.coords t) ((dat (F := Ideal) V c).after 2 t) = _
  rw [after_2]
  unfold outBlk
  rw [View.canon_unit_zero hz]
  simp only [View.ld_unit_zero (S := S2048x128) hz, View.ld_unit_zero (S := S128x256) hz]
  obtain ⟨-, -, -, -, e0, e1⟩ := idx_facts t
  funext j
  rw [View.read_apply]
  show (k0_pay1 (blk V c 0 t) (blk V c 1 t) : S2048x256.Idx → EReal) j
    = matProd (V c (Pipeline.arrRef spec0 0)) (V c (Pipeline.arrRef spec0 1)) (((cfg0.win 2).blk t).view.emb j)
  refine pay_rows _ _ _ _ t.val (fun y i h0 h1 => blk0_apply V c t y i h0 h1) (fun y => blk1_apply V c t y) j _ ?_ ?_
  · show win0_2.index t (0 : Fin 2) * 2048 + 1 * (j 0).val = 2048 * t.val + (j 0).val; omega
  · show win0_2.index t (1 : Fin 2) * 256 + 1 * (j 1).val = (j 1).val; omega

/-- An index of the result is in point t's block iff each coordinate is in the block's range on its axis. -/
theorem mem_blk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole (Pipeline.arrRef spec0 2)).slice (win0_2.rect t)).set ↔ _
  rw [View.set_slice_whole, Rect.mem_set_unit]
  exact Iff.rfl

/-- Every index of the result is in the block of the point its row falls in: row r is in block r / 2048. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hlt : (i 0).val / 2048 < cfg0.N := by
    show (i 0).val / 2048 < grid0.N
    rw [N_0]; omega
  refine ⟨⟨(i 0).val / 2048, hlt⟩, flush0_2 _, ?_⟩
  rw [mem_blk]
  obtain ⟨-, -, -, -, e0, e1⟩ := idx_facts ⟨(i 0).val / 2048, hlt⟩
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048; omega
  | ⟨1, _⟩ =>
    show win0_2.index _ (1 : Fin 2) * 256 ≤ (i 1).val ∧ (i 1).val < win0_2.index _ (1 : Fin 2) * 256 + 256
    rw [e1]; omega

/-- The array the region writes ends holding the product of the two arrays it reads. -/
theorem arrAt_out (c : Dev nD) :
    (dat (F := Ideal) V c).arrAt 2 cfg0.N = matProd (V c (Pipeline.arrRef spec0 0)) (V c (Pipeline.arrRef spec0 1)) :=
  (dat (F := Ideal) V c).arrAt_eq_of_cover 2 _ (fun t _ => flushed_eq V c t) cover

/-- The same at an index: row i 0 of x against column i 1 of w. -/
theorem arrAt_out_apply (c : Dev nD) (i : S8192x256.Idx) :
    ((dat (F := Ideal) V c).arrAt 2 cfg0.N : S8192x256.Idx → EReal) i
      = ∑ k : Fin 128, xArr V c (ix2 (i 0) k) * wArr V c (ix2 k (i 1)) := by
  rw [arrAt_out]
  rfl

end Cert.KernelIdeal.Reg0

end
-- ==== Proof.KI.Val1.lean ====
/-
  The value of region 1. After the region's last grid point the result array holds, at every index, the larger of
  zero and the sum of the two input arrays there, the inputs being the arrays as the region finds them.

  Three steps. (1) One element of what the body stores is max(x + y, 0) of the two loaded elements: the two casts
  are to the same shape, the sum and the maximum are taken element by element, and the broadcast word is zero.
  (2) Grid point t stages rows [2048 t, 2048 (t + 1)) of every one of the three arrays, so what it writes back is that
  block of the whole-array function max(a + b, 0). (3) Row r lies in the block of point r / 2048, so the blocks cover
  the array and the array ends holding that function.
-/
import proofs.«408611_j10797547782338_1_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## One element of the body's result -/

/-- The two offsets of a whole-block rectangle are zero. -/
theorem zeroOff : (![0, 0] : Fin 2 → Nat) = fun _ => 0 :=
  funext fun a => by match a with | ⟨0, _⟩ => rfl | ⟨1, _⟩ => rfl

/-- The stored value at an element: max(x + y, 0) of the loaded elements. -/
theorem pay_apply (x y : Vec Ideal S2048x128 .f32) (j : S2048x128.Idx) :
    k1_pay1 x y j = max (x j + y j) 0 := by
  unfold k1_pay1
  show maximumf (addf (shapeCast S2048x128 x shapeCasts_S2048x128_S2048x128) (shapeCast S2048x128 y shapeCasts_S2048x128_S2048x128))
      (broadcast S2048x128 (Scalar.ofBits (F := Ideal) .f32 0x00000000#32)) j = _
  rw [shapeCast_self, shapeCast_self, maximumf_apply, addf_apply, broadcast_apply]
  show max (x j + y j) (Ideal.ofBits .f32 0x00000000#32) = _
  rw [Ideal.ofBits_zero_f32]

/-- The result block at an element, from the two input blocks. -/
theorem outBlk_apply (x y : Vec Ideal S2048x128 .f32) (j : S2048x128.Idx) :
    outBlk x y j = max (x j + y j) 0 := by
  unfold outBlk
  rw [View.canon_unit_zero zeroOff]
  simp only [View.ld_unit_zero (S := S2048x128) zeroOff]
  exact pay_apply x y j

/-! ## What a grid point writes back -/

/-- The whole-array function the region computes: max(a + b, 0) at every index. -/
def addRelu (a b : S8192x128.Idx → EReal) : S8192x128.Idx → EReal := fun i => max (a i + b i) 0

theorem addRelu_apply (a b : S8192x128.Idx → EReal) (i : S8192x128.Idx) : addRelu a b i = max (a i + b i) 0 := rfl

/-- The same, with the two arrays read at indices that are equal to i. -/
theorem addRelu_at (a b : S8192x128.Idx → EReal) (k0 k1 k : S8192x128.Idx) (h0 : k0 = k) (h1 : k1 = k) :
    max (a k0 + b k1) 0 = addRelu a b k := by
  subst h0; subst h1; rfl

/-- The three index maps, decided over the grid: at point t every window's block is block t along the rows and
    block 0 along the lanes. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The number of grid points. -/
theorem nPts : cfg1.N = (4 : Nat) := by decide

/-- An element of an input's block at point t is the array's element under the result's block at t: the two
    blocks sit on the same rows. -/
theorem emb_in0 (t : Fin cfg1.N) (j : S2048x128.Idx) :
    ((cfg1.win 0).blk t).view.emb j = ((cfg1.win 2).blk t).view.emb j := by
  obtain ⟨a0, a1, b0, b1, r0, r1⟩ := idx_rows t
  funext a; apply Fin.ext
  match a with
  | ⟨0, _⟩ => show win1_0.index t (0 : Fin 2) * 2048 + 1 * (j 0).val = win1_2.index t (0 : Fin 2) * 2048 + 1 * (j 0).val; omega
  | ⟨1, _⟩ => show win1_0.index t (1 : Fin 2) * 128 + 1 * (j 1).val = win1_2.index t (1 : Fin 2) * 128 + 1 * (j 1).val; omega

theorem emb_in1 (t : Fin cfg1.N) (j : S2048x128.Idx) :
    ((cfg1.win 1).blk t).view.emb j = ((cfg1.win 2).blk t).view.emb j := by
  obtain ⟨a0, a1, b0, b1, r0, r1⟩ := idx_rows t
  funext a; apply Fin.ext
  match a with
  | ⟨0, _⟩ => show win1_1.index t (0 : Fin 2) * 2048 + 1 * (j 0).val = win1_2.index t (0 : Fin 2) * 2048 + 1 * (j 0).val; omega
  | ⟨1, _⟩ => show win1_1.index t (1 : Fin 2) * 128 + 1 * (j 1).val = win1_2.index t (1 : Fin 2) * 128 + 1 * (j 1).val; omega

/-- What point t writes back is block t of max(a + b, 0). -/
theorem flushed_eq (c : Dev nD) (t : Fin cfg1.N) :
    (dat (F := Ideal) V c).flushed 2 t
      = ((cfg1.win 2).blk t).view.read (Elt Ideal) (addRelu (V c (Pipeline.arrRef spec1 0)) (V c (Pipeline.arrRef spec1 1))) := by
  show (cfg1.win 2).cut (grid1.coords t) ((dat (F := Ideal) V c).after 2 t) = _
  rw [after_2]
  funext j
  refine (outBlk_apply (blk V c 0 t) (blk V c 1 t) j).trans ?_
  exact addRelu_at (V c (Pipeline.arrRef spec1 0)) (V c (Pipeline.arrRef spec1 1))
    (((cfg1.win 0).blk t).view.emb j) (((cfg1.win 1).blk t).view.emb j) (((cfg1.win 2).blk t).view.emb j)
    (emb_in0 t j) (emb_in1 t j)

/-! ## The blocks cover the array -/

/-- An index is in point t's block when each coordinate is in the block's range on its axis. -/
theorem mem_blk (t : Fin cfg1.N) (i : S8192x128.Idx) :
    i ∈ ((cfg1.win 2).blk t).view.set
      ↔ ∀ a : Fin 2, win1_2.index t a * S2048x128.size a ≤ (i a).val ∧ (i a).val < win1_2.index t a * S2048x128.size a + S2048x128.size a := by
  show i ∈ ((View.whole (Pipeline.arrRef spec1 2)).slice (win1_2.rect t)).set ↔ _
  rw [View.set_slice_whole, Rect.mem_set_unit]
  exact Iff.rfl

/-- Row r lies in the block of point r / 2048. -/
theorem cover (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  have hN := nPts
  refine ⟨⟨(i 0).val / 2048, by rw [hN]; omega⟩, flush1_2 _, ?_⟩
  rw [mem_blk]
  obtain ⟨-, -, -, -, r0, r1⟩ := idx_rows ⟨(i 0).val / 2048, by rw [hN]; omega⟩
  intro a
  match a with
  | ⟨0, _⟩ =>
    show win1_2.index _ (0 : Fin 2) * 2048 ≤ (i 0).val ∧ (i 0).val < win1_2.index _ (0 : Fin 2) * 2048 + 2048
    rw [r0]; show (i 0).val / 2048 * 2048 ≤ (i 0).val ∧ (i 0).val < (i 0).val / 2048 * 2048 + 2048; omega
  | ⟨1, _⟩ =>
    show win1_2.index _ (1 : Fin 2) * 128 ≤ (i 1).val ∧ (i 1).val < win1_2.index _ (1 : Fin 2) * 128 + 128
    rw [r1]; omega

/-! ## The array after the region -/

/-- The result array ends holding max(a + b, 0). -/
theorem arrAt_out (c : Dev nD) :
    (dat (F := Ideal) V c).arrAt 2 cfg1.N = addRelu (V c (Pipeline.arrRef spec1 0)) (V c (Pipeline.arrRef spec1 1)) :=
  (dat (F := Ideal) V c).arrAt_eq_of_cover 2 _ (fun t _ => flushed_eq V c t) cover

/-- At an index. -/
theorem arrAt_out_apply (c : Dev nD) (i : S8192x128.Idx) :
    (dat (F := Ideal) V c).arrAt 2 cfg1.N i
      = @max EReal _ (@HAdd.hAdd EReal EReal EReal _ (V c (Pipeline.arrRef spec1 0) i) (V c (Pipeline.arrRef spec1 1) i)) 0 :=
  congrFun (arrAt_out V c) i

end Cert.KernelIdeal.Reg1

end
-- ==== Proof.KI.LayerLib.lean ====
/-
  ONE MESSAGE-PASSING LAYER OVER 8192 ROWS, BOTH WAYS OF COMPUTING IT.

  The layer is relu (x @ w1ᵀ + A), where A adds up, at each wrapped destination row of the edge list, the row of
  x @ w2ᵀ found at the wrapped source row. The reference computes the two products separately, each a dot_general
  against the transposed weight. The kernel computes them at once: it stacks w1 on w2, transposes the stack to
  [128 × 256], multiplies x by it, and cuts the product into its left and right 128 columns. Column q of the stacked,
  transposed matrix is row q of w1 for q < 128 and row q - 128 of w2 from there on, so the two halves are the two
  products, entry by entry the same sums. The wraps, the gather and the scatter-add are the same operations in both
  programs, and the reference's relu is the maximum with a zero array. Nothing here depends on which layer it is or
  on where its arguments come from: everything is stated over arrays x, w1, w2, src, dst.
-/
import proofs.«408611_j10797547782338_1_alg».proof.KernelIdeal
import proofs.«408611_j10797547782338_1_alg».proof.Proof.Gen.KernelIdeal
import proofs.«408611_j10797547782338_1_alg».proof.ReferenceIdeal
import proofs.«408611_j10797547782338_1_alg».proof.Proof.Gen.ReferenceIdeal
import proofs.«408611_j10797547782338_1_alg».proof.Proof.TakeGather
import Idealize.ShloMosaic.Lib.ValueLayout
import Idealize.ShloMosaic.PureOps.Ideal.Laws

set_option maxRecDepth 16384

noncomputable section

namespace Cert.KernelIdeal.LayerLib

open Cert.KernelIdeal Cert.KernelIdeal.Gen
open Idealize.ShloMosaic Idealize.ShloMosaic.ValueIdx
open Cert.TakeGather
open scoped BigOperators

/-! ## The kernel's layout of the two weights -/

/-- Row 0 and row 1 of a two-row index array, as the kernel cuts them out: a [1 × 61594] slice, flattened. -/
abbrev row0 (a : IVec S2x61594 32) : IVec S61594 32 :=
  shapeCast S61594 (extractStridedSlice S1x61594 ![0, 0] a slices_S2x61594_S1x61594_0_0) shapeCasts_S1x61594_S61594
abbrev row1 (a : IVec S2x61594 32) : IVec S61594 32 :=
  shapeCast S61594 (extractStridedSlice S1x61594 ![1, 0] a slices_S2x61594_S1x61594_1_0) shapeCasts_S1x61594_S61594

/-- The projection's weight as the kernel lays it out: the two matrices stacked, then transposed to [128 × 256]. -/
abbrev stackT {F : FTy → Type} [FloatOps F] (w1 w2 : FVec F S128x128 .f32) : FVec F S128x256 .f32 :=
  transpose S128x256 [1, 0] (concatenate S256x128 0 [⟨S128x128, w1⟩, ⟨S128x128, w2⟩] concatenates_S128x128_S128x128_S256x128_d0)
    transposes_S256x128_S128x256_1_0

/-- The stacked, transposed weight at (k, q), q among the first 128 columns: the first weight at (q, k). -/
theorem stackT_left {F : FTy → Type} [FloatOps F] (w1 w2 : FVec F S128x128 .f32) (k p : Fin 128) (q : Fin 256) (hq : q.val = p.val) :
    stackT w1 w2 (ix2 k q) = w1 (ix2 p k) := by
  unfold stackT
  rw [transpose_ix2_apply]
  exact concatenate_pair_apply_left (0 : Fin 2) w1 w2 concatenates_S128x128_S128x128_S256x128_d0 (ix2 q k) rfl (ix2 p k)
    (fun b => match b with | ⟨0, _⟩ => hq.symm | ⟨1, _⟩ => rfl)

/-- … and q among the last 128 columns: the second weight at (q - 128, k). -/
theorem stackT_right {F : FTy → Type} [FloatOps F] (w1 w2 : FVec F S128x128 .f32) (k p : Fin 128) (q : Fin 256) (hq : q.val = 128 + p.val) :
    stackT w1 w2 (ix2 k q) = w2 (ix2 p k) := by
  unfold stackT
  rw [transpose_ix2_apply]
  exact concatenate_pair_apply_right (0 : Fin 2) w1 w2 concatenates_S128x128_S128x128_S256x128_d0 (ix2 q k) rfl rfl (ix2 p k)
    (fun b hb => match b, hb with | ⟨0, _⟩, hb => absurd rfl hb | ⟨1, _⟩, _ => rfl)
    (by show p.val + 128 = q.val; omega)

/-! ## The two products -/

/-- x @ wᵀ, entry by entry: row r of x against row p of w. -/
def proj (x : FVec Ideal S8192x128 .f32) (w : FVec Ideal S128x128 .f32) : FVec Ideal S8192x128 .f32 :=
  fun j => ∑ k : Fin 128, x (ix2 (j 0) k) * w (ix2 (j 1) k)

section Halves
/-! O is the product of X and the stacked, transposed weight, entry by entry. -/
variable (X : FVec Ideal S8192x128 .f32) (O : FVec Ideal S8192x256 .f32) (w1 w2 : FVec Ideal S128x128 .f32)
  (hO : ∀ i : S8192x256.Idx, O i = ∑ k : Fin 128, X (ix2 (i 0) k) * stackT w1 w2 (ix2 k (i 1)))
include hO

/-- The left 128 columns of the product are x @ w1ᵀ. -/
theorem left_cols : extractStridedSlice S8192x128 ![0, 0] O slices_S8192x256_S8192x128_0_0 = proj X w1 := by
  funext j
  obtain ⟨r, p, rfl⟩ : ∃ r p, j = ix2 r p := ⟨j 0, j 1, eq_ix2 j⟩
  rw [slice2_axis1_apply 0 O _ r p ⟨p.val, by omega⟩ (by simp), hO]
  exact Finset.sum_congr rfl fun k _ => by rw [stackT_left w1 w2 k p _ rfl]

/-- The right 128 columns are x @ w2ᵀ. -/
theorem right_cols : extractStridedSlice S8192x128 ![0, 128] O slices_S8192x256_S8192x128_0_128 = proj X w2 := by
  funext j
  obtain ⟨r, p, rfl⟩ : ∃ r p, j = ix2 r p := ⟨j 0, j 1, eq_ix2 j⟩
  rw [slice2_axis1_apply 128 O _ r p ⟨128 + p.val, by omega⟩ rfl, hO]
  exact Finset.sum_congr rfl fun k _ => by rw [stackT_right w1 w2 k p _ rfl]

end Halves

/-! ## The reference's product is the same sum -/

/-- The reference's dimension numbers for x times a [128 × 128] matrix: x's columns against the matrix's rows. -/
abbrev DR : DotDims S8192x128 S128x128 S8192x128 := Cert.ReferenceIdeal.dot_S8192x128_S128x128_S8192x128_1_0_0_1_n_n

/-- The operand indices at result index j and contraction position q: the left operand's row is j's row, -/
theorem lhsDR_0 (j : S8192x128.Idx) (q : DR.contr.Idx) : (DR.lhsIdx j q 0).val = (j 0).val := by
  unfold DotDims.lhsIdx
  rw [dif_neg (show ¬(0 : Fin S8192x128.rank) ∈ DR.lhsBatch by decide),
    dif_pos (show (0 : Fin S8192x128.rank) ∈ DR.lhsNonContracting by decide)]
  rfl
/-- its column the contraction position; -/
theorem lhsDR_1 (j : S8192x128.Idx) (q : DR.contr.Idx) : (DR.lhsIdx j q 1).val = (q ⟨0, by decide⟩).val :=
  DR.lhsIdx_val_of_single rfl j q
/-- the right operand's row is the contraction position, -/
theorem rhsDR_0 (j : S8192x128.Idx) (q : DR.contr.Idx) : (DR.rhsIdx j q 0).val = (q ⟨0, by decide⟩).val :=
  DR.rhsIdx_val_of_single rfl j q
/-- its column j's column. -/
theorem rhsDR_1 (j : S8192x128.Idx) (q : DR.contr.Idx) : (DR.rhsIdx j q 1).val = (j 1).val := by
  unfold DotDims.rhsIdx
  rw [dif_neg (show ¬(1 : Fin S128x128.rank) ∈ DR.rhsBatch by decide),
    dif_pos (show (1 : Fin S128x128.rank) ∈ DR.rhsNonContracting by decide)]
  rfl

/-- The reference multiplies x by the transposed weight: at (r, p), the sum over k of x (r, k) times w (p, k). -/
theorem ref_dot (x : FVec Ideal S8192x128 .f32) (w : FVec Ideal S128x128 .f32) :
    @Eq (FVec Ideal S8192x128 .f32)
      (Host.dotGeneral DR none x (transpose S128x128 [1, 0] w Cert.ReferenceIdeal.Gen.transposes_S128x128_S128x128_1_0))
      (proj x w) := by
  funext j
  obtain ⟨r, p, rfl⟩ : ∃ r p, j = ix2 r p := ⟨j 0, j 1, eq_ix2 j⟩
  simp only [Host.dotGeneral]
  rw [Ideal.dotGeneral_apply, ← Equiv.sum_comp (contrEquiv1 DR 128 rfl rfl).symm]
  refine Finset.sum_congr rfl fun k _ => ?_
  have hk := contrEquiv1_symm_val DR 128 rfl rfl k
  have el : DR.lhsIdx (ix2 r p) ((contrEquiv1 DR 128 rfl rfl).symm k) = ix2 r k := funext fun a => Fin.ext (by
    match a with
    | ⟨0, _⟩ => exact lhsDR_0 _ _
    | ⟨1, _⟩ => exact (lhsDR_1 _ _).trans hk)
  have er : DR.rhsIdx (ix2 r p) ((contrEquiv1 DR 128 rfl rfl).symm k) = ix2 k p := funext fun a => Fin.ext (by
    match a with
    | ⟨0, _⟩ => exact (rhsDR_0 _ _).trans hk
    | ⟨1, _⟩ => exact rhsDR_1 _ _)
  rw [el, er, transpose_ix2_apply]

/-! ## The layer in closed form, and as the reference's text computes it -/

/-- The layer as the kernel computes it: relu of x @ w1ᵀ plus, added up at the wrapped destinations, the rows of
    x @ w2ᵀ gathered at the wrapped sources. -/
def kernelMp (x : FVec Ideal S8192x128 .f32) (w1 w2 : FVec Ideal S128x128 .f32) (src dst : IVec S61594 32) :
    FVec Ideal S8192x128 .f32 :=
  fun i => max (proj x w1 i
    + Host.scatterAdd scatter_S8192x128_S61594x1_S61594x128_1_0_0_1
        (broadcastInDim S8192x128 ![] bcast_S_S8192x128 (constant S_ .f32 0x00000000#32 : FVec Ideal S_ .f32))
        (take.col dst)
        (Host.gather gather_S8192x128_S61594x1_S61594x128_1_0_n_n_0_1_1128 (proj x w2) (take.col src)) i) 0

/-- Row 0 / row 1 of the edge list with the reference's shape facts. -/
abbrev refRow0 (a : IVec S2x61594 32) : IVec S61594 32 :=
  shapeCast S61594 (extractStridedSlice S1x61594 ![0, 0] a Cert.ReferenceIdeal.Gen.slices_S2x61594_S1x61594_0_0)
    Cert.ReferenceIdeal.Gen.shapeCasts_S1x61594_S61594
abbrev refRow1 (a : IVec S2x61594 32) : IVec S61594 32 :=
  shapeCast S61594 (extractStridedSlice S1x61594 ![1, 0] a Cert.ReferenceIdeal.Gen.slices_S2x61594_S1x61594_1_0)
    Cert.ReferenceIdeal.Gen.shapeCasts_S1x61594_S61594

/-- The layer as the reference's text computes it, one "let" per printed operation under the printed name, with
    the reference's records. -/
def refMp8192 (h : FVec Ideal S8192x128 .f32) (W1 W2 : FVec Ideal S128x128 .f32) (src dst : IVec S61594 32) :
    FVec Ideal S8192x128 .f32 :=
  let v8 : FVec Ideal S128x128 .f32 := transpose S128x128 [1, 0] W1 Cert.ReferenceIdeal.Gen.transposes_S128x128_S128x128_1_0
  let v9 : FVec Ideal S8192x128 .f32 := Host.dotGeneral Cert.ReferenceIdeal.dot_S8192x128_S128x128_S8192x128_1_0_0_1_n_n none h v8
  let cst : FVec Ideal S_ .f32 := constant S_ .f32 0x00000000#32
  let v10 : FVec Ideal S8192x128 .f32 := broadcastInDim S8192x128 ![] Cert.ReferenceIdeal.Gen.bcast_S_S8192x128 cst
  let v11 : FVec Ideal S128x128 .f32 := transpose S128x128 [1, 0] W2 Cert.ReferenceIdeal.Gen.transposes_S128x128_S128x128_1_0
  let v12 : FVec Ideal S8192x128 .f32 := Host.dotGeneral Cert.ReferenceIdeal.dot_S8192x128_S128x128_S8192x128_1_0_0_1_n_n none h v11
  let v13 : IVec S61594 32 := broadcastInDim S61594 ![] Cert.ReferenceIdeal.Gen.bcast_S_S61594 (constantI S_ 32 0#32)
  let v14 : IVec S61594 1 := cmpi .slt src v13
  let v15 : IVec S61594 32 := broadcastInDim S61594 ![] Cert.ReferenceIdeal.Gen.bcast_S_S61594 (constantI S_ 32 8192#32)
  let v16 : IVec S61594 32 := addi src v15
  let v17 : IVec S61594 32 := select v14 v16 src
  let v18 : IVec S61594x1 32 := broadcastInDim S61594x1 ![0] Cert.ReferenceIdeal.Gen.bcast_S61594_S61594x1_0 v17
  let v19 : FVec Ideal S61594x128 .f32 := Host.gather Cert.ReferenceIdeal.gather_S8192x128_S61594x1_S61594x128_1_0_n_n_0_1_1128 v12 v18
  let v20 : IVec S61594 32 := broadcastInDim S61594 ![] Cert.ReferenceIdeal.Gen.bcast_S_S61594 (constantI S_ 32 0#32)
  let v21 : IVec S61594 1 := cmpi .slt dst v20
  let v22 : IVec S61594 32 := broadcastInDim S61594 ![] Cert.ReferenceIdeal.Gen.bcast_S_S61594 (constantI S_ 32 8192#32)
  let v23 : IVec S61594 32 := addi dst v22
  let v24 : IVec S61594 32 := select v21 v23 dst
  let v25 : IVec S61594x1 32 := broadcastInDim S61594x1 ![0] Cert.ReferenceIdeal.Gen.bcast_S61594_S61594x1_0 v24
  let v26 : FVec Ideal S8192x128 .f32 := Host.scatterAdd Cert.ReferenceIdeal.scatter_S8192x128_S61594x1_S61594x128_1_0_0_1 v10 v25 v19
  let v27 : FVec Ideal S8192x128 .f32 := addf v9 v26
  let rcst : FVec Ideal S_ .f32 := constant S_ .f32 0x00000000#32
  let r0 : FVec Ideal S8192x128 .f32 := broadcastInDim S8192x128 ![] Cert.ReferenceIdeal.Gen.bcast_S_S8192x128 rcst
  maximumf v27 r0

/-- The two programs' gather and scatter records have the same fields. -/
theorem gather_eq : Cert.ReferenceIdeal.gather_S8192x128_S61594x1_S61594x128_1_0_n_n_0_1_1128
    = gather_S8192x128_S61594x1_S61594x128_1_0_n_n_0_1_1128 := rfl
theorem scatter_eq : Cert.ReferenceIdeal.scatter_S8192x128_S61594x1_S61594x128_1_0_0_1
    = scatter_S8192x128_S61594x1_S61594x128_1_0_0_1 := rfl

/-- The reference's layer is the same closed form: its two products are the two sums, its wraps, gather and
    scatter-add are the kernel's operations, and its relu is the maximum with a zero array. -/
theorem ref_closed (x : FVec Ideal S8192x128 .f32) (w1 w2 : FVec Ideal S128x128 .f32) (src dst : IVec S61594 32) :
    refMp8192 x w1 w2 src dst = kernelMp x w1 w2 src dst := by
  funext i
  unfold refMp8192 kernelMp
  dsimp only
  rw [maximumf_apply, addf_apply, ref_dot, ref_dot, gather_eq, scatter_eq]
  show max _ (Ideal.ofBits .f32 0x00000000#32) = _
  rw [Ideal.ofBits_zero_f32]
  rfl

end Cert.KernelIdeal.LayerLib

end
-- ==== Proof.KI.Layer1.lean ====
/-
  ONE MESSAGE-PASSING LAYER ON THE KERNEL'S SIDE: six consecutive items of @main.

  The first item (host) cuts this layer's matrix out of each of the two weight stacks, stacks the two matrices and
  transposes the stack. The second (a kernel region) multiplies the layer's input array by it. The third (host) cuts
  the product into its left and right halves. The fourth (host) takes the right half's rows at the source row of the
  edge list. The fifth (host) adds those rows up, at the wrapped destination row, into a zero array. The sixth (a
  kernel region) adds the left half and that array and applies relu.

  Each host item is read as its operations' term over ANY contents of the core's buffers before it, so that nothing
  earlier is ever unfolded; the chain of contents between the items then carries each value to where it is used. What
  the two kernel regions leave in their result arrays is taken as a hypothesis here (Out0, Out1). The layer's input
  array, the two weight stacks and the two rows of the edge list are whatever the buffers hold when the layer starts
  (the rows: after its first item); the first item writes none of them. With the take turned into a gather by the
  range of the source positions, the result array after the sixth item is the layer's closed form of those, which
  is the reference's layer. The two rows and the two weight stacks are still in their buffers when the layer ends.
-/
import proofs.«408611_j10797547782338_1_alg».proof.Proof.KI.Chain
import proofs.«408611_j10797547782338_1_alg».proof.Proof.KI.LayerLib
import Idealize.ShloMosaic.Lib.StableHlo.Run

set_option maxRecDepth 16384

noncomputable section

namespace Cert.KernelIdeal.Layer1

open Cert.KernelIdeal Cert.KernelIdeal.Gen Cert.KernelIdeal.GenP Cert.KernelIdeal.Chain Cert.KernelIdeal.LayerLib
open Idealize.ShloMosaic Idealize.ShloMosaic.TcCoe Idealize.ShloMosaic.StableHlo Idealize.ShloMosaic.ValueIdx
open Idealize.SL Idealize.SL.Sem
open Cert.TakeGather Cert.PreFacts
open scoped BigOperators

/-- This layer's matrix in a stack of three [128 × 128] matrices: a [1 × 128 × 128] slice with the unit axis dropped. -/
abbrev layerW {F : FTy → Type} [FloatOps F] (a : FVec F S3x128x128 .f32) : FVec F S128x128 .f32 :=
  shapeCast S128x128 (extractStridedSlice S1x128x128 ![0, 0, 0] a slices_S3x128x128_S1x128x128_0_0_0) shapeCasts_S1x128x128_S128x128
/-- The same with the reference's shape facts. -/
abbrev refLayerW (a : FVec Ideal S3x128x128 .f32) : FVec Ideal S128x128 .f32 :=
  shapeCast S128x128 (extractStridedSlice S1x128x128 ![0, 0, 0] a Cert.ReferenceIdeal.Gen.slices_S3x128x128_S1x128x128_0_0_0)
    Cert.ReferenceIdeal.Gen.shapeCasts_S1x128x128_S128x128

/-! ## The host items, read as terms

Each is stated over ANY contents V of the core's buffers before the item: what it leaves in a buffer it writes is
its operations applied to V at the buffers they read; a buffer it does not write keeps V's contents. -/

section Stretches
variable {F : FTy → Type} [FloatOps F] (V : Valuation τ sig (Elt F))

/-! ### The first item: the stacked, transposed weight -/

theorem hA_w : (StableHlo.after hostOps0 V (Proc.devRef .tc main_v9) : FVec F S128x256 .f32)
    = stackT (layerW (V (Proc.devRef .tc main_arg1))) (layerW (V (Proc.devRef .tc main_arg2))) := by
  after_results <;> rfl
theorem hA_x : StableHlo.after hostOps0 V (Proc.devRef .tc main_arg0) = V (Proc.devRef .tc main_arg0) := by
  after_results
theorem hA_arg1 : StableHlo.after hostOps0 V (Proc.devRef .tc main_arg1) = V (Proc.devRef .tc main_arg1) := by
  after_results
theorem hA_arg2 : StableHlo.after hostOps0 V (Proc.devRef .tc main_arg2) = V (Proc.devRef .tc main_arg2) := by
  after_results

/-! ### The third item: the two column halves -/

theorem hB_l : (StableHlo.after hostOps1 V (Proc.devRef .tc main_v11) : FVec F S8192x128 .f32)
    = extractStridedSlice S8192x128 ![0, 0] (V (Proc.devRef .tc main_v10) : FVec F S8192x256 .f32) slices_S8192x256_S8192x128_0_0 := by
  after_results <;> rfl
theorem hB_r : (StableHlo.after hostOps1 V (Proc.devRef .tc main_v12) : FVec F S8192x128 .f32)
    = extractStridedSlice S8192x128 ![0, 128] (V (Proc.devRef .tc main_v10) : FVec F S8192x256 .f32) slices_S8192x256_S8192x128_0_128 := by
  after_results <;> rfl
theorem hB_v1 : StableHlo.after hostOps1 V (Proc.devRef .tc main_v1) = V (Proc.devRef .tc main_v1) := by
  after_results
theorem hB_v3 : StableHlo.after hostOps1 V (Proc.devRef .tc main_v3) = V (Proc.devRef .tc main_v3) := by
  after_results
theorem hB_arg1 : StableHlo.after hostOps1 V (Proc.devRef .tc main_arg1) = V (Proc.devRef .tc main_arg1) := by
  after_results
theorem hB_arg2 : StableHlo.after hostOps1 V (Proc.devRef .tc main_arg2) = V (Proc.devRef .tc main_arg2) := by
  after_results

/-! ### The fourth item: the take of the right half's rows at the source row -/

theorem hC_t : (StableHlo.after hostOps1_1 V (Proc.devRef .tc main_v13) : FVec F S61594x128 .f32)
    = take.val (V (Proc.devRef .tc main_v12)) (V (Proc.devRef .tc main_v1)) := by
  after_results_simp <;> (try simp only [TRef.ofBuf, TRef.toBuf, cast_eq]) <;> rfl
theorem hC_l : StableHlo.after hostOps1_1 V (Proc.devRef .tc main_v11) = V (Proc.devRef .tc main_v11) := by
  after_results_simp
theorem hC_v1 : StableHlo.after hostOps1_1 V (Proc.devRef .tc main_v1) = V (Proc.devRef .tc main_v1) := by
  after_results_simp
theorem hC_v3 : StableHlo.after hostOps1_1 V (Proc.devRef .tc main_v3) = V (Proc.devRef .tc main_v3) := by
  after_results_simp
theorem hC_arg1 : StableHlo.after hostOps1_1 V (Proc.devRef .tc main_arg1) = V (Proc.devRef .tc main_arg1) := by
  after_results_simp
theorem hC_arg2 : StableHlo.after hostOps1_1 V (Proc.devRef .tc main_arg2) = V (Proc.devRef .tc main_arg2) := by
  after_results_simp

/-! ### The fifth item: the taken rows added up at the wrapped destination row into a zero array -/

theorem hD_s : (StableHlo.after hostOps1_2 V (Proc.devRef .tc main_v21) : FVec F S8192x128 .f32)
    = Host.scatterAdd scatter_S8192x128_S61594x1_S61594x128_1_0_0_1
        (broadcastInDim S8192x128 ![] bcast_S_S8192x128 (constant S_ .f32 0x00000000#32 : FVec F S_ .f32))
        (take.col (V (Proc.devRef .tc main_v3)))
        (V (Proc.devRef .tc main_v13) : FVec F S61594x128 .f32) := by
  after_results_simp <;> rfl
theorem hD_l : StableHlo.after hostOps1_2 V (Proc.devRef .tc main_v11) = V (Proc.devRef .tc main_v11) := by
  after_results
theorem hD_v1 : StableHlo.after hostOps1_2 V (Proc.devRef .tc main_v1) = V (Proc.devRef .tc main_v1) := by
  after_results
theorem hD_v3 : StableHlo.after hostOps1_2 V (Proc.devRef .tc main_v3) = V (Proc.devRef .tc main_v3) := by
  after_results
theorem hD_arg1 : StableHlo.after hostOps1_2 V (Proc.devRef .tc main_arg1) = V (Proc.devRef .tc main_arg1) := by
  after_results
theorem hD_arg2 : StableHlo.after hostOps1_2 V (Proc.devRef .tc main_arg2) = V (Proc.devRef .tc main_arg2) := by
  after_results

end Stretches

/-! ## The chain, item by item

The same reads at the contents between the items (E j: the core's contents when item j starts). A kernel region
changes its result array only; the two index rows, the two weight stacks and the projection's halves ride through
the items that do not write them. -/

section ChainReads
variable {F : FTy → Type} [FloatOps F]
variable (m : (ℓ : Loc nD τ sig) → Buf (Elt F) ℓ) (c : Dev nD)

/-! ### After the first item -/
theorem E1_w : (E1 m c main_v9 : FVec F S128x256 .f32) = stackT (layerW (E0 m c main_arg1)) (layerW (E0 m c main_arg2)) :=
  hA_w (W0 m c)
theorem E1_x : E1 m c main_arg0 = E0 m c main_arg0 := hA_x (W0 m c)
theorem E1_arg1 : E1 m c main_arg1 = E0 m c main_arg1 := hA_arg1 (W0 m c)
theorem E1_arg2 : E1 m c main_arg2 = E0 m c main_arg2 := hA_arg2 (W0 m c)

/-! ### After the second item, the first kernel region -/
theorem E2_o : E2 m c main_v10 = (Reg0.dat (E1 m) c).arrAt 2 cfg0.N := W2_arr m c 2
theorem E2_v1 : E2 m c main_v1 = E1 m c main_v1 := W2_of_ne m c main_v1 (by decide)
theorem E2_v3 : E2 m c main_v3 = E1 m c main_v3 := W2_of_ne m c main_v3 (by decide)
theorem E2_arg1 : E2 m c main_arg1 = E1 m c main_arg1 := W2_of_ne m c main_arg1 (by decide)
theorem E2_arg2 : E2 m c main_arg2 = E1 m c main_arg2 := W2_of_ne m c main_arg2 (by decide)

/-! ### After the third item -/
theorem E3_l : (E3 m c main_v11 : FVec F S8192x128 .f32)
    = extractStridedSlice S8192x128 ![0, 0] (E2 m c main_v10 : FVec F S8192x256 .f32) slices_S8192x256_S8192x128_0_0 := hB_l (W2 m c)
theorem E3_r : (E3 m c main_v12 : FVec F S8192x128 .f32)
    = extractStridedSlice S8192x128 ![0, 128] (E2 m c main_v10 : FVec F S8192x256 .f32) slices_S8192x256_S8192x128_0_128 := hB_r (W2 m c)
theorem E3_v1 : E3 m c main_v1 = E2 m c main_v1 := hB_v1 (W2 m c)
theorem E3_v3 : E3 m c main_v3 = E2 m c main_v3 := hB_v3 (W2 m c)
theorem E3_arg1 : E3 m c main_arg1 = E2 m c main_arg1 := hB_arg1 (W2 m c)
theorem E3_arg2 : E3 m c main_arg2 = E2 m c main_arg2 := hB_arg2 (W2 m c)

/-! ### After the fourth item -/
theorem E4_t : (E4 m c main_v13 : FVec F S61594x128 .f32) = take.val (E3 m c main_v12) (E3 m c main_v1) := hC_t (W3 m c)
theorem E4_l : E4 m c main_v11 = E3 m c main_v11 := hC_l (W3 m c)
theorem E4_v1 : E4 m c main_v1 = E3 m c main_v1 := hC_v1 (W3 m c)
theorem E4_v3 : E4 m c main_v3 = E3 m c main_v3 := hC_v3 (W3 m c)
theorem E4_arg1 : E4 m c main_arg1 = E3 m c main_arg1 := hC_arg1 (W3 m c)
theorem E4_arg2 : E4 m c main_arg2 = E3 m c main_arg2 := hC_arg2 (W3 m c)

/-! ### After the fifth item -/
theorem E5_s : (E5 m c main_v21 : FVec F S8192x128 .f32)
    = Host.scatterAdd scatter_S8192x128_S61594x1_S61594x128_1_0_0_1
        (broadcastInDim S8192x128 ![] bcast_S_S8192x128 (constant S_ .f32 0x00000000#32 : FVec F S_ .f32))
        (take.col (E4 m c main_v3)) (E4 m c main_v13 : FVec F S61594x128 .f32) := hD_s (W4 m c)
theorem E5_l : E5 m c main_v11 = E4 m c main_v11 := hD_l (W4 m c)
theorem E5_v1 : E5 m c main_v1 = E4 m c main_v1 := hD_v1 (W4 m c)
theorem E5_v3 : E5 m c main_v3 = E4 m c main_v3 := hD_v3 (W4 m c)
theorem E5_arg1 : E5 m c main_arg1 = E4 m c main_arg1 := hD_arg1 (W4 m c)
theorem E5_arg2 : E5 m c main_arg2 = E4 m c main_arg2 := hD_arg2 (W4 m c)

/-! ### After the sixth item, the second kernel region -/
theorem E6_y : E6 m c main_v22 = (Reg1.dat (E5 m) c).arrAt 2 cfg1.N := W6_arr m c 2
theorem E6_v1 : E6 m c main_v1 = E5 m c main_v1 := W6_of_ne m c main_v1 (by decide)
theorem E6_v3 : E6 m c main_v3 = E5 m c main_v3 := W6_of_ne m c main_v3 (by decide)
theorem E6_arg1 : E6 m c main_arg1 = E5 m c main_arg1 := W6_of_ne m c main_arg1 (by decide)
theorem E6_arg2 : E6 m c main_arg2 = E5 m c main_arg2 := W6_of_ne m c main_arg2 (by decide)

/-! ### What is still there when the layer ends -/

/-- The two rows of the edge list are as they were after the first item, -/
theorem rows_kept : E6 m c main_v1 = E1 m c main_v1 ∧ E6 m c main_v3 = E1 m c main_v3 :=
  ⟨(E6_v1 m c).trans ((E5_v1 m c).trans ((E4_v1 m c).trans ((E3_v1 m c).trans (E2_v1 m c)))),
   (E6_v3 m c).trans ((E5_v3 m c).trans ((E4_v3 m c).trans ((E3_v3 m c).trans (E2_v3 m c))))⟩
/-- and the two weight stacks as they were when the layer started. -/
theorem weights_kept : E6 m c main_arg1 = E0 m c main_arg1 ∧ E6 m c main_arg2 = E0 m c main_arg2 :=
  ⟨(E6_arg1 m c).trans ((E5_arg1 m c).trans ((E4_arg1 m c).trans ((E3_arg1 m c).trans ((E2_arg1 m c).trans (E1_arg1 m c))))),
   (E6_arg2 m c).trans ((E5_arg2 m c).trans ((E4_arg2 m c).trans ((E3_arg2 m c).trans ((E2_arg2 m c).trans (E1_arg2 m c)))))⟩

end ChainReads

/-! ## The layer -/

section Layer
variable (m : (ℓ : Loc nD τ sig) → Buf (Elt Ideal) ℓ) (c : Dev nD)

/-- What the first region leaves in its result array: the product of its two input arrays, entry by entry. -/
def Out0 : Prop :=
  ∀ (V : (c : Dev nD) → (b : Ref sig .tc) → Buf (Elt Ideal) ((c : Thread nD τ).loc b)) (c : Dev nD) (i : S8192x256.Idx),
    (Reg0.dat V c).arrAt 2 cfg0.N i
      = @Finset.sum (Fin 128) EReal _ Finset.univ fun k =>
          @HMul.hMul EReal EReal EReal _ (V c main_arg0 (ix2 (i 0) k)) (V c main_v9 (ix2 k (i 1)))

/-- What the second region leaves in its result array: the larger of zero and the sum of its two input arrays,
    entry by entry. -/
def Out1 : Prop :=
  ∀ (V : (c : Dev nD) → (b : Ref sig .tc) → Buf (Elt Ideal) ((c : Thread nD τ).loc b)) (c : Dev nD) (i : S8192x128.Idx),
    (Reg1.dat V c).arrAt 2 cfg1.N i
      = @max EReal _ (@HAdd.hAdd EReal EReal EReal _ (V c main_v11 i) (V c main_v21 i)) 0

/-- The layer's inputs, each at its literal type: the input array and this layer's two weights as the buffers hold
    them when the layer starts, and the two rows of the edge list as they are after its first item. -/
abbrev xArr : FVec Ideal S8192x128 .f32 := E0 m c main_arg0
abbrev w1Arr : FVec Ideal S128x128 .f32 := layerW (F := Ideal) (E0 m c main_arg1)
abbrev w2Arr : FVec Ideal S128x128 .f32 := layerW (F := Ideal) (E0 m c main_arg2)
abbrev srcArr : IVec S61594 32 := E1 m c main_v1
abbrev dstArr : IVec S61594 32 := E1 m c main_v3
/-- The first region's result array, at its literal type. -/
abbrev out0Arr : FVec Ideal S8192x256 .f32 := E2 m c main_v10

/-- The first region's result array, entry by entry, in the layer's inputs. -/
theorem out0Arr_apply (h0 : Out0) (i : S8192x256.Idx) :
    out0Arr m c i = ∑ k : Fin 128, xArr m c (ix2 (i 0) k) * stackT (w1Arr m c) (w2Arr m c) (ix2 k (i 1)) := by
  show E2 m c main_v10 i = _
  rw [E2_o]
  refine (h0 (E1 m) c i).trans ?_
  rw [E1_x, E1_w]

/-- The left half of the projection: x @ w1ᵀ. -/
theorem half_left (h0 : Out0) : @Eq (FVec Ideal S8192x128 .f32) (E3 m c main_v11) (proj (xArr m c) (w1Arr m c)) :=
  (E3_l m c).trans (left_cols (xArr m c) (out0Arr m c) (w1Arr m c) (w2Arr m c) (out0Arr_apply m c h0))

/-- The right half: x @ w2ᵀ. -/
theorem half_right (h0 : Out0) : @Eq (FVec Ideal S8192x128 .f32) (E3 m c main_v12) (proj (xArr m c) (w2Arr m c)) :=
  (E3_r m c).trans (right_cols (xArr m c) (out0Arr m c) (w1Arr m c) (w2Arr m c) (out0Arr_apply m c h0))

/-- After the sixth item the layer's result array holds the closed form of the layer's inputs, provided every
    source position is in range (so that the take is the gather). -/
theorem kernel_layer (h0 : Out0) (h1 : Out1) (hsrc : ∀ e : Fin 61594, InRange 8192 (srcArr m c (ix1 e))) :
    @Eq (FVec Ideal S8192x128 .f32) (E6 m c main_v22)
      (kernelMp (xArr m c) (w1Arr m c) (w2Arr m c) (srcArr m c) (dstArr m c)) := by
  funext i
  rw [E6_y, h1, E5_l, E4_l, half_left m c h0, E5_s, E4_v3, E3_v3, E2_v3, E4_t, E3_v1, E2_v1,
    take.val_eq_gather _ _ hsrc, half_right m c h0]
  rfl

/-- THE LAYER. After the sixth item the result array holds the reference's layer of the layer's inputs. -/
theorem layer (h0 : Out0) (h1 : Out1) (hsrc : ∀ e : Fin 61594, InRange 8192 (srcArr m c (ix1 e))) :
    @Eq (FVec Ideal S8192x128 .f32) (E6 m c main_v22)
      (refMp8192 (xArr m c) (refLayerW (E0 m c main_arg1)) (refLayerW (E0 m c main_arg2)) (srcArr m c) (dstArr m c)) :=
  (kernel_layer m c h0 h1 hsrc).trans
    (ref_closed (xArr m c) (w1Arr m c) (w2Arr m c) (srcArr m c) (dstArr m c)).symm

end Layer

end Cert.KernelIdeal.Layer1

end
-- ==== Proof.KI.Layers.lean ====
/-
  THE THREE LAYERS OVER 8192 ROWS, IN THE LAUNCH MEMORY'S ARGUMENTS.

  Each layer's module speaks of what the buffers hold when the layer starts. Here the three are tied to the launch
  memory. The two rows of the edge list are computed once, by the very first host item, and no later item of these
  eighteen writes them; the two weight stacks are arguments, which nothing writes. So in every layer the source and
  destination rows are rows 0 and 1 of the edge-list argument and the weights are that layer's slices of the two
  weight arguments, while the input array is the node-feature argument in the first layer and the previous layer's
  result array in the next two. Substituting each layer into the next gives the three layers composed.
-/
import proofs.«408611_j10797547782338_1_alg».proof.Proof.KI.Layer1
import proofs.«408611_j10797547782338_1_alg».proof.Proof.KI.Layer2
import proofs.«408611_j10797547782338_1_alg».proof.Proof.KI.Layer3

set_option maxRecDepth 16384

noncomputable section

namespace Cert.KernelIdeal.Layers

open Cert.KernelIdeal Cert.KernelIdeal.Gen Cert.KernelIdeal.GenP Cert.KernelIdeal.Chain Cert.KernelIdeal.LayerLib
open Idealize.ShloMosaic Idealize.ShloMosaic.TcCoe Idealize.ShloMosaic.StableHlo Idealize.ShloMosaic.ValueIdx
open Idealize.SL Idealize.SL.Sem
open Cert.PreFacts

/-! ## The two rows of the edge list -/

section Rows
variable {F : FTy → Type} [FloatOps F] (V : Valuation τ sig (Elt F))

/-- The very first host item cuts the two rows out of the edge list; -/
theorem h0_v1 : (StableHlo.after hostOps0 V (Proc.devRef .tc main_v1) : S61594.Idx → BitVec 32)
    = row0 (V (Proc.devRef .tc main_arg12)) := by
  after_results <;> rfl
theorem h0_v3 : (StableHlo.after hostOps0 V (Proc.devRef .tc main_v3) : S61594.Idx → BitVec 32)
    = row1 (V (Proc.devRef .tc main_arg12)) := by
  after_results <;> rfl

/-- the first host items of the second and third layers write neither. -/
theorem h2_v1 : StableHlo.after hostOps2 V (Proc.devRef .tc main_v1) = V (Proc.devRef .tc main_v1) := by
  after_results
theorem h2_v3 : StableHlo.after hostOps2 V (Proc.devRef .tc main_v3) = V (Proc.devRef .tc main_v3) := by
  after_results
theorem h4_v1 : StableHlo.after hostOps4 V (Proc.devRef .tc main_v1) = V (Proc.devRef .tc main_v1) := by
  after_results
theorem h4_v3 : StableHlo.after hostOps4 V (Proc.devRef .tc main_v3) = V (Proc.devRef .tc main_v3) := by
  after_results

end Rows

section Carried
variable {F : FTy → Type} [FloatOps F]
variable (m : (ℓ : Loc nD τ sig) → Buf (Elt F) ℓ) (c : Dev nD)

/-- After the first item of each layer the two row buffers hold rows 0 and 1 of the edge-list argument. -/
theorem E1_v1 : @Eq (IVec S61594 32) (E1 m c main_v1) (row0 (E0 m c main_arg12)) := h0_v1 (W0 m c)
theorem E1_v3 : @Eq (IVec S61594 32) (E1 m c main_v3) (row1 (E0 m c main_arg12)) := h0_v3 (W0 m c)
theorem E7_v1 : @Eq (IVec S61594 32) (E7 m c main_v1) (row0 (E0 m c main_arg12)) :=
  (h2_v1 (W6 m c)).trans ((Layer1.rows_kept m c).1.trans (E1_v1 m c))
theorem E7_v3 : @Eq (IVec S61594 32) (E7 m c main_v3) (row1 (E0 m c main_arg12)) :=
  (h2_v3 (W6 m c)).trans ((Layer1.rows_kept m c).2.trans (E1_v3 m c))
theorem E13_v1 : @Eq (IVec S61594 32) (E13 m c main_v1) (row0 (E0 m c main_arg12)) :=
  (h4_v1 (W12 m c)).trans ((Layer2.rows_kept m c).1.trans (E7_v1 m c))
theorem E13_v3 : @Eq (IVec S61594 32) (E13 m c main_v3) (row1 (E0 m c main_arg12)) :=
  (h4_v3 (W12 m c)).trans ((Layer2.rows_kept m c).2.trans (E7_v3 m c))

/-- When the second and the third layer start, the two weight stacks are the arguments. -/
theorem E6_arg1 : E6 m c main_arg1 = E0 m c main_arg1 := (Layer1.weights_kept m c).1
theorem E6_arg2 : E6 m c main_arg2 = E0 m c main_arg2 := (Layer1.weights_kept m c).2
theorem E12_arg1 : E12 m c main_arg1 = E0 m c main_arg1 := (Layer2.weights_kept m c).1.trans (E6_arg1 m c)
theorem E12_arg2 : E12 m c main_arg2 = E0 m c main_arg2 := (Layer2.weights_kept m c).2.trans (E6_arg2 m c)

end Carried

/-! ## The three layers -/

section Three
variable (m : (ℓ : Loc nD τ sig) → Buf (Elt Ideal) ℓ) (c : Dev nD)

/-- The edge list's two rows and the k-th slices of the two weight arguments, with the reference's shape facts. -/
abbrev src : IVec S61594 32 := refRow0 (E0 m c main_arg12)
abbrev dst : IVec S61594 32 := refRow1 (E0 m c main_arg12)

/-- LAYER 1: the node-feature argument through the reference's layer with the first slices of the weights. -/
theorem layer1 (h0 : Layer1.Out0) (h1 : Layer1.Out1) (hsrc : ∀ e : Fin 61594, InRange 8192 (src m c (ix1 e))) :
    @Eq (FVec Ideal S8192x128 .f32) (E6 m c main_v22)
      (refMp8192 (E0 m c main_arg0) (Layer1.refLayerW (E0 m c main_arg1)) (Layer1.refLayerW (E0 m c main_arg2))
        (src m c) (dst m c)) := by
  have hs : Layer1.srcArr m c = row0 (E0 m c main_arg12) := E1_v1 m c
  have hd : Layer1.dstArr m c = row1 (E0 m c main_arg12) := E1_v3 m c
  have key := Layer1.layer m c h0 h1 (by rw [hs]; exact hsrc)
  rw [hs, hd] at key
  exact key

/-- LAYER 2: layer 1's result array through the reference's layer with the second slices. -/
theorem layer2 (h0 : Layer2.Out0) (h1 : Layer2.Out1) (hsrc : ∀ e : Fin 61594, InRange 8192 (src m c (ix1 e))) :
    @Eq (FVec Ideal S8192x128 .f32) (E12 m c main_v41)
      (refMp8192 (E6 m c main_v22) (Layer2.refLayerW (E0 m c main_arg1)) (Layer2.refLayerW (E0 m c main_arg2))
        (src m c) (dst m c)) := by
  have hs : Layer2.srcArr m c = row0 (E0 m c main_arg12) := E7_v1 m c
  have hd : Layer2.dstArr m c = row1 (E0 m c main_arg12) := E7_v3 m c
  have key := Layer2.layer m c h0 h1 (by rw [hs]; exact hsrc)
  rw [hs, hd, E6_arg1, E6_arg2] at key
  exact key

/-- LAYER 3: layer 2's result array through the reference's layer with the third slices. -/
theorem layer3 (h0 : Layer3.Out0) (h1 : Layer3.Out1) (hsrc : ∀ e : Fin 61594, InRange 8192 (src m c (ix1 e))) :
    @Eq (FVec Ideal S8192x128 .f32) (E18 m c main_v60)
      (refMp8192 (E12 m c main_v41) (Layer3.refLayerW (E0 m c main_arg1)) (Layer3.refLayerW (E0 m c main_arg2))
        (src m c) (dst m c)) := by
  have hs : Layer3.srcArr m c = row0 (E0 m c main_arg12) := E13_v1 m c
  have hd : Layer3.dstArr m c = row1 (E0 m c main_arg12) := E13_v3 m c
  have key := Layer3.layer m c h0 h1 (by rw [hs]; exact hsrc)
  rw [hs, hd, E12_arg1, E12_arg2] at key
  exact key

/-- THE THREE LAYERS COMPOSED: after item 17 the array main_v60 holds the node-feature argument passed through the
    reference's layer three times, each time with that layer's slices of the two weight arguments. -/
theorem layers (a0 : Layer1.Out0) (a1 : Layer1.Out1) (b0 : Layer2.Out0) (b1 : Layer2.Out1) (c0 : Layer3.Out0) (c1 : Layer3.Out1)
    (hsrc : ∀ e : Fin 61594, InRange 8192 (src m c (ix1 e))) :
    @Eq (FVec Ideal S8192x128 .f32) (E18 m c main_v60)
      (refMp8192
        (refMp8192
          (refMp8192 (E0 m c main_arg0) (Layer1.refLayerW (E0 m c main_arg1)) (Layer1.refLayerW (E0 m c main_arg2)) (src m c) (dst m c))
          (Layer2.refLayerW (E0 m c main_arg1)) (Layer2.refLayerW (E0 m c main_arg2)) (src m c) (dst m c))
        (Layer3.refLayerW (E0 m c main_arg1)) (Layer3.refLayerW (E0 m c main_arg2)) (src m c) (dst m c)) := by
  rw [layer3 m c c0 c1 hsrc, layer2 m c b0 b1 hsrc, layer1 m c a0 a1 hsrc]

end Three

end Cert.KernelIdeal.Layers

end
-- ==== Proof.LibNary3.lean ====
/-
  The result of a host operation over a literal family of THREE references.

  A host operation that reads a family of n references (a concatenate of n operands) leaves, at its result
  reference, its function applied to the family of the operands' contents, `fun k => F ↑(xs k)`. When the family is a
  literal list the contents of each operand are wanted at that operand's OWN reference, so that whatever is known of
  each reference can be rewritten there: under the binder the reference `![x, a, b] k` is no literal. The library
  states this for a literal family of four references; this is the same statement for three.
-/
import Idealize.ShloMosaic.Lib.StableHlo.Run

noncomputable section

namespace Idealize.ShloMosaic.StableHlo

variable {τ : Topo} {sig : RefSig} {Val : EltTy → Type}
variable {x a b y : Ref sig .tc}

/-- `nary` over a LITERAL family of three references (a concatenate of three operands, printed
    `nary ![x, a, b] …`): the result with each operand's contents AT ITS OWN REFERENCE, `Fin.cons (F ↑x) …` in place
    of `fun k => F ↑(![x, a, b] k)`. The function's body with `u k` read as operand `k`'s contents is then the
    right-hand side's by `rfl` (β, then `Fin.cons` at the literals `0 … 2`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for use from `simp` (as the library's primed result lemmas). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KI.Mid.lean ====
/-
  THE MIDDLE OF THE KERNEL'S @main: items 18 … 22, between the third add-and-relu region and the first projection of
  the pair features.

  Item 18 lays the segment ids out as a column. Item 19, a kernel region, sums the rows of the features into 128
  segments by those ids. Items 20 and 21 each take rows of the features at a list of positions: the positions wrapped
  (a negative one has the row count 8192 added), the rows gathered at the wrapped column, and a row replaced by a
  fill constant where the wrapped position is outside [0, 8192). Item 22 puts the two blocks of taken rows and one
  extra column side by side, cuts the two rows out of the second edge list, and stacks and transposes two weight
  blocks.

  What is proved, each at the contents W j of a core's buffers between the items (kept folded throughout):
  * each host stretch, read at the results a later region uses, is a term of its inputs over ANY contents it starts
    from, so that nothing before it is ever opened;
  * a reference no item so far has written still holds what the launch memory holds;
  * the segment sum's result array is the accumulator after the last grid point; given that accumulator as a
    function of the id column and the rows the region was entered with, it is that function of the launch's ids,
    broadcast to a column, and the features the region before left. A reshape of a vector to a column and a broadcast
    of it along the rows are the same column: both read, at row p, the vector at p;
  * with both position lists in [-8192, 8192) the fill is never selected, each take is the gather at the wrapped
    column, and the concatenate is the reference's: the same wrap, the same gathers, the same three pieces;
  * the edge rows and the stacked, transposed weights the next region is entered with, as terms of the launch memory.
-/
import proofs.«408611_j10797547782338_1_alg».proof.Proof.KI.Chain
import proofs.«408611_j10797547782338_1_alg».proof.Proof.TakeGather
import proofs.«408611_j10797547782338_1_alg».proof.Proof.LibNary3
import Idealize.ShloMosaic.Lib.StableHlo.Predicate
import Idealize.ShloMosaic.Lib.ValueLayout

set_option maxRecDepth 16384

noncomputable section

namespace Cert.KernelIdeal.Mid

open Cert.KernelIdeal Cert.KernelIdeal.Gen Cert.KernelIdeal.GenP Cert.KernelIdeal.Chain
open Idealize.ShloMosaic Idealize.ShloMosaic.TcCoe Idealize.ShloMosaic.ValueIdx
open Idealize.SL Idealize.SL.Sem

variable (m : (ℓ : Loc nD τ sig) → Buf (Elt Ideal) ℓ)

/-! ## What no item so far has written is as launched -/

/-- None of items 0 … 17 writes r: no host stretch among them does, and r is no window's array of regions 0 … 5. -/
abbrev Untouched18 (r : Ref sig .tc) : Prop :=
  r ∉ hostOps0_W ∧ (∀ w : Fin 3, Pipeline.arrRef spec0 w ≠ r) ∧ r ∉ hostOps1_W ∧ r ∉ hostOps1_1_W ∧ r ∉ hostOps1_2_W
    ∧ (∀ w : Fin 3, Pipeline.arrRef spec1 w ≠ r) ∧ r ∉ hostOps2_W ∧ (∀ w : Fin 3, Pipeline.arrRef spec2 w ≠ r)
    ∧ r ∉ hostOps3_W ∧ r ∉ hostOps3_1_W ∧ r ∉ hostOps3_2_W ∧ (∀ w : Fin 3, Pipeline.arrRef spec3 w ≠ r)
    ∧ r ∉ hostOps4_W ∧ (∀ w : Fin 3, Pipeline.arrRef spec4 w ≠ r) ∧ r ∉ hostOps5_W ∧ r ∉ hostOps5_1_W ∧ r ∉ hostOps5_2_W
    ∧ (∀ w : Fin 3, Pipeline.arrRef spec5 w ≠ r)

/-- A reference none of items 0 … 17 writes holds, when item 18 begins, what the launch memory holds. -/
theorem launch18 (c : Dev nD) (r : Ref sig .tc) (h : Untouched18 r) : W18 m c r = W0 m c r := by
  obtain ⟨h1, h2, h3, h4, h5, h6, h7, h8, h9, h10, h11, h12, h13, h14, h15, h16, h17, h18⟩ := h
  exact (W18_of_ne m c r h18).trans <|
    (StableHlo.after_of_writes_sub hostOps5_2 _ hostOps5_2_writes h17).trans <|
    (StableHlo.after_of_writes_sub hostOps5_1 _ hostOps5_1_writes h16).trans <|
    (StableHlo.after_of_writes_sub hostOps5 _ hostOps5_writes h15).trans <|
    (W14_of_ne m c r h14).trans <|
    (StableHlo.after_of_writes_sub hostOps4 _ hostOps4_writes h13).trans <|
    (W12_of_ne m c r h12).trans <|
    (StableHlo.after_of_writes_sub hostOps3_2 _ hostOps3_2_writes h11).trans <|
    (StableHlo.after_of_writes_sub hostOps3_1 _ hostOps3_1_writes h10).trans <|
    (StableHlo.after_of_writes_sub hostOps3 _ hostOps3_writes h9).trans <|
    (W8_of_ne m c r h8).trans <|
    (StableHlo.after_of_writes_sub hostOps2 _ hostOps2_writes h7).trans <|
    (W6_of_ne m c r h6).trans <|
    (StableHlo.after_of_writes_sub hostOps1_2 _ hostOps1_2_writes h5).trans <|
    (StableHlo.after_of_writes_sub hostOps1_1 _ hostOps1_1_writes h4).trans <|
    (StableHlo.after_of_writes_sub hostOps1 _ hostOps1_writes h3).trans <|
    (W2_of_ne m c r h2).trans <|
    (StableHlo.after_of_writes_sub hostOps0 _ hostOps0_writes h1)

/-- Item 18 writes the id column only. -/
theorem keep19 (c : Dev nD) (r : Ref sig .tc) (h : r ∉ hostOps6_W) : W19 m c r = W18 m c r :=
  StableHlo.after_of_writes_sub hostOps6 _ hostOps6_writes h
/-- Item 19, the segment sum, may change its three windows' arrays only. -/
theorem keep20 (c : Dev nD) (r : Ref sig .tc) (h : ∀ w : Fin 3, Pipeline.arrRef spec6 w ≠ r) : W20 m c r = W19 m c r :=
  W20_of_ne m c r h
/-- Item 20 writes the first take's values only. -/
theorem keep21 (c : Dev nD) (r : Ref sig .tc) (h : r ∉ hostOps7_W) : W21 m c r = W20 m c r :=
  StableHlo.after_of_writes_sub hostOps7 _ hostOps7_writes h
/-- Item 21 writes the second take's values only. -/
theorem keep22 (c : Dev nD) (r : Ref sig .tc) (h : r ∉ hostOps7_1_W) : W22 m c r = W21 m c r :=
  StableHlo.after_of_writes_sub hostOps7_1 _ hostOps7_1_writes h
/-- Item 22 writes its seven results only. -/
theorem keep23 (c : Dev nD) (r : Ref sig .tc) (h : r ∉ hostOps7_2_W) : W23 m c r = W22 m c r :=
  StableHlo.after_of_writes_sub hostOps7_2 _ hostOps7_2_writes h

/-- … and still does when item 20 begins, if items 18 and 19 do not write it either. -/
theorem launch20 (c : Dev nD) (r : Ref sig .tc) (h : Untouched18 r) (h19 : r ∉ hostOps6_W)
    (h20 : ∀ w : Fin 3, Pipeline.arrRef spec6 w ≠ r) : W20 m c r = W0 m c r :=
  (keep20 m c r h20).trans <| (keep19 m c r h19).trans (launch18 m c r h)
/-- … when item 21 begins, if item 20 does not write it. -/
theorem launch21 (c : Dev nD) (r : Ref sig .tc) (h : Untouched18 r) (h19 : r ∉ hostOps6_W)
    (h20 : ∀ w : Fin 3, Pipeline.arrRef spec6 w ≠ r) (h21 : r ∉ hostOps7_W) : W21 m c r = W0 m c r :=
  (keep21 m c r h21).trans (launch20 m c r h h19 h20)
/-- … when item 22 begins, if item 21 does not write it. -/
theorem launch22 (c : Dev nD) (r : Ref sig .tc) (h : Untouched18 r) (h19 : r ∉ hostOps6_W)
    (h20 : ∀ w : Fin 3, Pipeline.arrRef spec6 w ≠ r) (h21 : r ∉ hostOps7_W) (h22 : r ∉ hostOps7_1_W) :
    W22 m c r = W0 m c r :=
  (keep22 m c r h22).trans (launch21 m c r h h19 h20 h21)

/-- Region 5's features are still in place when each take reads them: item 18 does not write them, region 6 stages
    them as an input and leaves an input's array as it found it, and the first take does not write them. -/
theorem feat20 (c : Dev nD) : W20 m c main_v60 = W18 m c main_v60 :=
  (W20_arr m c 0).trans (keep19 m c main_v60 (by decide))
theorem feat21 (c : Dev nD) : W21 m c main_v60 = W18 m c main_v60 :=
  (keep21 m c main_v60 (by decide)).trans (feat20 m c)

/-! ## The id column -/

/-- A vector laid out as a column by a reshape and by a broadcast along the rows is the same column: both read, at
    row p of the one column, the vector at p. -/
theorem col_reshape_eq_bcast {α : Type} {n : Nat} (ids : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ ids hc = broadcastInDim ⟨2, ![n, 1]⟩ ![0] hb ids := by
  funext j
  obtain ⟨p, q, rfl⟩ : ∃ (p : Fin n) (q : Fin 1), j = ix2 p q := ⟨j 0, j 1, eq_ix2 j⟩
  have hq : q = 0 := Subsingleton.elim _ _
  subst hq
  have e1 : (ix2 p (0 : Fin 1) : (⟨2, ![n, 1]⟩ : Shape).Idx) = StableHlo.Predicate.ixP p := by
    funext a; match a with | ⟨0, _⟩ => rfl | ⟨1, _⟩ => rfl
  have e2 : (ix1 p : (⟨1, ![n]⟩ : Shape).Idx) = Shape.Idx.ofFin p := by
    funext a; match a with | ⟨0, _⟩ => rfl
  rw [shapeCast_apply ids hc _ (ix1 p) (by
        rw [Shape.rowMajor_val_one, Shape.rowMajor_val_two]; show p.val = p.val * 1 + 0; omega),
    e1, StableHlo.Predicate.bcast_col1 hb ids p, e2]

/-! ## Each host stretch of the middle, read at the results the regions use, over any contents V it starts from -/

section Host
variable (V : Valuation τ sig (Elt Ideal))

/-- Item 18: the id vector laid out as a column. -/
theorem hostOps6_v61 :
    (StableHlo.after hostOps6 V (Proc.devRef .tc main_v61) : S8192x1.Idx → BitVec 32)
      = shapeCast S8192x1 (V (Proc.devRef .tc main_arg13) : S8192.Idx → BitVec 32) shapeCasts_S8192_S8192x1 := by
  after_results
  rfl

/-- Item 22 at its first result: the two gathered blocks and the extra column side by side. -/
theorem hostOps7_2_v65 :
    (StableHlo.after hostOps7_2 V (Proc.devRef .tc main_v65) : S258048x257.Idx → EReal)
      = concatenate S258048x257 1
          [⟨S258048x128, (V (Proc.devRef .tc main_v63) : S258048x128.Idx → EReal)⟩,
           ⟨S258048x128, (V (Proc.devRef .tc main_v64) : S258048x128.Idx → EReal)⟩,
           ⟨S258048x1, (V (Proc.devRef .tc main_arg11) : S258048x1.Idx → EReal)⟩]
          concatenates_S258048x128_S258048x128_S258048x1_S258048x257_d1 := by
  simp only [StableHlo.after_cons, StableHlo.after_nil]
  rw [StableHlo.unary_result_ne]; rotate_left; decide
  rw [StableHlo.binary_result_ne]; rotate_left; decide
  rw [StableHlo.reshape_result_ne]; rotate_left; decide
  rw [StableHlo.unary_result_ne]; rotate_left; decide
  rw [StableHlo.reshape_result_ne]; rotate_left; decide
  rw [StableHlo.unary_result_ne]; rotate_left; decide
  rw [StableHlo.nary3_result]
  rfl

/-- Item 22: row 0 of the second edge list, cut out and flattened. -/
theorem hostOps7_2_v67 :
    (StableHlo.after hostOps7_2 V (Proc.devRef .tc main_v67) : S454772.Idx → BitVec 32)
      = shapeCast S454772 (extractStridedSlice S1x454772 ![0, 0]
          (V (Proc.devRef .tc main_arg17) : S2x454772.Idx → BitVec 32) slices_S2x454772_S1x454772_0_0)
          shapeCasts_S1x454772_S454772 := by
  after_results
  rfl

/-- Item 22: row 1 of the second edge list, cut out and flattened. -/
theorem hostOps7_2_v69 :
    (StableHlo.after hostOps7_2 V (Proc.devRef .tc main_v69) : S454772.Idx → BitVec 32)
      = shapeCast S454772 (extractStridedSlice S1x454772 ![1, 0]
          (V (Proc.devRef .tc main_arg17) : S2x454772.Idx → BitVec 32) slices_S2x454772_S1x454772_1_0)
          shapeCasts_S1x454772_S454772 := by
  after_results
  rfl

/-- Item 22: the two 128 x 257 weight blocks stacked, then transposed to 257 x 256. -/
theorem hostOps7_2_v71 :
    (StableHlo.after hostOps7_2 V (Proc.devRef .tc main_v71) : S257x256.Idx → EReal)
      = transpose S257x256 [1, 0]
          (concatenate S256x257 0
            [⟨S128x257, (V (Proc.devRef .tc main_arg3) : S128x257.Idx → EReal)⟩,
             ⟨S128x257, (V (Proc.devRef .tc main_arg4) : S128x257.Idx → EReal)⟩]
            concatenates_S128x257_S128x257_S256x257_d0)
          transposes_S256x257_S257x256_1_0 := by
  after_results

end Host

section HostTake
variable (V : Valuation τ sig (Elt Ideal))

/-- Item 20: the first take, as its printed operations compose, of the features and the first pair list. (Each
    operation of a called function stores its value through the identity transport between a value's type and its
    buffer's; the transports cancel in pairs.) -/
theorem hostOps7_v63 :
    (StableHlo.after hostOps7 V (Proc.devRef .tc main_v63) : S258048x128.Idx → EReal)
      = Cert.TakeGather.take_0.val (F := Ideal) (V (Proc.devRef .tc main_v60)) (V (Proc.devRef .tc main_arg14)) := by
  after_results
  simp only [cast_cast, cast_eq]
  rfl

/-- Item 21: the second take, of the features and the second pair list. -/
theorem hostOps7_1_v64 :
    (StableHlo.after hostOps7_1 V (Proc.devRef .tc main_v64) : S258048x128.Idx → EReal)
      = Cert.TakeGather.take_0.val (F := Ideal) (V (Proc.devRef .tc main_v60)) (V (Proc.devRef .tc main_arg15)) := by
  after_results
  simp only [cast_cast, cast_eq]
  rfl

end HostTake

/-! ## Item 19: the segment sum -/

/-- The features region 6 reads are the ones region 5 left: item 18 does not write them. -/
theorem E19_v60 (c : Dev nD) : E19 m c main_v60 = E18 m c main_v60 := keep19 m c main_v60 (by decide)

/-- The id column region 6 reads: the launch's id vector, as a column. -/
theorem E19_v61 (c : Dev nD) (hb : S8192.BroadcastsInDim S8192x1 ![0]) :
    (E19 m c main_v61 : S8192x1.Idx → BitVec 32)
      = broadcastInDim S8192x1 ![0] hb (E0 m c main_arg13 : S8192.Idx → BitVec 32) := by
  show StableHlo.after hostOps6 (W18 m c) (Proc.devRef .tc main_v61) = _
  rw [hostOps6_v61, col_reshape_eq_bcast _ _ hb]
  exact congrArg (broadcastInDim S8192x1 ![0] hb) (launch18 m c main_arg13 (by decide))

/-- What region 6 leaves in its result array is the accumulator after the last point; if that is a function segSum of
    the id column and the features the region was entered with, it is segSum of the launch's ids (as a column) and
    region 5's features. -/
theorem seg1_of_acc_last
    (segSum : (S8192x1.Idx → BitVec 32) → (S8192x128.Idx → EReal) → S128x128.Idx → EReal)
    (acc_last : ∀ (V : (c : Dev nD) → (b : Ref sig .tc) → Buf (Elt Ideal) ((c : Thread nD τ).loc b)) (c : Dev nD),
      (Reg6.acc V c (cfg6.N - 1) : S128x128.Idx → EReal)
        = segSum (V c (Pipeline.arrRef spec6 1)) (V c (Pipeline.arrRef spec6 0)))
    (c : Dev nD) (hb : S8192.BroadcastsInDim S8192x1 ![0]) :
    (E20 m c main_v62 : S128x128.Idx → EReal)
      = segSum (broadcastInDim S8192x1 ![0] hb (E0 m c main_arg13 : S8192.Idx → BitVec 32)) (E18 m c main_v60) := by
  have h1 : (E20 m c main_v62 : S128x128.Idx → EReal) = Reg6.acc (E19 m) c (cfg6.N - 1) := W20_arr m c 2
  rw [h1, acc_last (E19 m) c]
  exact congrArg₂ segSum (E19_v61 m c hb) (E19_v60 m c)

/-! ## Items 20 … 22: the pair features -/

/-- An index vector with the axis length 8192 added to its negative entries, laid out as a column: the operations the
    reference prints for it (a vector of zeros; the signed comparison with it; a vector of 8192s; the sum; the select
    between the sum and the entry; the broadcast to a column). -/
def wrapOps (idx : S258048.Idx → BitVec 32) : S258048x1.Idx → BitVec 32 :=
  broadcastInDim S258048x1 ![0] bcast_S258048_S258048x1_0
    (select (cmpi .slt idx (broadcastInDim S258048 ![] bcast_S_S258048 (constantI S_ 32 0#32)))
      (addi idx (broadcastInDim S258048 ![] bcast_S_S258048 (constantI S_ 32 8192#32))) idx)

/-- It is the take's own wrapped column: the same operations. -/
theorem wrapOps_eq_col (idx : S258048.Idx → BitVec 32) : wrapOps idx = Cert.TakeGather.take_0.col idx := rfl

/-- Two [258048 x 128] blocks and a [258048 x 1] column side by side. -/
def catOps (a b : S258048x128.Idx → EReal) (i : S258048x1.Idx → EReal) : S258048x257.Idx → EReal :=
  concatenate S258048x257 1 [⟨S258048x128, a⟩, ⟨S258048x128, b⟩, ⟨S258048x1, i⟩]
    concatenates_S258048x128_S258048x128_S258048x1_S258048x257_d1

/-- The pair features as the reference's operations compose them: the features' rows gathered at the wrapped first
    pair list, the rows gathered at the wrapped second pair list, and the extra column, side by side. -/
def pairOps (h : S8192x128.Idx → EReal) (u v : S258048.Idx → BitVec 32) (iso : S258048x1.Idx → EReal) :
    S258048x257.Idx → EReal :=
  catOps (Host.gather gather_S8192x128_S258048x1_S258048x128_1_0_n_n_0_1_1128 h (wrapOps u))
    (Host.gather gather_S8192x128_S258048x1_S258048x128_1_0_n_n_0_1_1128 h (wrapOps v)) iso

/-- The first gathered block, when item 22 begins: the first take read region 5's features and the launch's first pair
    list, whose entries are in range, so it is the gather; item 21 does not write it. -/
theorem gathered63 (c : Dev nD) (hu : ∀ p : Fin 258048, Cert.PreFacts.InRange 8192 ((E0 m c main_arg14) (ValueIdx.ix1 p))) :
    (W22 m c (Proc.devRef .tc main_v63) : S258048x128.Idx → EReal)
      = Host.gather gather_S8192x128_S258048x1_S258048x128_1_0_n_n_0_1_1128 (E18 m c main_v60) (wrapOps (E0 m c main_arg14)) := by
  refine (keep22 m c main_v63 (by decide)).trans ?_
  refine (hostOps7_v63 (W20 m c)).trans ?_
  refine (congrArg₂ (Cert.TakeGather.take_0.val (F := Ideal)) (feat20 m c)
    (launch20 m c main_arg14 (by decide) (by decide) (by decide))).trans ?_
  exact Cert.TakeGather.take_0.val_eq_gather _ _ hu

/-- The second gathered block likewise, from the second take and the second pair list. -/
theorem gathered64 (c : Dev nD) (hv : ∀ p : Fin 258048, Cert.PreFacts.InRange 8192 ((E0 m c main_arg15) (ValueIdx.ix1 p))) :
    (W22 m c (Proc.devRef .tc main_v64) : S258048x128.Idx → EReal)
      = Host.gather gather_S8192x128_S258048x1_S258048x128_1_0_n_n_0_1_1128 (E18 m c main_v60) (wrapOps (E0 m c main_arg15)) := by
  refine (hostOps7_1_v64 (W21 m c)).trans ?_
  refine (congrArg₂ (Cert.TakeGather.take_0.val (F := Ideal)) (feat21 m c)
    (launch21 m c main_arg15 (by decide) (by decide) (by decide) (by decide))).trans ?_
  exact Cert.TakeGather.take_0.val_eq_gather _ _ hv

/-- THE PAIR FEATURES region 7 is entered with are the reference's, of region 5's features and the launch's two pair
    lists and extra column, when both pair lists are in range. -/
theorem pair_ops (c : Dev nD)
    (hu : ∀ p : Fin 258048, Cert.PreFacts.InRange 8192 ((E0 m c main_arg14) (ValueIdx.ix1 p)))
    (hv : ∀ p : Fin 258048, Cert.PreFacts.InRange 8192 ((E0 m c main_arg15) (ValueIdx.ix1 p))) :
    (E23 m c main_v65 : S258048x257.Idx → EReal)
      = pairOps (E18 m c main_v60) (E0 m c main_arg14) (E0 m c main_arg15) (E0 m c main_arg11) := by
  refine (hostOps7_2_v65 (W22 m c)).trans ?_
  show catOps _ _ _ = catOps _ _ _
  rw [gathered63 m c hu, gathered64 m c hv,
    launch22 m c main_arg11 (by decide) (by decide) (by decide) (by decide) (by decide)]

/-! ## What region 7 is entered with besides -/

/-- Row 0 of the launch's second edge list, cut out and flattened. -/
theorem E23_v67 (c : Dev nD) :
    (E23 m c main_v67 : S454772.Idx → BitVec 32)
      = shapeCast S454772 (extractStridedSlice S1x454772 ![0, 0]
          (E0 m c main_arg17 : S2x454772.Idx → BitVec 32) slices_S2x454772_S1x454772_0_0)
          shapeCasts_S1x454772_S454772 := by
  refine (hostOps7_2_v67 (W22 m c)).trans ?_
  rw [launch22 m c main_arg17 (by decide) (by decide) (by decide) (by decide) (by decide)]

/-- Row 1 of the launch's second edge list, cut out and flattened. -/
theorem E23_v69 (c : Dev nD) :
    (E23 m c main_v69 : S454772.Idx → BitVec 32)
      = shapeCast S454772 (extractStridedSlice S1x454772 ![1, 0]
          (E0 m c main_arg17 : S2x454772.Idx → BitVec 32) slices_S2x454772_S1x454772_1_0)
          shapeCasts_S1x454772_S454772 := by
  refine (hostOps7_2_v69 (W22 m c)).trans ?_
  rw [launch22 m c main_arg17 (by decide) (by decide) (by decide) (by decide) (by decide)]

/-- The launch's two [128 x 257] weight blocks stacked, then transposed: the [257 x 256] weights region 7 multiplies by. -/
theorem E23_v71 (c : Dev nD) :
    (E23 m c main_v71 : S257x256.Idx → EReal)
      = transpose S257x256 [1, 0]
          (concatenate S256x257 0
            [⟨S128x257, (E0 m c main_arg3 : S128x257.Idx → EReal)⟩,
             ⟨S128x257, (E0 m c main_arg4 : S128x257.Idx → EReal)⟩]
            concatenates_S128x257_S128x257_S256x257_d0)
          transposes_S256x257_S257x256_1_0 := by
  refine (hostOps7_2_v71 (W22 m c)).trans ?_
  rw [launch22 m c main_arg3 (by decide) (by decide) (by decide) (by decide) (by decide),
    launch22 m c main_arg4 (by decide) (by decide) (by decide) (by decide) (by decide)]

end Cert.KernelIdeal.Mid

end
-- ==== Proof.KI.Val6.lean ====
/-
  Region 6 of the idealized kernel's @main, the segment sum: the VALUE of its accumulator, at the ideal floats
  (extended reals; a change of format is the identity; a product into a zero accumulator is the exact sum of products).

  The segment sum of rows [8192 x 128] by ids [8192 x 1] is, at (s, col), the sum of column col over the rows whose id
  is the 32-bit word of s; s ranges over the 128 segments, so a row whose id is the word of no such s (a negative id
  included) is in no segment. Two roads end in it:
   (A) the kernel's accumulator. Each of the grid's points multiplies the transposed one-hot matrix of its 2048 ids
       (entry (r, s) is 1 where row r's id is the word of s, else 0) by its 2048 rows and adds the product to what the
       point before left, the first point to the zero block. Only 0 * x = 0, 1 * x = x, 0 + x = x and the splitting of
       a sum over the rows into the points' blocks are used, and these hold on all extended reals: nothing is assumed
       finite. After the last point the accumulator is the segment sum.
   (B) the reference's scatter-add of the rows at the ids (the start index read signed and not clamped, an update
       outside the operand dropped) into an operand x is x plus the segment sum.
-/
import proofs.«408611_j10797547782338_1_alg».proof.Proof.KI.Acc6
import proofs.«408611_j10797547782338_1_alg».proof.ReferenceIdeal
import Idealize.ShloMosaic.Lib.ValueIdx
import Idealize.ShloMosaic.Lib.Pipeline.Value
import Idealize.ShloMosaic.PureOps.Ideal.Laws
import Mathlib.Algebra.BigOperators.Fin
import Mathlib.Algebra.BigOperators.Group.Finset.Piecewise

set_option maxRecDepth 16384

noncomputable section

namespace Cert.KernelIdeal.Reg6

open Cert.KernelIdeal Cert.KernelIdeal.Gen
open Idealize.ShloMosaic Idealize.ShloMosaic.TcCoe Idealize.ShloMosaic.ValueIdx
open Idealize.SL Idealize.SL.Sem
open scoped BigOperators

/-! ## Words -/

/-- The one-hot factor: the comparison bit of two words, widened and converted, is 1 where they are equal and 0 elsewhere. -/
theorem onehot_val (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have : ((IntOp.cmpi .eq a a).setWidth 32) = 1#32 := by simp [IntOp.cmpi]
    rw [this]
    have h1 : (1#32).toInt = 1 := by decide
    rw [h1]; simp
  · rw [if_neg h]
    have hb : (a == b) = false := by simpa using h
    have : ((IntOp.cmpi .eq a b).setWidth 32) = 0#32 := by simp [IntOp.cmpi, hb]
    rw [this]
    have h0 : (0#32).toInt = 0 := by decide
    rw [h0]; simp

/-- A word read signed is the natural s below 2^31 exactly when it is the word of s. -/
theorem toInt_eq_iff (b : BitVec 32) (s : ℕ) (hs : s < 2 ^ 31) : b.toInt = (s : ℤ) ↔ b = BitVec.ofNat 32 s := by
  have hw : (BitVec.ofNat 32 s).toInt = (s : ℤ) := by
    rw [BitVec.toInt_eq_toNat_of_lt (by rw [BitVec.toNat_ofNat]; omega), BitVec.toNat_ofNat]
    congr 1; omega
  constructor
  · intro h; exact BitVec.toInt_inj.mp (h.trans hw.symm)
  · intro h; rw [h, hw]

/-! ## Sums over the rows, block by block -/

/-- A sum over the first (n + 1) blocks of B rows is the sum over the first n blocks plus the sum over block n. -/
theorem sum_blocks_succ {M : Type*} [AddCommMonoid M] (B n : ℕ) (g : ℕ → M) :
    ∑ k ∈ Finset.range (B * (n + 1)), g k = ∑ k ∈ Finset.range (B * n), g k + ∑ r : Fin B, g (B * n + r.val) := by
  rw [Nat.mul_succ, Finset.sum_range_add]
  congr 1
  exact Finset.sum_range _

/-- An accumulator that starts from block 0's sum and adds block n's sum at step n holds, after step n, the sum over
    the first n + 1 blocks: whatever the number of blocks. -/
theorem acc_blocks {M : Type*} [AddCommMonoid M] (B : ℕ) (g : ℕ → M) (a : ℕ → M) (N : ℕ)
    (h0 : a 0 = ∑ r : Fin B, g (B * 0 + r.val))
    (hs : ∀ n, n + 1 < N → a (n + 1) = a n + ∑ r : Fin B, g (B * (n + 1) + r.val)) :
    ∀ n, n < N → a n = ∑ k ∈ Finset.range (B * (n + 1)), g k
  | 0, _ => by
    rw [h0, sum_blocks_succ, Nat.mul_zero, Finset.range_zero, Finset.sum_empty, zero_add]
  | n + 1, h => by
    rw [hs n h, acc_blocks B g a N h0 hs n (by omega), sum_blocks_succ B (n + 1)]

/-! ## The payloads at an index -/

/-! The product's dimension numbers contract the row axis of both operands; the result's axes are the one-hot's segment
axis and the rows' column axis. The four operand coordinates at a result index and a contraction index: -/

theorem lhs_dot_0 (j : S128x128.Idx) (q : dot_S2048x128_S2048x128_S128x128_0_0_1_1_n_n.contr.Idx) :
    (dot_S2048x128_S2048x128_S128x128_0_0_1_1_n_n.lhsIdx j q 0).val = (q ⟨0, by decide⟩).val :=
  dot_S2048x128_S2048x128_S128x128_0_0_1_1_n_n.lhsIdx_val_of_single rfl j q
theorem lhs_dot_1 (j : S128x128.Idx) (q : dot_S2048x128_S2048x128_S128x128_0_0_1_1_n_n.contr.Idx) :
    (dot_S2048x128_S2048x128_S128x128_0_0_1_1_n_n.lhsIdx j q 1).val = (j 0).val := by
  unfold DotDims.lhsIdx
  rw [dif_neg (show ¬(1 : Fin S2048x128.rank) ∈ dot_S2048x128_S2048x128_S128x128_0_0_1_1_n_n.lhsBatch by decide),
    dif_pos (show (1 : Fin S2048x128.rank) ∈ dot_S2048x128_S2048x128_S128x128_0_0_1_1_n_n.lhsNonContracting by decide)]
  rfl
theorem rhs_dot_0 (j : S128x128.Idx) (q : dot_S2048x128_S2048x128_S128x128_0_0_1_1_n_n.contr.Idx) :
    (dot_S2048x128_S2048x128_S128x128_0_0_1_1_n_n.rhsIdx j q 0).val = (q ⟨0, by decide⟩).val :=
  dot_S2048x128_S2048x128_S128x128_0_0_1_1_n_n.rhsIdx_val_of_single rfl j q
theorem rhs_dot_1 (j : S128x128.Idx) (q : dot_S2048x128_S2048x128_S128x128_0_0_1_1_n_n.contr.Idx) :
    (dot_S2048x128_S2048x128_S128x128_0_0_1_1_n_n.rhsIdx j q 1).val = (j 1).val := by
  unfold DotDims.rhsIdx
  rw [dif_neg (show ¬(1 : Fin S2048x128.rank) ∈ dot_S2048x128_S2048x128_S128x128_0_0_1_1_n_n.rhsBatch by decide),
    dif_pos (show (1 : Fin S2048x128.rank) ∈ dot_S2048x128_S2048x128_S128x128_0_0_1_1_n_n.rhsNonContracting by decide)]
  rfl

/-- The id column broadcast along the segments reads the row's id. -/
theorem bcast_ids_apply (d : IVec S2048x1 32) (h : S2048x1.Broadcasts S2048x128) (r : Fin 2048) (s : Fin 128) :
    broadcastTo S2048x128 d h (ix2 r s) = d (ix2 r 0) :=
  broadcastTo_apply d h (ix2 r s) (ix2 r 0) (fun a => match a with
    | ⟨0, _⟩ => rfl
    | ⟨1, _⟩ => rfl)

/-- The first payload is the zero block. -/
theorem pay1_apply (i : S128x128.Idx) : (k6_pay1 (F := Ideal) : S128x128.Idx → EReal) i = 0 := by
  unfold k6_pay1
  simp only [shapeCast_self]
  show Ideal.ofBits .f32 0x00000000#32 = 0
  exact Ideal.ofBits_zero_f32

/-- The second payload at (s, col): what the accumulator held there plus the sum of the block's rows whose id is s, at
    column col. -/
theorem pay2_apply (x : Vec Ideal S2048x128 .f32) (d : Vec Ideal S2048x1 .i32) (a : Vec Ideal S128x128 .f32)
    (s col : Fin 128) :
    (k6_pay2 (F := Ideal) x d a : S128x128.Idx → EReal) (ix2 s col)
      = a (ix2 s col) + ∑ r : Fin 2048, if d (ix2 r 0) = BitVec.ofNat 32 s.val then x (ix2 r col) else 0 := by
  unfold k6_pay2
  simp only [shapeCast_self]
  rw [addf_apply]
  simp only [matmul]
  rw [Ideal.matmul_constant_zero_apply,
    ← Equiv.sum_comp (contrEquiv1 dot_S2048x128_S2048x128_S128x128_0_0_1_1_n_n 2048 rfl rfl).symm]
  refine congrArg (a (ix2 s col) + ·) (Finset.sum_congr rfl fun r _ => ?_)
  have hk := contrEquiv1_symm_val dot_S2048x128_S2048x128_S128x128_0_0_1_1_n_n 2048 rfl rfl r
  have el : dot_S2048x128_S2048x128_S128x128_0_0_1_1_n_n.lhsIdx (ix2 s col)
      ((contrEquiv1 dot_S2048x128_S2048x128_S128x128_0_0_1_1_n_n 2048 rfl rfl).symm r) = ix2 r s :=
    funext fun b => Fin.ext (by
      match b with
      | ⟨0, _⟩ => exact (lhs_dot_0 _ _).trans hk
      | ⟨1, _⟩ => exact lhs_dot_1 _ _)
  have er : dot_S2048x128_S2048x128_S128x128_0_0_1_1_n_n.rhsIdx (ix2 s col)
      ((contrEquiv1 dot_S2048x128_S2048x128_S128x128_0_0_1_1_n_n 2048 rfl rfl).symm r) = ix2 r col :=
    funext fun b => Fin.ext (by
      match b with
      | ⟨0, _⟩ => exact (rhs_dot_0 _ _).trans hk
      | ⟨1, _⟩ => exact rhs_dot_1 _ _)
  rw [el, er, truncf_apply, truncf_apply, sitofp_apply, extui_apply]
  show FloatOps.sitofp (F := Ideal) .f32 ((IntOp.cmpi .eq (broadcastTo S2048x128 d _ (ix2 r s)) (iota .tc S2048x128 32 [1] _ (ix2 r s))).setWidth 32) * x (ix2 r col) = _
  rw [bcast_ids_apply, iota_single_apply, onehot_val]
  show (if d (ix2 r 0) = BitVec.ofNat 32 s.val then (1 : EReal) else 0) * x (ix2 r col) = _
  rw [ite_mul, one_mul, zero_mul]

/-! ## The blocks the grid's points stage -/

section Blocks
variable {F : FTy → Type} [FloatOps F]
variable (V : (c : Dev nD) → (b : Ref sig .tc) → Buf (Elt F) ((c : Thread nD τ).loc b))

/-- The printed index maps, decided over the grid: point t stages block t of the rows and of the ids along the row
    axis, and the one block there is along the other axis. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- The number of the grid's points. -/
theorem N_eq : cfg6.N = (4 : ℕ) := N_6

/-- Row r of point t's block is a row of the array. -/
theorem row_lt (t : Fin cfg6.N) (r : Fin 2048) : 2048 * t.val + r.val < 8192 := by
  have hN := N_eq
  have ht := t.isLt
  have hr := r.isLt
  omega

/-- Point t's block of the rows, at (r, col), is the array at row 2048 t + r. -/
theorem blk_rows (c : Dev nD) (t : Fin cfg6.N) (r : Fin 2048) (col : Fin 128) :
    (blk V c 0 t : S2048x128.Idx → F .f32) (ix2 r col)
      = (V c (Pipeline.arrRef spec6 0) : S8192x128.Idx → F .f32) (ix2 ⟨2048 * t.val + r.val, row_lt t r⟩ col) := by
  obtain ⟨e0, e1, e2, e3⟩ := idx_facts t
  show V c (Pipeline.arrRef spec6 0) (((cfg6.win 0).blk t).view.emb (ix2 r col)) = _
  refine congrArg _ (funext fun a => Fin.ext ?_)
  match a with
  | ⟨0, _⟩ => show win6_0.index t (0 : Fin 2) * 2048 + 1 * r.val = 2048 * t.val + r.val; omega
  | ⟨1, _⟩ => show win6_0.index t (1 : Fin 2) * 128 + 1 * col.val = col.val; omega

/-- Point t's block of the ids, at row r, is the array at row 2048 t + r. -/
theorem blk_ids (c : Dev nD) (t : Fin cfg6.N) (r : Fin 2048) :
    (blk V c 1 t : S2048x1.Idx → BitVec 32) (ix2 r 0)
      = (V c (Pipeline.arrRef spec6 1) : S8192x1.Idx → BitVec 32) (ix2 ⟨2048 * t.val + r.val, row_lt t r⟩ 0) := by
  obtain ⟨e0, e1, e2, e3⟩ := idx_facts t
  show V c (Pipeline.arrRef spec6 1) (((cfg6.win 1).blk t).view.emb (ix2 r 0)) = _
  refine congrArg _ (funext fun a => Fin.ext ?_)
  match a with
  | ⟨0, _⟩ => show win6_1.index t (0 : Fin 2) * 2048 + 1 * r.val = 2048 * t.val + r.val; omega
  | ⟨1, _⟩ => show win6_1.index t (1 : Fin 2) * 1 + 1 * 0 = 0; omega

end Blocks

/-! ## The segment sum, and the accumulator after each point -/

/-- THE SEGMENT SUM: at (s, col), the sum of column col over the rows whose id is the word of s. A row whose id is the
    word of no s below 128 (a negative id included) is in no segment. -/
def segSum (ids : S8192x1.Idx → BitVec 32) (rows : S8192x128.Idx → EReal) : S128x128.Idx → EReal :=
  fun i => ∑ r : Fin 8192, if ids (ix2 r 0) = BitVec.ofNat 32 (i 0).val then rows (ix2 r (i 1)) else 0

theorem segSum_apply (ids : S8192x1.Idx → BitVec 32) (rows : S8192x128.Idx → EReal) (s col : Fin 128) :
    segSum ids rows (ix2 s col) = ∑ r : Fin 8192, if ids (ix2 r 0) = BitVec.ofNat 32 s.val then rows (ix2 r col) else 0 := rfl

/-- Row k's term of the segment sum at (s, col), zero past the array's rows: the sum's terms numbered by naturals, so
    that a run of rows is a range. -/
def segTerm (ids : S8192x1.Idx → BitVec 32) (rows : S8192x128.Idx → EReal) (s col : Fin 128) (k : ℕ) : EReal :=
  if h : k < 8192 then (if ids (ix2 ⟨k, h⟩ 0) = BitVec.ofNat 32 s.val then rows (ix2 ⟨k, h⟩ col) else 0) else 0

section Acc
variable (V : (c : Dev nD) → (b : Ref sig .tc) → Buf (Elt Ideal) ((c : Thread nD τ).loc b))

/-- The rows and the ids as the region finds them, and point t's blocks of them, at their literal shapes. -/
abbrev rowsA (c : Dev nD) : S8192x128.Idx → EReal := V c (Pipeline.arrRef spec6 0)
abbrev idsA (c : Dev nD) : S8192x1.Idx → BitVec 32 := V c (Pipeline.arrRef spec6 1)
abbrev rowsB (c : Dev nD) (t : Fin cfg6.N) : S2048x128.Idx → EReal := blk V c 0 t
abbrev idsB (c : Dev nD) (t : Fin cfg6.N) : S2048x1.Idx → BitVec 32 := blk V c 1 t

/-- What point n's block adds at (s, col): the terms of its 2048 rows. -/
theorem blk_sum (c : Dev nD) (n : ℕ) (h : n < cfg6.N) (s col : Fin 128) :
    (∑ r : Fin 2048, if idsB V c (pt n) (ix2 r 0) = BitVec.ofNat 32 s.val then rowsB V c (pt n) (ix2 r col) else 0)
      = ∑ r : Fin 2048, segTerm (idsA V c) (rowsA V c) s col (2048 * n + r.val) := by
  rw [show pt n = ⟨n, h⟩ from pt_val ⟨n, h⟩]
  refine Finset.sum_congr rfl fun r _ => ?_
  unfold segTerm
  rw [dif_pos (row_lt ⟨n, h⟩ r),
    show idsB V c ⟨n, h⟩ (ix2 r 0) = idsA V c (ix2 ⟨2048 * n + r.val, row_lt ⟨n, h⟩ r⟩ 0) from blk_ids V c ⟨n, h⟩ r,
    show rowsB V c ⟨n, h⟩ (ix2 r col) = rowsA V c (ix2 ⟨2048 * n + r.val, row_lt ⟨n, h⟩ r⟩ col) from blk_rows V c ⟨n, h⟩ r col]

/-- AFTER POINT n the accumulator holds, at (s, col), the terms of the rows of points 0 to n. -/
theorem acc_apply (c : Dev nD) (s col : Fin 128) (n : ℕ) (hn : n < cfg6.N) :
    (acc V c n : S128x128.Idx → EReal) (ix2 s col)
      = ∑ k ∈ Finset.range (2048 * (n + 1)), segTerm (idsA V c) (rowsA V c) s col k := by
  refine acc_blocks 2048 (segTerm (idsA V c) (rowsA V c) s col) (fun n => (acc V c n : S128x128.Idx → EReal) (ix2 s col)) cfg6.N
    ?_ (fun n h => ?_) n hn
  · refine (pay2_apply (rowsB V c (pt 0)) (idsB V c (pt 0)) (k6_pay1 (F := Ideal)) s col).trans ?_
    rw [pay1_apply, zero_add, blk_sum V c 0 N_pos]
  · refine (pay2_apply (rowsB V c (pt (n + 1))) (idsB V c (pt (n + 1))) (acc V c n) s col).trans ?_
    rw [blk_sum V c (n + 1) h]

/-- (A) AFTER THE LAST POINT the accumulator is the segment sum of the rows by the ids, as the region found them. -/
theorem acc_last (c : Dev nD) :
    (acc V c (cfg6.N - 1) : S128x128.Idx → EReal) = segSum (V c (Pipeline.arrRef spec6 1)) (V c (Pipeline.arrRef spec6 0)) := by
  funext i
  obtain ⟨s, col, rfl⟩ : ∃ (s col : Fin 128), i = ix2 s col := ⟨i 0, i 1, eq_ix2 i⟩
  have hN := N_eq
  rw [acc_apply V c s col (cfg6.N - 1) (by omega), segSum_apply,
    show 2048 * (cfg6.N - 1 + 1) = 8192 from by omega, Finset.sum_range]
  refine Finset.sum_congr rfl fun r _ => ?_
  unfold segTerm
  rw [dif_pos r.isLt]

end Acc

/-! ## The reference's scatter-add is the segment sum -/

section Reference
variable [Cert.ReferenceIdeal.Facts₀]

/-- The start of update (r, cj)'s window on the segment axis is row r's id, read signed. -/
theorem sc_start_0 (ids : S8192x1.Idx → BitVec 32) (r : Fin 8192) (cj : Fin 128) :
    Cert.ReferenceIdeal.scatter_S128x128_S8192x1_S8192x128_1_0_0_1.start (ix2 r cj) ids 0 = (ids (ix2 r 0)).toInt := by
  unfold ScatterDims.start
  rw [dif_pos (show (0 : Fin S128x128.rank) ∈ Cert.ReferenceIdeal.scatter_S128x128_S8192x1_S8192x128_1_0_0_1.scatterDimsToOperandDims
    from List.mem_singleton.mpr rfl)]
  refine congrArg (fun k => (ids k).toInt) (funext fun b => Fin.ext ?_)
  match b with
  | ⟨0, _⟩ => rfl
  | ⟨1, _⟩ => rfl
/-- On the column axis it is 0: the ids name no column. -/
theorem sc_start_1 (ids : S8192x1.Idx → BitVec 32) (r : Fin 8192) (cj : Fin 128) :
    Cert.ReferenceIdeal.scatter_S128x128_S8192x1_S8192x128_1_0_0_1.start (ix2 r cj) ids 1 = 0 := by
  unfold ScatterDims.start
  rw [dif_neg (show ¬(1 : Fin S128x128.rank) ∈ Cert.ReferenceIdeal.scatter_S128x128_S8192x1_S8192x128_1_0_0_1.scatterDimsToOperandDims
    from (by show ¬(1 : Fin 2) ∈ ([0] : List (Fin 2)); decide))]
/-- The window coordinate is 0 on the segment axis (an inserted axis) -/
theorem sc_window_0 (r : Fin 8192) (cj : Fin 128) :
    Cert.ReferenceIdeal.scatter_S128x128_S8192x1_S8192x128_1_0_0_1.window (ix2 r cj) 0 = 0 := by
  unfold ScatterDims.window
  rw [dif_neg (show ¬(0 : Fin S128x128.rank) ∈ Cert.ReferenceIdeal.scatter_S128x128_S8192x1_S8192x128_1_0_0_1.sKept
    from (by show ¬(0 : Fin 2) ∈ S128x128.kept ([0] : List (Fin 2)); decide))]
/-- and the update's column on the column axis. -/
theorem sc_window_1 (r : Fin 8192) (cj : Fin 128) :
    Cert.ReferenceIdeal.scatter_S128x128_S8192x1_S8192x128_1_0_0_1.window (ix2 r cj) 1 = cj.val := by
  unfold ScatterDims.window
  rw [dif_pos (show (1 : Fin S128x128.rank) ∈ Cert.ReferenceIdeal.scatter_S128x128_S8192x1_S8192x128_1_0_0_1.sKept
    from (by show (1 : Fin 2) ∈ S128x128.kept ([0] : List (Fin 2)); decide))]
  rfl

/-- WHERE AN UPDATE LANDS: update (r, cj) lands at (s, col) exactly when row r's id is the word of s and cj is col. An
    id that is the word of no s below 128, a negative one included, lands nowhere: the start is read signed and not
    clamped. -/
theorem resultIdx_iff (ids : S8192x1.Idx → BitVec 32) (r : Fin 8192) (cj s col : Fin 128) :
    Cert.ReferenceIdeal.scatter_S128x128_S8192x1_S8192x128_1_0_0_1.resultIdx? (ix2 r cj) ids = some (ix2 s col)
      ↔ ids (ix2 r 0) = BitVec.ofNat 32 s.val ∧ cj = col := by
  have hs := s.isLt
  have hc := cj.isLt
  have hcol := col.isLt
  rw [← toInt_eq_iff _ _ (by omega)]
  have k0 : Cert.ReferenceIdeal.scatter_S128x128_S8192x1_S8192x128_1_0_0_1.start (ix2 r cj) ids 0
      + Cert.ReferenceIdeal.scatter_S128x128_S8192x1_S8192x128_1_0_0_1.window (ix2 r cj) 0 = (ids (ix2 r 0)).toInt := by
    rw [sc_start_0, sc_window_0]; simp
  have k1 : Cert.ReferenceIdeal.scatter_S128x128_S8192x1_S8192x128_1_0_0_1.start (ix2 r cj) ids 1
      + Cert.ReferenceIdeal.scatter_S128x128_S8192x1_S8192x128_1_0_0_1.window (ix2 r cj) 1 = (cj.val : ℤ) := by
    rw [sc_start_1, sc_window_1]; simp
  unfold ScatterDims.resultIdx?
  split
  · rename_i h
    constructor
    · intro e
      have e' := Option.some.inj e
      have e0 : (Cert.ReferenceIdeal.scatter_S128x128_S8192x1_S8192x128_1_0_0_1.start (ix2 r cj) ids 0
          + Cert.ReferenceIdeal.scatter_S128x128_S8192x1_S8192x128_1_0_0_1.window (ix2 r cj) 0).toNat = s.val :=
        congrArg (fun f => (f 0).val) e'
      have e1 : (Cert.ReferenceIdeal.scatter_S128x128_S8192x1_S8192x128_1_0_0_1.start (ix2 r cj) ids 1
          + Cert.ReferenceIdeal.scatter_S128x128_S8192x1_S8192x128_1_0_0_1.window (ix2 r cj) 1).toNat = col.val :=
        congrArg (fun f => (f 1).val) e'
      have h0 := (h 0).1
      rw [k0] at e0 h0
      rw [k1] at e1
      exact ⟨by omega, Fin.ext (by omega)⟩
    · rintro ⟨e0, e1⟩
      refine congrArg some (funext fun a => Fin.ext ?_)
      match a with
      | ⟨0, _⟩ =>
        show (Cert.ReferenceIdeal.scatter_S128x128_S8192x1_S8192x128_1_0_0_1.start (ix2 r cj) ids 0
          + Cert.ReferenceIdeal.scatter_S128x128_S8192x1_S8192x128_1_0_0_1.window (ix2 r cj) 0).toNat = s.val
        rw [k0]; omega
      | ⟨1, _⟩ =>
        show (Cert.ReferenceIdeal.scatter_S128x128_S8192x1_S8192x128_1_0_0_1.start (ix2 r cj) ids 1
          + Cert.ReferenceIdeal.scatter_S128x128_S8192x1_S8192x128_1_0_0_1.window (ix2 r cj) 1).toNat = col.val
        rw [k1, ← e1]; omega
  · rename_i h
    constructor
    · intro e; cases e
    · rintro ⟨e0, e1⟩
      refine absurd (fun a => ?_) h
      match a with
      | ⟨0, _⟩ =>
        show 0 ≤ Cert.ReferenceIdeal.scatter_S128x128_S8192x1_S8192x128_1_0_0_1.start (ix2 r cj) ids 0
            + Cert.ReferenceIdeal.scatter_S128x128_S8192x1_S8192x128_1_0_0_1.window (ix2 r cj) 0
          ∧ Cert.ReferenceIdeal.scatter_S128x128_S8192x1_S8192x128_1_0_0_1.start (ix2 r cj) ids 0
            + Cert.ReferenceIdeal.scatter_S128x128_S8192x1_S8192x128_1_0_0_1.window (ix2 r cj) 0 < (128 : ℤ)
        rw [k0]; omega
      | ⟨1, _⟩ =>
        show 0 ≤ Cert.ReferenceIdeal.scatter_S128x128_S8192x1_S8192x128_1_0_0_1.start (ix2 r cj) ids 1
            + Cert.ReferenceIdeal.scatter_S128x128_S8192x1_S8192x128_1_0_0_1.window (ix2 r cj) 1
          ∧ Cert.ReferenceIdeal.scatter_S128x128_S8192x1_S8192x128_1_0_0_1.start (ix2 r cj) ids 1
            + Cert.ReferenceIdeal.scatter_S128x128_S8192x1_S8192x128_1_0_0_1.window (ix2 r cj) 1 < (128 : ℤ)
        rw [k1]; omega

/-- (B) THE REFERENCE'S SCATTER-ADD of the rows by the ids into an operand x is x plus the segment sum. -/
theorem scatterAdd_apply (x : S128x128.Idx → EReal) (ids : S8192x1.Idx → BitVec 32) (rows : S8192x128.Idx → EReal)
    (i : S128x128.Idx) :
    (Host.scatterAdd (F := Ideal) (φ := .f32) Cert.ReferenceIdeal.scatter_S128x128_S8192x1_S8192x128_1_0_0_1 x ids rows
        : S128x128.Idx → EReal) i = x i + segSum ids rows i := by
  obtain ⟨s, col, rfl⟩ : ∃ (s col : Fin 128), i = ix2 s col := ⟨i 0, i 1, eq_ix2 i⟩
  show x (ix2 s col) + ∑ j ∈ Finset.univ.filter (fun j =>
      Cert.ReferenceIdeal.scatter_S128x128_S8192x1_S8192x128_1_0_0_1.resultIdx? j ids = some (ix2 s col)), rows j = _
  rw [segSum_apply, Finset.sum_filter, sum_idx2]
  refine congrArg (x (ix2 s col) + ·) (Finset.sum_congr rfl fun r _ => ?_)
  simp only [resultIdx_iff]
  by_cases hid : ids (ix2 r 0) = BitVec.ofNat 32 s.val
  · simp only [hid, true_and, if_true]
    rw [Finset.sum_ite_eq' Finset.univ col (fun cj => rows (ix2 r cj)), if_pos (Finset.mem_univ _)]
  · simp only [hid, false_and, if_false, Finset.sum_const_zero]

/-- Into the zero operand it is the segment sum. -/
theorem scatterAdd_zero (x : S128x128.Idx → EReal) (hx : ∀ i, x i = 0) (ids : S8192x1.Idx → BitVec 32)
    (rows : S8192x128.Idx → EReal) :
    (Host.scatterAdd (F := Ideal) (φ := .f32) Cert.ReferenceIdeal.scatter_S128x128_S8192x1_S8192x128_1_0_0_1 x ids rows
        : S128x128.Idx → EReal) = segSum ids rows := by
  funext i
  rw [scatterAdd_apply, hx, zero_add]

end Reference

end Cert.KernelIdeal.Reg6

end
-- ==== Proof.KI.MidSpec.lean ====
/-
  THE MIDDLE OF THE KERNEL'S @main IN THE SHARED SPECIFICATION'S WORDS.

  What items 18 … 22 leave for the regions after them, stated with the functions the reference is written in:
  * the segment sum of the third layer's features by the graph ids. The kernel's region ends at its accumulator after
    the last grid point, which is the sum, over the rows whose id is a segment's word, of those rows; the reference's
    scatter-add of the rows at the ids into a block of zeros is the same sum, zero being the unit of addition;
  * the pair features: the kernel's takes, with both lists of positions in [-8192, 8192), are the reference's gathers
    at the same wrapped columns, and the two sides then name the same operations on the same operands;
  * the two rows of the second edge list, as the reference cuts them out.
-/
import proofs.«408611_j10797547782338_1_alg».proof.Proof.KI.Mid
import proofs.«408611_j10797547782338_1_alg».proof.Proof.KI.Val6
import proofs.«408611_j10797547782338_1_alg».proof.Proof.Spec
import Idealize.ShloMosaic.PureOps.Ideal.Laws

set_option maxRecDepth 16384

noncomputable section

namespace Cert.KernelIdeal.Mid

open Cert.KernelIdeal Cert.KernelIdeal.Gen Cert.KernelIdeal.GenP Cert.KernelIdeal.Chain
open Idealize.ShloMosaic Idealize.ShloMosaic.TcCoe Idealize.ShloMosaic.ValueIdx
open Idealize.SL Idealize.SL.Sem

variable (m : (ℓ : Loc nD τ sig) → Buf (Elt Ideal) ℓ)

/-! ## The same, in the shared specification's words -/

section Spec
variable [Cert.ReferenceIdeal.Facts]

/-- The kernel's pair features are the specification's: the two name the same operations (the same wrap of each list,
    the same gather record's fields, the same three pieces). -/
theorem pairOps_eq (h : S8192x128.Idx → EReal) (u v : S258048.Idx → BitVec 32) (iso : S258048x1.Idx → EReal) :
    pairOps h u v iso = Cert.Spec.pairFeat h u v iso := rfl

/-- A 128 x 128 block of the zero word is zero at every entry. -/
theorem zeros_apply (hz : Cert.ReferenceIdeal.S_.BroadcastsInDim Cert.ReferenceIdeal.S128x128 ![]) (i : S128x128.Idx) :
    (broadcastInDim Cert.ReferenceIdeal.S128x128 ![] hz (constant (F := Ideal) Cert.ReferenceIdeal.S_ .f32 0x00000000#32)
      : S128x128.Idx → EReal) i = 0 := by
  unfold broadcastInDim
  exact Ideal.ofBits_zero_f32

/-- SEGMENT SUM. What region 6 leaves in its result array is the specification's segment sum of the features region 5
    left by the launch's ids. -/
theorem seg1 (c : Dev nD) :
    (E20 m c main_v62 : S128x128.Idx → EReal) = Cert.Spec.seg8192 (E18 m c main_v60) (E0 m c main_arg13) := by
  refine (seg1_of_acc_last m Reg6.segSum Reg6.acc_last c Cert.ReferenceIdeal.Facts₀.bcast_S8192_S8192x1_0).trans ?_
  exact (Reg6.scatterAdd_zero _ (zeros_apply Cert.ReferenceIdeal.Facts₀.bcast_S_S128x128) _ _).symm

/-- PAIR FEATURES. With both pair lists in range, what region 7 is entered with at its first window is the
    specification's pair features of region 5's features and the launch's lists and extra column. -/
theorem pair (c : Dev nD)
    (hu : ∀ p : Fin 258048, Cert.PreFacts.InRange 8192 ((E0 m c main_arg14) (ValueIdx.ix1 p)))
    (hv : ∀ p : Fin 258048, Cert.PreFacts.InRange 8192 ((E0 m c main_arg15) (ValueIdx.ix1 p))) :
    (E23 m c main_v65 : S258048x257.Idx → EReal)
      = Cert.Spec.pairFeat (E18 m c main_v60) (E0 m c main_arg14) (E0 m c main_arg15) (E0 m c main_arg11) :=
  (pair_ops m c hu hv).trans (pairOps_eq _ _ _ _)

/-- The sources of the pair-graph edges region 7's successors gather at: row 0 of the launch's second edge list. -/
theorem edges_src (c : Dev nD) : (E23 m c main_v67 : S454772.Idx → BitVec 32) = Cert.Spec.row0' (E0 m c main_arg17) :=
  E23_v67 m c

/-- Their destinations: row 1. -/
theorem edges_dst (c : Dev nD) : (E23 m c main_v69 : S454772.Idx → BitVec 32) = Cert.Spec.row1' (E0 m c main_arg17) :=
  E23_v69 m c

end Spec

end Cert.KernelIdeal.Mid

end
-- ==== Proof.KI.LayerKeep.lean ====
/-
  What the two message-passing layers over the 258048 pair rows share, on the kernel's side: the contents of the core's
  buffers between the items of @main are carried across every item that does not write them. Item by item: a buffer
  outside an item's written set keeps its contents; hence the five arguments the layers read (four weights, the
  pair-graph edge array) hold their launch contents before every item, and the two rows item 22 cuts out of the edge
  array (sources, destinations) hold those rows after every later item. Also the wrap of an index vector into a column
  and the take of table rows at it, which both layers use at the same extents.
-/
import proofs.«408611_j10797547782338_1_alg».proof.Proof.KI.Chain
import Idealize.ShloMosaic.Lib.StableHlo.Run
import Idealize.ShloMosaic.Lib.ValueIdx
import Idealize.ShloMosaic.PureOps.Ideal.Laws

set_option maxRecDepth 16384

noncomputable section

namespace Cert.KernelIdeal.LayerKeep

open Cert.KernelIdeal Cert.KernelIdeal.Gen Cert.KernelIdeal.GenP Cert.KernelIdeal.Chain
open Idealize.ShloMosaic Idealize.ShloMosaic.TcCoe Idealize.ShloMosaic.StableHlo Idealize.ShloMosaic.ValueIdx
open Idealize.SL Idealize.SL.Sem

variable {F : FTy → Type} [FloatOps F]
variable (m : (ℓ : Loc nD τ sig) → Buf (Elt F) ℓ)

/-! ## What an item does not write it leaves as it was

Item j takes the contents W j to W (j+1): a host stretch changes only the buffers its operations write, a kernel
region only its result array. -/

theorem keep1 (c : Dev nD) (r : Ref sig .tc) (h : r ∉ hostOps0_W) : W1 m c r = W0 m c r :=
  StableHlo.after_of_writes_sub hostOps0 _ hostOps0_writes h
theorem keep2 (c : Dev nD) (r : Ref sig .tc) (h : ∀ w, Pipeline.arrRef spec0 w ≠ r) : W2 m c r = W1 m c r :=
  W2_of_ne m c r h
theorem keep3 (c : Dev nD) (r : Ref sig .tc) (h : r ∉ hostOps1_W) : W3 m c r = W2 m c r :=
  StableHlo.after_of_writes_sub hostOps1 _ hostOps1_writes h
theorem keep4 (c : Dev nD) (r : Ref sig .tc) (h : r ∉ hostOps1_1_W) : W4 m c r = W3 m c r :=
  StableHlo.after_of_writes_sub hostOps1_1 _ hostOps1_1_writes h
theorem keep5 (c : Dev nD) (r : Ref sig .tc) (h : r ∉ hostOps1_2_W) : W5 m c r = W4 m c r :=
  StableHlo.after_of_writes_sub hostOps1_2 _ hostOps1_2_writes h
theorem keep6 (c : Dev nD) (r : Ref sig .tc) (h : ∀ w, Pipeline.arrRef spec1 w ≠ r) : W6 m c r = W5 m c r :=
  W6_of_ne m c r h
theorem keep7 (c : Dev nD) (r : Ref sig .tc) (h : r ∉ hostOps2_W) : W7 m c r = W6 m c r :=
  StableHlo.after_of_writes_sub hostOps2 _ hostOps2_writes h
theorem keep8 (c : Dev nD) (r : Ref sig .tc) (h : ∀ w, Pipeline.arrRef spec2 w ≠ r) : W8 m c r = W7 m c r :=
  W8_of_ne m c r h
theorem keep9 (c : Dev nD) (r : Ref sig .tc) (h : r ∉ hostOps3_W) : W9 m c r = W8 m c r :=
  StableHlo.after_of_writes_sub hostOps3 _ hostOps3_writes h
theorem keep10 (c : Dev nD) (r : Ref sig .tc) (h : r ∉ hostOps3_1_W) : W10 m c r = W9 m c r :=
  StableHlo.after_of_writes_sub hostOps3_1 _ hostOps3_1_writes h
theorem keep11 (c : Dev nD) (r : Ref sig .tc) (h : r ∉ hostOps3_2_W) : W11 m c r = W10 m c r :=
  StableHlo.after_of_writes_sub hostOps3_2 _ hostOps3_2_writes h
theorem keep12 (c : Dev nD) (r : Ref sig .tc) (h : ∀ w, Pipeline.arrRef spec3 w ≠ r) : W12 m c r = W11 m c r :=
  W12_of_ne m c r h
theorem keep13 (c : Dev nD) (r : Ref sig .tc) (h : r ∉ hostOps4_W) : W13 m c r = W12 m c r :=
  StableHlo.after_of_writes_sub hostOps4 _ hostOps4_writes h
theorem keep14 (c : Dev nD) (r : Ref sig .tc) (h : ∀ w, Pipeline.arrRef spec4 w ≠ r) : W14 m c r = W13 m c r :=
  W14_of_ne m c r h
theorem keep15 (c : Dev nD) (r : Ref sig .tc) (h : r ∉ hostOps5_W) : W15 m c r = W14 m c r :=
  StableHlo.after_of_writes_sub hostOps5 _ hostOps5_writes h
theorem keep16 (c : Dev nD) (r : Ref sig .tc) (h : r ∉ hostOps5_1_W) : W16 m c r = W15 m c r :=
  StableHlo.after_of_writes_sub hostOps5_1 _ hostOps5_1_writes h
theorem keep17 (c : Dev nD) (r : Ref sig .tc) (h : r ∉ hostOps5_2_W) : W17 m c r = W16 m c r :=
  StableHlo.after_of_writes_sub hostOps5_2 _ hostOps5_2_writes h
theorem keep18 (c : Dev nD) (r : Ref sig .tc) (h : ∀ w, Pipeline.arrRef spec5 w ≠ r) : W18 m c r = W17 m c r :=
  W18_of_ne m c r h
theorem keep19 (c : Dev nD) (r : Ref sig .tc) (h : r ∉ hostOps6_W) : W19 m c r = W18 m c r :=
  StableHlo.after_of_writes_sub hostOps6 _ hostOps6_writes h
theorem keep20 (c : Dev nD) (r : Ref sig .tc) (h : ∀ w, Pipeline.arrRef spec6 w ≠ r) : W20 m c r = W19 m c r :=
  W20_of_ne m c r h
theorem keep21 (c : Dev nD) (r : Ref sig .tc) (h : r ∉ hostOps7_W) : W21 m c r = W20 m c r :=
  StableHlo.after_of_writes_sub hostOps7 _ hostOps7_writes h
theorem keep22 (c : Dev nD) (r : Ref sig .tc) (h : r ∉ hostOps7_1_W) : W22 m c r = W21 m c r :=
  StableHlo.after_of_writes_sub hostOps7_1 _ hostOps7_1_writes h
theorem keep23 (c : Dev nD) (r : Ref sig .tc) (h : r ∉ hostOps7_2_W) : W23 m c r = W22 m c r :=
  StableHlo.after_of_writes_sub hostOps7_2 _ hostOps7_2_writes h
theorem keep24 (c : Dev nD) (r : Ref sig .tc) (h : ∀ w, Pipeline.arrRef spec7 w ≠ r) : W24 m c r = W23 m c r :=
  W24_of_ne m c r h
theorem keep25 (c : Dev nD) (r : Ref sig .tc) (h : r ∉ hostOps8_W) : W25 m c r = W24 m c r :=
  StableHlo.after_of_writes_sub hostOps8 _ hostOps8_writes h
theorem keep26 (c : Dev nD) (r : Ref sig .tc) (h : r ∉ hostOps8_1_W) : W26 m c r = W25 m c r :=
  StableHlo.after_of_writes_sub hostOps8_1 _ hostOps8_1_writes h
theorem keep27 (c : Dev nD) (r : Ref sig .tc) (h : r ∉ hostOps8_2_W) : W27 m c r = W26 m c r :=
  StableHlo.after_of_writes_sub hostOps8_2 _ hostOps8_2_writes h
theorem keep28 (c : Dev nD) (r : Ref sig .tc) (h : ∀ w, Pipeline.arrRef spec8 w ≠ r) : W28 m c r = W27 m c r :=
  W28_of_ne m c r h
theorem keep29 (c : Dev nD) (r : Ref sig .tc) (h : r ∉ hostOps9_W) : W29 m c r = W28 m c r :=
  StableHlo.after_of_writes_sub hostOps9 _ hostOps9_writes h
theorem keep30 (c : Dev nD) (r : Ref sig .tc) (h : ∀ w, Pipeline.arrRef spec9 w ≠ r) : W30 m c r = W29 m c r :=
  W30_of_ne m c r h
theorem keep31 (c : Dev nD) (r : Ref sig .tc) (h : r ∉ hostOps10_W) : W31 m c r = W30 m c r :=
  StableHlo.after_of_writes_sub hostOps10 _ hostOps10_writes h
theorem keep32 (c : Dev nD) (r : Ref sig .tc) (h : r ∉ hostOps10_1_W) : W32 m c r = W31 m c r :=
  StableHlo.after_of_writes_sub hostOps10_1 _ hostOps10_1_writes h
theorem keep33 (c : Dev nD) (r : Ref sig .tc) (h : r ∉ hostOps10_2_W) : W33 m c r = W32 m c r :=
  StableHlo.after_of_writes_sub hostOps10_2 _ hostOps10_2_writes h
theorem keep34 (c : Dev nD) (r : Ref sig .tc) (h : ∀ w, Pipeline.arrRef spec10 w ≠ r) : W34 m c r = W33 m c r :=
  W34_of_ne m c r h

/-! ## No item writes an argument

The five arguments the two layers over the pair rows read, the four weights and the pair-graph edge array, hold their
launch contents before every item. -/

/-- The arguments the two layers read. -/
abbrev ARGS : List (Ref sig .tc) := [main_arg3, main_arg4, main_arg5, main_arg6, main_arg17]

theorem args1 (c : Dev nD) (r : Ref sig .tc) (hr : r ∈ (ARGS : List (Ref sig .tc))) : W1 m c r = W0 m c r :=
  keep1 m c r ((by decide : ∀ r ∈ (ARGS : List (Ref sig .tc)), r ∉ hostOps0_W) r hr)
theorem args2 (c : Dev nD) (r : Ref sig .tc) (hr : r ∈ (ARGS : List (Ref sig .tc))) : W2 m c r = W0 m c r :=
  (keep2 m c r ((by decide : ∀ r ∈ (ARGS : List (Ref sig .tc)), ∀ w, Pipeline.arrRef spec0 w ≠ r) r hr)).trans (args1 m c r hr)
theorem args3 (c : Dev nD) (r : Ref sig .tc) (hr : r ∈ (ARGS : List (Ref sig .tc))) : W3 m c r = W0 m c r :=
  (keep3 m c r ((by decide : ∀ r ∈ (ARGS : List (Ref sig .tc)), r ∉ hostOps1_W) r hr)).trans (args2 m c r hr)
theorem args4 (c : Dev nD) (r : Ref sig .tc) (hr : r ∈ (ARGS : List (Ref sig .tc))) : W4 m c r = W0 m c r :=
  (keep4 m c r ((by decide : ∀ r ∈ (ARGS : List (Ref sig .tc)), r ∉ hostOps1_1_W) r hr)).trans (args3 m c r hr)
theorem args5 (c : Dev nD) (r : Ref sig .tc) (hr : r ∈ (ARGS : List (Ref sig .tc))) : W5 m c r = W0 m c r :=
  (keep5 m c r ((by decide : ∀ r ∈ (ARGS : List (Ref sig .tc)), r ∉ hostOps1_2_W) r hr)).trans (args4 m c r hr)
theorem args6 (c : Dev nD) (r : Ref sig .tc) (hr : r ∈ (ARGS : List (Ref sig .tc))) : W6 m c r = W0 m c r :=
  (keep6 m c r ((by decide : ∀ r ∈ (ARGS : List (Ref sig .tc)), ∀ w, Pipeline.arrRef spec1 w ≠ r) r hr)).trans (args5 m c r hr)
theorem args7 (c : Dev nD) (r : Ref sig .tc) (hr : r ∈ (ARGS : List (Ref sig .tc))) : W7 m c r = W0 m c r :=
  (keep7 m c r ((by decide : ∀ r ∈ (ARGS : List (Ref sig .tc)), r ∉ hostOps2_W) r hr)).trans (args6 m c r hr)
theorem args8 (c : Dev nD) (r : Ref sig .tc) (hr : r ∈ (ARGS : List (Ref sig .tc))) : W8 m c r = W0 m c r :=
  (keep8 m c r ((by decide : ∀ r ∈ (ARGS : List (Ref sig .tc)), ∀ w, Pipeline.arrRef spec2 w ≠ r) r hr)).trans (args7 m c r hr)
theorem args9 (c : Dev nD) (r : Ref sig .tc) (hr : r ∈ (ARGS : List (Ref sig .tc))) : W9 m c r = W0 m c r :=
  (keep9 m c r ((by decide : ∀ r ∈ (ARGS : List (Ref sig .tc)), r ∉ hostOps3_W) r hr)).trans (args8 m c r hr)
theorem args10 (c : Dev nD) (r : Ref sig .tc) (hr : r ∈ (ARGS : List (Ref sig .tc))) : W10 m c r = W0 m c r :=
  (keep10 m c r ((by decide : ∀ r ∈ (ARGS : List (Ref sig .tc)), r ∉ hostOps3_1_W) r hr)).trans (args9 m c r hr)
theorem args11 (c : Dev nD) (r : Ref sig .tc) (hr : r ∈ (ARGS : List (Ref sig .tc))) : W11 m c r = W0 m c r :=
  (keep11 m c r ((by decide : ∀ r ∈ (ARGS : List (Ref sig .tc)), r ∉ hostOps3_2_W) r hr)).trans (args10 m c r hr)
theorem args12 (c : Dev nD) (r : Ref sig .tc) (hr : r ∈ (ARGS : List (Ref sig .tc))) : W12 m c r = W0 m c r :=
  (keep12 m c r ((by decide : ∀ r ∈ (ARGS : List (Ref sig .tc)), ∀ w, Pipeline.arrRef spec3 w ≠ r) r hr)).trans (args11 m c r hr)
theorem args13 (c : Dev nD) (r : Ref sig .tc) (hr : r ∈ (ARGS : List (Ref sig .tc))) : W13 m c r = W0 m c r :=
  (keep13 m c r ((by decide : ∀ r ∈ (ARGS : List (Ref sig .tc)), r ∉ hostOps4_W) r hr)).trans (args12 m c r hr)
theorem args14 (c : Dev nD) (r : Ref sig .tc) (hr : r ∈ (ARGS : List (Ref sig .tc))) : W14 m c r = W0 m c r :=
  (keep14 m c r ((by decide : ∀ r ∈ (ARGS : List (Ref sig .tc)), ∀ w, Pipeline.arrRef spec4 w ≠ r) r hr)).trans (args13 m c r hr)
theorem args15 (c : Dev nD) (r : Ref sig .tc) (hr : r ∈ (ARGS : List (Ref sig .tc))) : W15 m c r = W0 m c r :=
  (keep15 m c r ((by decide : ∀ r ∈ (ARGS : List (Ref sig .tc)), r ∉ hostOps5_W) r hr)).trans (args14 m c r hr)
theorem args16 (c : Dev nD) (r : Ref sig .tc) (hr : r ∈ (ARGS : List (Ref sig .tc))) : W16 m c r = W0 m c r :=
  (keep16 m c r ((by decide : ∀ r ∈ (ARGS : List (Ref sig .tc)), r ∉ hostOps5_1_W) r hr)).trans (args15 m c r hr)
theorem args17 (c : Dev nD) (r : Ref sig .tc) (hr : r ∈ (ARGS : List (Ref sig .tc))) : W17 m c r = W0 m c r :=
  (keep17 m c r ((by decide : ∀ r ∈ (ARGS : List (Ref sig .tc)), r ∉ hostOps5_2_W) r hr)).trans (args16 m c r hr)
theorem args18 (c : Dev nD) (r : Ref sig .tc) (hr : r ∈ (ARGS : List (Ref sig .tc))) : W18 m c r = W0 m c r :=
  (keep18 m c r ((by decide : ∀ r ∈ (ARGS : List (Ref sig .tc)), ∀ w, Pipeline.arrRef spec5 w ≠ r) r hr)).trans (args17 m c r hr)
theorem args19 (c : Dev nD) (r : Ref sig .tc) (hr : r ∈ (ARGS : List (Ref sig .tc))) : W19 m c r = W0 m c r :=
  (keep19 m c r ((by decide : ∀ r ∈ (ARGS : List (Ref sig .tc)), r ∉ hostOps6_W) r hr)).trans (args18 m c r hr)
theorem args20 (c : Dev nD) (r : Ref sig .tc) (hr : r ∈ (ARGS : List (Ref sig .tc))) : W20 m c r = W0 m c r :=
  (keep20 m c r ((by decide : ∀ r ∈ (ARGS : List (Ref sig .tc)), ∀ w, Pipeline.arrRef spec6 w ≠ r) r hr)).trans (args19 m c r hr)
theorem args21 (c : Dev nD) (r : Ref sig .tc) (hr : r ∈ (ARGS : List (Ref sig .tc))) : W21 m c r = W0 m c r :=
  (keep21 m c r ((by decide : ∀ r ∈ (ARGS : List (Ref sig .tc)), r ∉ hostOps7_W) r hr)).trans (args20 m c r hr)
theorem args22 (c : Dev nD) (r : Ref sig .tc) (hr : r ∈ (ARGS : List (Ref sig .tc))) : W22 m c r = W0 m c r :=
  (keep22 m c r ((by decide : ∀ r ∈ (ARGS : List (Ref sig .tc)), r ∉ hostOps7_1_W) r hr)).trans (args21 m c r hr)
theorem args23 (c : Dev nD) (r : Ref sig .tc) (hr : r ∈ (ARGS : List (Ref sig .tc))) : W23 m c r = W0 m c r :=
  (keep23 m c r ((by decide : ∀ r ∈ (ARGS : List (Ref sig .tc)), r ∉ hostOps7_2_W) r hr)).trans (args22 m c r hr)
theorem args24 (c : Dev nD) (r : Ref sig .tc) (hr : r ∈ (ARGS : List (Ref sig .tc))) : W24 m c r = W0 m c r :=
  (keep24 m c r ((by decide : ∀ r ∈ (ARGS : List (Ref sig .tc)), ∀ w, Pipeline.arrRef spec7 w ≠ r) r hr)).trans (args23 m c r hr)
theorem args25 (c : Dev nD) (r : Ref sig .tc) (hr : r ∈ (ARGS : List (Ref sig .tc))) : W25 m c r = W0 m c r :=
  (keep25 m c r ((by decide : ∀ r ∈ (ARGS : List (Ref sig .tc)), r ∉ hostOps8_W) r hr)).trans (args24 m c r hr)
theorem args26 (c : Dev nD) (r : Ref sig .tc) (hr : r ∈ (ARGS : List (Ref sig .tc))) : W26 m c r = W0 m c r :=
  (keep26 m c r ((by decide : ∀ r ∈ (ARGS : List (Ref sig .tc)), r ∉ hostOps8_1_W) r hr)).trans (args25 m c r hr)
theorem args27 (c : Dev nD) (r : Ref sig .tc) (hr : r ∈ (ARGS : List (Ref sig .tc))) : W27 m c r = W0 m c r :=
  (keep27 m c r ((by decide : ∀ r ∈ (ARGS : List (Ref sig .tc)), r ∉ hostOps8_2_W) r hr)).trans (args26 m c r hr)
theorem args28 (c : Dev nD) (r : Ref sig .tc) (hr : r ∈ (ARGS : List (Ref sig .tc))) : W28 m c r = W0 m c r :=
  (keep28 m c r ((by decide : ∀ r ∈ (ARGS : List (Ref sig .tc)), ∀ w, Pipeline.arrRef spec8 w ≠ r) r hr)).trans (args27 m c r hr)
theorem args29 (c : Dev nD) (r : Ref sig .tc) (hr : r ∈ (ARGS : List (Ref sig .tc))) : W29 m c r = W0 m c r :=
  (keep29 m c r ((by decide : ∀ r ∈ (ARGS : List (Ref sig .tc)), r ∉ hostOps9_W) r hr)).trans (args28 m c r hr)
theorem args30 (c : Dev nD) (r : Ref sig .tc) (hr : r ∈ (ARGS : List (Ref sig .tc))) : W30 m c r = W0 m c r :=
  (keep30 m c r ((by decide : ∀ r ∈ (ARGS : List (Ref sig .tc)), ∀ w, Pipeline.arrRef spec9 w ≠ r) r hr)).trans (args29 m c r hr)
theorem args31 (c : Dev nD) (r : Ref sig .tc) (hr : r ∈ (ARGS : List (Ref sig .tc))) : W31 m c r = W0 m c r :=
  (keep31 m c r ((by decide : ∀ r ∈ (ARGS : List (Ref sig .tc)), r ∉ hostOps10_W) r hr)).trans (args30 m c r hr)
theorem args32 (c : Dev nD) (r : Ref sig .tc) (hr : r ∈ (ARGS : List (Ref sig .tc))) : W32 m c r = W0 m c r :=
  (keep32 m c r ((by decide : ∀ r ∈ (ARGS : List (Ref sig .tc)), r ∉ hostOps10_1_W) r hr)).trans (args31 m c r hr)
theorem args33 (c : Dev nD) (r : Ref sig .tc) (hr : r ∈ (ARGS : List (Ref sig .tc))) : W33 m c r = W0 m c r :=
  (keep33 m c r ((by decide : ∀ r ∈ (ARGS : List (Ref sig .tc)), r ∉ hostOps10_2_W) r hr)).trans (args32 m c r hr)
theorem args34 (c : Dev nD) (r : Ref sig .tc) (hr : r ∈ (ARGS : List (Ref sig .tc))) : W34 m c r = W0 m c r :=
  (keep34 m c r ((by decide : ∀ r ∈ (ARGS : List (Ref sig .tc)), ∀ w, Pipeline.arrRef spec10 w ≠ r) r hr)).trans (args33 m c r hr)

/-! ## The two rows of the pair-graph edge array

Item 22 cuts rows 0 and 1 out of the edge argument (the sources and the destinations of the pair-graph edges); no later
item writes them. -/

/-- Row 0 and row 1 of a two-row index array, as the stretch cuts them out: a [1 × 454772] slice flattened. -/
abbrev rowK0 (a : IVec S2x454772 32) : IVec S454772 32 :=
  shapeCast S454772 (extractStridedSlice S1x454772 ![0, 0] a slices_S2x454772_S1x454772_0_0) shapeCasts_S1x454772_S454772
abbrev rowK1 (a : IVec S2x454772 32) : IVec S454772 32 :=
  shapeCast S454772 (extractStridedSlice S1x454772 ![1, 0] a slices_S2x454772_S1x454772_1_0) shapeCasts_S1x454772_S454772

/-- What the stretch of item 22 leaves in the two row buffers, over any contents it finds. -/
theorem rd_row0 (V : Valuation τ sig (Elt F)) : (StableHlo.after hostOps7_2 V (Proc.devRef .tc main_v67) : IVec S454772 32)
    = rowK0 (V (Proc.devRef .tc main_arg17)) := by
  after_results <;> rfl
theorem rd_row1 (V : Valuation τ sig (Elt F)) : (StableHlo.after hostOps7_2 V (Proc.devRef .tc main_v69) : IVec S454772 32)
    = rowK1 (V (Proc.devRef .tc main_arg17)) := by
  after_results <;> rfl

theorem rows23 (c : Dev nD) : (W23 m c main_v67 : IVec S454772 32) = rowK0 (W0 m c main_arg17)
    ∧ (W23 m c main_v69 : IVec S454772 32) = rowK1 (W0 m c main_arg17) := by
  refine ⟨(rd_row0 (W22 m c)).trans ?_, (rd_row1 (W22 m c)).trans ?_⟩ <;> rw [args22 m c main_arg17 (by decide)]
theorem rows24 (c : Dev nD) : (W24 m c main_v67 : IVec S454772 32) = rowK0 (W0 m c main_arg17)
    ∧ (W24 m c main_v69 : IVec S454772 32) = rowK1 (W0 m c main_arg17) :=
  ⟨(keep24 m c main_v67 (by decide)).trans (rows23 m c).1, (keep24 m c main_v69 (by decide)).trans (rows23 m c).2⟩
theorem rows25 (c : Dev nD) : (W25 m c main_v67 : IVec S454772 32) = rowK0 (W0 m c main_arg17)
    ∧ (W25 m c main_v69 : IVec S454772 32) = rowK1 (W0 m c main_arg17) :=
  ⟨(keep25 m c main_v67 (by decide)).trans (rows24 m c).1, (keep25 m c main_v69 (by decide)).trans (rows24 m c).2⟩
theorem rows26 (c : Dev nD) : (W26 m c main_v67 : IVec S454772 32) = rowK0 (W0 m c main_arg17)
    ∧ (W26 m c main_v69 : IVec S454772 32) = rowK1 (W0 m c main_arg17) :=
  ⟨(keep26 m c main_v67 (by decide)).trans (rows25 m c).1, (keep26 m c main_v69 (by decide)).trans (rows25 m c).2⟩
theorem rows27 (c : Dev nD) : (W27 m c main_v67 : IVec S454772 32) = rowK0 (W0 m c main_arg17)
    ∧ (W27 m c main_v69 : IVec S454772 32) = rowK1 (W0 m c main_arg17) :=
  ⟨(keep27 m c main_v67 (by decide)).trans (rows26 m c).1, (keep27 m c main_v69 (by decide)).trans (rows26 m c).2⟩
theorem rows28 (c : Dev nD) : (W28 m c main_v67 : IVec S454772 32) = rowK0 (W0 m c main_arg17)
    ∧ (W28 m c main_v69 : IVec S454772 32) = rowK1 (W0 m c main_arg17) :=
  ⟨(keep28 m c main_v67 (by decide)).trans (rows27 m c).1, (keep28 m c main_v69 (by decide)).trans (rows27 m c).2⟩
theorem rows29 (c : Dev nD) : (W29 m c main_v67 : IVec S454772 32) = rowK0 (W0 m c main_arg17)
    ∧ (W29 m c main_v69 : IVec S454772 32) = rowK1 (W0 m c main_arg17) :=
  ⟨(keep29 m c main_v67 (by decide)).trans (rows28 m c).1, (keep29 m c main_v69 (by decide)).trans (rows28 m c).2⟩
theorem rows30 (c : Dev nD) : (W30 m c main_v67 : IVec S454772 32) = rowK0 (W0 m c main_arg17)
    ∧ (W30 m c main_v69 : IVec S454772 32) = rowK1 (W0 m c main_arg17) :=
  ⟨(keep30 m c main_v67 (by decide)).trans (rows29 m c).1, (keep30 m c main_v69 (by decide)).trans (rows29 m c).2⟩
theorem rows31 (c : Dev nD) : (W31 m c main_v67 : IVec S454772 32) = rowK0 (W0 m c main_arg17)
    ∧ (W31 m c main_v69 : IVec S454772 32) = rowK1 (W0 m c main_arg17) :=
  ⟨(keep31 m c main_v67 (by decide)).trans (rows30 m c).1, (keep31 m c main_v69 (by decide)).trans (rows30 m c).2⟩
theorem rows32 (c : Dev nD) : (W32 m c main_v67 : IVec S454772 32) = rowK0 (W0 m c main_arg17)
    ∧ (W32 m c main_v69 : IVec S454772 32) = rowK1 (W0 m c main_arg17) :=
  ⟨(keep32 m c main_v67 (by decide)).trans (rows31 m c).1, (keep32 m c main_v69 (by decide)).trans (rows31 m c).2⟩
theorem rows33 (c : Dev nD) : (W33 m c main_v67 : IVec S454772 32) = rowK0 (W0 m c main_arg17)
    ∧ (W33 m c main_v69 : IVec S454772 32) = rowK1 (W0 m c main_arg17) :=
  ⟨(keep33 m c main_v67 (by decide)).trans (rows32 m c).1, (keep33 m c main_v69 (by decide)).trans (rows32 m c).2⟩
theorem rows34 (c : Dev nD) : (W34 m c main_v67 : IVec S454772 32) = rowK0 (W0 m c main_arg17)
    ∧ (W34 m c main_v69 : IVec S454772 32) = rowK1 (W0 m c main_arg17) :=
  ⟨(keep34 m c main_v67 (by decide)).trans (rows33 m c).1, (keep34 m c main_v69 (by decide)).trans (rows33 m c).2⟩

/-! ## The take and the wrap the two layers share -/

/-- An index vector wrapped (a negative position has the axis length added) and laid out as a column. -/
abbrev wrapK (idx : IVec S454772 32) : IVec S454772x1 32 :=
  broadcastInDim S454772x1 ![0] bcast_S454772_S454772x1_0
    (select (cmpi .slt idx (broadcastInDim S454772 ![] bcast_S_S454772 (constantI S_ 32 0#32)))
      (addi idx (broadcastInDim S454772 ![] bcast_S_S454772 (constantI S_ 32 258048#32))) idx)

/-- The kernel's take of rows of a [258048 × 128] table at 454772 positions, as its operations compose: the rows
    gathered at the wrapped column, kept where both range tests pass and replaced by a fill constant elsewhere. -/
def takeK (x : FVec F S258048x128 .f32) (idx : IVec S454772 32) : FVec F S454772x128 .f32 :=
  select
    (broadcastInDim S454772x128 ![0] bcast_S454772_S454772x128_0
      (Host.reduce IntOp.andi
        (andi (cmpi .sge (wrapK idx) (broadcastInDim S454772x1 ![] bcast_S_S454772x1 (constantI S_ 32 0#32)))
          (cmpi .sle (wrapK idx)
            (broadcastInDim S454772x1 ![0, 1] bcast_S1x1_S454772x1_0_1 (broadcastInDim S1x1 ![1] bcast_S1_S1x1_1 (constantI S1 32 258047#32)))))
        (constantI S_ 1 1#1) reducesTo_S454772x1_S454772_d1 h_S_))
    (Host.gather gather_S258048x128_S454772x1_S454772x128_1_0_n_n_0_1_1128 x (wrapK idx))
    (broadcastInDim S454772x128 ![] bcast_S_S454772x128 (constant S_ .f32 0x7FC00000#32 : FVec F S_ .f32))

/-- A buffer's contents at their literal type: an array of extended reals of a stated shape. -/
abbrev rd (S : Shape) (f : FVec Ideal S .f32) : FVec Ideal S .f32 := f

end Cert.KernelIdeal.LayerKeep

end
-- ==== Proof.KI.Layer4.lean ====
/-
  A message-passing layer over the 258048 pair rows, on the kernel's side, at the ideal instance (a float is an
  extended real).

  The kernel computes the layer in six items of @main. A host stretch stacks the layer's two weights along the rows and
  transposes the stack. A kernel region multiplies the rows by the stacked weight. A host stretch cuts the product into
  its two column halves; a take gathers rows of the second half at the sources of the pair-graph edges; a host stretch
  wraps the destinations and scatter-adds the gathered rows into a zero array; and a second kernel region adds the
  first half and clamps at zero.

  The reference computes max (x · W1ᵀ + Σ over the edges into a row of (x · W2ᵀ) at the edge's source, 0) with the two
  products taken separately. The two agree because entry (p, q) of the product with the stacked, transposed weight is
  Σ_k x[p, k] · W1[q, k] in the first half of the columns and Σ_k x[p, k] · W2[q', k], q' the column's place in the
  second half, there; because a take whose positions are in range is the gather at the wrapped positions; and because
  the wrap of the destinations and the scatter-add are the same operations on both sides.

  The contents of the core's buffers between the items stay folded throughout: each host stretch is read as a term of
  what it finds over ANY contents, and instantiated; a buffer an item does not write is carried across it unread.
  What the two kernel regions leave in their result arrays, index by index, and the take as a gather are taken as
  hypotheses of the last section (H7, H8, HT), to be supplied from the regions' value modules and the take's.
-/
import proofs.«408611_j10797547782338_1_alg».proof.Proof.KI.LayerKeep
import proofs.«408611_j10797547782338_1_alg».proof.Proof.PreFacts
import proofs.«408611_j10797547782338_1_alg».proof.ReferenceIdeal
import proofs.«408611_j10797547782338_1_alg».proof.Proof.Gen.ReferenceIdeal
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer4

open Cert.KernelIdeal Cert.KernelIdeal.Gen Cert.KernelIdeal.GenP Cert.KernelIdeal.Chain Cert.KernelIdeal.LayerKeep
open Idealize.ShloMosaic Idealize.ShloMosaic.TcCoe Idealize.ShloMosaic.StableHlo Idealize.ShloMosaic.ValueIdx
open Idealize.SL Idealize.SL.Sem
open scoped BigOperators

/-! ## The layer's host stretches, read as terms of what they find

Each is stated over ANY contents V of the core's buffers before the stretch. -/

section Stretches
variable {F : FTy → Type} [FloatOps F] (V : Valuation τ sig (Elt F))

/-- The projection's weight as the kernel lays it out: the two matrices stacked along the rows, then transposed. -/
abbrev stackT (w1 w2 : FVec F S128x257 .f32) : FVec F S257x256 .f32 :=
  transpose S257x256 [1, 0] (concatenate S256x257 0 [⟨S128x257, w1⟩, ⟨S128x257, w2⟩] concatenates_S128x257_S128x257_S256x257_d0)
    transposes_S256x257_S257x256_1_0

/-- The stretch before the projection leaves the stacked weight; -/
theorem rd_stack : (StableHlo.after hostOps7_2 V (Proc.devRef .tc main_v71) : FVec F S257x256 .f32)
    = stackT (V (Proc.devRef .tc main_arg3)) (V (Proc.devRef .tc main_arg4)) := by
  after_results <;> rfl

/-- the stretch after it, the two column halves of the product; -/
theorem rd_colsL : (StableHlo.after hostOps8 V (Proc.devRef .tc main_v73) : FVec F S258048x128 .f32)
    = extractStridedSlice S258048x128 ![0, 0] (V (Proc.devRef .tc main_v72) : FVec F S258048x256 .f32) slices_S258048x256_S258048x128_0_0 := by
  after_results <;> rfl
theorem rd_colsR : (StableHlo.after hostOps8 V (Proc.devRef .tc main_v74) : FVec F S258048x128 .f32)
    = extractStridedSlice S258048x128 ![0, 128] (V (Proc.devRef .tc main_v72) : FVec F S258048x256 .f32) slices_S258048x256_S258048x128_0_128 := by
  after_results <;> rfl

set_option maxHeartbeats 2000000 in
/-- the take, rows of the second half at the sources; -/
theorem rd_take : (StableHlo.after hostOps8_1 V (Proc.devRef .tc main_v75) : FVec F S454772x128 .f32)
    = takeK (V (Proc.devRef .tc main_v74)) (V (Proc.devRef .tc main_v67)) := by
  after_results_simp <;> (try simp only [TRef.ofBuf, TRef.toBuf, cast_eq]) <;> rfl

set_option maxHeartbeats 1000000 in
/-- and the last stretch, the taken rows scatter-added at the wrapped destinations into a zero array. -/
theorem rd_scat : (StableHlo.after hostOps8_2 V (Proc.devRef .tc main_v83) : FVec F S258048x128 .f32)
    = Host.scatterAdd scatter_S258048x128_S454772x1_S454772x128_1_0_0_1
        (broadcastInDim S258048x128 ![] bcast_S_S258048x128 (constant S_ .f32 0x00000000#32 : FVec F S_ .f32))
        (wrapK (V (Proc.devRef .tc main_v69)))
        (V (Proc.devRef .tc main_v75) : FVec F S454772x128 .f32) := by
  after_results_simp <;> rfl

end Stretches

/-! ## The projection, index by index

The kernel multiplies the rows by ONE matrix, the two weights stacked and transposed, and cuts the product into its two
column halves; the reference multiplies the rows by each weight transposed. Entry (p, q) of either is the sum over k of
x[p, k] · W[q, k]. -/

section Algebra

/-- The reference's dimension numbers for the rows against a transposed weight. -/
abbrev DR : DotDims Cert.ReferenceIdeal.S258048x257 Cert.ReferenceIdeal.S257x128 Cert.ReferenceIdeal.S258048x128 :=
  Cert.ReferenceIdeal.dot_S258048x257_S257x128_S258048x128_1_0_0_1_n_n

/-- The operand indices of that product at result index j and contraction position r: the left operand's row is j's, -/
theorem DR_lhs0 (j : Cert.ReferenceIdeal.S258048x128.Idx) (r : DR.contr.Idx) : (DR.lhsIdx j r 0).val = (j 0).val := by
  unfold DotDims.lhsIdx
  rw [dif_neg (show ¬(0 : Fin Cert.ReferenceIdeal.S258048x257.rank) ∈ DR.lhsBatch by decide),
    dif_pos (show (0 : Fin Cert.ReferenceIdeal.S258048x257.rank) ∈ DR.lhsNonContracting by decide)]
  rfl
/-- the right operand's column j's. -/
theorem DR_rhs1 (j : Cert.ReferenceIdeal.S258048x128.Idx) (r : DR.contr.Idx) : (DR.rhsIdx j r 1).val = (j 1).val := by
  unfold DotDims.rhsIdx
  rw [dif_neg (show ¬(1 : Fin Cert.ReferenceIdeal.S257x128.rank) ∈ DR.rhsBatch by decide),
    dif_pos (show (1 : Fin Cert.ReferenceIdeal.S257x128.rank) ∈ DR.rhsNonContracting by decide)]
  rfl

/-- The reference's product of the rows with a transposed weight, at an index. -/
theorem refDot_apply (x : FVec Ideal Cert.ReferenceIdeal.S258048x257 .f32) (W : FVec Ideal Cert.ReferenceIdeal.S128x257 .f32)
    (p : Fin 258048) (q : Fin 128) :
    (Host.dotGeneral (F := Ideal) DR none x
        (transpose Cert.ReferenceIdeal.S257x128 [1, 0] W Cert.ReferenceIdeal.Facts₀.transposes_S128x257_S257x128_1_0)
      : Cert.ReferenceIdeal.S258048x128.Idx → EReal) (ix2 p q)
      = ∑ k : Fin 257, x (ix2 p k) * W (ix2 q k) := by
  simp only [Host.dotGeneral]
  rw [Ideal.dotGeneral_apply, ← Equiv.sum_comp (contrEquiv1 DR 257 rfl rfl).symm]
  refine Finset.sum_congr rfl fun k _ => ?_
  have hk := contrEquiv1_symm_val DR 257 rfl rfl k
  have el : DR.lhsIdx (ix2 p q) ((contrEquiv1 DR 257 rfl rfl).symm k) = ix2 p k := funext fun a => Fin.ext (by
    match a with
    | ⟨0, _⟩ => exact DR_lhs0 _ _
    | ⟨1, _⟩ => exact (DR.lhsIdx_val_of_single rfl _ _).trans hk)
  have er : DR.rhsIdx (ix2 p q) ((contrEquiv1 DR 257 rfl rfl).symm k) = ix2 k q := funext fun a => Fin.ext (by
    match a with
    | ⟨0, _⟩ => exact (DR.rhsIdx_val_of_single rfl _ _).trans hk
    | ⟨1, _⟩ => exact DR_rhs1 _ _)
  rw [el, er, transpose_ix2_apply]

/-- The stacked and transposed weight at row k and a column of the first half is the first weight at (column, k); -/
theorem stackT_left (W1 W2 : FVec Ideal S128x257 .f32) (k : Fin 257) (q : Fin 128) :
    (stackT (F := Ideal) W1 W2 : S257x256.Idx → EReal) (ix2 k (⟨q.val, by omega⟩ : Fin 256)) = W1 (ix2 q k) := by
  show transpose S257x256 [1, 0] _ _ (ix2 k (⟨q.val, by omega⟩ : Fin 256)) = _
  rw [transpose_ix2_apply]
  exact concatenate_pair_apply_left (t := S256x257) (s₁ := S128x257) (s₂ := S128x257) (0 : Fin 2) W1 W2
    concatenates_S128x257_S128x257_S256x257_d0 (ix2 (⟨q.val, by omega⟩ : Fin 256) k) rfl (ix2 q k)
    (fun b => match b with | ⟨0, _⟩ => rfl | ⟨1, _⟩ => rfl)

/-- at a column of the second half, the second weight. -/
theorem stackT_right (W1 W2 : FVec Ideal S128x257 .f32) (k : Fin 257) (q : Fin 128) :
    (stackT (F := Ideal) W1 W2 : S257x256.Idx → EReal) (ix2 k (⟨128 + q.val, by omega⟩ : Fin 256)) = W2 (ix2 q k) := by
  show transpose S257x256 [1, 0] _ _ (ix2 k (⟨128 + q.val, by omega⟩ : Fin 256)) = _
  rw [transpose_ix2_apply]
  exact concatenate_pair_apply_right (t := S256x257) (s₁ := S128x257) (s₂ := S128x257) (0 : Fin 2) W1 W2
    concatenates_S128x257_S128x257_S256x257_d0 (ix2 (⟨128 + q.val, by omega⟩ : Fin 256) k) rfl rfl (ix2 q k)
    (fun b hb => match b, hb with | ⟨0, _⟩, hb => absurd rfl hb | ⟨1, _⟩, _ => rfl)
    (Nat.add_comm q.val 128)

/-- THE TWO HALVES. If P is the product of the rows x with the stacked and transposed weights, its columns [0, 128)
    are the reference's product of x with the first weight transposed, -/
theorem cols_left (x : FVec Ideal S258048x257 .f32) (W1 W2 : FVec Ideal S128x257 .f32) (P : S258048x256.Idx → EReal)
    (hP : ∀ (p : Fin 258048) (c : Fin 256), P (ix2 p c) = ∑ k : Fin 257, x (ix2 p k) * (stackT (F := Ideal) W1 W2 : S257x256.Idx → EReal) (ix2 k c)) :
    (extractStridedSlice S258048x128 ![0, 0] P slices_S258048x256_S258048x128_0_0 : S258048x128.Idx → EReal)
      = Host.dotGeneral (F := Ideal) DR none x
          (transpose Cert.ReferenceIdeal.S257x128 [1, 0] W1 Cert.ReferenceIdeal.Facts₀.transposes_S128x257_S257x128_1_0) := by
  funext i
  obtain ⟨p, q, rfl⟩ : ∃ (p : Fin 258048) (q : Fin 128), i = ix2 p q := ⟨i 0, i 1, eq_ix2 i⟩
  rw [slice2_axis1_apply 0 P _ p q ⟨q.val, by omega⟩ (Nat.zero_add _).symm, hP]
  refine (Finset.sum_congr rfl fun k _ => ?_).trans (refDot_apply x W1 p q).symm
  rw [stackT_left]

/-- and its columns [128, 256) the product with the second. -/
theorem cols_right (x : FVec Ideal S258048x257 .f32) (W1 W2 : FVec Ideal S128x257 .f32) (P : S258048x256.Idx → EReal)
    (hP : ∀ (p : Fin 258048) (c : Fin 256), P (ix2 p c) = ∑ k : Fin 257, x (ix2 p k) * (stackT (F := Ideal) W1 W2 : S257x256.Idx → EReal) (ix2 k c)) :
    (extractStridedSlice S258048x128 ![0, 128] P slices_S258048x256_S258048x128_0_128 : S258048x128.Idx → EReal)
      = Host.dotGeneral (F := Ideal) DR none x
          (transpose Cert.ReferenceIdeal.S257x128 [1, 0] W2 Cert.ReferenceIdeal.Facts₀.transposes_S128x257_S257x128_1_0) := by
  funext i
  obtain ⟨p, q, rfl⟩ : ∃ (p : Fin 258048) (q : Fin 128), i = ix2 p q := ⟨i 0, i 1, eq_ix2 i⟩
  rw [slice2_axis1_apply 128 P _ p q ⟨128 + q.val, by omega⟩ rfl, hP]
  refine (Finset.sum_congr rfl fun k _ => ?_).trans (refDot_apply x W2 p q).symm
  rw [stackT_right]

end Algebra

/-! ## The layer

From here on floats are extended reals. -/

section Layer
variable (m : (ℓ : Loc nD τ sig) → Buf (Elt Ideal) ℓ)

/-- The reference's layer on the pair rows, in its own operations:
    max (x · W1ᵀ + scatter-add at the wrapped destinations of the rows of x · W2ᵀ gathered at the wrapped sources, 0). -/
def mpRef (h : FVec Ideal Cert.ReferenceIdeal.S258048x257 .f32) (W1 W2 : FVec Ideal Cert.ReferenceIdeal.S128x257 .f32)
    (src dst : IVec Cert.ReferenceIdeal.S454772 32) : FVec Ideal Cert.ReferenceIdeal.S258048x128 .f32 :=
  maximumf
    (addf
      (Host.dotGeneral (F := Ideal) Cert.ReferenceIdeal.dot_S258048x257_S257x128_S258048x128_1_0_0_1_n_n none h
        (transpose Cert.ReferenceIdeal.S257x128 [1, 0] W1 Cert.ReferenceIdeal.Facts₀.transposes_S128x257_S257x128_1_0))
      (Host.scatterAdd (F := Ideal) Cert.ReferenceIdeal.scatter_S258048x128_S454772x1_S454772x128_1_0_0_1
        (broadcastInDim Cert.ReferenceIdeal.S258048x128 ![] Cert.ReferenceIdeal.Facts₀.bcast_S_S258048x128 (constant (F := Ideal) Cert.ReferenceIdeal.S_ .f32 0x00000000#32))
        (wrapK dst)
        (Host.gather Cert.ReferenceIdeal.gather_S258048x128_S454772x1_S454772x128_1_0_n_n_0_1_1128
          (Host.dotGeneral (F := Ideal) Cert.ReferenceIdeal.dot_S258048x257_S257x128_S258048x128_1_0_0_1_n_n none h
            (transpose Cert.ReferenceIdeal.S257x128 [1, 0] W2 Cert.ReferenceIdeal.Facts₀.transposes_S128x257_S257x128_1_0))
          (wrapK src))))
    (broadcastInDim Cert.ReferenceIdeal.S258048x128 ![] Cert.ReferenceIdeal.Facts₀.bcast_S_S258048x128 (constant (F := Ideal) Cert.ReferenceIdeal.S_ .f32 0x00000000#32))

/-- The stacked weight the projection region is entered with: the two argument matrices. -/
theorem vStack_eq (c : Dev nD) :
    rd S257x256 (W23 m c main_v71) = stackT (F := Ideal) (W0 m c main_arg3) (W0 m c main_arg4) := by
  refine (rd_stack (W22 m c)).trans ?_
  rw [args22 m c main_arg3 (by decide), args22 m c main_arg4 (by decide)]

section WithRegions
/- What the projection region and the add-and-clamp region leave in their result arrays, index by index, and the take
   as a gather when its positions are in range. -/
variable (H7 : ∀ (V : (c : Dev nD) → (b : Ref sig .tc) → Buf (Elt Ideal) ((c : Thread nD τ).loc b)) (c : Dev nD) (i : S258048x256.Idx),
    rd S258048x256 ((Reg7.dat (F := Ideal) V c).arrAt 2 cfg7.N) i
      = ∑ k : Fin 257, rd S258048x257 (V c (Pipeline.arrRef spec7 0)) (ix2 (i 0) k) * rd S257x256 (V c (Pipeline.arrRef spec7 1)) (ix2 k (i 1)))
variable (H8 : ∀ (V : (c : Dev nD) → (b : Ref sig .tc) → Buf (Elt Ideal) ((c : Thread nD τ).loc b)) (c : Dev nD) (i : S258048x128.Idx),
    rd S258048x128 ((Reg8.dat (F := Ideal) V c).arrAt 2 cfg8.N) i
      = max (rd S258048x128 (V c (Pipeline.arrRef spec8 0)) i + rd S258048x128 (V c (Pipeline.arrRef spec8 1)) i) 0)
variable (HT : ∀ (x : FVec Ideal S258048x128 .f32) (idx : IVec S454772 32),
    (∀ e : Fin 454772, Cert.PreFacts.InRange 258048 (idx (ix1 e))) →
      takeK x idx = Host.gather gather_S258048x128_S454772x1_S454772x128_1_0_n_n_0_1_1128 x (wrapK idx))

include H7 in
/-- The projection's result at an index: the row of x against the column of the stacked weight. -/
theorem vProd_apply (c : Dev nD) (p : Fin 258048) (q : Fin 256) :
    rd S258048x256 (W24 m c main_v72) (ix2 p q)
      = ∑ k : Fin 257, rd S258048x257 (W23 m c main_v65) (ix2 p k)
          * (stackT (F := Ideal) (W0 m c main_arg3) (W0 m c main_arg4)) (ix2 k q) := by
  have e : rd S258048x256 (W24 m c main_v72) = rd S258048x256 ((Reg7.dat (F := Ideal) (E23 m) c).arrAt 2 cfg7.N) := W24_arr m c 2
  rw [e, ← vStack_eq m c]
  exact H7 (E23 m) c (ix2 p q)

include H7 in
/-- The first summand: the first half of the projection's columns is x · W1ᵀ. -/
theorem vLeft_eq (c : Dev nD) :
    rd S258048x128 (W27 m c main_v73) = Host.dotGeneral (F := Ideal) DR none (rd S258048x257 (W23 m c main_v65))
      (transpose Cert.ReferenceIdeal.S257x128 [1, 0] (rd S128x257 (W0 m c main_arg3)) Cert.ReferenceIdeal.Facts₀.transposes_S128x257_S257x128_1_0) := by
  rw [keep27 m c main_v73 (by decide), keep26 m c main_v73 (by decide)]
  refine (rd_colsL (W24 m c)).trans ?_
  exact cols_left _ _ (rd S128x257 (W0 m c main_arg4)) _ (vProd_apply m H7 c)

include H7 in
/-- The table the take reads: the second half of the columns is x · W2ᵀ. -/
theorem vRight_eq (c : Dev nD) :
    rd S258048x128 (W25 m c main_v74) = Host.dotGeneral (F := Ideal) DR none (rd S258048x257 (W23 m c main_v65))
      (transpose Cert.ReferenceIdeal.S257x128 [1, 0] (rd S128x257 (W0 m c main_arg4)) Cert.ReferenceIdeal.Facts₀.transposes_S128x257_S257x128_1_0) := by
  refine (rd_colsR (W24 m c)).trans ?_
  exact cols_right _ (rd S128x257 (W0 m c main_arg3)) _ _ (vProd_apply m H7 c)

include H7 HT in
/-- The second summand: the rows of x · W2ᵀ gathered at the wrapped sources, scatter-added at the wrapped destinations. -/
theorem vScat_eq (c : Dev nD) (hs : ∀ e : Fin 454772, Cert.PreFacts.InRange 258048 (rowK0 (W0 m c main_arg17) (ix1 e))) :
    rd S258048x128 (W27 m c main_v83)
      = Host.scatterAdd (F := Ideal) scatter_S258048x128_S454772x1_S454772x128_1_0_0_1
          (broadcastInDim S258048x128 ![] bcast_S_S258048x128 (constant (F := Ideal) S_ .f32 0x00000000#32))
          (wrapK (rowK1 (W0 m c main_arg17)))
          (Host.gather gather_S258048x128_S454772x1_S454772x128_1_0_n_n_0_1_1128
            (Host.dotGeneral (F := Ideal) DR none (rd S258048x257 (W23 m c main_v65))
              (transpose Cert.ReferenceIdeal.S257x128 [1, 0] (rd S128x257 (W0 m c main_arg4)) Cert.ReferenceIdeal.Facts₀.transposes_S128x257_S257x128_1_0))
            (wrapK (rowK0 (W0 m c main_arg17)))) := by
  refine (rd_scat (W26 m c)).trans ?_
  rw [(rows26 m c).2]
  have e : (W26 m c main_v75 : FVec Ideal S454772x128 .f32)
      = Host.gather gather_S258048x128_S454772x1_S454772x128_1_0_n_n_0_1_1128 (rd S258048x128 (W25 m c main_v74)) (wrapK (rowK0 (W0 m c main_arg17))) := by
    refine (rd_take (W25 m c)).trans ?_
    rw [(rows25 m c).1]
    exact HT _ _ hs
  rw [e, vRight_eq m H7 c]

include H7 H8 HT in
/-- THE LAYER on the kernel's side: what the add-and-clamp region leaves in its result array is the reference's layer
    of the rows the projection region was entered with, the two weight arguments and the two rows of the pair-graph
    edge argument, provided the source positions are in range. -/
theorem layer4_of (c : Dev nD) (hs : ∀ e : Fin 454772, Cert.PreFacts.InRange 258048 (rowK0 (W0 m c main_arg17) (ix1 e))) :
    rd S258048x128 (W28 m c main_v84)
      = mpRef (W23 m c main_v65) (W0 m c main_arg3) (W0 m c main_arg4) (rowK0 (W0 m c main_arg17)) (rowK1 (W0 m c main_arg17)) := by
  have e : rd S258048x128 (W28 m c main_v84) = rd S258048x128 ((Reg8.dat (F := Ideal) (E27 m) c).arrAt 2 cfg8.N) := W28_arr m c 2
  funext i
  rw [e, H8 (E27 m) c i]
  show max (rd S258048x128 (W27 m c main_v73) i + rd S258048x128 (W27 m c main_v83) i) 0 = _
  rw [vLeft_eq m H7 c, vScat_eq m H7 HT c hs]
  unfold mpRef
  rw [maximumf_apply, addf_apply]
  show _ = max _ (Ideal.ofBits .f32 0x00000000#32)
  rw [Ideal.ofBits_zero_f32]
  rfl

end WithRegions

end Layer

end Cert.KernelIdeal.Layer4

end
-- ==== Proof.KI.Tail.lean ====
/-
  The end of the idealized kernel's @main, and what stays in a buffer between its items.

  PERSISTENCE. Item k of @main writes a known list of references (a host stretch the results of its operations, a
  kernel region its result array) and leaves every other buffer of the core as it was. Chaining this item by item, a
  reference that no item before item j writes holds before item j what the launch memory holds: so every argument
  of @main, before every item. The same chain between two later items carries a result from the item that wrote it
  to the item that reads it.

  THE SECOND SEGMENT SUM (items 34 and 35). Item 34 makes the 258048 segment ids a column; region 11 leaves in its
  result array the accumulator after its last grid point. GIVEN that this accumulator is a segment sum of the rows by
  the id column, and that scatter-adding the rows into a block of zeros at an id column is the same segment sum (zero
  being the unit of addition), the result array holds the reference's segment sum: the column the kernel makes by a
  reshape and the column the reference makes by a broadcast along axis 0 are the same function, row r ↦ id r.

  THE HEAD (items 36, 37, 38). The twelve operations after region 11 are, operation for operation, the reference's last
  twelve: the two pooled blocks side by side, a linear layer, the larger of that and zero, a second linear layer. Each
  stretch is read as one function of the buffers it reads; the weights and biases are arguments of @main, which no item
  writes. The kernel's and the reference's dimension records of the same name have the same fields, so the two
  compositions are one function.
-/
import proofs.«408611_j10797547782338_1_alg».proof.Proof.KI.Chain
import proofs.«408611_j10797547782338_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Tail

open Cert.KernelIdeal Cert.KernelIdeal.Gen Cert.KernelIdeal.GenP Cert.KernelIdeal.Chain
open Idealize.ShloMosaic Idealize.ShloMosaic.TcCoe Idealize.ShloMosaic.ValueIdx
open Idealize.SL Idealize.SL.Sem

/-! ## What stays in a buffer between the items -/

section Persistence

variable {F : FTy → Type} [FloatOps F]
variable (m : (ℓ : Loc nD τ sig) → Buf (Elt F) ℓ)

/-- In neither part of a concatenation. -/
theorem not_left {r : Ref sig .tc} {a b : List (Ref sig .tc)} (h : r ∉ a ++ b) : r ∉ a :=
  fun e => h (List.mem_append_left _ e)
theorem not_right {r : Ref sig .tc} {a b : List (Ref sig .tc)} (h : r ∉ a ++ b) : r ∉ b :=
  fun e => h (List.mem_append_right _ e)

/-- What the items before item j write, the later item's references first. -/
abbrev wr1 : List (Ref sig .tc) := hostOps0_W
abbrev wr2 : List (Ref sig .tc) := [main_v10] ++ wr1
abbrev wr3 : List (Ref sig .tc) := hostOps1_W ++ wr2
abbrev wr4 : List (Ref sig .tc) := hostOps1_1_W ++ wr3
abbrev wr5 : List (Ref sig .tc) := hostOps1_2_W ++ wr4
abbrev wr6 : List (Ref sig .tc) := [main_v22] ++ wr5
abbrev wr7 : List (Ref sig .tc) := hostOps2_W ++ wr6
abbrev wr8 : List (Ref sig .tc) := [main_v29] ++ wr7
abbrev wr9 : List (Ref sig .tc) := hostOps3_W ++ wr8
abbrev wr10 : List (Ref sig .tc) := hostOps3_1_W ++ wr9
abbrev wr11 : List (Ref sig .tc) := hostOps3_2_W ++ wr10
abbrev wr12 : List (Ref sig .tc) := [main_v41] ++ wr11
abbrev wr13 : List (Ref sig .tc) := hostOps4_W ++ wr12
abbrev wr14 : List (Ref sig .tc) := [main_v48] ++ wr13
abbrev wr15 : List (Ref sig .tc) := hostOps5_W ++ wr14
abbrev wr16 : List (Ref sig .tc) := hostOps5_1_W ++ wr15
abbrev wr17 : List (Ref sig .tc) := hostOps5_2_W ++ wr16
abbrev wr18 : List (Ref sig .tc) := [main_v60] ++ wr17
abbrev wr19 : List (Ref sig .tc) := hostOps6_W ++ wr18
abbrev wr20 : List (Ref sig .tc) := [main_v62] ++ wr19
abbrev wr21 : List (Ref sig .tc) := hostOps7_W ++ wr20
abbrev wr22 : List (Ref sig .tc) := hostOps7_1_W ++ wr21
abbrev wr23 : List (Ref sig .tc) := hostOps7_2_W ++ wr22
abbrev wr24 : List (Ref sig .tc) := [main_v72] ++ wr23
abbrev wr25 : List (Ref sig .tc) := hostOps8_W ++ wr24
abbrev wr26 : List (Ref sig .tc) := hostOps8_1_W ++ wr25
abbrev wr27 : List (Ref sig .tc) := hostOps8_2_W ++ wr26
abbrev wr28 : List (Ref sig .tc) := [main_v84] ++ wr27
abbrev wr29 : List (Ref sig .tc) := hostOps9_W ++ wr28
abbrev wr30 : List (Ref sig .tc) := [main_v87] ++ wr29
abbrev wr31 : List (Ref sig .tc) := hostOps10_W ++ wr30
abbrev wr32 : List (Ref sig .tc) := hostOps10_1_W ++ wr31
abbrev wr33 : List (Ref sig .tc) := hostOps10_2_W ++ wr32
abbrev wr34 : List (Ref sig .tc) := [main_v99] ++ wr33
abbrev wr35 : List (Ref sig .tc) := hostOps11_W ++ wr34
abbrev wr36 : List (Ref sig .tc) := [main_v101] ++ wr35
abbrev wr37 : List (Ref sig .tc) := hostOps12_W ++ wr36
abbrev wr38 : List (Ref sig .tc) := hostOps12_1_W ++ wr37
abbrev wr39 : List (Ref sig .tc) := hostOps12_2_W ++ wr38

/-- A reference that no item before item j writes holds before item j what the launch memory holds. -/
theorem at1 (c : Dev nD) (r : Ref sig .tc) (h : r ∉ wr1) : W1 m c r = W0 m c r := W1_keep m c r h
theorem at2 (c : Dev nD) (r : Ref sig .tc) (h : r ∉ wr2) : W2 m c r = W0 m c r :=
  (W2_keep m c r (not_left h)).trans (at1 m c r (not_right h))
theorem at3 (c : Dev nD) (r : Ref sig .tc) (h : r ∉ wr3) : W3 m c r = W0 m c r :=
  (W3_keep m c r (not_left h)).trans (at2 m c r (not_right h))
theorem at4 (c : Dev nD) (r : Ref sig .tc) (h : r ∉ wr4) : W4 m c r = W0 m c r :=
  (W4_keep m c r (not_left h)).trans (at3 m c r (not_right h))
theorem at5 (c : Dev nD) (r : Ref sig .tc) (h : r ∉ wr5) : W5 m c r = W0 m c r :=
  (W5_keep m c r (not_left h)).trans (at4 m c r (not_right h))
theorem at6 (c : Dev nD) (r : Ref sig .tc) (h : r ∉ wr6) : W6 m c r = W0 m c r :=
  (W6_keep m c r (not_left h)).trans (at5 m c r (not_right h))
theorem at7 (c : Dev nD) (r : Ref sig .tc) (h : r ∉ wr7) : W7 m c r = W0 m c r :=
  (W7_keep m c r (not_left h)).trans (at6 m c r (not_right h))
theorem at8 (c : Dev nD) (r : Ref sig .tc) (h : r ∉ wr8) : W8 m c r = W0 m c r :=
  (W8_keep m c r (not_left h)).trans (at7 m c r (not_right h))
theorem at9 (c : Dev nD) (r : Ref sig .tc) (h : r ∉ wr9) : W9 m c r = W0 m c r :=
  (W9_keep m c r (not_left h)).trans (at8 m c r (not_right h))
theorem at10 (c : Dev nD) (r : Ref sig .tc) (h : r ∉ wr10) : W10 m c r = W0 m c r :=
  (W10_keep m c r (not_left h)).trans (at9 m c r (not_right h))
theorem at11 (c : Dev nD) (r : Ref sig .tc) (h : r ∉ wr11) : W11 m c r = W0 m c r :=
  (W11_keep m c r (not_left h)).trans (at10 m c r (not_right h))
theorem at12 (c : Dev nD) (r : Ref sig .tc) (h : r ∉ wr12) : W12 m c r = W0 m c r :=
  (W12_keep m c r (not_left h)).trans (at11 m c r (not_right h))
theorem at13 (c : Dev nD) (r : Ref sig .tc) (h : r ∉ wr13) : W13 m c r = W0 m c r :=
  (W13_keep m c r (not_left h)).trans (at12 m c r (not_right h))
theorem at14 (c : Dev nD) (r : Ref sig .tc) (h : r ∉ wr14) : W14 m c r = W0 m c r :=
  (W14_keep m c r (not_left h)).trans (at13 m c r (not_right h))
theorem at15 (c : Dev nD) (r : Ref sig .tc) (h : r ∉ wr15) : W15 m c r = W0 m c r :=
  (W15_keep m c r (not_left h)).trans (at14 m c r (not_right h))
theorem at16 (c : Dev nD) (r : Ref sig .tc) (h : r ∉ wr16) : W16 m c r = W0 m c r :=
  (W16_keep m c r (not_left h)).trans (at15 m c r (not_right h))
theorem at17 (c : Dev nD) (r : Ref sig .tc) (h : r ∉ wr17) : W17 m c r = W0 m c r :=
  (W17_keep m c r (not_left h)).trans (at16 m c r (not_right h))
theorem at18 (c : Dev nD) (r : Ref sig .tc) (h : r ∉ wr18) : W18 m c r = W0 m c r :=
  (W18_keep m c r (not_left h)).trans (at17 m c r (not_right h))
theorem at19 (c : Dev nD) (r : Ref sig .tc) (h : r ∉ wr19) : W19 m c r = W0 m c r :=
  (W19_keep m c r (not_left h)).trans (at18 m c r (not_right h))
theorem at20 (c : Dev nD) (r : Ref sig .tc) (h : r ∉ wr20) : W20 m c r = W0 m c r :=
  (W20_keep m c r (not_left h)).trans (at19 m c r (not_right h))
theorem at21 (c : Dev nD) (r : Ref sig .tc) (h : r ∉ wr21) : W21 m c r = W0 m c r :=
  (W21_keep m c r (not_left h)).trans (at20 m c r (not_right h))
theorem at22 (c : Dev nD) (r : Ref sig .tc) (h : r ∉ wr22) : W22 m c r = W0 m c r :=
  (W22_keep m c r (not_left h)).trans (at21 m c r (not_right h))
theorem at23 (c : Dev nD) (r : Ref sig .tc) (h : r ∉ wr23) : W23 m c r = W0 m c r :=
  (W23_keep m c r (not_left h)).trans (at22 m c r (not_right h))
theorem at24 (c : Dev nD) (r : Ref sig .tc) (h : r ∉ wr24) : W24 m c r = W0 m c r :=
  (W24_keep m c r (not_left h)).trans (at23 m c r (not_right h))
theorem at25 (c : Dev nD) (r : Ref sig .tc) (h : r ∉ wr25) : W25 m c r = W0 m c r :=
  (W25_keep m c r (not_left h)).trans (at24 m c r (not_right h))
theorem at26 (c : Dev nD) (r : Ref sig .tc) (h : r ∉ wr26) : W26 m c r = W0 m c r :=
  (W26_keep m c r (not_left h)).trans (at25 m c r (not_right h))
theorem at27 (c : Dev nD) (r : Ref sig .tc) (h : r ∉ wr27) : W27 m c r = W0 m c r :=
  (W27_keep m c r (not_left h)).trans (at26 m c r (not_right h))
theorem at28 (c : Dev nD) (r : Ref sig .tc) (h : r ∉ wr28) : W28 m c r = W0 m c r :=
  (W28_keep m c r (not_left h)).trans (at27 m c r (not_right h))
theorem at29 (c : Dev nD) (r : Ref sig .tc) (h : r ∉ wr29) : W29 m c r = W0 m c r :=
  (W29_keep m c r (not_left h)).trans (at28 m c r (not_right h))
theorem at30 (c : Dev nD) (r : Ref sig .tc) (h : r ∉ wr30) : W30 m c r = W0 m c r :=
  (W30_keep m c r (not_left h)).trans (at29 m c r (not_right h))
theorem at31 (c : Dev nD) (r : Ref sig .tc) (h : r ∉ wr31) : W31 m c r = W0 m c r :=
  (W31_keep m c r (not_left h)).trans (at30 m c r (not_right h))
theorem at32 (c : Dev nD) (r : Ref sig .tc) (h : r ∉ wr32) : W32 m c r = W0 m c r :=
  (W32_keep m c r (not_left h)).trans (at31 m c r (not_right h))
theorem at33 (c : Dev nD) (r : Ref sig .tc) (h : r ∉ wr33) : W33 m c r = W0 m c r :=
  (W33_keep m c r (not_left h)).trans (at32 m c r (not_right h))
theorem at34 (c : Dev nD) (r : Ref sig .tc) (h : r ∉ wr34) : W34 m c r = W0 m c r :=
  (W34_keep m c r (not_left h)).trans (at33 m c r (not_right h))
theorem at35 (c : Dev nD) (r : Ref sig .tc) (h : r ∉ wr35) : W35 m c r = W0 m c r :=
  (W35_keep m c r (not_left h)).trans (at34 m c r (not_right h))
theorem at36 (c : Dev nD) (r : Ref sig .tc) (h : r ∉ wr36) : W36 m c r = W0 m c r :=
  (W36_keep m c r (not_left h)).trans (at35 m c r (not_right h))
theorem at37 (c : Dev nD) (r : Ref sig .tc) (h : r ∉ wr37) : W37 m c r = W0 m c r :=
  (W37_keep m c r (not_left h)).trans (at36 m c r (not_right h))
theorem at38 (c : Dev nD) (r : Ref sig .tc) (h : r ∉ wr38) : W38 m c r = W0 m c r :=
  (W38_keep m c r (not_left h)).trans (at37 m c r (not_right h))
theorem at39 (c : Dev nD) (r : Ref sig .tc) (h : r ∉ wr39) : W39 m c r = W0 m c r :=
  (W39_keep m c r (not_left h)).trans (at38 m c r (not_right h))

/-! ### The arguments the end of @main reads -/

theorem arg16_at_34 (c : Dev nD) : E34 m c main_arg16 = E0 m c main_arg16 := at34 m c main_arg16 (by decide)
theorem arg7_at_36 (c : Dev nD) : E36 m c main_arg7 = E0 m c main_arg7 := at36 m c main_arg7 (by decide)
theorem arg8_at_36 (c : Dev nD) : E36 m c main_arg8 = E0 m c main_arg8 := at36 m c main_arg8 (by decide)
theorem arg9_at_38 (c : Dev nD) : E38 m c main_arg9 = E0 m c main_arg9 := at38 m c main_arg9 (by decide)
theorem arg10_at_38 (c : Dev nD) : E38 m c main_arg10 = E0 m c main_arg10 := at38 m c main_arg10 (by decide)

/-! ### A result, from the item that wrote it to an item that reads it -/

/-- The first segment sum's result survives items 20 to 35. -/
theorem v62_at_36 (c : Dev nD) : E36 m c main_v62 = E20 m c main_v62 :=
  (W36_keep m c main_v62 (by decide)).trans <| (W35_keep m c main_v62 (by decide)).trans <|
  (W34_keep m c main_v62 (by decide)).trans <| (W33_keep m c main_v62 (by decide)).trans <|
  (W32_keep m c main_v62 (by decide)).trans <| (W31_keep m c main_v62 (by decide)).trans <|
  (W30_keep m c main_v62 (by decide)).trans <| (W29_keep m c main_v62 (by decide)).trans <|
  (W28_keep m c main_v62 (by decide)).trans <| (W27_keep m c main_v62 (by decide)).trans <|
  (W26_keep m c main_v62 (by decide)).trans <| (W25_keep m c main_v62 (by decide)).trans <|
  (W24_keep m c main_v62 (by decide)).trans <| (W23_keep m c main_v62 (by decide)).trans <|
  (W22_keep m c main_v62 (by decide)).trans <| W21_keep m c main_v62 (by decide)

/-- The two rows of the edge index, cut out at item 0, as the first three layers find them. -/
theorem v1_at_3 (c : Dev nD) : E3 m c main_v1 = E1 m c main_v1 :=
  (W3_keep m c main_v1 (by decide)).trans <| W2_keep m c main_v1 (by decide)
theorem v3_at_3 (c : Dev nD) : E3 m c main_v3 = E1 m c main_v3 :=
  (W3_keep m c main_v3 (by decide)).trans <| W2_keep m c main_v3 (by decide)
theorem v1_at_9 (c : Dev nD) : E9 m c main_v1 = E1 m c main_v1 :=
  (W9_keep m c main_v1 (by decide)).trans <| (W8_keep m c main_v1 (by decide)).trans <|
  (W7_keep m c main_v1 (by decide)).trans <| (W6_keep m c main_v1 (by decide)).trans <|
  (W5_keep m c main_v1 (by decide)).trans <| (W4_keep m c main_v1 (by decide)).trans <| v1_at_3 m c
theorem v3_at_9 (c : Dev nD) : E9 m c main_v3 = E1 m c main_v3 :=
  (W9_keep m c main_v3 (by decide)).trans <| (W8_keep m c main_v3 (by decide)).trans <|
  (W7_keep m c main_v3 (by decide)).trans <| (W6_keep m c main_v3 (by decide)).trans <|
  (W5_keep m c main_v3 (by decide)).trans <| (W4_keep m c main_v3 (by decide)).trans <| v3_at_3 m c
theorem v1_at_15 (c : Dev nD) : E15 m c main_v1 = E1 m c main_v1 :=
  (W15_keep m c main_v1 (by decide)).trans <| (W14_keep m c main_v1 (by decide)).trans <|
  (W13_keep m c main_v1 (by decide)).trans <| (W12_keep m c main_v1 (by decide)).trans <|
  (W11_keep m c main_v1 (by decide)).trans <| (W10_keep m c main_v1 (by decide)).trans <| v1_at_9 m c
theorem v3_at_15 (c : Dev nD) : E15 m c main_v3 = E1 m c main_v3 :=
  (W15_keep m c main_v3 (by decide)).trans <| (W14_keep m c main_v3 (by decide)).trans <|
  (W13_keep m c main_v3 (by decide)).trans <| (W12_keep m c main_v3 (by decide)).trans <|
  (W11_keep m c main_v3 (by decide)).trans <| (W10_keep m c main_v3 (by decide)).trans <| v3_at_9 m c

/-- The two rows of the pair-graph edge index, cut out at item 22, as the two pair layers find them. -/
theorem v67_at_25 (c : Dev nD) : E25 m c main_v67 = E23 m c main_v67 :=
  (W25_keep m c main_v67 (by decide)).trans <| W24_keep m c main_v67 (by decide)
theorem v69_at_25 (c : Dev nD) : E25 m c main_v69 = E23 m c main_v69 :=
  (W25_keep m c main_v69 (by decide)).trans <| W24_keep m c main_v69 (by decide)
theorem v67_at_31 (c : Dev nD) : E31 m c main_v67 = E23 m c main_v67 :=
  (W31_keep m c main_v67 (by decide)).trans <| (W30_keep m c main_v67 (by decide)).trans <|
  (W29_keep m c main_v67 (by decide)).trans <| (W28_keep m c main_v67 (by decide)).trans <|
  (W27_keep m c main_v67 (by decide)).trans <| (W26_keep m c main_v67 (by decide)).trans <| v67_at_25 m c
theorem v69_at_31 (c : Dev nD) : E31 m c main_v69 = E23 m c main_v69 :=
  (W31_keep m c main_v69 (by decide)).trans <| (W30_keep m c main_v69 (by decide)).trans <|
  (W29_keep m c main_v69 (by decide)).trans <| (W28_keep m c main_v69 (by decide)).trans <|
  (W27_keep m c main_v69 (by decide)).trans <| (W26_keep m c main_v69 (by decide)).trans <| v69_at_25 m c

/-- Each layer's result as the items after it find it. -/
theorem v22_at_7 (c : Dev nD) : E7 m c main_v22 = E6 m c main_v22 := W7_keep m c main_v22 (by decide)
theorem v41_at_13 (c : Dev nD) : E13 m c main_v41 = E12 m c main_v41 := W13_keep m c main_v41 (by decide)
theorem v60_at_19 (c : Dev nD) : E19 m c main_v60 = E18 m c main_v60 := W19_keep m c main_v60 (by decide)
theorem v60_at_20 (c : Dev nD) : E20 m c main_v60 = E18 m c main_v60 :=
  (W20_keep m c main_v60 (by decide)).trans <| v60_at_19 m c
theorem v60_at_21 (c : Dev nD) : E21 m c main_v60 = E18 m c main_v60 :=
  (W21_keep m c main_v60 (by decide)).trans <| v60_at_20 m c
theorem v84_at_29 (c : Dev nD) : E29 m c main_v84 = E28 m c main_v84 := W29_keep m c main_v84 (by decide)
theorem v99_at_35 (c : Dev nD) : E35 m c main_v99 = E34 m c main_v99 := W35_keep m c main_v99 (by decide)

end Persistence

/-! ## The four host stretches, each as one function of the buffers it reads -/

section Reads

variable {F : FTy → Type} [FloatOps F]

/-- The first linear layer of the head on the two pooled blocks side by side: [p | q] · wᵀ + b, the bias added to
    every row. -/
def lin1 (p q : FVec F S128x128 .f32) (w : FVec F S128x256 .f32) (b : FVec F S128 .f32) : FVec F S128x128 .f32 :=
  addf
    (Host.dotGeneral dot_S128x256_S256x128_S128x128_1_0_0_1_n_n none
      (concatenate S128x256 1 [⟨S128x128, p⟩, ⟨S128x128, q⟩] concatenates_S128x128_S128x128_S128x256_d1)
      (transpose S256x128 [1, 0] w transposes_S128x256_S256x128_1_0))
    (broadcastInDim S128x128 ![0, 1] bcast_S1x128_S128x128_0_1 (broadcastInDim S1x128 ![1] bcast_S128_S1x128_1 b))

/-- The larger of each entry and zero. -/
def relu (x : FVec F S128x128 .f32) : FVec F S128x128 .f32 :=
  maximumf x (broadcastInDim S128x128 ![] bcast_S_S128x128 (constant S_ .f32 0x00000000#32))

/-- The second linear layer: x · wᵀ + b. -/
def lin2 (x : FVec F S128x128 .f32) (w : FVec F S10x128 .f32) (b : FVec F S10 .f32) : FVec F S128x10 .f32 :=
  addf
    (Host.dotGeneral dot_S128x128_S128x10_S128x10_1_0_0_1_n_n none x
      (transpose S128x10 [1, 0] w transposes_S10x128_S128x10_1_0))
    (broadcastInDim S128x10 ![0, 1] bcast_S1x10_S128x10_0_1 (broadcastInDim S1x10 ![1] bcast_S10_S1x10_1 b))

/-- Item 34: the segment ids as a column. -/
theorem read11 (V : Valuation τ sig (Elt F)) :
    StableHlo.after hostOps11 V (Proc.devRef .tc main_v100)
      = (shapeCast S258048x1 (V (Proc.devRef .tc main_arg16)) shapeCasts_S258048_S258048x1 : IVec S258048x1 32) := by
  after_results
  rfl

/-- Item 36. -/
theorem read12 (V : Valuation τ sig (Elt F)) :
    StableHlo.after hostOps12 V (Proc.devRef .tc main_v107)
      = lin1 (V (Proc.devRef .tc main_v62)) (V (Proc.devRef .tc main_v101)) (V (Proc.devRef .tc main_arg7))
          (V (Proc.devRef .tc main_arg8)) := by
  after_results
  rfl

/-- Item 37. -/
theorem read12_1 (V : Valuation τ sig (Elt F)) :
    StableHlo.after hostOps12_1 V (Proc.devRef .tc main_v108) = relu (V (Proc.devRef .tc main_v107)) := by
  after_results
  rfl

/-- Item 38. -/
theorem read12_2 (V : Valuation τ sig (Elt F)) :
    StableHlo.after hostOps12_2 V (Proc.devRef .tc main_v113)
      = lin2 (V (Proc.devRef .tc main_v108)) (V (Proc.devRef .tc main_arg9)) (V (Proc.devRef .tc main_arg10)) := by
  after_results
  rfl

end Reads

variable (m : (ℓ : Loc nD τ sig) → Buf (Elt Ideal) ℓ)

/-! ## The second segment sum -/

section Seg

/-- The ids made a column by a reshape: row r holds id r. -/
theorem col_reshape (ids : IVec S258048 32) (i : S258048x1.Idx) :
    shapeCast S258048x1 ids shapeCasts_S258048_S258048x1 i = ids (ix1 (i 0)) := by
  refine shapeCast_apply ids shapeCasts_S258048_S258048x1 i (ix1 (i 0)) ?_
  rw [Shape.rowMajor_val_one, Shape.rowMajor_val_two]
  have h1 : (i 1).val < 1 := (i 1).isLt
  show (i 0).val = (i 0).val * 1 + (i 1).val
  omega

/-- The ids made a column by a broadcast along axis 0: row r holds id r. -/
theorem col_bcast (hb : Cert.ReferenceIdeal.S258048.BroadcastsInDim Cert.ReferenceIdeal.S258048x1 ![0])
    (ids : IVec S258048 32) (i : S258048x1.Idx) :
    broadcastInDim Cert.ReferenceIdeal.S258048x1 ![0] hb ids i = ids (ix1 (i 0)) := by
  refine broadcastInDim_apply ![0] hb ids i (ix1 (i 0)) ?_
  intro a
  match a with
  | ⟨0, _⟩ =>
    show (i 0).val = if (258048 : ℕ) = 1 then 0 else (i 0).val
    rw [if_neg (by decide)]

/-- A 128 x 128 block of the zero word is zero at every entry. -/
theorem zeros (hz : Cert.ReferenceIdeal.S_.BroadcastsInDim Cert.ReferenceIdeal.S128x128 ![]) (i : S128x128.Idx) :
    (broadcastInDim Cert.ReferenceIdeal.S128x128 ![] hz (constant (F := Ideal) Cert.ReferenceIdeal.S_ .f32 0x00000000#32)
      : S128x128.Idx → EReal) i = 0 := by
  rw [broadcastInDim_apply ![] hz _ i ix0 (fun a => a.elim0), constant_apply, Ideal.ofBits_zero_f32]

variable [Cert.ReferenceIdeal.Facts]

/-- What region 11 leaves in its result array is the reference's segment sum of the features region 10 left by the
    launch's ids, GIVEN a function S of an id column and the rows such that the region's accumulator after its last
    point is S of the column and the rows it found, and the scatter-add of the rows into a block of zeros at a column
    is S of that column and the rows. -/
theorem seg2_of
    (S : (S258048x1.Idx → BitVec 32) → (S258048x128.Idx → EReal) → S128x128.Idx → EReal)
    (hacc : ∀ (V : (c : Dev nD) → (b : Ref sig .tc) → Buf (Elt Ideal) ((c : Thread nD τ).loc b)) (c : Dev nD),
      (Reg11.acc V c (cfg11.N - 1) : S128x128.Idx → EReal)
        = S (V c (Pipeline.arrRef spec11 1)) (V c (Pipeline.arrRef spec11 0)))
    (hscat : ∀ (x : S128x128.Idx → EReal), (∀ i, x i = 0) →
      ∀ (ids : S258048x1.Idx → BitVec 32) (rows : S258048x128.Idx → EReal),
      (Host.scatterAdd (F := Ideal) (φ := .f32) Cert.ReferenceIdeal.scatter_S128x128_S258048x1_S258048x128_1_0_0_1
        x ids rows : S128x128.Idx → EReal) = S ids rows)
    (c : Dev nD) :
    (E36 m c main_v101 : S128x128.Idx → EReal) = Cert.Spec.seg258048 (E34 m c main_v99) (E0 m c main_arg16) := by
  -- the region's result array holds the accumulator after the last point
  have hk : (E36 m c main_v101 : S128x128.Idx → EReal) = S (E35 m c main_v100) (E35 m c main_v99) :=
    (W36_arr m c 2).trans (hacc (E35 m) c)
  -- the column the region finds is the reference's column of the launch's ids
  have hcol : (E35 m c main_v100 : S258048x1.Idx → BitVec 32)
      = broadcastInDim Cert.ReferenceIdeal.S258048x1 ![0] Cert.ReferenceIdeal.Facts₀.bcast_S258048_S258048x1_0
          (E0 m c main_arg16) := by
    funext i
    have h35 : E35 m c main_v100
        = (shapeCast S258048x1 (E34 m c main_arg16) shapeCasts_S258048_S258048x1 : IVec S258048x1 32) :=
      read11 (W34 m c)
    rw [h35, arg16_at_34 m c]
    exact (col_reshape (E0 m c main_arg16) i).trans (col_bcast _ (E0 m c main_arg16) i).symm
  rw [hk, hcol, v99_at_35 m c]
  exact (hscat _ (zeros Cert.ReferenceIdeal.Facts₀.bcast_S_S128x128) _ _).symm

end Seg

/-! ## The head -/

section Head

variable [Cert.ReferenceIdeal.Facts]

/-- The kernel's three stretches composed are the reference's head: the two name the same operations, and the dimension
    records of the same name have the same fields. -/
theorem head_spec (p q : FVec Ideal S128x128 .f32) (w7 : FVec Ideal S128x256 .f32) (b8 : FVec Ideal S128 .f32)
    (w9 : FVec Ideal S10x128 .f32) (b10 : FVec Ideal S10 .f32) :
    lin2 (relu (lin1 p q w7 b8)) w9 b10 = Cert.Spec.head p q w7 b8 w9 b10 := rfl

/-- THE RESULT BUFFER holds the reference's head of the two segment sums and the launch's four head parameters. -/
theorem head_eq (c : Dev nD) :
    (E39 m c main_v113 : S128x10.Idx → EReal)
      = Cert.Spec.head (E36 m c main_v62) (E36 m c main_v101) (E0 m c main_arg7) (E0 m c main_arg8)
          (E0 m c main_arg9) (E0 m c main_arg10) := by
  have h38 : E39 m c main_v113 = lin2 (F := Ideal) (E38 m c main_v108) (E38 m c main_arg9) (E38 m c main_arg10) :=
    read12_2 (W38 m c)
  have h37 : E38 m c main_v108 = relu (F := Ideal) (E37 m c main_v107) := read12_1 (W37 m c)
  have h36 : E37 m c main_v107
      = lin1 (F := Ideal) (E36 m c main_v62) (E36 m c main_v101) (E36 m c main_arg7) (E36 m c main_arg8) :=
    read12 (W36 m c)
  rw [h38, h37, h36, arg9_at_38 m c, arg10_at_38 m c, arg7_at_36 m c, arg8_at_36 m c]
  exact head_spec _ _ _ _ _ _

end Head

end Cert.KernelIdeal.Tail

end
-- ==== Proof.KI.Value.lean ====
/-
  The kernel's result as the shared specification of its arguments, at the ideal instance.
  Between the items of @main the core's buffers hold a chain of contents. Each stage of the computation leaves, in the
  buffer it writes, the specification's stage of what the stage before left: three message-passing layers over the node
  rows, the per-graph sums of the last layer's rows, the pair features, two layers over the pair rows, the per-graph sums
  of their rows, and the classifier on the two sums. Substituting these equations into one another from the last stage
  back to the first gives the specification's nested composition of the launch memory's eighteen arguments, which is
  what the specification of the whole computation unfolds to.
  The layers and the pair features read rows through index arrays; they agree with the specification when every such
  index addresses a row. The precondition states those ranges entry by entry; the edge lists' sources are row 0 of a
  two-row array, and row 0 read at e is the array at (0, e).
-/
import proofs.«408611_j10797547782338_1_alg».proof.Defs
import proofs.«408611_j10797547782338_1_alg».proof.Proof.Gen.Pre_finite_inputs
import proofs.«408611_j10797547782338_1_alg».proof.Proof.Gen.ReferenceIdeal
import proofs.«408611_j10797547782338_1_alg».proof.Proof.KI.Chain
import proofs.«408611_j10797547782338_1_alg».proof.Proof.PreFacts
import proofs.«408611_j10797547782338_1_alg».proof.Proof.Spec
import proofs.«408611_j10797547782338_1_alg».proof.Proof.TakeGather
import proofs.«408611_j10797547782338_1_alg».proof.Proof.KI.Val0
import proofs.«408611_j10797547782338_1_alg».proof.Proof.KI.Val1
import proofs.«408611_j10797547782338_1_alg».proof.Proof.KI.Val2
import proofs.«408611_j10797547782338_1_alg».proof.Proof.KI.Val3
import proofs.«408611_j10797547782338_1_alg».proof.Proof.KI.Val4
import proofs.«408611_j10797547782338_1_alg».proof.Proof.KI.Val5
import proofs.«408611_j10797547782338_1_alg».proof.Proof.KI.Val7
import proofs.«408611_j10797547782338_1_alg».proof.Proof.KI.Val8
import proofs.«408611_j10797547782338_1_alg».proof.Proof.KI.Val9
import proofs.«408611_j10797547782338_1_alg».proof.Proof.KI.Val10
import proofs.«408611_j10797547782338_1_alg».proof.Proof.KI.Val11
import proofs.«408611_j10797547782338_1_alg».proof.Proof.KI.Layers
import proofs.«408611_j10797547782338_1_alg».proof.Proof.KI.MidSpec
import proofs.«408611_j10797547782338_1_alg».proof.Proof.KI.Layer4
import proofs.«408611_j10797547782338_1_alg».proof.Proof.KI.Layer5
import proofs.«408611_j10797547782338_1_alg».proof.Proof.KI.Tail
import Idealize.ShloMosaic.PureOps.Ideal
import Idealize.ShloMosaic.Lib.ValueIdx

set_option maxRecDepth 16384

noncomputable section

namespace Cert.KernelIdeal.Value

open Cert.KernelIdeal Cert.KernelIdeal.Chain
open Idealize.ShloMosaic Idealize.ShloMosaic.TcCoe Idealize.ShloMosaic.ValueIdx
open Idealize.SL.Sem
open Cert.PreFacts

/-! ## Reading row 0 of a two-row index array -/

/-- Row 0 of the edge list at e is the array at (0, e). -/
theorem row0_apply (a : IVec Cert.ReferenceIdeal.S2x61594 32) (e : Fin 61594) :
    Cert.Spec.row0 a (ix1 e) = a (ix2 (0 : Fin 2) e) :=
  Cert.PreFacts.row0_read a _ _ e

/-- Row 0 of the pair-graph edge list at e is the array at (0, e). -/
theorem row0'_apply (a : IVec Cert.ReferenceIdeal.S2x454772 32) (e : Fin 454772) :
    Cert.Spec.row0' a (ix1 e) = a (ix2 (0 : Fin 2) e) :=
  Cert.PreFacts.row0_read a _ _ e

/-! ## The assembly -/

section Assembly
variable (m : (ℓ : Loc nD τ sig) → Buf (Elt Ideal) ℓ) (c : Dev nD)

/-- The kernel's result buffer after the last item is the specification of the launch memory's arguments, given what
    each stage leaves as the specification's stage of what the stage before left. -/
theorem kernel_value_of
    (hL1 : @Eq (FVec Ideal Cert.ReferenceIdeal.S8192x128 .f32) (E6 m c main_v22)
      (Cert.Spec.mp8192 (E0 m c main_arg0) (Cert.Spec.layerW (E0 m c main_arg1) 0) (Cert.Spec.layerW (E0 m c main_arg2) 0)
        (Cert.Spec.row0 (E0 m c main_arg12)) (Cert.Spec.row1 (E0 m c main_arg12))))
    (hL2 : @Eq (FVec Ideal Cert.ReferenceIdeal.S8192x128 .f32) (E12 m c main_v41)
      (Cert.Spec.mp8192 (E6 m c main_v22) (Cert.Spec.layerW (E0 m c main_arg1) 1) (Cert.Spec.layerW (E0 m c main_arg2) 1)
        (Cert.Spec.row0 (E0 m c main_arg12)) (Cert.Spec.row1 (E0 m c main_arg12))))
    (hL3 : @Eq (FVec Ideal Cert.ReferenceIdeal.S8192x128 .f32) (E18 m c main_v60)
      (Cert.Spec.mp8192 (E12 m c main_v41) (Cert.Spec.layerW (E0 m c main_arg1) 2) (Cert.Spec.layerW (E0 m c main_arg2) 2)
        (Cert.Spec.row0 (E0 m c main_arg12)) (Cert.Spec.row1 (E0 m c main_arg12))))
    (hS1 : @Eq (FVec Ideal Cert.ReferenceIdeal.S128x128 .f32) (E20 m c main_v62)
      (Cert.Spec.seg8192 (E18 m c main_v60) (E0 m c main_arg13)))
    (hP : @Eq (FVec Ideal Cert.ReferenceIdeal.S258048x257 .f32) (E23 m c main_v65)
      (Cert.Spec.pairFeat (E18 m c main_v60) (E0 m c main_arg14) (E0 m c main_arg15) (E0 m c main_arg11)))
    (hL4 : @Eq (FVec Ideal Cert.ReferenceIdeal.S258048x128 .f32) (E28 m c main_v84)
      (Cert.Spec.mp258048a (E23 m c main_v65) (E0 m c main_arg3) (E0 m c main_arg4)
        (Cert.Spec.row0' (E0 m c main_arg17)) (Cert.Spec.row1' (E0 m c main_arg17))))
    (hL5 : @Eq (FVec Ideal Cert.ReferenceIdeal.S258048x128 .f32) (E34 m c main_v99)
      (Cert.Spec.mp258048b (E28 m c main_v84) (E0 m c main_arg5) (E0 m c main_arg6)
        (Cert.Spec.row0' (E0 m c main_arg17)) (Cert.Spec.row1' (E0 m c main_arg17))))
    (hS2 : @Eq (FVec Ideal Cert.ReferenceIdeal.S128x128 .f32) (E36 m c main_v101)
      (Cert.Spec.seg258048 (E34 m c main_v99) (E0 m c main_arg16)))
    (hK : @Eq (FVec Ideal Cert.ReferenceIdeal.S128x128 .f32) (E36 m c main_v62) (E20 m c main_v62))
    (hH : @Eq (FVec Ideal Cert.ReferenceIdeal.S128x10 .f32) (E39 m c main_v113)
      (Cert.Spec.head (E36 m c main_v62) (E36 m c main_v101) (E0 m c main_arg7) (E0 m c main_arg8) (E0 m c main_arg9)
        (E0 m c main_arg10))) :
    @Eq (FVec Ideal Cert.ReferenceIdeal.S128x10 .f32) (W39 m c main_v113)
      (Cert.Spec.whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15))
        (m ((c.tc : Thread nD τ).loc main_arg16)) (m ((c.tc : Thread nD τ).loc main_arg17))) := by
  show @Eq (FVec Ideal Cert.ReferenceIdeal.S128x10 .f32) (E39 m c main_v113) _
  rw [hH, hK, hS1, hS2, hL5, hL4, hP, hL3, hL2, hL1]
  rfl

end Assembly

section FromPre
variable (m : (ℓ : Loc nD τ sig) → Buf (Elt Ideal) ℓ) (c : Dev nD)

/-- The four index ranges the precondition states, in the form the stages ask for: the sources of both edge lists read
    through row 0, the two pair lists as they are. -/
theorem ranges_of_pre (hpre : Cert.Pre_KernelIdeal m) :
    (∀ e : Fin 61594, InRange 8192 (Cert.Spec.row0 (E0 m c main_arg12) (ix1 e)))
    ∧ (∀ p : Fin 258048, InRange 8192 ((E0 m c main_arg14 : IVec Cert.ReferenceIdeal.S258048 32) (ix1 p)))
    ∧ (∀ p : Fin 258048, InRange 8192 ((E0 m c main_arg15 : IVec Cert.ReferenceIdeal.S258048 32) (ix1 p)))
    ∧ (∀ e : Fin 454772, InRange 258048 (Cert.Spec.row0' (E0 m c main_arg17) (ix1 e))) := by
  obtain ⟨r12, r14, r15, r17⟩ := Cert.PreFacts.ranges _ _ _ _ _ _ _ _ _ _ _ _ _ _ _ _ _ _ (hpre c)
  refine ⟨fun e => ?_, r14, r15, fun e => ?_⟩
  · rw [row0_apply]; exact r12 e
  · rw [row0'_apply]; exact r17 e

/-- The kernel's result is the specification of the launch memory's arguments under the precondition: the stages' values,
    each under the range it needs, assembled. -/
theorem kernel_value_from (hpre : Cert.Pre_KernelIdeal m)
    (pL1 : (∀ e : Fin 61594, InRange 8192 (Cert.Spec.row0 (E0 m c main_arg12) (ix1 e))) →
      @Eq (FVec Ideal Cert.ReferenceIdeal.S8192x128 .f32) (E6 m c main_v22)
        (Cert.Spec.mp8192 (E0 m c main_arg0) (Cert.Spec.layerW (E0 m c main_arg1) 0) (Cert.Spec.layerW (E0 m c main_arg2) 0)
          (Cert.Spec.row0 (E0 m c main_arg12)) (Cert.Spec.row1 (E0 m c main_arg12))))
    (pL2 : (∀ e : Fin 61594, InRange 8192 (Cert.Spec.row0 (E0 m c main_arg12) (ix1 e))) →
      @Eq (FVec Ideal Cert.ReferenceIdeal.S8192x128 .f32) (E12 m c main_v41)
        (Cert.Spec.mp8192 (E6 m c main_v22) (Cert.Spec.layerW (E0 m c main_arg1) 1) (Cert.Spec.layerW (E0 m c main_arg2) 1)
          (Cert.Spec.row0 (E0 m c main_arg12)) (Cert.Spec.row1 (E0 m c main_arg12))))
    (pL3 : (∀ e : Fin 61594, InRange 8192 (Cert.Spec.row0 (E0 m c main_arg12) (ix1 e))) →
      @Eq (FVec Ideal Cert.ReferenceIdeal.S8192x128 .f32) (E18 m c main_v60)
        (Cert.Spec.mp8192 (E12 m c main_v41) (Cert.Spec.layerW (E0 m c main_arg1) 2) (Cert.Spec.layerW (E0 m c main_arg2) 2)
          (Cert.Spec.row0 (E0 m c main_arg12)) (Cert.Spec.row1 (E0 m c main_arg12))))
    (pS1 : @Eq (FVec Ideal Cert.ReferenceIdeal.S128x128 .f32) (E20 m c main_v62)
      (Cert.Spec.seg8192 (E18 m c main_v60) (E0 m c main_arg13)))
    (pP : (∀ p : Fin 258048, InRange 8192 ((E0 m c main_arg14 : IVec Cert.ReferenceIdeal.S258048 32) (ix1 p))) →
      (∀ p : Fin 258048, InRange 8192 ((E0 m c main_arg15 : IVec Cert.ReferenceIdeal.S258048 32) (ix1 p))) →
      @Eq (FVec Ideal Cert.ReferenceIdeal.S258048x257 .f32) (E23 m c main_v65)
        (Cert.Spec.pairFeat (E18 m c main_v60) (E0 m c main_arg14) (E0 m c main_arg15) (E0 m c main_arg11)))
    (pL4 : (∀ e : Fin 454772, InRange 258048 (Cert.Spec.row0' (E0 m c main_arg17) (ix1 e))) →
      @Eq (FVec Ideal Cert.ReferenceIdeal.S258048x128 .f32) (E28 m c main_v84)
        (Cert.Spec.mp258048a (E23 m c main_v65) (E0 m c main_arg3) (E0 m c main_arg4)
          (Cert.Spec.row0' (E0 m c main_arg17)) (Cert.Spec.row1' (E0 m c main_arg17))))
    (pL5 : (∀ e : Fin 454772, InRange 258048 (Cert.Spec.row0' (E0 m c main_arg17) (ix1 e))) →
      @Eq (FVec Ideal Cert.ReferenceIdeal.S258048x128 .f32) (E34 m c main_v99)
        (Cert.Spec.mp258048b (E28 m c main_v84) (E0 m c main_arg5) (E0 m c main_arg6)
          (Cert.Spec.row0' (E0 m c main_arg17)) (Cert.Spec.row1' (E0 m c main_arg17))))
    (pS2 : @Eq (FVec Ideal Cert.ReferenceIdeal.S128x128 .f32) (E36 m c main_v101)
      (Cert.Spec.seg258048 (E34 m c main_v99) (E0 m c main_arg16)))
    (pK : @Eq (FVec Ideal Cert.ReferenceIdeal.S128x128 .f32) (E36 m c main_v62) (E20 m c main_v62))
    (pH : @Eq (FVec Ideal Cert.ReferenceIdeal.S128x10 .f32) (E39 m c main_v113)
      (Cert.Spec.head (E36 m c main_v62) (E36 m c main_v101) (E0 m c main_arg7) (E0 m c main_arg8) (E0 m c main_arg9)
        (E0 m c main_arg10))) :
    @Eq (FVec Ideal Cert.ReferenceIdeal.S128x10 .f32) (W39 m c main_v113)
      (Cert.Spec.whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15))
        (m ((c.tc : Thread nD τ).loc main_arg16)) (m ((c.tc : Thread nD τ).loc main_arg17))) := by
  obtain ⟨r12, r14, r15, r17⟩ := ranges_of_pre m c hpre
  exact kernel_value_of m c (pL1 r12) (pL2 r12) (pL3 r12) pS1 (pP r14 r15) (pL4 r17) (pL5 r17) pS2 pK pH

end FromPre

/-! ## The stages, each in the specification's words

Each stage's own module states what it leaves with the reference's operations written out; those are the specification's
functions of the same name and operands, so each statement below is its module's, read at the specification. A dense
region's value is the matrix product of its two arrays, an add-and-clamp region's the larger of zero and the sum of
its two arrays, and a take whose positions are all in range is the gather at the wrapped column. -/

section Stages
variable (m : (ℓ : Loc nD τ sig) → Buf (Elt Ideal) ℓ) (c : Dev nD)

/-- The first layer over the node rows. -/
theorem layer1_spec (h : ∀ e : Fin 61594, InRange 8192 (Cert.Spec.row0 (E0 m c main_arg12) (ix1 e))) :
    @Eq (FVec Ideal Cert.ReferenceIdeal.S8192x128 .f32) (E6 m c main_v22)
      (Cert.Spec.mp8192 (E0 m c main_arg0) (Cert.Spec.layerW (E0 m c main_arg1) 0) (Cert.Spec.layerW (E0 m c main_arg2) 0)
        (Cert.Spec.row0 (E0 m c main_arg12)) (Cert.Spec.row1 (E0 m c main_arg12))) :=
  Cert.KernelIdeal.Layers.layer1 m c (fun V c i => Reg0.arrAt_out_apply V c i) (fun V c i => Reg1.arrAt_out_apply V c i) h

/-- The second. -/
theorem layer2_spec (h : ∀ e : Fin 61594, InRange 8192 (Cert.Spec.row0 (E0 m c main_arg12) (ix1 e))) :
    @Eq (FVec Ideal Cert.ReferenceIdeal.S8192x128 .f32) (E12 m c main_v41)
      (Cert.Spec.mp8192 (E6 m c main_v22) (Cert.Spec.layerW (E0 m c main_arg1) 1) (Cert.Spec.layerW (E0 m c main_arg2) 1)
        (Cert.Spec.row0 (E0 m c main_arg12)) (Cert.Spec.row1 (E0 m c main_arg12))) :=
  Cert.KernelIdeal.Layers.layer2 m c (fun V c i => Reg2.arrAt_out_apply V c i) (fun V c i => Reg3.arrAt_out_apply V c i) h

/-- The third. -/
theorem layer3_spec (h : ∀ e : Fin 61594, InRange 8192 (Cert.Spec.row0 (E0 m c main_arg12) (ix1 e))) :
    @Eq (FVec Ideal Cert.ReferenceIdeal.S8192x128 .f32) (E18 m c main_v60)
      (Cert.Spec.mp8192 (E12 m c main_v41) (Cert.Spec.layerW (E0 m c main_arg1) 2) (Cert.Spec.layerW (E0 m c main_arg2) 2)
        (Cert.Spec.row0 (E0 m c main_arg12)) (Cert.Spec.row1 (E0 m c main_arg12))) :=
  Cert.KernelIdeal.Layers.layer3 m c (fun V c i => Reg4.arrAt_out_apply V c i) (fun V c i => Reg5.arrAt_out_apply V c i) h

/-- The first layer over the pair rows, from 257 features to 128. -/
theorem layer4_spec (h : ∀ e : Fin 454772, InRange 258048 (Cert.Spec.row0' (E0 m c main_arg17) (ix1 e))) :
    @Eq (FVec Ideal Cert.ReferenceIdeal.S258048x128 .f32) (E28 m c main_v84)
      (Cert.Spec.mp258048a (E23 m c main_v65) (E0 m c main_arg3) (E0 m c main_arg4)
        (Cert.Spec.row0' (E0 m c main_arg17)) (Cert.Spec.row1' (E0 m c main_arg17))) :=
  Cert.KernelIdeal.Layer4.layer4_of m (fun V c i => Reg7.arrAt_out_apply V c i) (fun V c i => Reg8.arrAt_out_apply V c i)
    (fun x idx hr => Cert.TakeGather.take_2.val_eq_gather x idx hr) c h

/-- The second, from 128 features to 128. -/
theorem layer5_spec (h : ∀ e : Fin 454772, InRange 258048 (Cert.Spec.row0' (E0 m c main_arg17) (ix1 e))) :
    @Eq (FVec Ideal Cert.ReferenceIdeal.S258048x128 .f32) (E34 m c main_v99)
      (Cert.Spec.mp258048b (E28 m c main_v84) (E0 m c main_arg5) (E0 m c main_arg6)
        (Cert.Spec.row0' (E0 m c main_arg17)) (Cert.Spec.row1' (E0 m c main_arg17))) :=
  Cert.KernelIdeal.Layer5.layer5_of m (fun V c i => Reg9.arrAt_out_apply V c i) (fun V c i => Reg10.arrAt_out_apply V c i)
    (fun x idx hr => Cert.TakeGather.take_2.val_eq_gather x idx hr) c h

/-- The per-graph sums of the pair rows: the last region's accumulator after its last grid point is the sum of the rows
    whose id is the segment's, and so is a scatter-add of the rows into zeros. -/
theorem seg2_spec :
    @Eq (FVec Ideal Cert.ReferenceIdeal.S128x128 .f32) (E36 m c main_v101)
      (Cert.Spec.seg258048 (E34 m c main_v99) (E0 m c main_arg16)) :=
  Cert.KernelIdeal.Tail.seg2_of m Reg11.segSum (fun V c => Reg11.acc_last V c)
    (fun x hx ids rows => Reg11.scatterAdd_zero x hx ids rows) c

end Stages

/-! ## The kernel's value -/

/-- THE KERNEL'S RESULT BUFFER after the last item holds the specification of the launch memory's eighteen arguments,
    under the precondition. -/
theorem kernel_value (m : (ℓ : Loc nD τ sig) → Buf (Elt Ideal) ℓ) (hpre : Cert.Pre_KernelIdeal m) (c : Dev nD) :
    @Eq (FVec Ideal Cert.ReferenceIdeal.S128x10 .f32) (W39 m c main_v113)
      (Cert.Spec.whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15))
        (m ((c.tc : Thread nD τ).loc main_arg16)) (m ((c.tc : Thread nD τ).loc main_arg17))) :=
  kernel_value_from m c hpre (layer1_spec m c) (layer2_spec m c) (layer3_spec m c)
    (Cert.KernelIdeal.Mid.seg1 m c) (fun hu hv => Cert.KernelIdeal.Mid.pair m c hu hv)
    (layer4_spec m c) (layer5_spec m c) (seg2_spec m c)
    (Cert.KernelIdeal.Tail.v62_at_36 m c) (Cert.KernelIdeal.Tail.head_eq m c)

end Cert.KernelIdeal.Value

end
-- ==== Proof.RefHand.Run.lean ====
/-
  THE REFERENCE RUNS, AND ENDS AT ITS OPERATIONS' FOLD OVER THE LAUNCH MEMORY.

  The reference's @main is a straight line of host operations on a signature that scopes nothing. So from any memory
  with zero counters every weakly fair execution of it terminates, and in every final state each buffer of a core
  holds what folding the operations' results, in order, over that core's launch contents leaves there. The fold is
  left as it stands: no composed term of the whole program is formed here. What a particular buffer holds is read
  off the fold afterwards, one stretch of operations at a time.
-/
import proofs.«408611_j10797547782338_1_alg».proof.Proof.RefHand.OpsP

noncomputable section

namespace Cert.RefHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 8000000 in
/-- Every weakly fair execution of the reference's @main from m terminates; at the end every buffer b of every core c
    holds the fold of @main's operations over c's launch contents, read at b. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ

end Cert.RefHand

end
-- ==== Proof.RefHand.Chunks.lean ====
/- The reference's 201 operations, in their order, as 5 consecutive lists: list k holds entries 0..99, 100..122, 123..154, 155..182, 183..200 of the
   program's one list. Every operation writes exactly one reference; W_k lists what list k writes, in order, and a
   reference outside W_k holds after list k what it held before. -/
import proofs.«408611_j10797547782338_1_alg».proof.Proof.Gen.ReferenceIdeal
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- The one reference an operation writes lies in a list that holds it. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map.2 ⟨y, h, rfl⟩))

/-- Entries 0..99. -/
abbrev o1 : List (HloOp τ sig (Elt F)) :=
  [ unary main_arg12 main_v0 ((extractStridedSlice S1x61594 ![0, 0] · slices_S2x61594_S1x61594_0_0) : (⟨S2x61594, .i32⟩ : BufTy).Contents (Elt F) → (⟨S1x61594, .i32⟩ : BufTy).Contents (Elt F)),
    reshape main_v0 main_v1 rfl shapeCasts_S1x61594_S61594,
    unary main_arg12 main_v2 ((extractStridedSlice S1x61594 ![1, 0] · slices_S2x61594_S1x61594_1_0) : (⟨S2x61594, .i32⟩ : BufTy).Contents (Elt F) → (⟨S1x61594, .i32⟩ : BufTy).Contents (Elt F)),
    reshape main_v2 main_v3 rfl shapeCasts_S1x61594_S61594,
    unary main_arg1 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_arg2 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v6 main_v7 rfl shapeCasts_S1x128x128_S128x128,
    unary main_v5 main_v8 ((transpose S128x128 [1, 0] · transposes_S128x128_S128x128_1_0) : (⟨S128x128, .f32⟩ : BufTy).Contents (Elt F) → (⟨S128x128, .f32⟩ : BufTy).Contents (Elt F)),
    binary main_arg0 main_v8 main_v9 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_cst (constant S_ .f32 0x00000000#32),
    unary main_cst main_v10 (broadcastInDim S8192x128 ![] bcast_S_S8192x128 : (⟨S_, .f32⟩ : BufTy).Contents (Elt F) → (⟨S8192x128, .f32⟩ : BufTy).Contents (Elt F)),
    unary main_v7 main_v11 ((transpose S128x128 [1, 0] · transposes_S128x128_S128x128_1_0) : (⟨S128x128, .f32⟩ : BufTy).Contents (Elt F) → (⟨S128x128, .f32⟩ : BufTy).Contents (Elt F)),
    binary main_arg0 main_v11 main_v12 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c (constantI S_ 32 0#32),
    unary main_c main_v13 (broadcastInDim S61594 ![] bcast_S_S61594 : (⟨S_, .i32⟩ : BufTy).Contents (Elt F) → (⟨S61594, .i32⟩ : BufTy).Contents (Elt F)),
    binary main_v1 main_v13 main_v14 (cmpi .slt : (⟨S61594, .i32⟩ : BufTy).Contents (Elt F) → (⟨S61594, .i32⟩ : BufTy).Contents (Elt F) → (⟨S61594, .i1⟩ : BufTy).Contents (Elt F)),
    nullary main_c_0 (constantI S_ 32 8192#32),
    unary main_c_0 main_v15 (broadcastInDim S61594 ![] bcast_S_S61594 : (⟨S_, .i32⟩ : BufTy).Contents (Elt F) → (⟨S61594, .i32⟩ : BufTy).Contents (Elt F)),
    binary main_v1 main_v15 main_v16 (addi : (⟨S61594, .i32⟩ : BufTy).Contents (Elt F) → (⟨S61594, .i32⟩ : BufTy).Contents (Elt F) → (⟨S61594, .i32⟩ : BufTy).Contents (Elt F)),
    ternary main_v14 main_v16 main_v1 main_v17 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v17 main_v18 (broadcastInDim S61594x1 ![0] bcast_S61594_S61594x1_0 : (⟨S61594, .i32⟩ : BufTy).Contents (Elt F) → (⟨S61594x1, .i32⟩ : BufTy).Contents (Elt F)),
    binary main_v12 main_v18 main_v19 ((fun x i => Host.gather gather_S8192x128_S61594x1_S61594x128_1_0_n_n_0_1_1128 x i) : (⟨S8192x128, .f32⟩ : BufTy).Contents (Elt F) → (⟨S61594x1, .i32⟩ : BufTy).Contents (Elt F) → (⟨S61594x128, .f32⟩ : BufTy).Contents (Elt F)),
    nullary main_c_1 (constantI S_ 32 0#32),
    unary main_c_1 main_v20 (broadcastInDim S61594 ![] bcast_S_S61594 : (⟨S_, .i32⟩ : BufTy).Contents (Elt F) → (⟨S61594, .i32⟩ : BufTy).Contents (Elt F)),
    binary main_v3 main_v20 main_v21 (cmpi .slt : (⟨S61594, .i32⟩ : BufTy).Contents (Elt F) → (⟨S61594, .i32⟩ : BufTy).Contents (Elt F) → (⟨S61594, .i1⟩ : BufTy).Contents (Elt F)),
    nullary main_c_2 (constantI S_ 32 8192#32),
    unary main_c_2 main_v22 (broadcastInDim S61594 ![] bcast_S_S61594 : (⟨S_, .i32⟩ : BufTy).Contents (Elt F) → (⟨S61594, .i32⟩ : BufTy).Contents (Elt F)),
    binary main_v3 main_v22 main_v23 (addi : (⟨S61594, .i32⟩ : BufTy).Contents (Elt F) → (⟨S61594, .i32⟩ : BufTy).Contents (Elt F) → (⟨S61594, .i32⟩ : BufTy).Contents (Elt F)),
    ternary main_v21 main_v23 main_v3 main_v24 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v24 main_v25 (broadcastInDim S61594x1 ![0] bcast_S61594_S61594x1_0 : (⟨S61594, .i32⟩ : BufTy).Contents (Elt F) → (⟨S61594x1, .i32⟩ : BufTy).Contents (Elt F)),
    ternary main_v10 main_v25 main_v19 main_v26 ((fun x i u => Host.scatterAdd scatter_S8192x128_S61594x1_S61594x128_1_0_0_1 x i u) : (⟨S8192x128, .f32⟩ : BufTy).Contents (Elt F) → (⟨S61594x1, .i32⟩ : BufTy).Contents (Elt F) → (⟨S61594x128, .f32⟩ : BufTy).Contents (Elt F) → (⟨S8192x128, .f32⟩ : BufTy).Contents (Elt F)),
    binary main_v9 main_v26 main_v27 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x128, .f32⟩) main_call0_v0) (broadcastInDim S8192x128 ![] bcast_S_S8192x128),
    TRef.binary (TRef.of (T := ⟨S8192x128, .f32⟩) main_v27) (TRef.of (T := ⟨S8192x128, .f32⟩) main_call0_v0) (TRef.of (T := ⟨S8192x128, .f32⟩) main_v28) maximumf,
    unary main_arg1 main_v29 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v29 main_v30 rfl shapeCasts_S1x128x128_S128x128,
    unary main_arg2 main_v31 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v31 main_v32 rfl shapeCasts_S1x128x128_S128x128,
    unary main_v30 main_v33 ((transpose S128x128 [1, 0] · transposes_S128x128_S128x128_1_0) : (⟨S128x128, .f32⟩ : BufTy).Contents (Elt F) → (⟨S128x128, .f32⟩ : BufTy).Contents (Elt F)),
    binary main_v28 main_v33 main_v34 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_cst_3 (constant S_ .f32 0x00000000#32),
    unary main_cst_3 main_v35 (broadcastInDim S8192x128 ![] bcast_S_S8192x128 : (⟨S_, .f32⟩ : BufTy).Contents (Elt F) → (⟨S8192x128, .f32⟩ : BufTy).Contents (Elt F)),
    unary main_v32 main_v36 ((transpose S128x128 [1, 0] · transposes_S128x128_S128x128_1_0) : (⟨S128x128, .f32⟩ : BufTy).Contents (Elt F) → (⟨S128x128, .f32⟩ : BufTy).Contents (Elt F)),
    binary main_v28 main_v36 main_v37 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_4 (constantI S_ 32 0#32),
    unary main_c_4 main_v38 (broadcastInDim S61594 ![] bcast_S_S61594 : (⟨S_, .i32⟩ : BufTy).Contents (Elt F) → (⟨S61594, .i32⟩ : BufTy).Contents (Elt F)),
    binary main_v1 main_v38 main_v39 (cmpi .slt : (⟨S61594, .i32⟩ : BufTy).Contents (Elt F) → (⟨S61594, .i32⟩ : BufTy).Contents (Elt F) → (⟨S61594, .i1⟩ : BufTy).Contents (Elt F)),
    nullary main_c_5 (constantI S_ 32 8192#32),
    unary main_c_5 main_v40 (broadcastInDim S61594 ![] bcast_S_S61594 : (⟨S_, .i32⟩ : BufTy).Contents (Elt F) → (⟨S61594, .i32⟩ : BufTy).Contents (Elt F)),
    binary main_v1 main_v40 main_v41 (addi : (⟨S61594, .i32⟩ : BufTy).Contents (Elt F) → (⟨S61594, .i32⟩ : BufTy).Contents (Elt F) → (⟨S61594, .i32⟩ : BufTy).Contents (Elt F)),
    ternary main_v39 main_v41 main_v1 main_v42 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v42 main_v43 (broadcastInDim S61594x1 ![0] bcast_S61594_S61594x1_0 : (⟨S61594, .i32⟩ : BufTy).Contents (Elt F) → (⟨S61594x1, .i32⟩ : BufTy).Contents (Elt F)),
    binary main_v37 main_v43 main_v44 ((fun x i => Host.gather gather_S8192x128_S61594x1_S61594x128_1_0_n_n_0_1_1128 x i) : (⟨S8192x128, .f32⟩ : BufTy).Contents (Elt F) → (⟨S61594x1, .i32⟩ : BufTy).Contents (Elt F) → (⟨S61594x128, .f32⟩ : BufTy).Contents (Elt F)),
    nullary main_c_6 (constantI S_ 32 0#32),
    unary main_c_6 main_v45 (broadcastInDim S61594 ![] bcast_S_S61594 : (⟨S_, .i32⟩ : BufTy).Contents (Elt F) → (⟨S61594, .i32⟩ : BufTy).Contents (Elt F)),
    binary main_v3 main_v45 main_v46 (cmpi .slt : (⟨S61594, .i32⟩ : BufTy).Contents (Elt F) → (⟨S61594, .i32⟩ : BufTy).Contents (Elt F) → (⟨S61594, .i1⟩ : BufTy).Contents (Elt F)),
    nullary main_c_7 (constantI S_ 32 8192#32),
    unary main_c_7 main_v47 (broadcastInDim S61594 ![] bcast_S_S61594 : (⟨S_, .i32⟩ : BufTy).Contents (Elt F) → (⟨S61594, .i32⟩ : BufTy).Contents (Elt F)),
    binary main_v3 main_v47 main_v48 (addi : (⟨S61594, .i32⟩ : BufTy).Contents (Elt F) → (⟨S61594, .i32⟩ : BufTy).Contents (Elt F) → (⟨S61594, .i32⟩ : BufTy).Contents (Elt F)),
    ternary main_v46 main_v48 main_v3 main_v49 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v49 main_v50 (broadcastInDim S61594x1 ![0] bcast_S61594_S61594x1_0 : (⟨S61594, .i32⟩ : BufTy).Contents (Elt F) → (⟨S61594x1, .i32⟩ : BufTy).Contents (Elt F)),
    ternary main_v35 main_v50 main_v44 main_v51 ((fun x i u => Host.scatterAdd scatter_S8192x128_S61594x1_S61594x128_1_0_0_1 x i u) : (⟨S8192x128, .f32⟩ : BufTy).Contents (Elt F) → (⟨S61594x1, .i32⟩ : BufTy).Contents (Elt F) → (⟨S61594x128, .f32⟩ : BufTy).Contents (Elt F) → (⟨S8192x128, .f32⟩ : BufTy).Contents (Elt F)),
    binary main_v34 main_v51 main_v52 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v52) (TRef.of (T := ⟨S8192x128, .f32⟩) main_call1_v0) (TRef.of (T := ⟨S8192x128, .f32⟩) main_v53) maximumf,
    unary main_arg1 main_v54 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v54 main_v55 rfl shapeCasts_S1x128x128_S128x128,
    unary main_arg2 main_v56 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v56 main_v57 rfl shapeCasts_S1x128x128_S128x128,
    unary main_v55 main_v58 ((transpose S128x128 [1, 0] · transposes_S128x128_S128x128_1_0) : (⟨S128x128, .f32⟩ : BufTy).Contents (Elt F) → (⟨S128x128, .f32⟩ : BufTy).Contents (Elt F)),
    binary main_v53 main_v58 main_v59 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_cst_8 (constant S_ .f32 0x00000000#32),
    unary main_cst_8 main_v60 (broadcastInDim S8192x128 ![] bcast_S_S8192x128 : (⟨S_, .f32⟩ : BufTy).Contents (Elt F) → (⟨S8192x128, .f32⟩ : BufTy).Contents (Elt F)),
    unary main_v57 main_v61 ((transpose S128x128 [1, 0] · transposes_S128x128_S128x128_1_0) : (⟨S128x128, .f32⟩ : BufTy).Contents (Elt F) → (⟨S128x128, .f32⟩ : BufTy).Contents (Elt F)),
    binary main_v53 main_v61 main_v62 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_9 (constantI S_ 32 0#32),
    unary main_c_9 main_v63 (broadcastInDim S61594 ![] bcast_S_S61594 : (⟨S_, .i32⟩ : BufTy).Contents (Elt F) → (⟨S61594, .i32⟩ : BufTy).Contents (Elt F)),
    binary main_v1 main_v63 main_v64 (cmpi .slt : (⟨S61594, .i32⟩ : BufTy).Contents (Elt F) → (⟨S61594, .i32⟩ : BufTy).Contents (Elt F) → (⟨S61594, .i1⟩ : BufTy).Contents (Elt F)),
    nullary main_c_10 (constantI S_ 32 8192#32),
    unary main_c_10 main_v65 (broadcastInDim S61594 ![] bcast_S_S61594 : (⟨S_, .i32⟩ : BufTy).Contents (Elt F) → (⟨S61594, .i32⟩ : BufTy).Contents (Elt F)),
    binary main_v1 main_v65 main_v66 (addi : (⟨S61594, .i32⟩ : BufTy).Contents (Elt F) → (⟨S61594, .i32⟩ : BufTy).Contents (Elt F) → (⟨S61594, .i32⟩ : BufTy).Contents (Elt F)),
    ternary main_v64 main_v66 main_v1 main_v67 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v67 main_v68 (broadcastInDim S61594x1 ![0] bcast_S61594_S61594x1_0 : (⟨S61594, .i32⟩ : BufTy).Contents (Elt F) → (⟨S61594x1, .i32⟩ : BufTy).Contents (Elt F)),
    binary main_v62 main_v68 main_v69 ((fun x i => Host.gather gather_S8192x128_S61594x1_S61594x128_1_0_n_n_0_1_1128 x i) : (⟨S8192x128, .f32⟩ : BufTy).Contents (Elt F) → (⟨S61594x1, .i32⟩ : BufTy).Contents (Elt F) → (⟨S61594x128, .f32⟩ : BufTy).Contents (Elt F)),
    nullary main_c_11 (constantI S_ 32 0#32),
    unary main_c_11 main_v70 (broadcastInDim S61594 ![] bcast_S_S61594 : (⟨S_, .i32⟩ : BufTy).Contents (Elt F) → (⟨S61594, .i32⟩ : BufTy).Contents (Elt F)),
    binary main_v3 main_v70 main_v71 (cmpi .slt : (⟨S61594, .i32⟩ : BufTy).Contents (Elt F) → (⟨S61594, .i32⟩ : BufTy).Contents (Elt F) → (⟨S61594, .i1⟩ : BufTy).Contents (Elt F)),
    nullary main_c_12 (constantI S_ 32 8192#32),
    unary main_c_12 main_v72 (broadcastInDim S61594 ![] bcast_S_S61594 : (⟨S_, .i32⟩ : BufTy).Contents (Elt F) → (⟨S61594, .i32⟩ : BufTy).Contents (Elt F)),
    binary main_v3 main_v72 main_v73 (addi : (⟨S61594, .i32⟩ : BufTy).Contents (Elt F) → (⟨S61594, .i32⟩ : BufTy).Contents (Elt F) → (⟨S61594, .i32⟩ : BufTy).Contents (Elt F)),
    ternary main_v71 main_v73 main_v3 main_v74 (select : (⟨S61594, .i1⟩ : BufTy).Contents (Elt F) → (⟨S61594, .i32⟩ : BufTy).Contents (Elt F) → (⟨S61594, .i32⟩ : BufTy).Contents (Elt F) → (⟨S61594, .i32⟩ : BufTy).Contents (Elt F)),
    unary main_v74 main_v75 (broadcastInDim S61594x1 ![0] bcast_S61594_S61594x1_0 : (⟨S61594, .i32⟩ : BufTy).Contents (Elt F) → (⟨S61594x1, .i32⟩ : BufTy).Contents (Elt F)),
    ternary main_v60 main_v75 main_v69 main_v76 ((fun x i u => Host.scatterAdd scatter_S8192x128_S61594x1_S61594x128_1_0_0_1 x i u) : (⟨S8192x128, .f32⟩ : BufTy).Contents (Elt F) → (⟨S61594x1, .i32⟩ : BufTy).Contents (Elt F) → (⟨S61594x128, .f32⟩ : BufTy).Contents (Elt F) → (⟨S8192x128, .f32⟩ : BufTy).Contents (Elt F)),
    binary main_v59 main_v76 main_v77 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x128, .f32⟩) main_call2_v0) (broadcastInDim S8192x128 ![] bcast_S_S8192x128),
    TRef.binary (TRef.of (T := ⟨S8192x128, .f32⟩) main_v77) (TRef.of (T := ⟨S8192x128, .f32⟩) main_call2_v0) (TRef.of (T := ⟨S8192x128, .f32⟩) main_v78) maximumf ]
/-- What entries 0..99 write. -/
def W1 : List (Ref sig .tc) :=
  [main_v0, main_v1, main_v2, main_v3, main_v4, main_v5, main_v6, main_v7, main_v8, main_v9, main_cst, main_v10, main_v11, main_v12, main_c, main_v13, main_v14, main_c_0, main_v15, main_v16, main_v17, main_v18, main_v19, main_c_1, main_v20, main_v21, main_c_2, main_v22, main_v23, main_v24, main_v25, main_v26, main_v27, main_call0_cst, main_call0_v0, main_v28, main_v29, main_v30, main_v31, main_v32, main_v33, main_v34, main_cst_3, main_v35, main_v36, main_v37, main_c_4, main_v38, main_v39, main_c_5, main_v40, main_v41, main_v42, main_v43, main_v44, main_c_6, main_v45, main_v46, main_c_7, main_v47, main_v48, main_v49, main_v50, main_v51, main_v52, main_call1_cst, main_call1_v0, main_v53, main_v54, main_v55, main_v56, main_v57, main_v58, main_v59, main_cst_8, main_v60, main_v61, main_v62, main_c_9, main_v63, main_v64, main_c_10, main_v65, main_v66, main_v67, main_v68, main_v69, main_c_11, main_v70, main_v71, main_c_12, main_v72, main_v73, main_v74, main_v75, main_v76, main_v77, main_call2_cst, main_call2_v0, main_v78]
set_option maxRecDepth 8192 in
theorem o1_writes : (o1 (F := F)).Forall fun op => op.writes ⊆ (W1.map (Proc.devRef (τ := τ) .tc)).toFinset :=
  ⟨writes_sub_of_mem (y := main_v0) (by decide), writes_sub_of_mem (y := main_v1) (by decide), writes_sub_of_mem (y := main_v2) (by decide), writes_sub_of_mem (y := main_v3) (by decide), writes_sub_of_mem (y := main_v4) (by decide), writes_sub_of_mem (y := main_v5) (by decide), writes_sub_of_mem (y := main_v6) (by decide), writes_sub_of_mem (y := main_v7) (by decide), writes_sub_of_mem (y := main_v8) (by decide), writes_sub_of_mem (y := main_v9) (by decide), writes_sub_of_mem (y := main_cst) (by decide), writes_sub_of_mem (y := main_v10) (by decide), writes_sub_of_mem (y := main_v11) (by decide), writes_sub_of_mem (y := main_v12) (by decide), writes_sub_of_mem (y := main_c) (by decide), writes_sub_of_mem (y := main_v13) (by decide), writes_sub_of_mem (y := main_v14) (by decide), writes_sub_of_mem (y := main_c_0) (by decide), writes_sub_of_mem (y := main_v15) (by decide), writes_sub_of_mem (y := main_v16) (by decide), writes_sub_of_mem (y := main_v17) (by decide), writes_sub_of_mem (y := main_v18) (by decide), writes_sub_of_mem (y := main_v19) (by decide), writes_sub_of_mem (y := main_c_1) (by decide), writes_sub_of_mem (y := main_v20) (by decide), writes_sub_of_mem (y := main_v21) (by decide), writes_sub_of_mem (y := main_c_2) (by decide), writes_sub_of_mem (y := main_v22) (by decide), writes_sub_of_mem (y := main_v23) (by decide), writes_sub_of_mem (y := main_v24) (by decide), writes_sub_of_mem (y := main_v25) (by decide), writes_sub_of_mem (y := main_v26) (by decide), writes_sub_of_mem (y := main_v27) (by decide), writes_sub_of_mem (y := main_call0_cst) (by decide), writes_sub_of_mem (y := main_call0_v0) (by decide), writes_sub_of_mem (y := main_v28) (by decide), writes_sub_of_mem (y := main_v29) (by decide), writes_sub_of_mem (y := main_v30) (by decide), writes_sub_of_mem (y := main_v31) (by decide), writes_sub_of_mem (y := main_v32) (by decide), writes_sub_of_mem (y := main_v33) (by decide), writes_sub_of_mem (y := main_v34) (by decide), writes_sub_of_mem (y := main_cst_3) (by decide), writes_sub_of_mem (y := main_v35) (by decide), writes_sub_of_mem (y := main_v36) (by decide), writes_sub_of_mem (y := main_v37) (by decide), writes_sub_of_mem (y := main_c_4) (by decide), writes_sub_of_mem (y := main_v38) (by decide), writes_sub_of_mem (y := main_v39) (by decide), writes_sub_of_mem (y := main_c_5) (by decide), writes_sub_of_mem (y := main_v40) (by decide), writes_sub_of_mem (y := main_v41) (by decide), writes_sub_of_mem (y := main_v42) (by decide), writes_sub_of_mem (y := main_v43) (by decide), writes_sub_of_mem (y := main_v44) (by decide), writes_sub_of_mem (y := main_c_6) (by decide), writes_sub_of_mem (y := main_v45) (by decide), writes_sub_of_mem (y := main_v46) (by decide), writes_sub_of_mem (y := main_c_7) (by decide), writes_sub_of_mem (y := main_v47) (by decide), writes_sub_of_mem (y := main_v48) (by decide), writes_sub_of_mem (y := main_v49) (by decide), writes_sub_of_mem (y := main_v50) (by decide), writes_sub_of_mem (y := main_v51) (by decide), writes_sub_of_mem (y := main_v52) (by decide), writes_sub_of_mem (y := main_call1_cst) (by decide), writes_sub_of_mem (y := main_call1_v0) (by decide), writes_sub_of_mem (y := main_v53) (by decide), writes_sub_of_mem (y := main_v54) (by decide), writes_sub_of_mem (y := main_v55) (by decide), writes_sub_of_mem (y := main_v56) (by decide), writes_sub_of_mem (y := main_v57) (by decide), writes_sub_of_mem (y := main_v58) (by decide), writes_sub_of_mem (y := main_v59) (by decide), writes_sub_of_mem (y := main_cst_8) (by decide), writes_sub_of_mem (y := main_v60) (by decide), writes_sub_of_mem (y := main_v61) (by decide), writes_sub_of_mem (y := main_v62) (by decide), writes_sub_of_mem (y := main_c_9) (by decide), writes_sub_of_mem (y := main_v63) (by decide), writes_sub_of_mem (y := main_v64) (by decide), writes_sub_of_mem (y := main_c_10) (by decide), writes_sub_of_mem (y := main_v65) (by decide), writes_sub_of_mem (y := main_v66) (by decide), writes_sub_of_mem (y := main_v67) (by decide), writes_sub_of_mem (y := main_v68) (by decide), writes_sub_of_mem (y := main_v69) (by decide), writes_sub_of_mem (y := main_c_11) (by decide), writes_sub_of_mem (y := main_v70) (by decide), writes_sub_of_mem (y := main_v71) (by decide), writes_sub_of_mem (y := main_c_12) (by decide), writes_sub_of_mem (y := main_v72) (by decide), writes_sub_of_mem (y := main_v73) (by decide), writes_sub_of_mem (y := main_v74) (by decide), writes_sub_of_mem (y := main_v75) (by decide), writes_sub_of_mem (y := main_v76) (by decide), writes_sub_of_mem (y := main_v77) (by decide), writes_sub_of_mem (y := main_call2_cst) (by decide), writes_sub_of_mem (y := main_call2_v0) (by decide), writes_sub_of_mem (y := main_v78) (by decide)⟩
/-- A reference entries 0..99 do not write keeps its contents over them. -/
theorem o1_keep (V : Valuation τ sig (Elt F)) {r : Ref sig .tc} (hr : r ∉ W1) :
    after (o1 (F := F)) V (Proc.devRef .tc r) = V (Proc.devRef .tc r) := after_of_writes_sub o1 V o1_writes hr

/-- Entries 100..122. -/
abbrev o2 : List (HloOp τ sig (Elt F)) :=
  [ nullary main_cst_13 (constant S_ .f32 0x00000000#32),
    unary main_cst_13 main_v79 (broadcastInDim S128x128 ![] bcast_S_S128x128 : (⟨S_, .f32⟩ : BufTy).Contents (Elt F) → (⟨S128x128, .f32⟩ : BufTy).Contents (Elt F)),
    unary main_arg13 main_v80 (broadcastInDim S8192x1 ![0] bcast_S8192_S8192x1_0 : (⟨S8192, .i32⟩ : BufTy).Contents (Elt F) → (⟨S8192x1, .i32⟩ : BufTy).Contents (Elt F)),
    ternary main_v79 main_v80 main_v78 main_v81 ((fun x i u => Host.scatterAdd scatter_S128x128_S8192x1_S8192x128_1_0_0_1 x i u) : (⟨S128x128, .f32⟩ : BufTy).Contents (Elt F) → (⟨S8192x1, .i32⟩ : BufTy).Contents (Elt F) → (⟨S8192x128, .f32⟩ : BufTy).Contents (Elt F) → (⟨S128x128, .f32⟩ : BufTy).Contents (Elt F)),
    nullary main_c_14 (constantI S_ 32 0#32),
    unary main_c_14 main_v82 (broadcastInDim S258048 ![] bcast_S_S258048 : (⟨S_, .i32⟩ : BufTy).Contents (Elt F) → (⟨S258048, .i32⟩ : BufTy).Contents (Elt F)),
    binary main_arg14 main_v82 main_v83 (cmpi .slt : (⟨S258048, .i32⟩ : BufTy).Contents (Elt F) → (⟨S258048, .i32⟩ : BufTy).Contents (Elt F) → (⟨S258048, .i1⟩ : BufTy).Contents (Elt F)),
    nullary main_c_15 (constantI S_ 32 8192#32),
    unary main_c_15 main_v84 (broadcastInDim S258048 ![] bcast_S_S258048 : (⟨S_, .i32⟩ : BufTy).Contents (Elt F) → (⟨S258048, .i32⟩ : BufTy).Contents (Elt F)),
    binary main_arg14 main_v84 main_v85 (addi : (⟨S258048, .i32⟩ : BufTy).Contents (Elt F) → (⟨S258048, .i32⟩ : BufTy).Contents (Elt F) → (⟨S258048, .i32⟩ : BufTy).Contents (Elt F)),
    ternary main_v83 main_v85 main_arg14 main_v86 (select : (⟨S258048, .i1⟩ : BufTy).Contents (Elt F) → (⟨S258048, .i32⟩ : BufTy).Contents (Elt F) → (⟨S258048, .i32⟩ : BufTy).Contents (Elt F) → (⟨S258048, .i32⟩ : BufTy).Contents (Elt F)),
    unary main_v86 main_v87 (broadcastInDim S258048x1 ![0] bcast_S258048_S258048x1_0 : (⟨S258048, .i32⟩ : BufTy).Contents (Elt F) → (⟨S258048x1, .i32⟩ : BufTy).Contents (Elt F)),
    binary main_v78 main_v87 main_v88 ((fun x i => Host.gather gather_S8192x128_S258048x1_S258048x128_1_0_n_n_0_1_1128 x i) : (⟨S8192x128, .f32⟩ : BufTy).Contents (Elt F) → (⟨S258048x1, .i32⟩ : BufTy).Contents (Elt F) → (⟨S258048x128, .f32⟩ : BufTy).Contents (Elt F)),
    nullary main_c_16 (constantI S_ 32 0#32),
    unary main_c_16 main_v89 (broadcastInDim S258048 ![] bcast_S_S258048 : (⟨S_, .i32⟩ : BufTy).Contents (Elt F) → (⟨S258048, .i32⟩ : BufTy).Contents (Elt F)),
    binary main_arg15 main_v89 main_v90 (cmpi .slt : (⟨S258048, .i32⟩ : BufTy).Contents (Elt F) → (⟨S258048, .i32⟩ : BufTy).Contents (Elt F) → (⟨S258048, .i1⟩ : BufTy).Contents (Elt F)),
    nullary main_c_17 (constantI S_ 32 8192#32),
    unary main_c_17 main_v91 (broadcastInDim S258048 ![] bcast_S_S258048 : (⟨S_, .i32⟩ : BufTy).Contents (Elt F) → (⟨S258048, .i32⟩ : BufTy).Contents (Elt F)),
    binary main_arg15 main_v91 main_v92 (addi : (⟨S258048, .i32⟩ : BufTy).Contents (Elt F) → (⟨S258048, .i32⟩ : BufTy).Contents (Elt F) → (⟨S258048, .i32⟩ : BufTy).Contents (Elt F)),
    ternary main_v90 main_v92 main_arg15 main_v93 (select : (⟨S258048, .i1⟩ : BufTy).Contents (Elt F) → (⟨S258048, .i32⟩ : BufTy).Contents (Elt F) → (⟨S258048, .i32⟩ : BufTy).Contents (Elt F) → (⟨S258048, .i32⟩ : BufTy).Contents (Elt F)),
    unary main_v93 main_v94 (broadcastInDim S258048x1 ![0] bcast_S258048_S258048x1_0 : (⟨S258048, .i32⟩ : BufTy).Contents (Elt F) → (⟨S258048x1, .i32⟩ : BufTy).Contents (Elt F)),
    binary main_v78 main_v94 main_v95 ((fun x i => Host.gather gather_S8192x128_S258048x1_S258048x128_1_0_n_n_0_1_1128 x i) : (⟨S8192x128, .f32⟩ : BufTy).Contents (Elt F) → (⟨S258048x1, .i32⟩ : BufTy).Contents (Elt F) → (⟨S258048x128, .f32⟩ : BufTy).Contents (Elt F)),
    nary ![main_v88, main_v95, main_arg11] main_v96 (fun u => concatenate S258048x257 1 [⟨S258048x128, u 0⟩, ⟨S258048x128, u 1⟩, ⟨S258048x1, u 2⟩] concatenates_S258048x128_S258048x128_S258048x1_S258048x257_d1) ]
/-- What entries 100..122 write. -/
def W2 : List (Ref sig .tc) :=
  [main_cst_13, main_v79, main_v80, main_v81, main_c_14, main_v82, main_v83, main_c_15, main_v84, main_v85, main_v86, main_v87, main_v88, main_c_16, main_v89, main_v90, main_c_17, main_v91, main_v92, main_v93, main_v94, main_v95, main_v96]
set_option maxRecDepth 8192 in
theorem o2_writes : (o2 (F := F)).Forall fun op => op.writes ⊆ (W2.map (Proc.devRef (τ := τ) .tc)).toFinset :=
  ⟨writes_sub_of_mem (y := main_cst_13) (by decide), writes_sub_of_mem (y := main_v79) (by decide), writes_sub_of_mem (y := main_v80) (by decide), writes_sub_of_mem (y := main_v81) (by decide), writes_sub_of_mem (y := main_c_14) (by decide), writes_sub_of_mem (y := main_v82) (by decide), writes_sub_of_mem (y := main_v83) (by decide), writes_sub_of_mem (y := main_c_15) (by decide), writes_sub_of_mem (y := main_v84) (by decide), writes_sub_of_mem (y := main_v85) (by decide), writes_sub_of_mem (y := main_v86) (by decide), writes_sub_of_mem (y := main_v87) (by decide), writes_sub_of_mem (y := main_v88) (by decide), writes_sub_of_mem (y := main_c_16) (by decide), writes_sub_of_mem (y := main_v89) (by decide), writes_sub_of_mem (y := main_v90) (by decide), writes_sub_of_mem (y := main_c_17) (by decide), writes_sub_of_mem (y := main_v91) (by decide), writes_sub_of_mem (y := main_v92) (by decide), writes_sub_of_mem (y := main_v93) (by decide), writes_sub_of_mem (y := main_v94) (by decide), writes_sub_of_mem (y := main_v95) (by decide), writes_sub_of_mem (y := main_v96) (by decide)⟩
/-- A reference entries 100..122 do not write keeps its contents over them. -/
theorem o2_keep (V : Valuation τ sig (Elt F)) {r : Ref sig .tc} (hr : r ∉ W2) :
    after (o2 (F := F)) V (Proc.devRef .tc r) = V (Proc.devRef .tc r) := after_of_writes_sub o2 V o2_writes hr

/-- Entries 123..154. -/
abbrev o3 : List (HloOp τ sig (Elt F)) :=
  [ unary main_arg17 main_v97 ((extractStridedSlice S1x454772 ![0, 0] · slices_S2x454772_S1x454772_0_0) : (⟨S2x454772, .i32⟩ : BufTy).Contents (Elt F) → (⟨S1x454772, .i32⟩ : BufTy).Contents (Elt F)),
    reshape main_v97 main_v98 rfl shapeCasts_S1x454772_S454772,
    unary main_arg17 main_v99 ((extractStridedSlice S1x454772 ![1, 0] · slices_S2x454772_S1x454772_1_0) : (⟨S2x454772, .i32⟩ : BufTy).Contents (Elt F) → (⟨S1x454772, .i32⟩ : BufTy).Contents (Elt F)),
    reshape main_v99 main_v100 rfl shapeCasts_S1x454772_S454772,
    unary main_arg3 main_v101 ((transpose S257x128 [1, 0] · transposes_S128x257_S257x128_1_0) : (⟨S128x257, .f32⟩ : BufTy).Contents (Elt F) → (⟨S257x128, .f32⟩ : BufTy).Contents (Elt F)),
    binary main_v96 main_v101 main_v102 ((fun l r => Host.dotGeneral dot_S258048x257_S257x128_S258048x128_1_0_0_1_n_n none l r) : (⟨S258048x257, .f32⟩ : BufTy).Contents (Elt F) → (⟨S257x128, .f32⟩ : BufTy).Contents (Elt F) → (⟨S258048x128, .f32⟩ : BufTy).Contents (Elt F)),
    nullary main_cst_18 (constant S_ .f32 0x00000000#32),
    unary main_cst_18 main_v103 (broadcastInDim S258048x128 ![] bcast_S_S258048x128 : (⟨S_, .f32⟩ : BufTy).Contents (Elt F) → (⟨S258048x128, .f32⟩ : BufTy).Contents (Elt F)),
    unary main_arg4 main_v104 ((transpose S257x128 [1, 0] · transposes_S128x257_S257x128_1_0) : (⟨S128x257, .f32⟩ : BufTy).Contents (Elt F) → (⟨S257x128, .f32⟩ : BufTy).Contents (Elt F)),
    binary main_v96 main_v104 main_v105 ((fun l r => Host.dotGeneral dot_S258048x257_S257x128_S258048x128_1_0_0_1_n_n none l r) : (⟨S258048x257, .f32⟩ : BufTy).Contents (Elt F) → (⟨S257x128, .f32⟩ : BufTy).Contents (Elt F) → (⟨S258048x128, .f32⟩ : BufTy).Contents (Elt F)),
    nullary main_c_19 (constantI S_ 32 0#32),
    unary main_c_19 main_v106 (broadcastInDim S454772 ![] bcast_S_S454772 : (⟨S_, .i32⟩ : BufTy).Contents (Elt F) → (⟨S454772, .i32⟩ : BufTy).Contents (Elt F)),
    binary main_v98 main_v106 main_v107 (cmpi .slt : (⟨S454772, .i32⟩ : BufTy).Contents (Elt F) → (⟨S454772, .i32⟩ : BufTy).Contents (Elt F) → (⟨S454772, .i1⟩ : BufTy).Contents (Elt F)),
    nullary main_c_20 (constantI S_ 32 258048#32),
    unary main_c_20 main_v108 (broadcastInDim S454772 ![] bcast_S_S454772 : (⟨S_, .i32⟩ : BufTy).Contents (Elt F) → (⟨S454772, .i32⟩ : BufTy).Contents (Elt F)),
    binary main_v98 main_v108 main_v109 (addi : (⟨S454772, .i32⟩ : BufTy).Contents (Elt F) → (⟨S454772, .i32⟩ : BufTy).Contents (Elt F) → (⟨S454772, .i32⟩ : BufTy).Contents (Elt F)),
    ternary main_v107 main_v109 main_v98 main_v110 (select : (⟨S454772, .i1⟩ : BufTy).Contents (Elt F) → (⟨S454772, .i32⟩ : BufTy).Contents (Elt F) → (⟨S454772, .i32⟩ : BufTy).Contents (Elt F) → (⟨S454772, .i32⟩ : BufTy).Contents (Elt F)),
    unary main_v110 main_v111 (broadcastInDim S454772x1 ![0] bcast_S454772_S454772x1_0 : (⟨S454772, .i32⟩ : BufTy).Contents (Elt F) → (⟨S454772x1, .i32⟩ : BufTy).Contents (Elt F)),
    binary main_v105 main_v111 main_v112 ((fun x i => Host.gather gather_S258048x128_S454772x1_S454772x128_1_0_n_n_0_1_1128 x i) : (⟨S258048x128, .f32⟩ : BufTy).Contents (Elt F) → (⟨S454772x1, .i32⟩ : BufTy).Contents (Elt F) → (⟨S454772x128, .f32⟩ : BufTy).Contents (Elt F)),
    nullary main_c_21 (constantI S_ 32 0#32),
    unary main_c_21 main_v113 (broadcastInDim S454772 ![] bcast_S_S454772 : (⟨S_, .i32⟩ : BufTy).Contents (Elt F) → (⟨S454772, .i32⟩ : BufTy).Contents (Elt F)),
    binary main_v100 main_v113 main_v114 (cmpi .slt : (⟨S454772, .i32⟩ : BufTy).Contents (Elt F) → (⟨S454772, .i32⟩ : BufTy).Contents (Elt F) → (⟨S454772, .i1⟩ : BufTy).Contents (Elt F)),
    nullary main_c_22 (constantI S_ 32 258048#32),
    unary main_c_22 main_v115 (broadcastInDim S454772 ![] bcast_S_S454772 : (⟨S_, .i32⟩ : BufTy).Contents (Elt F) → (⟨S454772, .i32⟩ : BufTy).Contents (Elt F)),
    binary main_v100 main_v115 main_v116 (addi : (⟨S454772, .i32⟩ : BufTy).Contents (Elt F) → (⟨S454772, .i32⟩ : BufTy).Contents (Elt F) → (⟨S454772, .i32⟩ : BufTy).Contents (Elt F)),
    ternary main_v114 main_v116 main_v100 main_v117 (select : (⟨S454772, .i1⟩ : BufTy).Contents (Elt F) → (⟨S454772, .i32⟩ : BufTy).Contents (Elt F) → (⟨S454772, .i32⟩ : BufTy).Contents (Elt F) → (⟨S454772, .i32⟩ : BufTy).Contents (Elt F)),
    unary main_v117 main_v118 (broadcastInDim S454772x1 ![0] bcast_S454772_S454772x1_0 : (⟨S454772, .i32⟩ : BufTy).Contents (Elt F) → (⟨S454772x1, .i32⟩ : BufTy).Contents (Elt F)),
    ternary main_v103 main_v118 main_v112 main_v119 ((fun x i u => Host.scatterAdd scatter_S258048x128_S454772x1_S454772x128_1_0_0_1 x i u) : (⟨S258048x128, .f32⟩ : BufTy).Contents (Elt F) → (⟨S454772x1, .i32⟩ : BufTy).Contents (Elt F) → (⟨S454772x128, .f32⟩ : BufTy).Contents (Elt F) → (⟨S258048x128, .f32⟩ : BufTy).Contents (Elt F)),
    binary main_v102 main_v119 main_v120 (addf : (⟨S258048x128, .f32⟩ : BufTy).Contents (Elt F) → (⟨S258048x128, .f32⟩ : BufTy).Contents (Elt F) → (⟨S258048x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S258048x128, .f32⟩) main_call3_v0) (broadcastInDim S258048x128 ![] bcast_S_S258048x128),
    TRef.binary (TRef.of (T := ⟨S258048x128, .f32⟩) main_v120) (TRef.of (T := ⟨S258048x128, .f32⟩) main_call3_v0) (TRef.of (T := ⟨S258048x128, .f32⟩) main_v121) maximumf ]
/-- What entries 123..154 write. -/
def W3 : List (Ref sig .tc) :=
  [main_v97, main_v98, main_v99, main_v100, main_v101, main_v102, main_cst_18, main_v103, main_v104, main_v105, main_c_19, main_v106, main_v107, main_c_20, main_v108, main_v109, main_v110, main_v111, main_v112, main_c_21, main_v113, main_v114, main_c_22, main_v115, main_v116, main_v117, main_v118, main_v119, main_v120, main_call3_cst, main_call3_v0, main_v121]
set_option maxRecDepth 8192 in
theorem o3_writes : (o3 (F := F)).Forall fun op => op.writes ⊆ (W3.map (Proc.devRef (τ := τ) .tc)).toFinset :=
  ⟨writes_sub_of_mem (y := main_v97) (by decide), writes_sub_of_mem (y := main_v98) (by decide), writes_sub_of_mem (y := main_v99) (by decide), writes_sub_of_mem (y := main_v100) (by decide), writes_sub_of_mem (y := main_v101) (by decide), writes_sub_of_mem (y := main_v102) (by decide), writes_sub_of_mem (y := main_cst_18) (by decide), writes_sub_of_mem (y := main_v103) (by decide), writes_sub_of_mem (y := main_v104) (by decide), writes_sub_of_mem (y := main_v105) (by decide), writes_sub_of_mem (y := main_c_19) (by decide), writes_sub_of_mem (y := main_v106) (by decide), writes_sub_of_mem (y := main_v107) (by decide), writes_sub_of_mem (y := main_c_20) (by decide), writes_sub_of_mem (y := main_v108) (by decide), writes_sub_of_mem (y := main_v109) (by decide), writes_sub_of_mem (y := main_v110) (by decide), writes_sub_of_mem (y := main_v111) (by decide), writes_sub_of_mem (y := main_v112) (by decide), writes_sub_of_mem (y := main_c_21) (by decide), writes_sub_of_mem (y := main_v113) (by decide), writes_sub_of_mem (y := main_v114) (by decide), writes_sub_of_mem (y := main_c_22) (by decide), writes_sub_of_mem (y := main_v115) (by decide), writes_sub_of_mem (y := main_v116) (by decide), writes_sub_of_mem (y := main_v117) (by decide), writes_sub_of_mem (y := main_v118) (by decide), writes_sub_of_mem (y := main_v119) (by decide), writes_sub_of_mem (y := main_v120) (by decide), writes_sub_of_mem (y := main_call3_cst) (by decide), writes_sub_of_mem (y := main_call3_v0) (by decide), writes_sub_of_mem (y := main_v121) (by decide)⟩
/-- A reference entries 123..154 do not write keeps its contents over them. -/
theorem o3_keep (V : Valuation τ sig (Elt F)) {r : Ref sig .tc} (hr : r ∉ W3) :
    after (o3 (F := F)) V (Proc.devRef .tc r) = V (Proc.devRef .tc r) := after_of_writes_sub o3 V o3_writes hr

/-- Entries 155..182. -/
abbrev o4 : List (HloOp τ sig (Elt F)) :=
  [ unary main_arg5 main_v122 ((transpose S128x128 [1, 0] · transposes_S128x128_S128x128_1_0) : (⟨S128x128, .f32⟩ : BufTy).Contents (Elt F) → (⟨S128x128, .f32⟩ : BufTy).Contents (Elt F)),
    binary main_v121 main_v122 main_v123 ((fun l r => Host.dotGeneral dot_S258048x128_S128x128_S258048x128_1_0_0_1_n_n none l r) : (⟨S258048x128, .f32⟩ : BufTy).Contents (Elt F) → (⟨S128x128, .f32⟩ : BufTy).Contents (Elt F) → (⟨S258048x128, .f32⟩ : BufTy).Contents (Elt F)),
    nullary main_cst_23 (constant S_ .f32 0x00000000#32),
    unary main_cst_23 main_v124 (broadcastInDim S258048x128 ![] bcast_S_S258048x128 : (⟨S_, .f32⟩ : BufTy).Contents (Elt F) → (⟨S258048x128, .f32⟩ : BufTy).Contents (Elt F)),
    unary main_arg6 main_v125 ((transpose S128x128 [1, 0] · transposes_S128x128_S128x128_1_0) : (⟨S128x128, .f32⟩ : BufTy).Contents (Elt F) → (⟨S128x128, .f32⟩ : BufTy).Contents (Elt F)),
    binary main_v121 main_v125 main_v126 ((fun l r => Host.dotGeneral dot_S258048x128_S128x128_S258048x128_1_0_0_1_n_n none l r) : (⟨S258048x128, .f32⟩ : BufTy).Contents (Elt F) → (⟨S128x128, .f32⟩ : BufTy).Contents (Elt F) → (⟨S258048x128, .f32⟩ : BufTy).Contents (Elt F)),
    nullary main_c_24 (constantI S_ 32 0#32),
    unary main_c_24 main_v127 (broadcastInDim S454772 ![] bcast_S_S454772 : (⟨S_, .i32⟩ : BufTy).Contents (Elt F) → (⟨S454772, .i32⟩ : BufTy).Contents (Elt F)),
    binary main_v98 main_v127 main_v128 (cmpi .slt : (⟨S454772, .i32⟩ : BufTy).Contents (Elt F) → (⟨S454772, .i32⟩ : BufTy).Contents (Elt F) → (⟨S454772, .i1⟩ : BufTy).Contents (Elt F)),
    nullary main_c_25 (constantI S_ 32 258048#32),
    unary main_c_25 main_v129 (broadcastInDim S454772 ![] bcast_S_S454772 : (⟨S_, .i32⟩ : BufTy).Contents (Elt F) → (⟨S454772, .i32⟩ : BufTy).Contents (Elt F)),
    binary main_v98 main_v129 main_v130 (addi : (⟨S454772, .i32⟩ : BufTy).Contents (Elt F) → (⟨S454772, .i32⟩ : BufTy).Contents (Elt F) → (⟨S454772, .i32⟩ : BufTy).Contents (Elt F)),
    ternary main_v128 main_v130 main_v98 main_v131 (select : (⟨S454772, .i1⟩ : BufTy).Contents (Elt F) → (⟨S454772, .i32⟩ : BufTy).Contents (Elt F) → (⟨S454772, .i32⟩ : BufTy).Contents (Elt F) → (⟨S454772, .i32⟩ : BufTy).Contents (Elt F)),
    unary main_v131 main_v132 (broadcastInDim S454772x1 ![0] bcast_S454772_S454772x1_0 : (⟨S454772, .i32⟩ : BufTy).Contents (Elt F) → (⟨S454772x1, .i32⟩ : BufTy).Contents (Elt F)),
    binary main_v126 main_v132 main_v133 ((fun x i => Host.gather gather_S258048x128_S454772x1_S454772x128_1_0_n_n_0_1_1128 x i) : (⟨S258048x128, .f32⟩ : BufTy).Contents (Elt F) → (⟨S454772x1, .i32⟩ : BufTy).Contents (Elt F) → (⟨S454772x128, .f32⟩ : BufTy).Contents (Elt F)),
    nullary main_c_26 (constantI S_ 32 0#32),
    unary main_c_26 main_v134 (broadcastInDim S454772 ![] bcast_S_S454772 : (⟨S_, .i32⟩ : BufTy).Contents (Elt F) → (⟨S454772, .i32⟩ : BufTy).Contents (Elt F)),
    binary main_v100 main_v134 main_v135 (cmpi .slt : (⟨S454772, .i32⟩ : BufTy).Contents (Elt F) → (⟨S454772, .i32⟩ : BufTy).Contents (Elt F) → (⟨S454772, .i1⟩ : BufTy).Contents (Elt F)),
    nullary main_c_27 (constantI S_ 32 258048#32),
    unary main_c_27 main_v136 (broadcastInDim S454772 ![] bcast_S_S454772 : (⟨S_, .i32⟩ : BufTy).Contents (Elt F) → (⟨S454772, .i32⟩ : BufTy).Contents (Elt F)),
    binary main_v100 main_v136 main_v137 (addi : (⟨S454772, .i32⟩ : BufTy).Contents (Elt F) → (⟨S454772, .i32⟩ : BufTy).Contents (Elt F) → (⟨S454772, .i32⟩ : BufTy).Contents (Elt F)),
    ternary main_v135 main_v137 main_v100 main_v138 (select : (⟨S454772, .i1⟩ : BufTy).Contents (Elt F) → (⟨S454772, .i32⟩ : BufTy).Contents (Elt F) → (⟨S454772, .i32⟩ : BufTy).Contents (Elt F) → (⟨S454772, .i32⟩ : BufTy).Contents (Elt F)),
    unary main_v138 main_v139 (broadcastInDim S454772x1 ![0] bcast_S454772_S454772x1_0 : (⟨S454772, .i32⟩ : BufTy).Contents (Elt F) → (⟨S454772x1, .i32⟩ : BufTy).Contents (Elt F)),
    ternary main_v124 main_v139 main_v133 main_v140 ((fun x i u => Host.scatterAdd scatter_S258048x128_S454772x1_S454772x128_1_0_0_1 x i u) : (⟨S258048x128, .f32⟩ : BufTy).Contents (Elt F) → (⟨S454772x1, .i32⟩ : BufTy).Contents (Elt F) → (⟨S454772x128, .f32⟩ : BufTy).Contents (Elt F) → (⟨S258048x128, .f32⟩ : BufTy).Contents (Elt F)),
    binary main_v123 main_v140 main_v141 (addf : (⟨S258048x128, .f32⟩ : BufTy).Contents (Elt F) → (⟨S258048x128, .f32⟩ : BufTy).Contents (Elt F) → (⟨S258048x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S258048x128, .f32⟩) main_call4_v0) (broadcastInDim S258048x128 ![] bcast_S_S258048x128),
    TRef.binary (TRef.of (T := ⟨S258048x128, .f32⟩) main_v141) (TRef.of (T := ⟨S258048x128, .f32⟩) main_call4_v0) (TRef.of (T := ⟨S258048x128, .f32⟩) main_v142) maximumf ]
/-- What entries 155..182 write. -/
def W4 : List (Ref sig .tc) :=
  [main_v122, main_v123, main_cst_23, main_v124, main_v125, main_v126, main_c_24, main_v127, main_v128, main_c_25, main_v129, main_v130, main_v131, main_v132, main_v133, main_c_26, main_v134, main_v135, main_c_27, main_v136, main_v137, main_v138, main_v139, main_v140, main_v141, main_call4_cst, main_call4_v0, main_v142]
set_option maxRecDepth 8192 in
theorem o4_writes : (o4 (F := F)).Forall fun op => op.writes ⊆ (W4.map (Proc.devRef (τ := τ) .tc)).toFinset :=
  ⟨writes_sub_of_mem (y := main_v122) (by decide), writes_sub_of_mem (y := main_v123) (by decide), writes_sub_of_mem (y := main_cst_23) (by decide), writes_sub_of_mem (y := main_v124) (by decide), writes_sub_of_mem (y := main_v125) (by decide), writes_sub_of_mem (y := main_v126) (by decide), writes_sub_of_mem (y := main_c_24) (by decide), writes_sub_of_mem (y := main_v127) (by decide), writes_sub_of_mem (y := main_v128) (by decide), writes_sub_of_mem (y := main_c_25) (by decide), writes_sub_of_mem (y := main_v129) (by decide), writes_sub_of_mem (y := main_v130) (by decide), writes_sub_of_mem (y := main_v131) (by decide), writes_sub_of_mem (y := main_v132) (by decide), writes_sub_of_mem (y := main_v133) (by decide), writes_sub_of_mem (y := main_c_26) (by decide), writes_sub_of_mem (y := main_v134) (by decide), writes_sub_of_mem (y := main_v135) (by decide), writes_sub_of_mem (y := main_c_27) (by decide), writes_sub_of_mem (y := main_v136) (by decide), writes_sub_of_mem (y := main_v137) (by decide), writes_sub_of_mem (y := main_v138) (by decide), writes_sub_of_mem (y := main_v139) (by decide), writes_sub_of_mem (y := main_v140) (by decide), writes_sub_of_mem (y := main_v141) (by decide), writes_sub_of_mem (y := main_call4_cst) (by decide), writes_sub_of_mem (y := main_call4_v0) (by decide), writes_sub_of_mem (y := main_v142) (by decide)⟩
/-- A reference entries 155..182 do not write keeps its contents over them. -/
theorem o4_keep (V : Valuation τ sig (Elt F)) {r : Ref sig .tc} (hr : r ∉ W4) :
    after (o4 (F := F)) V (Proc.devRef .tc r) = V (Proc.devRef .tc r) := after_of_writes_sub o4 V o4_writes hr

/-- Entries 183..200. -/
abbrev o5 : List (HloOp τ sig (Elt F)) :=
  [ nullary main_cst_28 (constant S_ .f32 0x00000000#32),
    unary main_cst_28 main_v143 (broadcastInDim S128x128 ![] bcast_S_S128x128 : (⟨S_, .f32⟩ : BufTy).Contents (Elt F) → (⟨S128x128, .f32⟩ : BufTy).Contents (Elt F)),
    unary main_arg16 main_v144 (broadcastInDim S258048x1 ![0] bcast_S258048_S258048x1_0 : (⟨S258048, .i32⟩ : BufTy).Contents (Elt F) → (⟨S258048x1, .i32⟩ : BufTy).Contents (Elt F)),
    ternary main_v143 main_v144 main_v142 main_v145 ((fun x i u => Host.scatterAdd scatter_S128x128_S258048x1_S258048x128_1_0_0_1 x i u) : (⟨S128x128, .f32⟩ : BufTy).Contents (Elt F) → (⟨S258048x1, .i32⟩ : BufTy).Contents (Elt F) → (⟨S258048x128, .f32⟩ : BufTy).Contents (Elt F) → (⟨S128x128, .f32⟩ : BufTy).Contents (Elt F)),
    binary main_v81 main_v145 main_v146 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F)),
    unary main_arg7 main_v147 ((transpose S256x128 [1, 0] · transposes_S128x256_S256x128_1_0) : (⟨S128x256, .f32⟩ : BufTy).Contents (Elt F) → (⟨S256x128, .f32⟩ : BufTy).Contents (Elt F)),
    binary main_v146 main_v147 main_v148 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg8 main_v149 (broadcastInDim S1x128 ![1] bcast_S128_S1x128_1 : (⟨S128, .f32⟩ : BufTy).Contents (Elt F) → (⟨S1x128, .f32⟩ : BufTy).Contents (Elt F)),
    unary main_v149 main_v150 (broadcastInDim S128x128 ![0, 1] bcast_S1x128_S128x128_0_1 : (⟨S1x128, .f32⟩ : BufTy).Contents (Elt F) → (⟨S128x128, .f32⟩ : BufTy).Contents (Elt F)),
    binary main_v148 main_v150 main_v151 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S128x128, .f32⟩) main_call5_v0) (broadcastInDim S128x128 ![] bcast_S_S128x128),
    TRef.binary (TRef.of (T := ⟨S128x128, .f32⟩) main_v151) (TRef.of (T := ⟨S128x128, .f32⟩) main_call5_v0) (TRef.of (T := ⟨S128x128, .f32⟩) main_v152) maximumf,
    unary main_arg9 main_v153 ((transpose S128x10 [1, 0] · transposes_S10x128_S128x10_1_0) : (⟨S10x128, .f32⟩ : BufTy).Contents (Elt F) → (⟨S128x10, .f32⟩ : BufTy).Contents (Elt F)),
    binary main_v152 main_v153 main_v154 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg10 main_v155 (broadcastInDim S1x10 ![1] bcast_S10_S1x10_1 : (⟨S10, .f32⟩ : BufTy).Contents (Elt F) → (⟨S1x10, .f32⟩ : BufTy).Contents (Elt F)),
    unary main_v155 main_v156 (broadcastInDim S128x10 ![0, 1] bcast_S1x10_S128x10_0_1 : (⟨S1x10, .f32⟩ : BufTy).Contents (Elt F) → (⟨S128x10, .f32⟩ : BufTy).Contents (Elt F)),
    binary main_v154 main_v156 main_v157 (addf : (⟨S128x10, .f32⟩ : BufTy).Contents (Elt F) → (⟨S128x10, .f32⟩ : BufTy).Contents (Elt F) → (⟨S128x10, .f32⟩ : BufTy).Contents (Elt F)) ]
/-- What entries 183..200 write. -/
def W5 : List (Ref sig .tc) :=
  [main_cst_28, main_v143, main_v144, main_v145, main_v146, main_v147, main_v148, main_v149, main_v150, main_v151, main_call5_cst, main_call5_v0, main_v152, main_v153, main_v154, main_v155, main_v156, main_v157]
set_option maxRecDepth 8192 in
theorem o5_writes : (o5 (F := F)).Forall fun op => op.writes ⊆ (W5.map (Proc.devRef (τ := τ) .tc)).toFinset :=
  ⟨writes_sub_of_mem (y := main_cst_28) (by decide), writes_sub_of_mem (y := main_v143) (by decide), writes_sub_of_mem (y := main_v144) (by decide), writes_sub_of_mem (y := main_v145) (by decide), writes_sub_of_mem (y := main_v146) (by decide), writes_sub_of_mem (y := main_v147) (by decide), writes_sub_of_mem (y := main_v148) (by decide), writes_sub_of_mem (y := main_v149) (by decide), writes_sub_of_mem (y := main_v150) (by decide), writes_sub_of_mem (y := main_v151) (by decide), writes_sub_of_mem (y := main_call5_cst) (by decide), writes_sub_of_mem (y := main_call5_v0) (by decide), writes_sub_of_mem (y := main_v152) (by decide), writes_sub_of_mem (y := main_v153) (by decide), writes_sub_of_mem (y := main_v154) (by decide), writes_sub_of_mem (y := main_v155) (by decide), writes_sub_of_mem (y := main_v156) (by decide), writes_sub_of_mem (y := main_v157) (by decide)⟩
/-- A reference entries 183..200 do not write keeps its contents over them. -/
theorem o5_keep (V : Valuation τ sig (Elt F)) {r : Ref sig .tc} (hr : r ∉ W5) :
    after (o5 (F := F)) V (Proc.devRef .tc r) = V (Proc.devRef .tc r) := after_of_writes_sub o5 V o5_writes hr

end Cert.RefHand

end
-- ==== Proof.RefHand.C1.lean ====
/-
  The first hundred operations of the reference: the two rows of the edge array, then three message-passing layers
  over the 8192 node rows. What they leave in the third layer's result buffer is the layer function applied three
  times to the node features, each time with that layer's two weight matrices out of the two stacks of three and with
  the edges' sources and destinations.

  Every operation writes one buffer as a function of buffers written before it or of arguments, so reading the last
  buffer back through the operations in order composes those functions; the composition is, operation for operation,
  the nested layer function, and the equation holds by unfolding both sides.
-/
import proofs.«408611_j10797547782338_1_alg».proof.Proof.Gen.ReferenceIdeal
import proofs.«408611_j10797547782338_1_alg».proof.Proof.Spec
import proofs.«408611_j10797547782338_1_alg».proof.Proof.RefHand.Chunks
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

set_option maxHeartbeats 8000000 in
/-- From any contents V, after the first hundred operations the third layer's result buffer holds layer 3 of
    layer 2 of layer 1 of the node features as V has them, with the weights and the edge array as V has them. -/
theorem o1_v78 (V : Valuation τ sig (Elt Ideal)) :
    StableHlo.after o1 V (Proc.devRef .tc main_v78)
      = Spec.mp8192 (Spec.mp8192 (Spec.mp8192 (V (Proc.devRef .tc main_arg0)) (Spec.layerW (V (Proc.devRef .tc main_arg1)) 0) (Spec.layerW (V (Proc.devRef .tc main_arg2)) 0) (Spec.row0 (V (Proc.devRef .tc main_arg12))) (Spec.row1 (V (Proc.devRef .tc main_arg12)))) (Spec.layerW (V (Proc.devRef .tc main_arg1)) 1) (Spec.layerW (V (Proc.devRef .tc main_arg2)) 1) (Spec.row0 (V (Proc.devRef .tc main_arg12))) (Spec.row1 (V (Proc.devRef .tc main_arg12)))) (Spec.layerW (V (Proc.devRef .tc main_arg1)) 2) (Spec.layerW (V (Proc.devRef .tc main_arg2)) 2) (Spec.row0 (V (Proc.devRef .tc main_arg12))) (Spec.row1 (V (Proc.devRef .tc main_arg12))) := by
  after_results_simp <;> (try simp only [TRef.ofBuf, TRef.toBuf, cast_cast, cast_eq]) <;> rfl

end Cert.RefHand

end
-- ==== Proof.RefHand.C2.lean ====
/-
  THE REFERENCE'S OPERATIONS %79 … %96: THE FIRST SEGMENT SUM AND THE PAIR FEATURES.

  The second of the five consecutive lists the reference's operations are cut into. Read over ANY contents V of the
  buffers it starts from, so that nothing before it is opened:
  * %79 … %81: a 128 x 128 block of zeros, the graph ids broadcast to a column, and the scatter-add of the third
    layer's rows (in %78) at that column into the zeros: the specification's segment sum of those rows by the ids;
  * %82 … %96: each of the two pair lists compared with zero, 8192 added to it, the sum selected where the entry is
    negative, the result broadcast to a column, the rows in %78 gathered at the column; then the two gathered blocks and
    the extra column side by side: the specification's pair features.
  Each fact is the operations' own composition: every operation's result at its own result reference is its function's
  value and at any other reference what was there, and what is left is the specification's function by unfolding.
-/
import proofs.«408611_j10797547782338_1_alg».proof.Proof.Gen.ReferenceIdeal
import proofs.«408611_j10797547782338_1_alg».proof.Proof.Spec
import proofs.«408611_j10797547782338_1_alg».proof.Proof.RefHand.Chunks
import proofs.«408611_j10797547782338_1_alg».proof.Proof.LibNary3
import Idealize.ShloMosaic.Lib.StableHlo.Run

set_option maxRecDepth 16384

noncomputable section

namespace Cert.RefHand

open Cert.ReferenceIdeal
open Idealize.ShloMosaic Idealize.ShloMosaic.TcCoe Idealize.SL.Sem Idealize.ShloMosaic.StableHlo

/-- Reads a line of host operations at a reference in one pass: each operation's result at its own result reference is
    its function's value, at any other reference what was there (the two references told apart by computation); a
    three-piece concatenate's operands each at its own reference. -/
local macro "results3" : tactic =>
  `(tactic| (simp (disch := decide) only [StableHlo.after_cons, StableHlo.after_nil,
      StableHlo.nullary_result', StableHlo.unary_result', StableHlo.binary_result', StableHlo.ternary_result',
      StableHlo.reshape_result', StableHlo.nary3_result',
      StableHlo.nullary_result_ne', StableHlo.unary_result_ne', StableHlo.binary_result_ne', StableHlo.ternary_result_ne',
      StableHlo.reshape_result_ne', StableHlo.nary_result_ne']))

variable (V : Valuation τ sig (Elt Ideal))

/-- FIRST SEGMENT SUM: after the operations %79 … %96 the reference's %81 holds the segment sum of the rows in %78 by the
    graph ids: a block of zeros, the ids as a column, the scatter-add of the rows at the column into the zeros. -/
theorem o2_v81 :
    (StableHlo.after (o2 (F := Ideal)) V (Proc.devRef .tc main_v81) : S128x128.Idx → EReal)
      = Cert.Spec.seg8192 (V (Proc.devRef .tc main_v78)) (V (Proc.devRef .tc main_arg13)) := by
  results3
  rfl

/-- PAIR FEATURES: after them the reference's %96 holds the pair features of the rows in %78, the two pair lists and
    the extra column: each list wrapped and laid out as a column, the rows gathered at it, the three pieces side by side. -/
theorem o2_v96 :
    (StableHlo.after (o2 (F := Ideal)) V (Proc.devRef .tc main_v96) : S258048x257.Idx → EReal)
      = Cert.Spec.pairFeat (V (Proc.devRef .tc main_v78)) (V (Proc.devRef .tc main_arg14))
          (V (Proc.devRef .tc main_arg15)) (V (Proc.devRef .tc main_arg11)) := by
  results3
  rfl

end Cert.RefHand

end
-- ==== Proof.RefHand.C34.lean ====
/-
  The reference's two pair layers, read off its operations: what the operations %97 to %121 and %122 to %142 leave in
  their result buffers, as functions of what they found in the buffers they read, at the ideal floats.
  Each layer is max (h · W1ᵀ + Σ over the pair-graph edges into a row of (h · W2ᵀ) at the edge's source, 0). The first
  slices the two rows of the 2 x 454772 edge array out once; the second reads those two rows where the first left them.
  Every statement is over ANY contents V of the buffers before the operations run.
-/
import proofs.«408611_j10797547782338_1_alg».proof.Proof.Gen.ReferenceIdeal
import proofs.«408611_j10797547782338_1_alg».proof.Proof.Spec
import proofs.«408611_j10797547782338_1_alg».proof.Proof.RefHand.Chunks
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable (V : Valuation τ sig (Elt Ideal))

/-- After the first pair layer's operations: row 0 of the pair-graph edge array (the edges' sources), -/
theorem o3_v98 : after (o3 (F := Ideal)) V (Proc.devRef .tc main_v98) = Cert.Spec.row0' (V (Proc.devRef .tc main_arg17)) := by
  after_results_simp <;> (try simp only [TRef.ofBuf, TRef.toBuf, cast_cast, cast_eq]) <;> rfl

/-- its row 1 (their destinations), -/
theorem o3_v100 : after (o3 (F := Ideal)) V (Proc.devRef .tc main_v100) = Cert.Spec.row1' (V (Proc.devRef .tc main_arg17)) := by
  after_results_simp <;> (try simp only [TRef.ofBuf, TRef.toBuf, cast_cast, cast_eq]) <;> rfl

set_option maxRecDepth 8192 in
/-- and the layer of the pair features, the layer's two weights and those two rows. -/
theorem o3_v121 : after (o3 (F := Ideal)) V (Proc.devRef .tc main_v121)
    = Cert.Spec.mp258048a (V (Proc.devRef .tc main_v96)) (V (Proc.devRef .tc main_arg3)) (V (Proc.devRef .tc main_arg4))
        (Cert.Spec.row0' (V (Proc.devRef .tc main_arg17))) (Cert.Spec.row1' (V (Proc.devRef .tc main_arg17))) := by
  after_results_simp <;> (try simp only [TRef.ofBuf, TRef.toBuf, cast_cast, cast_eq]) <;> rfl

set_option maxRecDepth 8192 in
/-- After the second pair layer's operations: the layer of the first layer's result, the layer's two weights and the
    two rows of the pair-graph edge array as the first layer's operations left them. -/
theorem o4_v142 : after (o4 (F := Ideal)) V (Proc.devRef .tc main_v142)
    = Cert.Spec.mp258048b (V (Proc.devRef .tc main_v121)) (V (Proc.devRef .tc main_arg5)) (V (Proc.devRef .tc main_arg6))
        (V (Proc.devRef .tc main_v98)) (V (Proc.devRef .tc main_v100)) := by
  after_results_simp <;> (try simp only [TRef.ofBuf, TRef.toBuf, cast_cast, cast_eq]) <;> rfl

end Cert.RefHand

end
-- ==== Proof.RefHand.C5.lean ====
/-
  The reference's last stretch of operations, entries 183 to 200 of its list: the sum of the second pair
  layer's rows per graph, then the classifier on the two sums.

  Folding these eighteen operations over any contents V leaves, at the result reference, the classifier of
  what V holds at the first sum and of the per-graph sums of what V holds at the second pair layer's result:
  the operations are, one for one, the ones `Cert.Spec.seg258048` and `Cert.Spec.head` are made of, on those
  operands.
-/
import proofs.«408611_j10797547782338_1_alg».proof.Proof.Gen.ReferenceIdeal
import proofs.«408611_j10797547782338_1_alg».proof.Proof.Spec
import proofs.«408611_j10797547782338_1_alg».proof.Proof.RefHand.Chunks
import Idealize.ShloMosaic.Lib.StableHlo.Run

noncomputable section

namespace Cert.RefHand

open Cert.ReferenceIdeal Cert.ReferenceIdeal.Gen
open Idealize.ShloMosaic Idealize.ShloMosaic.TcCoe Idealize.SL.Sem Idealize.ShloMosaic.StableHlo

set_option maxRecDepth 8192 in
/-- The last stretch: the second segment sum and the classifier. What it reads from before it are the first
    sum, the second pair layer, the pairs' graph ids, and the classifier's weights and biases. -/
theorem o5_v157 (V : Valuation τ sig (Elt Ideal)) :
    after o5 V (Proc.devRef .tc main_v157)
      = Cert.Spec.head (V (Proc.devRef .tc main_v81)) (Cert.Spec.seg258048 (V (Proc.devRef .tc main_v142)) (V (Proc.devRef .tc main_arg16)))
          (V (Proc.devRef .tc main_arg7)) (V (Proc.devRef .tc main_arg8)) (V (Proc.devRef .tc main_arg9)) (V (Proc.devRef .tc main_arg10)) := by
  after_results_simp <;> (try simp only [TRef.ofBuf, TRef.toBuf, cast_cast, cast_eq]) <;> rfl

end Cert.RefHand

end
-- ==== Proof.RefHand.Whole.lean ====
/-
  The reference's operations, all of them, from any starting contents: the result reference ends at
  `Cert.Spec.whole` of what the eighteen argument references held at the start, and each argument reference
  holds at the end what it held at the start.

  The list of operations is five stretches in a row, so folding it is folding the stretches one after the
  other. Each stretch's result is a named function of what the stretch reads, and what it reads is either the
  result of an earlier stretch or a reference that no stretch in between writes. Substituting from the last
  stretch back to the first puts the named functions one inside the other over the starting contents.
-/
import proofs.«408611_j10797547782338_1_alg».proof.Proof.Spec
import proofs.«408611_j10797547782338_1_alg».proof.Proof.RefHand.OpsP
import proofs.«408611_j10797547782338_1_alg».proof.Proof.RefHand.Chunks
import proofs.«408611_j10797547782338_1_alg».proof.Proof.RefHand.C1
import proofs.«408611_j10797547782338_1_alg».proof.Proof.RefHand.C2
import proofs.«408611_j10797547782338_1_alg».proof.Proof.RefHand.C34
import proofs.«408611_j10797547782338_1_alg».proof.Proof.RefHand.C5
import Idealize.ShloMosaic.Lib.StableHlo.Run
import Idealize.ShloMosaic.Lib.Pipeline.Frame

noncomputable section

namespace Cert.RefHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The program's list is the five stretches -/

/-- The reference's one list of operations is the five stretches in order. -/
theorem ops_split : (ops : List (HloOp τ sig (Elt F))) = o1 ++ (o2 ++ (o3 ++ (o4 ++ o5))) := rfl

/-- Folding the whole list is folding the stretches one after the other. -/
theorem after_ops (V0 : Valuation τ sig (Elt F)) :
    after (ops (F := F)) V0 = after o5 (after o4 (after o3 (after o2 (after o1 V0)))) := by
  rw [ops_split, StableHlo.after_append, StableHlo.after_append, StableHlo.after_append, StableHlo.after_append]

/-- A reference none of the stretches writes holds at the end what it held at the start. -/
theorem after_ops_keep (V0 : Valuation τ sig (Elt F)) {r : Ref sig .tc}
    (h1 : r ∉ W1) (h2 : r ∉ W2) (h3 : r ∉ W3) (h4 : r ∉ W4) (h5 : r ∉ W5) :
    after (ops (F := F)) V0 (Proc.devRef .tc r) = V0 (Proc.devRef .tc r) := by
  rw [after_ops, o5_keep _ h5, o4_keep _ h4, o3_keep _ h3, o2_keep _ h2, o1_keep _ h1]

/-! ## The stretches' facts, chained

Each stretch's result is a named function of what it reads; what it reads is either the result of the stretch
before it or something no stretch in between writes. Substituting from the last stretch back to the first
leaves the named functions one inside the other, over the starting contents of the arguments: `whole`. -/

/-- After all the operations, from any starting contents, the result reference holds `whole` of what the
    eighteen argument references held at the start. -/
theorem after_ops_v157 (V0 : Valuation τ sig (Elt Ideal)) :
    after (ops (F := Ideal)) V0 (Proc.devRef .tc main_v157)
      = Cert.Spec.whole (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  -- the stretches' facts, in the one spelling the rewriting below uses
  have f5 : ∀ V : Valuation τ sig (Elt Ideal), after o5 V (Proc.devRef .tc main_v157)
      = Cert.Spec.head (V (Proc.devRef .tc main_v81)) (Cert.Spec.seg258048 (V (Proc.devRef .tc main_v142)) (V (Proc.devRef .tc main_arg16))) (V (Proc.devRef .tc main_arg7)) (V (Proc.devRef .tc main_arg8)) (V (Proc.devRef .tc main_arg9)) (V (Proc.devRef .tc main_arg10)) := fun V => o5_v157 V
  have f4 : ∀ V : Valuation τ sig (Elt Ideal), after o4 V (Proc.devRef .tc main_v142) = Cert.Spec.mp258048b (V (Proc.devRef .tc main_v121)) (V (Proc.devRef .tc main_arg5)) (V (Proc.devRef .tc main_arg6)) (V (Proc.devRef .tc main_v98)) (V (Proc.devRef .tc main_v100)) := fun V => o4_v142 V
  have f3 : ∀ V : Valuation τ sig (Elt Ideal), after o3 V (Proc.devRef .tc main_v121) = Cert.Spec.mp258048a (V (Proc.devRef .tc main_v96)) (V (Proc.devRef .tc main_arg3)) (V (Proc.devRef .tc main_arg4)) (Cert.Spec.row0' (V (Proc.devRef .tc main_arg17))) (Cert.Spec.row1' (V (Proc.devRef .tc main_arg17))) := fun V => o3_v121 V
  have f3a : ∀ V : Valuation τ sig (Elt Ideal), after o3 V (Proc.devRef .tc main_v98) = Cert.Spec.row0' (V (Proc.devRef .tc main_arg17)) := fun V => o3_v98 V
  have f3b : ∀ V : Valuation τ sig (Elt Ideal), after o3 V (Proc.devRef .tc main_v100) = Cert.Spec.row1' (V (Proc.devRef .tc main_arg17)) := fun V => o3_v100 V
  have f2 : ∀ V : Valuation τ sig (Elt Ideal), after o2 V (Proc.devRef .tc main_v96) = Cert.Spec.pairFeat (V (Proc.devRef .tc main_v78)) (V (Proc.devRef .tc main_arg14)) (V (Proc.devRef .tc main_arg15)) (V (Proc.devRef .tc main_arg11)) := fun V => o2_v96 V
  have f2a : ∀ V : Valuation τ sig (Elt Ideal), after o2 V (Proc.devRef .tc main_v81) = Cert.Spec.seg8192 (V (Proc.devRef .tc main_v78)) (V (Proc.devRef .tc main_arg13)) := fun V => o2_v81 V
  have f1 : ∀ V : Valuation τ sig (Elt Ideal), after o1 V (Proc.devRef .tc main_v78) = Cert.Spec.mp8192 (Cert.Spec.mp8192 (Cert.Spec.mp8192 (V (Proc.devRef .tc main_arg0)) (Cert.Spec.layerW (V (Proc.devRef .tc main_arg1)) 0) (Cert.Spec.layerW (V (Proc.devRef .tc main_arg2)) 0) (Cert.Spec.row0 (V (Proc.devRef .tc main_arg12))) (Cert.Spec.row1 (V (Proc.devRef .tc main_arg12)))) (Cert.Spec.layerW (V (Proc.devRef .tc main_arg1)) 1) (Cert.Spec.layerW (V (Proc.devRef .tc main_arg2)) 1) (Cert.Spec.row0 (V (Proc.devRef .tc main_arg12))) (Cert.Spec.row1 (V (Proc.devRef .tc main_arg12)))) (Cert.Spec.layerW (V (Proc.devRef .tc main_arg1)) 2) (Cert.Spec.layerW (V (Proc.devRef .tc main_arg2)) 2) (Cert.Spec.row0 (V (Proc.devRef .tc main_arg12))) (Cert.Spec.row1 (V (Proc.devRef .tc main_arg12))) := fun V => o1_v78 V
  rw [after_ops]
  -- the last stretch, then what it reads back through the fourth
  rw [f5, f4]
  rw [o4_keep _ (by decide : main_v81 ∉ W4), o4_keep _ (by decide : main_arg16 ∉ W4), o4_keep _ (by decide : main_arg7 ∉ W4), o4_keep _ (by decide : main_arg8 ∉ W4), o4_keep _ (by decide : main_arg9 ∉ W4), o4_keep _ (by decide : main_arg10 ∉ W4)]
  -- the third
  rw [f3, f3a, f3b]
  rw [o3_keep _ (by decide : main_v81 ∉ W3), o3_keep _ (by decide : main_arg5 ∉ W3), o3_keep _ (by decide : main_arg6 ∉ W3), o3_keep _ (by decide : main_arg16 ∉ W3), o3_keep _ (by decide : main_arg7 ∉ W3), o3_keep _ (by decide : main_arg8 ∉ W3), o3_keep _ (by decide : main_arg9 ∉ W3), o3_keep _ (by decide : main_arg10 ∉ W3)]
  -- the second
  rw [f2, f2a]
  rw [o2_keep _ (by decide : main_arg3 ∉ W2), o2_keep _ (by decide : main_arg4 ∉ W2), o2_keep _ (by decide : main_arg17 ∉ W2), o2_keep _ (by decide : main_arg5 ∉ W2), o2_keep _ (by decide : main_arg6 ∉ W2), o2_keep _ (by decide : main_arg16 ∉ W2), o2_keep _ (by decide : main_arg7 ∉ W2), o2_keep _ (by decide : main_arg8 ∉ W2), o2_keep _ (by decide : main_arg9 ∉ W2), o2_keep _ (by decide : main_arg10 ∉ W2)]
  -- the first
  rw [f1]
  rw [o1_keep _ (by decide : main_arg13 ∉ W1), o1_keep _ (by decide : main_arg14 ∉ W1), o1_keep _ (by decide : main_arg15 ∉ W1), o1_keep _ (by decide : main_arg11 ∉ W1), o1_keep _ (by decide : main_arg3 ∉ W1), o1_keep _ (by decide : main_arg4 ∉ W1), o1_keep _ (by decide : main_arg17 ∉ W1), o1_keep _ (by decide : main_arg5 ∉ W1), o1_keep _ (by decide : main_arg6 ∉ W1), o1_keep _ (by decide : main_arg16 ∉ W1), o1_keep _ (by decide : main_arg7 ∉ W1), o1_keep _ (by decide : main_arg8 ∉ W1), o1_keep _ (by decide : main_arg9 ∉ W1), o1_keep _ (by decide : main_arg10 ∉ W1)]
  first | done | rfl

end Cert.RefHand

end
-- ==== Proof.RefSide.lean ====
/-
  The reference's side. Every weakly fair run of the reference ends with its result array at
  `Cert.Spec.whole` of the eighteen argument arrays, and with the arguments unchanged.

  The run ends with every buffer at the fold of the program's operations over the launch contents. Read at the
  result buffer that fold is `whole` of the launch contents of the arguments; read at an argument buffer it is
  that argument's launch contents, since no operation writes an argument.
-/
import proofs.«408611_j10797547782338_1_alg».proof.Defs
import proofs.«408611_j10797547782338_1_alg».proof.Proof.Gen.Pre_finite_inputs
import proofs.«408611_j10797547782338_1_alg».proof.Proof.RefHand.Run
import proofs.«408611_j10797547782338_1_alg».proof.Proof.RefHand.Whole

noncomputable section

namespace Cert.RefSide

open Cert.ReferenceIdeal Cert.ReferenceIdeal.Gen Cert.RefHand
open Idealize.ShloMosaic Idealize.ShloMosaic.TcCoe Idealize.SL.Sem Idealize.ShloMosaic.StableHlo

/-- From any memory, the reference runs, ends with its result at `whole` of the argument arrays as they were
    at the start, and leaves each argument as it was. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v157)
        = Cert.Spec.whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run (Cert.ReferenceIdeal.defs (F := Ideal)) _ _).mono
    (fun _ h c => ⟨(h c main_v157).trans (after_ops_v157 _),
      (h c main_arg0).trans (after_ops_keep _ (by decide) (by decide) (by decide) (by decide) (by decide)),
      (h c main_arg1).trans (after_ops_keep _ (by decide) (by decide) (by decide) (by decide) (by decide)),
      (h c main_arg2).trans (after_ops_keep _ (by decide) (by decide) (by decide) (by decide) (by decide)),
      (h c main_arg3).trans (after_ops_keep _ (by decide) (by decide) (by decide) (by decide) (by decide)),
      (h c main_arg4).trans (after_ops_keep _ (by decide) (by decide) (by decide) (by decide) (by decide)),
      (h c main_arg5).trans (after_ops_keep _ (by decide) (by decide) (by decide) (by decide) (by decide)),
      (h c main_arg6).trans (after_ops_keep _ (by decide) (by decide) (by decide) (by decide) (by decide)),
      (h c main_arg7).trans (after_ops_keep _ (by decide) (by decide) (by decide) (by decide) (by decide)),
      (h c main_arg8).trans (after_ops_keep _ (by decide) (by decide) (by decide) (by decide) (by decide)),
      (h c main_arg9).trans (after_ops_keep _ (by decide) (by decide) (by decide) (by decide) (by decide)),
      (h c main_arg10).trans (after_ops_keep _ (by decide) (by decide) (by decide) (by decide) (by decide)),
      (h c main_arg11).trans (after_ops_keep _ (by decide) (by decide) (by decide) (by decide) (by decide)),
      (h c main_arg12).trans (after_ops_keep _ (by decide) (by decide) (by decide) (by decide) (by decide)),
      (h c main_arg13).trans (after_ops_keep _ (by decide) (by decide) (by decide) (by decide) (by decide)),
      (h c main_arg14).trans (after_ops_keep _ (by decide) (by decide) (by decide) (by decide) (by decide)),
      (h c main_arg15).trans (after_ops_keep _ (by decide) (by decide) (by decide) (by decide) (by decide)),
      (h c main_arg16).trans (after_ops_keep _ (by decide) (by decide) (by decide) (by decide) (by decide)),
      (h c main_arg17).trans (after_ops_keep _ (by decide) (by decide) (by decide) (by decide) (by decide))⟩)
    (Cert.RefHand.run_after (F := Ideal) m' g')

/-- The reference runs and leaves its arguments as they were. -/
theorem ref_frame : Cert.frame_ReferenceIdeal := fun m g _ =>
  (θ_run (Cert.ReferenceIdeal.defs (F := Ideal)) _ _).mono (fun _ h c => (h c).2) (ref_run m g)

end Cert.RefSide

end
-- ==== Proof.lean ====
/-
  The certificate of the kernel against its reference, over the extended reals.
  The kernel is three message-passing layers over 8192 nodes, a segment sum, a pair-feature stage, two layers over
  258048 pair nodes, a second segment sum and a two-layer classifier. Its dense products, its add + relu steps and its
  segment sums run as 12 kernel regions; its gathers and scatter-adds are host operations. At the ideal instance each
  dense region is the exact product x @ [W1; W2]^T, whose two column halves are the reference's x @ W1^T and x @ W2^T;
  each add + relu region is max(a + b, 0) entry by entry; each segment-sum region, a one-hot product accumulated over
  the grid, is the sum of the rows whose id matches, which is the reference's scatter-add into zeros. The kernel reads
  rows with a fill-mode take, the reference with a clamping gather: they agree when every gather index addresses a row,
  which the precondition states, and then every stage of the kernel is the reference's stage of the same arguments.
  The three frames: each program runs to the end from any memory, faults nowhere and leaves its arguments unchanged.
-/
import proofs.«408611_j10797547782338_1_alg».proof.Defs
import proofs.«408611_j10797547782338_1_alg».proof.Proof.Gen.Kernel
import proofs.«408611_j10797547782338_1_alg».proof.Proof.Gen.KernelIdeal
import proofs.«408611_j10797547782338_1_alg».proof.Proof.Gen.ReferenceIdeal
import proofs.«408611_j10797547782338_1_alg».proof.Proof.Gen.Pre_finite_inputs
import proofs.«408611_j10797547782338_1_alg».proof.Proof.KB.Segs
import proofs.«408611_j10797547782338_1_alg».proof.Proof.KI.Segs
import proofs.«408611_j10797547782338_1_alg».proof.Proof.KI.Value
import proofs.«408611_j10797547782338_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Segs.frame m ρ

/-- So does its idealization. -/
theorem frame_ki : Cert.frame_KernelIdeal := fun m ρ _ => Cert.KernelIdeal.Segs.frame m ρ

/-- At the ideal instance both programs end at the shared specification of the arguments: the kernel by its run with the
    result buffer named and the stage-by-stage value of that buffer under the precondition, the reference by its run;
    the two memories agree on the arguments. -/
theorem algebraic : Cert.algebraic_KernelIdeal_ReferenceIdeal := by
  intro m ρ m' ρ' hpre hagree
  refine ⟨fun c => Cert.Spec.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.KernelIdeal.Value.kernel_value m hpre c), (h c).2⟩)
      (Cert.KernelIdeal.Segs.run_value (F := Ideal) m ρ)
  · refine (θ_run Cert.ReferenceIdeal.defs _ _).mono (fun r h c => ⟨(h c).1.trans ?_, (h c).2⟩) (Cert.RefSide.ref_run m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, Cert.RefSide.ref_frame, trivial, algebraic⟩

end Cert.Proof

end
